-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x100000 : Shape := ⟨2, ![1024, 100000]⟩
abbrev S1024 : Shape := ⟨1, ![1024]⟩
abbrev S100000 : Shape := ⟨1, ![100000]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S100000 .f32) (main_v15 : IVec S_ 1) (main_cst_5 : FVec F S_ .f32) : IVec S_ 1 :=
  let main_v16 : FVec F S_ .f32 := (fun x v => Host.reduceAdd x v reducesTo_S100000_S_d0 h_S_) main_arg2 main_cst_5
  let main_cst_6 : FVec F S_ .f32 := constant S_ .f32 0x2B8CBCCC#32
  let main_v17 : FVec F S_ .f32 := maximumf main_v16 main_cst_6
  let main_v18 : FVec F S100000 .f32 := broadcastInDim S100000 ![] bcast_S_S100000 main_v17
  let main_v19 : FVec F S100000 .f32 := Host.divf main_arg2 main_v18
  let main_cst_7 : FVec F S_ .f32 := constant S_ .f32 0x2B8CBCCC#32
  let main_v20 : FVec F S100000 .f32 := broadcastInDim S100000 ![] bcast_S_S100000 main_cst_7
  let main_v21 : FVec F S100000 .f32 := addf main_v19 main_v20
  let main_cst_8 : FVec F S_ .f32 := constant S_ .f32 0x00000000#32
  let main_v22 : FVec F S100000 .f32 := broadcastInDim S100000 ![] bcast_S_S100000 main_cst_8
  let main_v23 : IVec S100000 1 := cmpf .ogt main_v21 main_v22
  let main_c_9 : IVec S_ 1 := constantI S_ 1 1#1
  let main_v24 : IVec S_ 1 := (fun x v => Host.reduce IntOp.andi x v reducesTo_S100000_S_d0 h_S_) main_v23 main_c_9
  let main_v25 : IVec S_ 1 := andi main_v15 main_v24
  main_v25

def fn {F : FTy → Type} [FloatOps F] (main_arg0 : FVec F S1024x100000 .f32) (main_arg1 : IVec S1024 32) (main_arg2 : FVec F S100000 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 99999#32
  let main_v11 : IVec S1024 32 := broadcastInDim S1024 ![] bcast_S_S1024 main_c_3
  let main_v12 : IVec S1024 1 := cmpi .sle main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  let main_cst_5 : FVec F S_ .f32 := constant S_ .f32 0x00000000#32
  fn_part1 (F := F) main_arg2 main_v15 main_cst_5
-- ==== Kernel.lean ====
abbrev S1024x100000 : Shape := ⟨2, ![1024, 100000]⟩
abbrev S1024 : Shape := ⟨1, ![1024]⟩
abbrev S100000 : Shape := ⟨1, ![100000]⟩
abbrev S32 : Shape := ⟨1, ![32]⟩
abbrev S_ : Shape := ⟨0, ![]⟩
abbrev S100000x1024 : Shape := ⟨2, ![100000, 1024]⟩
abbrev S1x100000 : Shape := ⟨2, ![1, 100000]⟩
abbrev S1x1 : Shape := ⟨2, ![1, 1]⟩
abbrev S5120x1024 : Shape := ⟨2, ![5120, 1024]⟩
abbrev S1x5120 : Shape := ⟨2, ![1, 5120]⟩
abbrev S1x1024 : Shape := ⟨2, ![1, 1024]⟩
abbrev S1x1x100000 : Shape := ⟨3, ![1, 1, 100000]⟩
abbrev S1 : Shape := ⟨1, ![1]⟩
abbrev S1x1x1 : Shape := ⟨3, ![1, 1, 1]⟩
abbrev S8x5120 : Shape := ⟨2, ![8, 5120]⟩
abbrev S8x1024 : Shape := ⟨2, ![8, 1024]⟩
abbrev S5120x1 : Shape := ⟨2, ![5120, 1]⟩
abbrev S1x1x1024 : Shape := ⟨3, ![1, 1, 1024]⟩

abbrev nBuf : Table → Nat
  | .hbm => 8
  | .local .tc .vmem => 10
  | .local .tc .smem => 1
  | .local .scVector .vmem => 2
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000, .f32⟩
  | .hbm, ⟨3, _⟩ => ⟨S1024, .f32⟩
  | .hbm, ⟨4, _⟩ => ⟨S100000x1024, .f32⟩
  | .hbm, ⟨5, _⟩ => ⟨S1x100000, .f32⟩
  | .hbm, ⟨6, _⟩ => ⟨S1x1, .f32⟩
  | .hbm, ⟨7, _⟩ => ⟨S_, .f32⟩
  | .local .tc .vmem, ⟨0, _⟩ => ⟨S5120x1024, .f32⟩
  | .local .tc .vmem, ⟨1, _⟩ => ⟨S5120x1024, .f32⟩
  | .local .tc .vmem, ⟨2, _⟩ => ⟨S1x5120, .f32⟩
  | .local .tc .vmem, ⟨3, _⟩ => ⟨S1x5120, .f32⟩
  | .local .tc .vmem, ⟨4, _⟩ => ⟨S1x100000, .f32⟩
  | .local .tc .vmem, ⟨5, _⟩ => ⟨S1024, .i32⟩
  | .local .tc .vmem, ⟨6, _⟩ => ⟨S1024, .f32⟩
  | .local .tc .vmem, ⟨7, _⟩ => ⟨S1x1, .f32⟩
  | .local .tc .vmem, ⟨8, _⟩ => ⟨S1x1024, .f32⟩
  | .local .tc .vmem, ⟨9, _⟩ => ⟨S1x1024, .f32⟩
  | .local .tc .smem, ⟨0, _⟩ => ⟨S1x1, .f32⟩
  | .local .scVector .vmem, ⟨0, _⟩ => ⟨S32, .i32⟩
  | .local .scVector .vmem, ⟨1, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg2_scv : Ref sig .scVector := ⟨.hbm, 2, rfl⟩
abbrev main_arg1_scv : Ref sig .scVector := ⟨.hbm, 1, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![20], ![false]⟩

def k1_cond3 (i : grid1.Coords) : BitVec 1 :=
  let arg0 : BitVec 32 := BitVec.ofNat 32 (i 0).val
  let c19_i32_3 : BitVec 32 := 19#32
  let v7 : BitVec 1 := Scalar.cmpi .eq arg0 c19_i32_3
  let v8 : BitVec 32 := Scalar.extui v7
  let c0_i32_4 : BitVec 32 := 0#32
  let v9 : BitVec 1 := Scalar.cmpi .ne v8 c0_i32_4
  v9

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5120x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x5120 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x100000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000_S100000_0 : ∀ a, (![0] : Fin 1 → Nat) a + S100000.size a ≤ S100000.size a
  gathers_S100000_S32 : S100000.Gathers 0 S32
  transposes_S1024x100000_S100000x1024_1_0 : S1024x100000.Transposes [1, 0] S100000x1024
  shapeCasts_S100000_S1x100000 : S100000.ShapeCasts S1x100000
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  shapeCasts_S1x100000_S1x1x100000 : S1x100000.ShapeCasts S1x1x100000
  reduces_S1x1x100000_S1 : S1x1x100000.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S5120x1024_S5120x1024_0_0 : ∀ a, (![0, 0] : Fin 2 → Nat) a + S5120x1024.size a ≤ S5120x1024.size a
  h_S5120x1024 : 0 < S5120x1024.numel
  shapeCasts_S5120x1024_S5120x1024 : S5120x1024.ShapeCasts S5120x1024
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  inb_S1024_S1024_0 : ∀ a, (![0] : Fin 1 → Nat) a + S1024.size a ≤ S1024.size a
  h_S1024 : 0 < S1024.numel
  shapeCasts_S1024_S1x1024 : S1024.ShapeCasts S1x1024
  broadcasts_S1x5120_S8x5120 : S1x5120.Broadcasts S8x5120
  slices_S8x1024_o0_0_S1x1024 : S8x1024.Slices ![0, 0] S1x1024
  iota_S5120x1_d0_w32 : S5120x1.Iotas .tc 32 [0]
  broadcasts_S5120x1_S5120x1024 : S5120x1.Broadcasts S5120x1024
  broadcasts_S1x1024_S5120x1024 : S1x1024.Broadcasts S5120x1024
  reduces_S5120x1024_S1024 : S5120x1024.Reduces [0] S1024
  iota_S1x5120_d1_w32 : S1x5120.Iotas .tc 32 [1]
  shapeCasts_S5120x1_S5120x1 : S5120x1.ShapeCasts S5120x1
  shapeCasts_S1024_S1024 : S1024.ShapeCasts S1024
  shapeCasts_S1x1024_S1x1x1024 : S1x1024.ShapeCasts S1x1x1024
  reduces_S1x1x1024_S1 : S1x1x1024.Reduces [1, 2] S1
  h_S1x1 : 0 < S1x1.numel
  shapeCasts_S1x1_S_ : S1x1.ShapeCasts S_
  dot_S8x5120_S5120x1024_S8x1024_1_0_0_1_n_n_wf : DotDims.WF S8x5120 S5120x1024 S8x1024 [1] [0] [0] [1] [] []
  hcc0_scratch2 : 0 + S_.numel ≤ 11
  hcc0_scoped0 : 1 + S_.numel ≤ 11
  hcc0_scoped1 : 2 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S5120x1024.size a < S100000x1024.size a
  hwx1_0 : ∀ i : grid1.Coords, EltTy.bits .f32 = 32 ∨ (Rect.unit (s := S100000x1024) (fun a => cc1_transform_0 i a * S5120x1024.size a) (fun a => (Pipeline.Clip.of (cc1_transform_0 i a) (S5120x1024.size a) (S100000x1024.size a)).extent (S5120x1024.size a)) fun a => Pipeline.Clip.inb (Pipeline.Clip.ok_of (hstart1_0 i a))).WholeWords (EltTy.packing .f32)
  hwxs1_0 : ∀ i : grid1.Coords, EltTy.bits .f32 = 32 ∨ (Rect.unit (s := S5120x1024) (fun _ => 0) (fun a => (Pipeline.Clip.of (cc1_transform_0 i a) (S5120x1024.size a) (S100000x1024.size a)).extent (S5120x1024.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1x5120.size a < S1x100000.size a
  hwx1_1 : ∀ i : grid1.Coords, EltTy.bits .f32 = 32 ∨ (Rect.unit (s := S1x100000) (fun a => cc1_transform_1 i a * S1x5120.size a) (fun a => (Pipeline.Clip.of (cc1_transform_1 i a) (S1x5120.size a) (S1x100000.size a)).extent (S1x5120.size a)) fun a => Pipeline.Clip.inb (Pipeline.Clip.ok_of (hstart1_1 i a))).WholeWords (EltTy.packing .f32)
  hwxs1_1 : ∀ i : grid1.Coords, EltTy.bits .f32 = 32 ∨ (Rect.unit (s := S1x5120) (fun _ => 0) (fun a => (Pipeline.Clip.of (cc1_transform_1 i a) (S1x5120.size a) (S1x100000.size a)).extent (S1x5120.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100000.size a ≤ S1x100000.size a
  hwx1_2 : ∀ i : grid1.Coords, EltTy.bits .f32 = 32 ∨ (Rect.block (s := S1x100000) S1x100000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .i32 = 32 ∨ (Rect.block (s := S1024) S1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S8x5120_S5120x1024_S8x1024_1_0_0_1_n_n : DotDims S8x5120 S5120x1024 S8x1024 where
  lhsContracting := [1]
  rhsContracting := [0]
  lhsNonContracting := [0]
  rhsNonContracting := [1]
  lhsBatch := []
  rhsBatch := []
  wf := dot_S8x5120_S5120x1024_S8x1024_1_0_0_1_n_n_wf

abbrev win1_0 : Pipeline.Window sig grid1 :=
  Pipeline.Window.ofSpecClip (Memref.whole main_v1) S5120x1024.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v2) S1x5120.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v2) S1x100000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond3 i == 1#1) | ⟨_ + 6, h⟩ => absurd h (Nat.not_lt.2 (Nat.le_add_left _ _))

class Facts : Prop extends Facts₀ where

variable [Facts]
-- ==== ReferenceIdeal.lean ====
abbrev S1024x100000 : Shape := ⟨2, ![1024, 100000]⟩
abbrev S1024 : Shape := ⟨1, ![1024]⟩
abbrev S100000 : Shape := ⟨1, ![100000]⟩
abbrev S_ : Shape := ⟨0, ![]⟩
abbrev S1x100000 : Shape := ⟨2, ![1, 100000]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S100000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S1x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024x1, .f32⟩
  | .hbm, ⟨25, _⟩ => ⟨S1024x100000, .f32⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S1024x1, .f32⟩
  | .hbm, ⟨32, _⟩ => ⟨S1024x100000, .f32⟩
  | .hbm, ⟨33, _⟩ => ⟨S1024x100000, .f32⟩
  | .hbm, ⟨34, _⟩ => ⟨S1024x1, .i32⟩
  | .hbm, ⟨35, _⟩ => ⟨S_, .i32⟩
  | .hbm, ⟨36, _⟩ => ⟨S1024x1, .i32⟩
  | .hbm, ⟨37, _⟩ => ⟨S1024x1, .i1⟩
  | .hbm, ⟨38, _⟩ => ⟨S_, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S1024x1x1, .i32⟩
  | .hbm, ⟨43, _⟩ => ⟨S1, .i32⟩
  | .hbm, ⟨44, _⟩ => ⟨S_, .i32⟩
  | .hbm, ⟨45, _⟩ => ⟨S1024x1x1, .i32⟩
  | .hbm, ⟨46, _⟩ => ⟨S1024x1x1, .i1⟩
  | .hbm, ⟨47, _⟩ => ⟨S1x1x1, .i32⟩
  | .hbm, ⟨48, _⟩ => ⟨S1024x1x1, .i32⟩
  | .hbm, ⟨49, _⟩ => ⟨S1024x1x1, .i1⟩
  | .hbm, ⟨50, _⟩ => ⟨S1024x1x1, .i1⟩
  | .hbm, ⟨51, _⟩ => ⟨S_, .i1⟩
  | .hbm, ⟨52, _⟩ => ⟨S1024x1, .i1⟩
  | .hbm, ⟨53, _⟩ => ⟨S1024x1, .f32⟩
  | .hbm, ⟨54, _⟩ => ⟨S_, .f32⟩
  | .hbm, ⟨55, _⟩ => ⟨S1024x1, .f32⟩
  | .hbm, ⟨56, _⟩ => ⟨S1024x1, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩
abbrev main_v13 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_3 : Ref sig .tc := ⟨.hbm, 59, rfl⟩
abbrev main_v17 : Ref sig .tc := ⟨.hbm, 60, rfl⟩
abbrev main_cst_4 : Ref sig .tc := ⟨.hbm, 61, rfl⟩
abbrev main_v18 : Ref sig .tc := ⟨.hbm, 62, rfl⟩

abbrev nD : Nat := 1
abbrev τ : Topo := Topo.v7x

variable {F : FTy → Type} [FloatOps F]

class Facts₀ : Prop where
  reducesTo_S100000_S_d0 : S100000.ReducesTo [0] S_
  h_S_ : 0 < S_.numel
  bcast_S_S100000 : S_.BroadcastsInDim S100000 (![] : Fin 0 → Fin S100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  gather_S1024x100000_S1024x1x1_S1024x1_n_1_0_0_1_2_11_wf : GatherDims.WF S1024x100000 S1024x1x1 S1024x1 [] [1] [0] [1] [0] 2 ![1, 1]

variable [Facts₀]

def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.Weight.lean ====
/-
  The class weights both programs compute from the counts: total = max (sum of the counts) eps, and
  weight c = count c / total + eps, with eps the one float word 9.99999996e-13 both programs print.
-/
import Idealize.ShloMosaic.PureOps.Ideal

noncomputable section

namespace Cert.Spec

open Idealize.ShloMosaic

/-- The float word 9.99999996e-13 as an extended real. -/
def eps : EReal := Ideal.ofBits .f32 0x2B8CBCCC#32

/-- The normaliser: the sum of the counts, clamped below by eps. -/
def total {C : Type} [Fintype C] (cnt : C → EReal) : EReal := max (∑ c, cnt c) eps

/-- The weight of class c. -/
def weight {C : Type} [Fintype C] (cnt : C → EReal) (c : C) : EReal := Ideal.div (cnt c) (total cnt) + eps

end Cert.Spec

end
-- ==== Proof.Spec.lean ====
/-
  The two results as plain formulas over the extended reals, and the statement that they are one number.

  Write w c for the class weight count c / total + eps, l b c for the logit of example b at class c, and y b for
  example b's label. The kernel accumulates, per example, S b = sum over c of w c * exp (l b c) and picks
  G b = exp (l b (y b)); its result is the mean over b of log (S b) - (log (G b) + 1 * log (w (y b))).
  The reference shifts z b c = l b c + 1 * log (w c) by a per-example number M b before exponentiating (a
  log-softmax), reads the label's entry and negates it; its result is the sum over b divided by 1024.
  For positive real weights, real logits and ANY real shifts the two agree:
  log (sum_c exp (z b c - M b)) + M b = log (sum_c w c * exp (l b c)), since exp (x + log w) = w * exp x for w > 0.
-/
import Idealize.ShloMosaic.PureOps.Ideal

noncomputable section

namespace Cert.Spec

open Idealize.ShloMosaic

variable {B C : Type} [Fintype B] [Fintype C]

/-- The float words both programs print, read as extended reals: 1.0, 2^-10, 1024.0. -/
def one : EReal := Ideal.ofBits .f32 0x3F800000#32
def inv1024 : EReal := Ideal.ofBits .f32 0x3A800000#32
def c1024 : EReal := Ideal.ofBits .f32 0x44800000#32

/-- The weighted sum of exponentials the kernel accumulates for example b. -/
def kS (w : C → EReal) (l : B → C → EReal) (b : B) : EReal := ∑ c, w c * Ideal.exp (l b c)

/-- The exponential of the label's logit. -/
def kG (l : B → C → EReal) (y : B → C) (b : B) : EReal := Ideal.exp (l b (y b))

/-- The kernel's result. -/
def kernelVal (w : C → EReal) (l : B → C → EReal) (y : B → C) : EReal :=
  (∑ b, (Ideal.log (kS w l b) - (Ideal.log (kG l y b) + one * Ideal.log (w (y b))))) * inv1024

/-- The reference's adjusted logit. -/
def rZ (w : C → EReal) (l : B → C → EReal) (b : B) (c : C) : EReal := l b c + one * Ideal.log (w c)

/-- The reference's log-softmax entry, shifted by M b. -/
def rLogp (w : C → EReal) (l : B → C → EReal) (M : B → EReal) (b : B) (c : C) : EReal :=
  (rZ w l b c - M b) - Ideal.log (∑ c', Ideal.exp (rZ w l b c' - M b))

/-- The reference's result. -/
def refVal (w : C → EReal) (l : B → C → EReal) (y : B → C) (M : B → EReal) : EReal :=
  Ideal.div (∑ b, -(rLogp w l M b (y b))) c1024

/-- The three words as reals. -/
theorem one_eq : one = ((1 : ℝ) : EReal) := by
  unfold one; simp [Ideal.ofBits, Ideal.ieee, -EReal.coe_mul]; norm_num

theorem inv1024_eq : inv1024 = ((1 / 1024 : ℝ) : EReal) := by
  unfold inv1024; simp [Ideal.ofBits, Ideal.ieee, -EReal.coe_mul]; norm_num

theorem c1024_eq : c1024 = ((1024 : ℝ) : EReal) := by
  unfold c1024; simp [Ideal.ofBits, Ideal.ieee, -EReal.coe_mul]; norm_num

/-- A finite sum of reals, coerced termwise, is the coercion of the real sum. -/
theorem sum_coe {ι : Type} (s : Finset ι) (f : ι → ℝ) :
    ∑ i ∈ s, (f i : EReal) = ((∑ i ∈ s, f i : ℝ) : EReal) := by
  classical
  refine Finset.induction_on s (by simp) ?_
  intro a s ha ih
  rw [Finset.sum_insert ha, Finset.sum_insert ha, ih, EReal.coe_add]

/-- The logarithm of a positive real, coerced. -/
theorem log_coe_pos {r : ℝ} (h : 0 < r) : Ideal.log (r : EReal) = ((Real.log r : ℝ) : EReal) := by
  rw [Ideal.log_coe, if_neg (not_le.mpr h)]

/-- The per-example real number both programs compute. -/
def term (wr : C → ℝ) (lr : B → C → ℝ) (y : B → C) (b : B) : ℝ :=
  Real.log (∑ c, wr c * Real.exp (lr b c)) - (lr b (y b) + Real.log (wr (y b)))

theorem sum_pos' (wr : C → ℝ) (hw : ∀ c, 0 < wr c) (lr : B → C → ℝ) (y : B → C) (b : B) :
    0 < ∑ c, wr c * Real.exp (lr b c) :=
  Finset.sum_pos (fun c _ => mul_pos (hw c) (Real.exp_pos _)) ⟨y b, Finset.mem_univ _⟩

/-- The kernel's summand for example b is that real number. -/
theorem kernel_term (wr : C → ℝ) (hw : ∀ c, 0 < wr c) (lr : B → C → ℝ) (y : B → C) (b : B) :
    Ideal.log (kS (fun c => (wr c : EReal)) (fun b c => (lr b c : EReal)) b)
      - (Ideal.log (kG (fun b c => (lr b c : EReal)) y b) + one * Ideal.log ((wr (y b) : ℝ) : EReal))
    = ((term wr lr y b : ℝ) : EReal) := by
  have hS : kS (fun c => (wr c : EReal)) (fun b c => (lr b c : EReal)) b
      = ((∑ c, wr c * Real.exp (lr b c) : ℝ) : EReal) := by
    unfold kS
    simp only [Ideal.exp_coe, ← EReal.coe_mul, sum_coe]
  have hG : kG (fun b c => (lr b c : EReal)) y b = ((Real.exp (lr b (y b)) : ℝ) : EReal) := by
    unfold kG
    simp only [Ideal.exp_coe]
  rw [hS, hG, log_coe_pos (sum_pos' wr hw lr y b), log_coe_pos (Real.exp_pos _), log_coe_pos (hw _),
    one_eq, Real.log_exp, ← EReal.coe_mul, ← EReal.coe_add, ← EReal.coe_sub, one_mul]
  rfl

/-- The reference's summand for example b is the same real number, whatever the shift. -/
theorem ref_term (wr : C → ℝ) (hw : ∀ c, 0 < wr c) (lr : B → C → ℝ) (y : B → C) (Mr : B → ℝ) (b : B) :
    -(rLogp (fun c => (wr c : EReal)) (fun b c => (lr b c : EReal)) (fun b => (Mr b : EReal)) b (y b))
    = ((term wr lr y b : ℝ) : EReal) := by
  have hZ : ∀ c, rZ (fun c => (wr c : EReal)) (fun b c => (lr b c : EReal)) b c - ((Mr b : ℝ) : EReal)
      = ((lr b c + Real.log (wr c) - Mr b : ℝ) : EReal) := by
    intro c
    unfold rZ
    simp only []
    rw [log_coe_pos (hw c), one_eq, ← EReal.coe_mul, ← EReal.coe_add, ← EReal.coe_sub, one_mul]
  have hE : ∀ c, Real.exp (lr b c + Real.log (wr c) - Mr b) = (wr c * Real.exp (lr b c)) * Real.exp (-Mr b) := by
    intro c
    rw [sub_eq_add_neg, Real.exp_add, Real.exp_add, Real.exp_log (hw c)]
    ring
  have hsum : (∑ c', Ideal.exp (rZ (fun c => (wr c : EReal)) (fun b c => (lr b c : EReal)) b c' - ((Mr b : ℝ) : EReal)))
      = (((∑ c, wr c * Real.exp (lr b c)) * Real.exp (-Mr b) : ℝ) : EReal) := by
    simp only [hZ, Ideal.exp_coe, hE, sum_coe, ← Finset.sum_mul]
  have hpos := sum_pos' wr hw lr y b
  unfold rLogp
  simp only []
  rw [hsum, hZ, log_coe_pos (mul_pos hpos (Real.exp_pos _)), Real.log_mul hpos.ne' (Real.exp_pos _).ne',
    Real.log_exp, ← EReal.coe_sub, ← EReal.coe_neg]
  congr 1
  unfold term
  ring

/-- Positive real weights, real logits, real shifts: the two results are one extended real. -/
theorem kernelVal_eq_refVal (w : C → EReal) (l : B → C → EReal) (y : B → C) (M : B → EReal)
    (hw : ∀ c, ∃ r : ℝ, 0 < r ∧ w c = (r : EReal)) (hl : ∀ b c, ∃ r : ℝ, l b c = (r : EReal))
    (hM : ∀ b, ∃ r : ℝ, M b = (r : EReal)) :
    kernelVal w l y = refVal w l y M := by
  choose wr hwpos hwr using hw
  choose lr hlr using hl
  choose Mr hMr using hM
  obtain rfl : w = fun c => (wr c : EReal) := funext hwr
  obtain rfl : l = fun b c => (lr b c : EReal) := funext fun b => funext (hlr b)
  obtain rfl : M = fun b => (Mr b : EReal) := funext hMr
  unfold kernelVal refVal
  rw [c1024_eq, Ideal.div_coe (by norm_num) _, inv1024_eq]
  congr 1
  refine Finset.sum_congr rfl fun b _ => ?_
  rw [ref_term wr hwpos lr y Mr b]
  exact kernel_term wr hwpos lr y b

end Cert.Spec

end
-- ==== Proof.Args.lean ====
/-
  The three argument arrays read at explicit coordinates: the logit of example b at class c, the count of class c,
  the label of example b as a class (given that every label is below 100000), the weight of class c, and the one
  number both programs compute from them.
-/
import Idealize.ShloMosaic.Lib.ValueIdx
import proofs.«210372_g71854802862689_cont_9to1_m_893_16_alg».proof.Proof.Spec
import proofs.«210372_g71854802862689_cont_9to1_m_893_16_alg».proof.Proof.Weight

noncomputable section

namespace Cert.Spec

open Idealize.ShloMosaic

abbrev SB : Shape := ⟨1, ![1024]⟩
abbrev SC : Shape := ⟨1, ![100000]⟩
abbrev SBC : Shape := ⟨2, ![1024, 100000]⟩

/-- The logit of example b at class c. -/
def logitAt (a0 : SBC.Idx → EReal) (b : Fin 1024) (c : Fin 100000) : EReal := a0 (ValueIdx.ix2 b c)

/-- The count of class c. -/
def countAt (a2 : SC.Idx → EReal) (c : Fin 100000) : EReal := a2 (ValueIdx.ix1 c)

/-- The label of example b, as a class. -/
def labelAt (a1 : SB.Idx → BitVec 32) (h : ∀ b, (a1 b).toNat < 100000) (b : Fin 1024) : Fin 100000 :=
  ⟨(a1 (ValueIdx.ix1 b)).toNat, h _⟩

/-- The weight of class c: count c / max (sum of the counts) eps + eps. -/
def wAt (a2 : SC.Idx → EReal) (c : Fin 100000) : EReal := weight (countAt a2) c

/-- The number both programs compute. -/
def result (a0 : SBC.Idx → EReal) (a1 : SB.Idx → BitVec 32) (a2 : SC.Idx → EReal) (h : ∀ b, (a1 b).toNat < 100000) : EReal :=
  kernelVal (wAt a2) (logitAt a0) (labelAt a1 h)

end Cert.Spec

end
-- ==== Proof.PreFacts.lean ====
/-
  What the precondition says of the three argument arrays, read off its printed predicate: every label lies in
  [0, 100000) (at any float instance: the conjunct is an integer comparison), and at the extended reals every logit
  and every count is a real number and every class weight count c / max (sum counts) eps + eps is a positive real.
-/
import proofs.«210372_g71854802862689_cont_9to1_m_893_16_alg».proof.Pre_input_domain
import proofs.«210372_g71854802862689_cont_9to1_m_893_16_alg».proof.Proof.Gen.Pre_input_domain
import proofs.«210372_g71854802862689_cont_9to1_m_893_16_alg».proof.Proof.Weight
import proofs.«210372_g71854802862689_cont_9to1_m_893_16_alg».proof.Proof.Args
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Cert.Pre_input_domain

variable [Cert.Pre_input_domain.Facts]

/-- The rank-0 shape has one index. -/
instance subsingleton_S_ : Subsingleton S_.Idx := ⟨fun a b => funext fun d => d.elim0⟩

/-- Every label is below 100000 (and non-negative as a signed word, which for a 32-bit word below 100000 is the same). -/
theorem labels_lt {F : FTy → Type} [FloatOps F] (a0 : FVec F S1024x100000 .f32) (a1 : IVec S1024 32) (a2 : FVec F S100000 .f32)
    (h : fn (F := F) a0 a1 a2 = fun _ => 1#1) (b : S1024.Idx) : (a1 b).toNat < 100000 := by
  -- the predicate at its one index is a conjunction of four reductions; the third is the one over the labels
  have h0 := congrFun h ValueIdx.ix0
  dsimp only [fn, fn_part1] at h0
  obtain ⟨h123, -⟩ := IntOp.andi_eq_one.1 h0
  obtain ⟨-, h3⟩ := IntOp.andi_eq_one.1 h123
  -- every element of the reduced mask is 1, in particular the one at b: 0 ≤ y and y ≤ 99999 as signed words
  have hb := Host.reduce_andi_all _ _ _ _ _ h3 b
  obtain ⟨hge, hle⟩ := IntOp.andi_eq_one.1 hb
  have hge' : IntOp.cmpi .sge (a1 b) 0#32 = 1#1 := hge
  have hle' : IntOp.cmpi .sle (a1 b) 99999#32 = 1#1 := hle
  simp only [IntOp.cmpi, StableHlo.Predicate.ofBool_eq_one_iff, BitVec.sle, decide_eq_true_eq] at hge' hle'
  -- a signed word between 0 and 99999 has its sign bit clear, so its unsigned value is the same number
  have e0 : (0#32 : BitVec 32).toInt = 0 := by decide
  have e1 : (99999#32 : BitVec 32).toInt = 99999 := by decide
  rw [e0] at hge'
  rw [e1] at hle'
  rw [BitVec.toInt_eq_toNat_cond] at hge' hle'
  have hlt := (a1 b).isLt
  split at hge' <;> omega

/-- The float word 0x7F800000 is +∞. -/
theorem inf_bits : Ideal.ofBits .f32 0x7F800000#32 = ⊤ := by simp [Ideal.ofBits, Ideal.ieee]

/-- An extended real whose absolute value max x (-x) is below +∞ is a real number. -/
theorem real_of_abs_lt (x : EReal) (hx : Ideal.cmp .olt (max x (-x)) (Ideal.ofBits .f32 0x7F800000#32) = 1#1) :
    ∃ r : ℝ, x = (r : EReal) := by
  rw [inf_bits] at hx
  simp only [Ideal.cmp, StableHlo.Predicate.ofBool_eq_one_iff, decide_eq_true_eq] at hx
  induction x using EReal.rec with
  | bot => simp at hx
  | coe r => exact ⟨r, rfl⟩
  | top => simp at hx

/-- Every logit is a real number. -/
theorem logits_real (a0 : FVec Ideal S1024x100000 .f32) (a1 : IVec S1024 32) (a2 : FVec Ideal S100000 .f32)
    (h : fn (F := Ideal) a0 a1 a2 = fun _ => 1#1) (i : S1024x100000.Idx) : ∃ r : ℝ, a0 i = (r : EReal) := by
  -- the first of the four reductions is the one over the logits: |logit| < +∞ at every index
  have h0 := congrFun h ValueIdx.ix0
  dsimp only [fn, fn_part1] at h0
  obtain ⟨h123, -⟩ := IntOp.andi_eq_one.1 h0
  obtain ⟨h12, -⟩ := IntOp.andi_eq_one.1 h123
  obtain ⟨h1, -⟩ := IntOp.andi_eq_one.1 h12
  have hi := Host.reduce_andi_all _ _ _ _ _ h1 i
  have hi' : Ideal.cmp .olt (max (a0 i) (-(a0 i))) (Ideal.ofBits .f32 0x7F800000#32) = 1#1 := hi
  exact real_of_abs_lt (a0 i) hi'

/-- Every count is a real number. -/
theorem counts_real (a0 : FVec Ideal S1024x100000 .f32) (a1 : IVec S1024 32) (a2 : FVec Ideal S100000 .f32)
    (h : fn (F := Ideal) a0 a1 a2 = fun _ => 1#1) (c : S100000.Idx) : ∃ r : ℝ, a2 c = (r : EReal) := by
  -- the second of the four reductions is the one over the counts: |count| < +∞ at every index
  have h0 := congrFun h ValueIdx.ix0
  dsimp only [fn, fn_part1] at h0
  obtain ⟨h123, -⟩ := IntOp.andi_eq_one.1 h0
  obtain ⟨h12, -⟩ := IntOp.andi_eq_one.1 h123
  obtain ⟨-, h2⟩ := IntOp.andi_eq_one.1 h12
  have hc := Host.reduce_andi_all _ _ _ _ _ h2 c
  have hc' : Ideal.cmp .olt (max (a2 c) (-(a2 c))) (Ideal.ofBits .f32 0x7F800000#32) = 1#1 := hc
  exact real_of_abs_lt (a2 c) hc'

/-- The float word 9.99999996e-13 is a positive real. -/
theorem eps_pos : ∃ e : ℝ, 0 < e ∧ Cert.Spec.eps = (e : EReal) := by
  unfold Cert.Spec.eps
  simp only [Ideal.ofBits, Ideal.ieee]
  have e1 : (BitVec.extractLsb' 23 8 730643660#32).toNat = 87 := by decide
  have e2 : (BitVec.extractLsb' 0 23 730643660#32).toNat = 834764 := by decide
  have e3 : (BitVec.extractLsb' (8 + 23) 1 730643660#32 == 1#1) = false := by decide
  rw [e1, e2, e3]
  rw [if_neg (by norm_num), if_neg (by norm_num)]
  simp only [Bool.false_eq_true, if_false]
  refine ⟨_, ?_, rfl⟩
  positivity

/-- A finite sum of real numbers, taken in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A rank-1 index is its one coordinate. -/
def idxEquiv1 {n : Nat} : (⟨1, ![n]⟩ : Shape).Idx ≃ Fin n where
  toFun j := j 0
  invFun := ValueIdx.ix1
  left_inv j := (ValueIdx.eq_ix1 j).symm
  right_inv _ := rfl

/-- A scalar broadcast to any shape reads the scalar at every index. -/
theorem bcast0 {α : Type} {t : Shape} (hb : S_.BroadcastsInDim t ![]) (v : S_.Idx → α) (j : t.Idx) :
    broadcastInDim t ![] hb v j = v ValueIdx.ix0 := by
  unfold broadcastInDim
  exact congrArg v (Subsingleton.elim _ _)

/-- Every class weight is a positive real. -/
theorem weight_pos (a0 : FVec Ideal S1024x100000 .f32) (a1 : IVec S1024 32) (a2 : FVec Ideal S100000 .f32)
    (h : fn (F := Ideal) a0 a1 a2 = fun _ => 1#1) (c : Fin 100000) :
    ∃ r : ℝ, 0 < r ∧ Cert.Spec.wAt a2 c = (r : EReal) := by
  -- every count is a real number, eps is a positive real
  choose f hf using fun c : Fin 100000 => counts_real a0 a1 a2 h (ValueIdx.ix1 c)
  obtain ⟨e, he, hee⟩ := eps_pos
  -- the last of the four reductions, read at class c: count c / max (0 + sum of the counts) eps + eps > 0
  have h0 := congrFun h ValueIdx.ix0
  dsimp only [fn, fn_part1] at h0
  obtain ⟨-, h4⟩ := IntOp.andi_eq_one.1 h0
  have hc := Host.reduce_andi_all _ _ _ _ _ h4 (ValueIdx.ix1 c)
  simp only [cmpf, addf, Host.divf] at hc
  rw [bcast0, bcast0, bcast0] at hc
  simp only [maximumf, Host.reduceAdd, constant] at hc
  simp only [Ideal.cmpf_def, Ideal.addf_def, Ideal.hostDivf_def, Ideal.maximumf_def, Ideal.hostReduceAdd_def, Ideal.ofBits_def] at hc
  have hj := hc
  -- the printed sum is the sum over all classes, re-indexed by the class coordinate
  have hsum : ∑ i : S100000.Idx, a2 i = ∑ c : Fin 100000, a2 (ValueIdx.ix1 c) :=
    Fintype.sum_equiv idxEquiv1 _ _ (fun i => congrArg a2 (ValueIdx.eq_ix1 i))
  rw [Ideal.hostReduceAdd_total _ (fun b => b.elim0), Ideal.ofBits_zero_f32, zero_add, hsum] at hj
  simp only [Ideal.cmp, StableHlo.Predicate.ofBool_eq_one_iff, decide_eq_true_eq] at hj
  have hpos : (0 : EReal) < Cert.Spec.wAt a2 c := hj
  -- the weight is a real expression in the real counts
  have hw : Cert.Spec.wAt a2 c = ((f c * (1 / max (∑ c, f c) e) + e : ℝ) : EReal) := by
    unfold Cert.Spec.wAt Cert.Spec.weight Cert.Spec.total Cert.Spec.countAt
    simp only [hf]
    rw [coe_sum, hee, ← EReal.coe_strictMono.monotone.map_max,
      Ideal.div_coe (ne_of_gt (lt_of_lt_of_le he (le_max_right _ _))), ← EReal.coe_mul, ← EReal.coe_add]
  rw [hw] at hpos ⊢
  exact ⟨_, EReal.coe_pos.1 hpos, rfl⟩

end Cert.PreFacts

end
-- ==== Proof.RefValue.lean ====
/-
  The reference's result is the specification's number: its operations, read one at a time at an index, are the
  shifted log-softmax of the adjusted logits z b c = l b c + 1 * log (w c), the label's entry negated, summed over
  the examples and divided by 1024; the shift is the row maximum, a real number since every z b c is; and for any
  real shift that is the specification's number.
-/
import proofs.«210372_g71854802862689_cont_9to1_m_893_16_alg».proof.Proof.RefRun
import proofs.«210372_g71854802862689_cont_9to1_m_893_16_alg».proof.Proof.RefRead
import proofs.«210372_g71854802862689_cont_9to1_m_893_16_alg».proof.Proof.Args
import Idealize.ShloMosaic.PureOps.Ideal.Laws
import Idealize.ShloMosaic.Lib.ValueIdx
import Idealize.ShloMosaic.Lib.ValueLayout
import Idealize.ShloMosaic.Lib.Pipeline.Value
import Idealize.ShloMosaic.Lib.ReduceAll

noncomputable section

namespace Cert.ReferenceIdeal.RefValue

open Idealize.ShloMosaic Idealize.ShloMosaic.TcCoe Idealize.SL.Sem Cert.ReferenceIdeal Cert.ReferenceIdeal.Gen Cert.ReferenceIdeal.Value
open Idealize.ShloMosaic.ValueIdx (ix1 ix2)

open Cert.ReferenceIdeal.Read

/-- A sum over the indices of a one-axis array is the sum over the axis's coordinates. -/
theorem sum_ix1 {M : Type} [AddCommMonoid M] {n : Nat} (f : (⟨1, ![n]⟩ : Shape).Idx → M) :
    ∑ j, f j = ∑ k : Fin n, f (ix1 k) :=
  Fintype.sum_equiv ⟨fun j => j 0, ix1, fun j => (ValueIdx.eq_ix1 j).symm, fun _ => rfl⟩ _ _
    (fun j => congrArg f (ValueIdx.eq_ix1 j))

section Stages

variable (x0 : (⟨S1024x100000, .f32⟩ : BufTy).Contents (Elt Ideal)) (x1 : (⟨S1024, .i32⟩ : BufTy).Contents (Elt Ideal))
  (x2 : (⟨S100000, .f32⟩ : BufTy).Contents (Elt Ideal))

/-- The weights stage at class k is the specification's weight: count k / max (0 + sum of the counts) eps + eps. -/
theorem weight_apply (k : Fin 100000) : val_main_v5 (F := Ideal) x2 (ix1 k) = Cert.Spec.wAt x2 k := by
  rw [val_main_v5_apply, val_main_v3_apply, val_main_v2_apply, val_main_v1_apply, val_main_v0_apply,
    val_main_cst_apply, val_main_cst_0_apply, val_main_v4_apply, val_main_cst_1_apply]
  simp only [Ideal.addf_def, Ideal.hostDivf_def, Ideal.maximumf_def, Ideal.ofBits_def, Ideal.ofBits_zero_f32, zero_add]
  rw [sum_ix1]
  rfl

/-- The adjusted logit of example b at class k. -/
theorem z_apply (b : Fin 1024) (k : Fin 100000) :
    val_main_v11 (F := Ideal) x0 x2 (ix2 b k) = Cert.Spec.rZ (Cert.Spec.wAt x2) (Cert.Spec.logitAt x0) b k := by
  have e : idx_main_v9 (idx_main_v10 (ix2 b k)) = ix1 k :=
    funext fun a => Fin.ext (by match a with | ⟨0, _⟩ => rfl)
  rw [val_main_v11_apply, val_main_v10_apply, val_main_v9_apply, e, val_main_v8_apply, val_main_v7_apply,
    val_main_cst_2_apply, val_main_v6_apply, weight_apply]
  simp only [Ideal.addf_def, Ideal.mulf_def, Ideal.hostUnary_log_def, Ideal.ofBits_def]
  rfl

end Stages

section Max

/-- The float word 0xFF800000 is -∞. -/
theorem neg_inf_bits : Ideal.ofBits .f32 0xFF800000#32 = ⊥ := by simp [Ideal.ofBits, Ideal.ieee]

/-- A maximum over a finite family of real numbers, started from -∞, is -∞ or a real number. -/
theorem fold_max_bot_or_real {ι : Type} [DecidableEq ι] (s : Finset ι) (f : ι → EReal) (hf : ∀ i, ∃ r : ℝ, f i = (r : EReal)) :
    s.fold (FloatOps.maximumf (F := Ideal) (φ := .f32)) ⊥ f = ⊥
      ∨ ∃ r : ℝ, s.fold (FloatOps.maximumf (F := Ideal) (φ := .f32)) ⊥ f = (r : EReal) := by
  induction s using Finset.induction_on with
  | empty => exact Or.inl (Finset.fold_empty)
  | insert a s ha ih =>
    right
    rw [Finset.fold_insert ha]
    obtain ⟨r, hr⟩ := hf a
    rw [Ideal.maximumf_def, hr]
    rcases ih with h | ⟨r', h⟩
    · rw [h]; exact ⟨r, max_eq_left bot_le⟩
    · rw [h]; exact ⟨max r r', (EReal.coe_strictMono.monotone.map_max).symm⟩

/-- Over a nonempty family it is a real number. -/
theorem fold_max_real {ι : Type} [DecidableEq ι] (s : Finset ι) (hs : s.Nonempty) (f : ι → EReal)
    (hf : ∀ i, ∃ r : ℝ, f i = (r : EReal)) :
    ∃ r : ℝ, s.fold (FloatOps.maximumf (F := Ideal) (φ := .f32)) ⊥ f = (r : EReal) := by
  obtain ⟨a, ha⟩ := hs
  rw [← Finset.insert_erase ha, Finset.fold_insert (Finset.notMem_erase a s)]
  obtain ⟨r, hr⟩ := hf a
  rw [Ideal.maximumf_def, hr]
  rcases fold_max_bot_or_real (s.erase a) f hf with h | ⟨r', h⟩
  · rw [h]; exact ⟨r, max_eq_left bot_le⟩
  · rw [h]; exact ⟨max r r', (EReal.coe_strictMono.monotone.map_max).symm⟩

/-- So is its maximum with -∞. -/
theorem max_bot_fold_real {n : Nat} (hn : 0 < n) (g : Fin n → EReal) (hg : ∀ k, ∃ r : ℝ, g k = (r : EReal)) :
    ∃ r : ℝ, max ⊥ ((Finset.univ : Finset (Fin n)).fold (FloatOps.maximumf (F := Ideal) (φ := .f32)) ⊥ g) = (r : EReal) := by
  obtain ⟨r, hr⟩ := fold_max_real (Finset.univ : Finset (Fin n)) ⟨⟨0, hn⟩, Finset.mem_univ _⟩ g hg
  exact ⟨r, by rw [hr]; exact max_eq_right bot_le⟩

end Max

section Softmax

variable (x0 : (⟨S1024x100000, .f32⟩ : BufTy).Contents (Elt Ideal)) (x2 : (⟨S100000, .f32⟩ : BufTy).Contents (Elt Ideal))

/-- The shift the reference subtracts from row b: the maximum of -∞ and the row's maximum. -/
def rowMax (b : Fin 1024) : EReal := val_main_call0_v2 (F := Ideal) x0 x2 (ix1 b)

/-- It is a real number when every adjusted logit is. -/
theorem rowMax_real (hz : ∀ i, ∃ r : ℝ, val_main_v11 (F := Ideal) x0 x2 i = (r : EReal)) (b : Fin 1024) :
    ∃ r : ℝ, rowMax x0 x2 b = (r : EReal) := by
  unfold rowMax
  rw [val_main_call0_v2_apply, val_main_call0_v1_apply, val_main_call0_cst_0_apply]
  unfold val_main_call0_v0
  rw [Host.reduce_eq_fold_single FloatOps.maximumf _ _ reducesTo_S1024x100000_S1024_d1 (by decide) h_S_,
    val_main_call0_cst_apply]
  simp only [Ideal.ofBits_def, neg_inf_bits, Ideal.maximumf_def]
  exact max_bot_fold_real (by decide) _ (fun k => hz _)

end Softmax

section Softmax2

variable (x0 : (⟨S1024x100000, .f32⟩ : BufTy).Contents (Elt Ideal)) (x2 : (⟨S100000, .f32⟩ : BufTy).Contents (Elt Ideal))

/-- The adjusted logit less the row's shift. -/
theorem shifted_apply (b : Fin 1024) (k : Fin 100000) :
    val_main_call0_v5 (F := Ideal) x0 x2 (ix2 b k)
      = Cert.Spec.rZ (Cert.Spec.wAt x2) (Cert.Spec.logitAt x0) b k - rowMax x0 x2 b := by
  have e : idx_main_call0_v3 (idx_main_call0_v4 (ix2 b k)) = ix1 b :=
    funext fun a => Fin.ext (by match a with | ⟨0, _⟩ => rfl)
  rw [val_main_call0_v5_apply, val_main_call0_v4_apply, val_main_call0_v3_apply, e, z_apply]
  rfl

/-- The log-softmax entry of example b at class k, shifted by the row maximum. -/
theorem logp_apply (b : Fin 1024) (k : Fin 100000) :
    val_main_v12 (F := Ideal) x0 x2 (ix2 b k)
      = Cert.Spec.rLogp (Cert.Spec.wAt x2) (Cert.Spec.logitAt x0) (rowMax x0 x2) b k := by
  have e : ∀ k' : Fin 100000, idx_main_call0_v7 (idx_main_call0_v8 (idx_main_call0_v10 (ix2 b k))) k' = ix2 b k' :=
    fun k' => funext fun a => Fin.ext (by match a with | ⟨0, _⟩ => rfl | ⟨1, _⟩ => rfl)
  rw [val_main_v12_apply, shifted_apply, val_main_call0_v10_apply, val_main_call0_v9_apply, val_main_call0_v8_apply,
    val_main_call0_v7_apply, val_main_call0_cst_1_apply]
  simp only [e, val_main_call0_v6_apply, shifted_apply]
  simp only [Ideal.subf_def, Ideal.hostUnary_log_def, Ideal.hostUnary_exp_def, Ideal.ofBits_def, Ideal.ofBits_zero_f32, zero_add]
  rfl

end Softmax2

section Take

variable (x0 : (⟨S1024x100000, .f32⟩ : BufTy).Contents (Elt Ideal)) (x1 : (⟨S1024, .i32⟩ : BufTy).Contents (Elt Ideal))
  (x2 : (⟨S100000, .f32⟩ : BufTy).Contents (Elt Ideal))

/-- A 32-bit word below 100000 has its sign bit clear: read signed it is the same number. -/
theorem toInt_label {y : BitVec 32} (h : y.toNat < 100000) : y.toInt = (y.toNat : Int) :=
  BitVec.toInt_eq_toNat_of_lt (by have : (2 : Nat) ^ 32 = 4294967296 := by norm_num
                                  omega)

/-- The start index of example b: its label, which the wrap of negative indices leaves alone since it is not negative. -/
theorem index_apply (hy : ∀ b, (x1 b).toNat < 100000) (i : S1024x1x1.Idx) :
    val_main_call1_v5 (F := Ideal) x1 i = x1 (ix1 (n := 1024) ⟨(i 0).val, (i 0).isLt⟩) := by
  have e : idx_main_v13 (idx_main_call1_v5 i) = ix1 (n := 1024) ⟨(i 0).val, (i 0).isLt⟩ :=
    funext fun a => Fin.ext (by
      match a with
      | ⟨0, _⟩ =>
        have h1 : (i 1).val < 1 := (i 1).isLt
        have h2 : (i 2).val < 1 := (i 2).isLt
        show (((i 0).val * 1 + (i 1).val) * 1 + (i 2).val) / 1 = (i 0).val
        omega)
  rw [val_main_call1_v5_apply, val_main_call1_v4_apply, val_main_call1_v1_apply, val_main_v13_apply, e,
    val_main_call1_v0_apply, val_main_call1_c_apply]
  have h0 : IntOp.cmpi .slt (x1 (ix1 (n := 1024) ⟨(i 0).val, (i 0).isLt⟩)) 0#32 = 0#1 := by
    apply ValueIdx.eq_zero_of_ne_one
    rw [IntOp.cmpi_slt, toInt_label (hy _)]
    have e0 : (0#32 : BitVec 32).toInt = 0 := by decide
    rw [e0]
    omega
  rw [h0, ValueIdx.select_zero]

/-- A left fold by and over one-bit words that are all 1, started at 1, is 1. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    exact ih (fun n hn => hf n (List.mem_cons_of_mem _ hn))

/-- A reduction by and of an array of 1s, started at 1, is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ (fun n _ => hx n)

/-- Every start index is in range: 0 ≤ label ≤ 99999 as signed words. -/
theorem inrange_apply (hy : ∀ b, (x1 b).toNat < 100000) (i : S1024x1x1.Idx) :
    val_main_call1_v11 (F := Ideal) x1 i = 1#1 := by
  rw [val_main_call1_v11_apply, val_main_call1_v7_apply, val_main_call1_v10_apply, index_apply x1 hy,
    val_main_call1_v6_apply, val_main_call1_c_2_apply, val_main_call1_v9_apply, val_main_call1_v8_apply,
    val_main_call1_c_1_apply]
  rw [IntOp.andi_eq_one, IntOp.cmpi_sge, IntOp.cmpi_sle, toInt_label (hy _)]
  have e0 : (0#32 : BitVec 32).toInt = 0 := by decide
  have e1 : (99999#32 : BitVec 32).toInt = 99999 := by decide
  rw [e0, e1]
  have := hy (ix1 (n := 1024) ⟨(i 0).val, (i 0).isLt⟩)
  omega

/-- So the in-range mask is 1 everywhere. -/
theorem mask_apply (hy : ∀ b, (x1 b).toNat < 100000) (j : S1024x1.Idx) :
    val_main_call1_v12 (F := Ideal) x1 j = 1#1 := by
  unfold val_main_call1_v12
  exact reduce_andi_one _ _ _ _ j rfl (inrange_apply x1 hy)

end Take

section Gather

variable (x0 : (⟨S1024x100000, .f32⟩ : BufTy).Contents (Elt Ideal)) (x1 : (⟨S1024, .i32⟩ : BufTy).Contents (Elt Ideal))
  (x2 : (⟨S100000, .f32⟩ : BufTy).Contents (Elt Ideal))

/-- The gather reads, in row b, the column the label names: row b is the batching coordinate, and the start index,
    read signed and clamped to [0, 99999], is the label itself. -/
theorem gather_apply (hy : ∀ b, (x1 b).toNat < 100000) (b : Fin 1024) :
    val_main_call1_v13 (F := Ideal) x0 x1 x2 (ix2 b (0 : Fin 1))
      = val_main_v12 (F := Ideal) x0 x2 (ix2 b (Cert.Spec.labelAt x1 hy b)) := by
  unfold val_main_call1_v13 Host.gather
  generalize val_main_v12 (F := Ideal) x0 x2 = g
  congr 1
  funext a
  refine Fin.ext ?_
  match a with
  | ⟨0, _⟩ =>
    show gather_S1024x100000_S1024x1x1_S1024x1_n_1_0_0_1_2_11.start _ _ 0
        + gather_S1024x100000_S1024x1x1_S1024x1_n_1_0_0_1_2_11.batchCoord _ 0
        + gather_S1024x100000_S1024x1x1_S1024x1_n_1_0_0_1_2_11.offCoord _ 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show gather_S1024x100000_S1024x1x1_S1024x1_n_1_0_0_1_2_11.start _ _ 1
        + gather_S1024x100000_S1024x1x1_S1024x1_n_1_0_0_1_2_11.batchCoord _ 1
        + gather_S1024x100000_S1024x1x1_S1024x1_n_1_0_0_1_2_11.offCoord _ 1 = (x1 (ix1 b)).toNat
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x100000_S1024x1x1_S1024x1_n_1_0_0_1_2_11.startIndexMap from
      List.mem_singleton.mpr rfl), index_apply x1 hy]
    have key : ∀ (i3 : S1024x1x1.Idx), (i3 0).val = b.val →
        min (x1 (ix1 (n := 1024) ⟨(i3 0).val, (i3 0).isLt⟩)).toInt.toNat (100000 - 1) = (x1 (ix1 b)).toNat := by
      intro i3 h3
      have e : ix1 (n := 1024) ⟨(i3 0).val, (i3 0).isLt⟩ = ix1 b :=
        funext fun a => Fin.ext (by match a with | ⟨0, _⟩ => exact h3)
      rw [e, toInt_label (hy _), Int.toNat_natCast]
      have := hy (ix1 b)
      exact Nat.min_eq_left (by omega)
    exact key _ rfl

/-- The entry take_along_axis returns for example b: the log-softmax entry at its label. -/
theorem taken_apply (hy : ∀ b, (x1 b).toNat < 100000) (b : Fin 1024) :
    val_main_v14 (F := Ideal) x0 x1 x2 (ix2 b (0 : Fin 1))
      = val_main_v12 (F := Ideal) x0 x2 (ix2 b (Cert.Spec.labelAt x1 hy b)) := by
  rw [val_main_v14_apply, mask_apply x1 hy, ValueIdx.select_one, gather_apply x0 x1 x2 hy]

/-- The reference's number: the label's log-softmax entries negated, summed over the examples, divided by 1024. -/
theorem result_apply (hy : ∀ b, (x1 b).toNat < 100000) (i : S_.Idx) :
    val_main_v18 (F := Ideal) x0 x1 x2 i
      = Cert.Spec.refVal (Cert.Spec.wAt x2) (Cert.Spec.logitAt x0) (Cert.Spec.labelAt x1 hy) (rowMax x0 x2) := by
  have e : ∀ b : Fin 1024, idx_main_v15 (ix1 b) = ix2 b (0 : Fin 1) := fun b =>
    funext fun a => Fin.ext (by
      match a with
      | ⟨0, _⟩ => show b.val / 1 = b.val; omega
      | ⟨1, _⟩ => rfl)
  rw [val_main_v18_apply, val_main_v17_apply, val_main_cst_3_apply, val_main_cst_4_apply, sum_ix1]
  simp only [val_main_v16_apply, val_main_v15_apply, e, taken_apply x0 x1 x2 hy, logp_apply]
  simp only [Ideal.hostDivf_def, Ideal.hostNegf_def, Ideal.negf_def, Ideal.ofBits_def, Ideal.ofBits_zero_f32, zero_add]
  rfl

/-- Every adjusted logit is a real number: a real logit plus 1 * log of a positive real weight. -/
theorem z_real (hl : ∀ i, ∃ r : ℝ, x0 i = (r : EReal))
    (hw : ∀ k : Fin 100000, ∃ r : ℝ, 0 < r ∧ Cert.Spec.wAt x2 k = (r : EReal)) (i : S1024x100000.Idx) :
    ∃ r : ℝ, val_main_v11 (F := Ideal) x0 x2 i = (r : EReal) := by
  obtain ⟨b, k, rfl⟩ : ∃ (b : Fin 1024) (k : Fin 100000), i = ix2 b k := ⟨i 0, i 1, ValueIdx.eq_ix2 i⟩
  obtain ⟨l, hl'⟩ := hl (ix2 b k)
  obtain ⟨w, hwp, hw'⟩ := hw k
  rw [z_apply]
  unfold Cert.Spec.rZ Cert.Spec.logitAt
  rw [hl', hw', Cert.Spec.log_coe_pos hwp, Cert.Spec.one_eq, ← EReal.coe_mul, ← EReal.coe_add]
  exact ⟨_, rfl⟩

end Gather

/-- Labels in range, real logits, positive real weights: the reference's result term is the specification's number. -/
theorem result_eq (m : (ℓ : Loc nD τ sig) → Buf (Elt Ideal) ℓ) (c : Dev nD)
    (hy : ∀ b, ((m ((c.tc : Thread nD τ).loc main_arg1)) b).toNat < 100000)
    (hl : ∀ i, ∃ r : ℝ, m ((c.tc : Thread nD τ).loc main_arg0) i = (r : EReal))
    (hw : ∀ k : Fin 100000, ∃ r : ℝ, 0 < r ∧ Cert.Spec.wAt (m ((c.tc : Thread nD τ).loc main_arg2)) k = (r : EReal)) :
    res_out0 (F := Ideal) m c = fun _ =>
      Cert.Spec.result (m ((c.tc : Thread nD τ).loc main_arg0)) (m ((c.tc : Thread nD τ).loc main_arg1)) (m ((c.tc : Thread nD τ).loc main_arg2)) hy := by
  funext i
  show res_main_v18 (F := Ideal) m c i = _
  rw [val_main_v18_eq, result_apply _ _ _ hy]
  unfold Cert.Spec.result
  exact (Cert.Spec.kernelVal_eq_refVal _ _ _ _ hw (fun b k => hl _)
    (rowMax_real _ _ (z_real _ _ hl hw))).symm

end Cert.ReferenceIdeal.RefValue

end
-- ==== Proof.KI_Setup.lean ====
/-
  The program as the SparseCore launch theorem sees it, the resource algebra, and what the handshakes of the one
  SparseCore call carry: every tile is lent a share of the whole count table and of the whole label array, and owns
  the 32 entries of the gathered-count array that are its own; it hands the shares back with its 32 entries holding,
  for each example, the count at that example's label.
-/
import proofs.«210372_g71854802862689_cont_9to1_m_893_16_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic
import Idealize.ShloMosaic.Lib.ValueIdx
import proofs.«210372_g71854802862689_cont_9to1_m_893_16_alg».proof.Proof.Gen.KernelIdeal
import proofs.«210372_g71854802862689_cont_9to1_m_893_16_alg».proof.Proof.Gen.KernelIdeal.Skeleton
import proofs.«210372_g71854802862689_cont_9to1_m_893_16_alg».proof.Proof.Gen.KernelIdeal.Launch
import proofs.«210372_g71854802862689_cont_9to1_m_893_16_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The logits, the labels, the counts (the arguments); the gathered counts, the transposed logits, the counts as a
    row, the region's result, the program's result. -/
abbrev lgLoc (d : Dev nD) : Loc nD τ sig := (SparseCore.T d).loc main_arg0
abbrev yLoc (d : Dev nD) : Loc nD τ sig := (SparseCore.T d).loc main_arg1
abbrev cLoc (d : Dev nD) : Loc nD τ sig := (SparseCore.T d).loc main_arg2
abbrev gLoc (d : Dev nD) : Loc nD τ sig := (SparseCore.T d).loc main_v0
abbrev ltLoc (d : Dev nD) : Loc nD τ sig := (SparseCore.T d).loc main_v1
abbrev rowLoc (d : Dev nD) : Loc nD τ sig := (SparseCore.T d).loc main_v2
abbrev outLoc (d : Dev nD) : Loc nD τ sig := (SparseCore.T d).loc main_v3
abbrev resLoc (d : Dev nD) : Loc nD τ sig := (SparseCore.T d).loc main_v4

/-- The 32 examples of the task of tile s of SparseCore c: 64 s + 32 c and the 31 after it. -/
def taskSet (c : Fin 2) (s : Fin 16) : Finset S1024.Idx :=
  Finset.univ.filter fun j => 64 * s.val + 32 * c.val ≤ (j 0).val ∧ (j 0).val < 64 * s.val + 32 * c.val + 32

/-- Entry j of the gathered counts is the count at example j's label (for every label that names a class). -/
def Gathered (d : Dev nD) (f : Buf (Elt F) (gLoc d)) (j : S1024.Idx) : Prop :=
  ∀ h : (m (yLoc d) j).toNat < 100000, f j = m (cLoc d) (ValueIdx.ix1 ⟨(m (yLoc d) j).toNat, h⟩)

/-- The shares of the read-only arrays: a half of each per SparseCore, a sixteenth of that per tile. -/
def qCore (c : Fin 2) : PosShare TreeShare := pieceOf fullShare 2 (by decide) c
def qTile (c : Fin 2) (s : Fin 16) : PosShare TreeShare := pieceOf (qCore c) 16 (by decide) s

/-- The 512 examples of SparseCore c: those of its sixteen tiles. -/
def coreSet (c : Fin 2) : Finset S1024.Idx := Finset.univ.biUnion fun s : Fin 16 => taskSet c s

/-- Every label names a class: what the tiles' gathers need of the launch memory. -/
def PreIdx : Prop := ∀ (d : Dev nD) (j : S1024.Idx), (m (yLoc d) j).toNat < 100000

abbrev cPts (d : Dev nD) (q : PosShare TreeShare) : sProp 𝕄 := cLoc d ↦{q} m (cLoc d)
abbrev yPts (d : Dev nD) (q : PosShare TreeShare) : sProp 𝕄 := yLoc d ↦{q} m (yLoc d)
/-- The gathered counts on a set of examples, as launched; -/
abbrev gPts0 (d : Dev nD) (I : Finset S1024.Idx) : sProp 𝕄 := gLoc d ↦[I]{fullShare} m (gLoc d)
/-- and once gathered: each entry of the set the count at its example's label. -/
abbrev gPts1 (d : Dev nD) (I : Finset S1024.Idx) : sProp 𝕄 := iprop(∃ f, ⌜∀ j ∈ I, Gathered m d f j⌝ ∗ gLoc d ↦[I]{fullShare} f)

/-- The one call lends each SparseCore half of the counts and of the labels and hands it its 512 entries of the
    gathered counts; each tile a sixteenth of those shares and its 32 entries; all come back, the entries gathered. -/
def P : (K (F := F)).Pay (nD := nD) (Val := Elt F) (Name := ℕ) (U := UU) where
  st := fun q d c => match q with
    | 0 => iprop(cPts m d (qCore (Fin.cast nCore_zero c)) ∗ yPts m d (qCore (Fin.cast nCore_zero c)) ∗ gPts0 m d (coreSet (Fin.cast nCore_zero c)))
  dn := fun q d c => match q with
    | 0 => iprop(cPts m d (qCore (Fin.cast nCore_zero c)) ∗ yPts m d (qCore (Fin.cast nCore_zero c)) ∗ gPts1 m d (coreSet (Fin.cast nCore_zero c)))
  go := fun q d c i => match q with
    | 0 => iprop(cPts m d (qTile (Fin.cast nCore_zero c) (Fin.cast nSub_zero i)) ∗ yPts m d (qTile (Fin.cast nCore_zero c) (Fin.cast nSub_zero i))
        ∗ gPts0 m d (taskSet (Fin.cast nCore_zero c) (Fin.cast nSub_zero i)))
  td := fun q d c i => match q with
    | 0 => iprop(cPts m d (qTile (Fin.cast nCore_zero c) (Fin.cast nSub_zero i)) ∗ yPts m d (qTile (Fin.cast nCore_zero c) (Fin.cast nSub_zero i))
        ∗ gPts1 m d (taskSet (Fin.cast nCore_zero c) (Fin.cast nSub_zero i)))
  x := fun _ _ => iprop(emp)

instance P_storable : (P (F := F) m).IsStorable where
  st q d c := match q with
    | 0 => (inferInstance : BI.Storable (upEmb : UEmb _ 𝕄)
        iprop(cPts m d (qCore (Fin.cast nCore_zero c)) ∗ yPts m d (qCore (Fin.cast nCore_zero c)) ∗ gPts0 m d (coreSet (Fin.cast nCore_zero c))))
  dn q d c := match q with
    | 0 => (inferInstance : BI.Storable (upEmb : UEmb _ 𝕄)
        iprop(cPts m d (qCore (Fin.cast nCore_zero c)) ∗ yPts m d (qCore (Fin.cast nCore_zero c)) ∗ gPts1 m d (coreSet (Fin.cast nCore_zero c))))
  go q d c i := match q with
    | 0 => (inferInstance : BI.Storable (upEmb : UEmb _ 𝕄)
        iprop(cPts m d (qTile (Fin.cast nCore_zero c) (Fin.cast nSub_zero i)) ∗ yPts m d (qTile (Fin.cast nCore_zero c) (Fin.cast nSub_zero i))
          ∗ gPts0 m d (taskSet (Fin.cast nCore_zero c) (Fin.cast nSub_zero i))))
  td q d c i := match q with
    | 0 => (inferInstance : BI.Storable (upEmb : UEmb _ 𝕄)
        iprop(cPts m d (qTile (Fin.cast nCore_zero c) (Fin.cast nSub_zero i)) ∗ yPts m d (qTile (Fin.cast nCore_zero c) (Fin.cast nSub_zero i))
          ∗ gPts1 m d (taskSet (Fin.cast nCore_zero c) (Fin.cast nSub_zero i))))

end Cert.Proof.KI

end
-- ==== Proof.KI_Split.lean ====
/-
  How a SparseCore's share of the call's operands splits among its sixteen tiles and its results gather from theirs:
  the shares of the two read-only arrays cut into sixteen pieces, the core's 512 entries of the gathered counts the
  disjoint union of the tiles' 32.
-/
import proofs.«210372_g71854802862689_cont_9to1_m_893_16_alg».proof.Proof.KI_Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- Example j is of tile s of SparseCore c when it lies in the 32 that begin at 64 s + 32 c. -/
theorem mem_taskSet {c : Fin 2} {s : Fin 16} {j : S1024.Idx} :
    j ∈ taskSet c s ↔ 64 * s.val + 32 * c.val ≤ (j 0).val ∧ (j 0).val < 64 * s.val + 32 * c.val + 32 := by
  unfold taskSet; rw [Finset.mem_filter]; exact ⟨fun h => h.2, fun h => ⟨Finset.mem_univ _, h⟩⟩

/-- Inside one SparseCore two tiles' examples are disjoint: the blocks of 32 begin 64 apart. -/
theorem taskSet_disjoint (c : Fin 2) : ∀ s ∈ (Finset.univ : Finset (Fin 16)), ∀ s' ∈ (Finset.univ : Finset (Fin 16)),
    s ≠ s' → Disjoint (taskSet c s) (taskSet c s') := by
  intro s _ s' _ h
  rw [Finset.disjoint_left]
  intro j hj hj'
  rw [mem_taskSet] at hj hj'
  apply h; apply Fin.ext
  have := c.isLt
  omega

/-- Example j is of SparseCore c when the block of 32 it lies in has parity c. -/
theorem mem_coreSet {c : Fin 2} {j : S1024.Idx} : j ∈ coreSet c ↔ ((j 0).val / 32) % 2 = c.val := by
  unfold coreSet; rw [Finset.mem_biUnion]
  have hc := c.isLt
  constructor
  · rintro ⟨s, _, hs⟩; rw [mem_taskSet] at hs; omega
  · intro h
    have hj : (j 0).val < 1024 := (j 0).isLt
    refine ⟨⟨(j 0).val / 64, by omega⟩, Finset.mem_univ _, ?_⟩
    rw [mem_taskSet]
    show 64 * ((j 0).val / 64) + 32 * c.val ≤ (j 0).val ∧ (j 0).val < 64 * ((j 0).val / 64) + 32 * c.val + 32
    omega

/-- The two SparseCores' example sets are disjoint and cover the 1024 examples. -/
theorem coreSet_disjoint : Disjoint (coreSet 0) (coreSet 1) := by
  rw [Finset.disjoint_left]
  intro j h0 h1
  rw [mem_coreSet] at h0 h1
  have e0 : (0 : Fin 2).val = 0 := rfl
  have e1 : (1 : Fin 2).val = 1 := rfl
  omega
theorem coreSet_cover : coreSet 0 ∪ coreSet 1 = (Finset.univ : Finset S1024.Idx) := by
  ext j
  rw [Finset.mem_union, mem_coreSet, mem_coreSet]
  have e0 : (0 : Fin 2).val = 0 := rfl
  have e1 : (1 : Fin 2).val = 1 := rfl
  constructor
  · intro _; exact Finset.mem_univ _
  · intro _; omega

/-- The SparseCores' example sets, as a family: pairwise disjoint, covering the 1024 examples. -/
theorem coreSets_disjoint : ∀ c ∈ (Finset.univ : Finset (Fin 2)), ∀ c' ∈ (Finset.univ : Finset (Fin 2)),
    c ≠ c' → Disjoint (coreSet c) (coreSet c') := by
  intro c _ c' _ h
  rw [Finset.disjoint_left]
  intro j hj hj'
  rw [mem_coreSet] at hj hj'
  apply h; apply Fin.ext
  omega
theorem coreSets_cover : (Finset.univ : Finset (Fin 2)).biUnion coreSet = (Finset.univ : Finset S1024.Idx) := by
  ext j
  constructor
  · intro _; exact Finset.mem_univ _
  · intro _
    rw [Finset.mem_biUnion]
    exact ⟨⟨((j 0).val / 32) % 2, by omega⟩, Finset.mem_univ _, mem_coreSet.mpr rfl⟩

/-! ## Re-indexing the launch theorem's families over the SparseCores and over a SparseCore's tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The cuts -/

/-- A SparseCore's share of the counts is its sixteen tiles' shares; -/
theorem cPts_tiles (d : Dev nD) (c : Fin 2) :
    (cPts m d (qCore c) : sProp 𝕄) = bigSep Finset.univ fun s : Fin 16 => cPts m d (qTile c s) :=
  pointsTo_piecesOf Finset.univ (m (cLoc d)) (by decide) (qCore c)
/-- so of the labels; -/
theorem yPts_tiles (d : Dev nD) (c : Fin 2) :
    (yPts m d (qCore c) : sProp 𝕄) = bigSep Finset.univ fun s : Fin 16 => yPts m d (qTile c s) :=
  pointsTo_piecesOf Finset.univ (m (yLoc d)) (by decide) (qCore c)
/-- its 512 entries of the gathered counts are its tiles' 32 each. -/
theorem gPts0_tiles (d : Dev nD) (c : Fin 2) :
    (gPts0 m d (coreSet c) : sProp 𝕄) = bigSep Finset.univ fun s : Fin 16 => gPts0 m d (taskSet c s) := by
  unfold coreSet
  rw [← pointsTo_biUnion Finset.univ (ℓ := gLoc d) (taskSet c) (taskSet_disjoint c)]

/-- The whole of the counts is the two SparseCores' shares; -/
theorem cPts_cores (d : Dev nD) :
    (cPts m d fullShare : sProp 𝕄) = bigSep Finset.univ fun c : Fin 2 => cPts m d (qCore c) :=
  pointsTo_piecesOf Finset.univ (m (cLoc d)) (by decide) fullShare
/-- so of the labels; -/
theorem yPts_cores (d : Dev nD) :
    (yPts m d fullShare : sProp 𝕄) = bigSep Finset.univ fun c : Fin 2 => yPts m d (qCore c) :=
  pointsTo_piecesOf Finset.univ (m (yLoc d)) (by decide) fullShare
/-- the gathered counts whole are the two SparseCores' 512 entries each. -/
theorem gPts0_cores (d : Dev nD) :
    (gLoc d ↦{fullShare} m (gLoc d) : sProp 𝕄) = bigSep Finset.univ fun c : Fin 2 => gPts0 m d (coreSet c) := by
  rw [← pointsTo_biUnion Finset.univ (ℓ := gLoc d) coreSet coreSets_disjoint, coreSets_cover]

/-- Gathered entries on pairwise disjoint sets of examples are gathered entries on the union: the one valuation is
    each piece's on that piece's examples, and an entry's being gathered speaks of that entry alone. -/
theorem gPts1_join {T : Type} [Fintype T] [DecidableEq T] [Inhabited T] (d : Dev nD) (Ks : T → Finset S1024.Idx)
    (hK : ∀ t ∈ (Finset.univ : Finset T), ∀ t' ∈ (Finset.univ : Finset T), t ≠ t' → Disjoint (Ks t) (Ks t')) :
    (bigSep Finset.univ fun t : T => gPts1 m d (Ks t)) ⊢ (gPts1 m d (Finset.univ.biUnion Ks) : sProp 𝕄) := by
  refine (bigSep_exists_pi Finset.univ (fun (t : T) (f : Buf (Elt F) (gLoc d)) =>
    (iprop(⌜∀ j ∈ Ks t, Gathered m d f j⌝ ∗ gLoc d ↦[Ks t]{fullShare} f) : sProp 𝕄))).trans ?_
  iintro ⟨%fs, H⟩
  ihave H2 := (bigSep_pure_sep Finset.univ (fun t => ∀ j ∈ Ks t, Gathered m d (fs t) j)
    (fun t => (gLoc d ↦[Ks t]{fullShare} fs t : sProp 𝕄))) $$ H
  icases H2 with ⟨%hG, H⟩
  ihave H' := (pointsTo_biUnion_join Finset.univ (ℓ := gLoc d) Ks fs (fs default) hK) $$ H
  icases H' with ⟨%g, %hg, Hg⟩
  iexists g
  isplitr
  · ipureintro
    intro j hj
    obtain ⟨t, ht, hjt⟩ := Finset.mem_biUnion.mp hj
    intro h
    rw [hg t ht j hjt]
    exact hG t ht j hjt h
  · iexact Hg

/-- The split of the one vector-subcore call. -/
theorem vecSplit : (K (F := F)).VecSplit' (P m) 0 := by
  intro d c
  show iprop(cPts m d (qCore (Fin.cast nCore_zero c)) ∗ yPts m d (qCore (Fin.cast nCore_zero c)) ∗ gPts0 m d (coreSet (Fin.cast nCore_zero c)))
    ⊢ |={Set.univ}=> iprop(
      (bigSep Finset.univ fun i : Fin ((K (F := F)).nSub 0) =>
        iprop(cPts m d (qTile (Fin.cast nCore_zero c) (Fin.cast nSub_zero i)) ∗ yPts m d (qTile (Fin.cast nCore_zero c) (Fin.cast nSub_zero i))
          ∗ gPts0 m d (taskSet (Fin.cast nCore_zero c) (Fin.cast nSub_zero i))))
      ∗ ((bigSep Finset.univ fun i : Fin ((K (F := F)).nSub 0) =>
          iprop(cPts m d (qTile (Fin.cast nCore_zero c) (Fin.cast nSub_zero i)) ∗ yPts m d (qTile (Fin.cast nCore_zero c) (Fin.cast nSub_zero i))
            ∗ gPts1 m d (taskSet (Fin.cast nCore_zero c) (Fin.cast nSub_zero i))))
          -∗ iprop(cPts m d (qCore (Fin.cast nCore_zero c)) ∗ yPts m d (qCore (Fin.cast nCore_zero c)) ∗ gPts1 m d (coreSet (Fin.cast nCore_zero c)))))
  generalize Fin.cast nCore_zero c = c'
  rw [bigSep_tasks (F := F) (fun s => iprop(cPts m d (qTile c' s) ∗ yPts m d (qTile c' s) ∗ gPts0 m d (taskSet c' s))),
    bigSep_tasks (F := F) (fun s => iprop(cPts m d (qTile c' s) ∗ yPts m d (qTile c' s) ∗ gPts1 m d (taskSet c' s))),
    bigSep_sep', bigSep_sep', bigSep_sep', bigSep_sep']
  rw [cPts_tiles, yPts_tiles, gPts0_tiles]
  iintro H; imodintro
  isplitl [H]; · iexact H
  iintro ⟨Hc, Hy, Hg⟩
  isplitl [Hc]; · iexact Hc
  isplitl [Hy]; · iexact Hy
  iapply (gPts1_join m d (taskSet c') (taskSet_disjoint c')); iexact Hg

/-- The TensorCore's side of the call: the three arrays whole are the two SparseCores' operands; -/
theorem st_of_whole (d : Dev nD) :
    iprop(cPts m d fullShare ∗ yPts m d fullShare ∗ (gLoc d ↦{fullShare} m (gLoc d)))
      ⊢ (bigSep Finset.univ fun c : Fin ((K (F := F)).nCore 0) => (P m).st 0 d c : sProp 𝕄) := by
  show _ ⊢ (bigSep Finset.univ fun c : Fin ((K (F := F)).nCore 0) =>
    iprop(cPts m d (qCore (Fin.cast nCore_zero c)) ∗ yPts m d (qCore (Fin.cast nCore_zero c)) ∗ gPts0 m d (coreSet (Fin.cast nCore_zero c))) : sProp 𝕄)
  rw [bigSep_cores (F := F) (fun c => iprop(cPts m d (qCore c) ∗ yPts m d (qCore c) ∗ gPts0 m d (coreSet c))),
    bigSep_sep', bigSep_sep', cPts_cores, yPts_cores, gPts0_cores]

/-- and their results are the two read-only arrays whole again and the gathered counts whole, every entry gathered. -/
theorem whole_of_dn (d : Dev nD) :
    (bigSep Finset.univ fun c : Fin ((K (F := F)).nCore 0) => (P m).dn 0 d c : sProp 𝕄)
      ⊢ iprop(cPts m d fullShare ∗ yPts m d fullShare ∗ ∃ f, ⌜∀ j, Gathered m d f j⌝ ∗ (gLoc d ↦{fullShare} f)) := by
  show (bigSep Finset.univ fun c : Fin ((K (F := F)).nCore 0) =>
    iprop(cPts m d (qCore (Fin.cast nCore_zero c)) ∗ yPts m d (qCore (Fin.cast nCore_zero c)) ∗ gPts1 m d (coreSet (Fin.cast nCore_zero c))) : sProp 𝕄) ⊢ _
  rw [bigSep_cores (F := F) (fun c => iprop(cPts m d (qCore c) ∗ yPts m d (qCore c) ∗ gPts1 m d (coreSet c))),
    bigSep_sep', bigSep_sep', cPts_cores, yPts_cores]
  iintro ⟨Hc, Hy, Hg⟩
  isplitl [Hc]; · iexact Hc
  isplitl [Hy]; · iexact Hy
  ihave H := (gPts1_join m d coreSet coreSets_disjoint) $$ Hg
  rw [coreSets_cover]
  icases H with ⟨%f, %hf, Hf⟩
  iexists f
  isplitr
  · ipureintro; intro j; exact hf j (Finset.mem_univ j)
  · iexact Hf

end Cert.Proof.KI

end
-- ==== Proof.KI_Host.lean ====
/-
  @main's host side on the TensorCore: its eight buffers held whole, the contents they have after the SparseCore call
  (the gathered counts: for each example the count at its label), after the transposition of the logits and the
  reshaping of the counts to a row, after the region (its one result word) and after the final reshape; and the
  launch element of the ghost state: the handshakes' rounds, the region's staging cells' rounds and tokens per device.
-/
import proofs.«210372_g71854802862689_cont_9to1_m_893_16_alg».proof.Proof.KI_Setup
import proofs.«210372_g71854802862689_cont_9to1_m_893_16_alg».proof.Proof.KI_Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- All eight are unscoped. -/
abbrev S8 : Finset (DevRef τ sig) := {a0', a1', a2', v0', v1', v2', v3', v4'}

theorem held_S8 (d : Dev nD) (W : Valuation τ sig (Elt F)) :
    (held (T d) S8 W : sProp 𝕄) = iprop((lgLoc d ↦{fullShare} W a0') ∗ (yLoc d ↦{fullShare} W a1') ∗ (cLoc d ↦{fullShare} W a2') ∗ (gLoc d ↦{fullShare} W v0')
      ∗ (ltLoc d ↦{fullShare} W v1') ∗ (rowLoc d ↦{fullShare} W v2') ∗ (outLoc d ↦{fullShare} W v3') ∗ (resLoc d ↦{fullShare} W v4')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((lgLoc d ↦{fullShare} W main_arg0) ∗ (yLoc d ↦{fullShare} W main_arg1) ∗ (cLoc d ↦{fullShare} W main_arg2) ∗ (gLoc d ↦{fullShare} W main_v0)
      ∗ (ltLoc d ↦{fullShare} W main_v1) ∗ (rowLoc d ↦{fullShare} W main_v2) ∗ (outLoc d ↦{fullShare} W main_v3) ∗ (resLoc d ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-! ## The host operations -/

abbrev opT : HloOp τ sig (Elt F) :=
  StableHlo.unary main_arg0 main_v1 ((transpose S100000x1024 [1, 0] · transposes_S1024x100000_S100000x1024_1_0) : (⟨S1024x100000, .f32⟩ : BufTy).Contents (Elt F) → (⟨S100000x1024, .f32⟩ : BufTy).Contents (Elt F))
abbrev opR : HloOp τ sig (Elt F) := StableHlo.reshape main_arg2 main_v2 rfl shapeCasts_S100000_S1x100000
abbrev opF : HloOp τ sig (Elt F) := StableHlo.reshape main_v3 main_v4 rfl shapeCasts_S1x1_S_

theorem hT : (opT (F := F)).bufs ⊆ S8 := show ({a0', v1'} : Finset (DevRef τ sig)) ⊆ S8 by decide
theorem hR : (opR (F := F)).bufs ⊆ S8 := show ({a2', v2'} : Finset (DevRef τ sig)) ⊆ S8 by decide
theorem hFo : (opF (F := F)).bufs ⊆ S8 := show ({v3', v4'} : Finset (DevRef τ sig)) ⊆ S8 by decide

/-! ## The contents -/

/-- The gathered counts, as a function of the launch memory: entry j the count at label j (taken below 100000, which it is). -/
def gath (d : Dev nD) : Buf (Elt F) (gLoc d) :=
  fun j => m (cLoc d) (ValueIdx.ix1 ⟨(m (yLoc d) j).toNat % 100000, Nat.mod_lt _ (by decide)⟩)

theorem gath_of_gathered (hpre : PreIdx m) (d : Dev nD) (f : Buf (Elt F) (gLoc d)) (h : ∀ j, Gathered m d f j) : f = gath m d := by
  funext j
  rw [h j (hpre d j)]
  unfold gath
  congr 2
  exact Fin.ext (Nat.mod_eq_of_lt (hpre d j)).symm

/-- As launched; after the call; after the two host operations. -/
def V0 (d : Dev nD) : Valuation τ sig (Elt F) := fun b => m (d, b)
def V1 (d : Dev nD) : Valuation τ sig (Elt F) := Function.update (V0 m d) v0' (gath m d)
def V2 (d : Dev nD) : Valuation τ sig (Elt F) := (opR (F := F)).result ((opT (F := F)).result (V1 m d))

/-- The buffers as the region finds them. -/
def Vr (c : Dev nD) (b : Ref sig .tc) : Buf (Elt F) ((c.tc : Thread nD τ).loc b) := V2 m c (Proc.devRef .tc b)

end Cert.Proof.KI

end
-- ==== Proof.KI_Fold.lean ====
/-
  What the region's three carried scratches hold after each grid point, as a pure function of the blocks the
  point reads: the clamped total of the counts (set at the first point), the running weighted sums of
  exponentials s, and the running label picks g. Point 0 resets all three and then accumulates its block;
  points 1 to 18 accumulate their block; point 19 accumulates its block with the rows beyond the array masked,
  and the region's result is then a function of the three and of the gathered label counts.
-/
import proofs.«210372_g71854802862689_cont_9to1_m_893_16_alg».proof.Proof.Gen.KernelIdeal.Skeleton

noncomputable section

namespace Cert.KernelIdeal.Fold

open Idealize.ShloMosaic Cert.KernelIdeal Cert.KernelIdeal.Gen

variable {F : FTy → Type} [FloatOps F]

/-- The carried scratches: the total (a scalar word), s and g (one entry per example). -/
structure St (F : FTy → Type) where
  tot : Elt F .f32
  s : Vec F S1x1024 .f32
  g : Vec F S1x1024 .f32

/-- The grid coordinate as the 32-bit word the body computes with. -/
abbrev argOf (i : grid1.Coords) : BitVec 32 := BitVec.ofNat 32 (i 0).val

/-- Point 0: the total from the whole row of counts, then one accumulation step from zeroed s and g. -/
def stepA (i : grid1.Coords) (x0 : Vec F S5120x1024 .f32) (x1 : Vec F S1x5120 .f32) (x2 : Vec F S1x100000 .f32)
    (x3 : Vec F S1024 .i32) : St F :=
  ⟨k1_pay1 x2, k1_pay5 (k1_pay1 x2) x0 x1 (k1_pay2 (F := F)), k1_pay6 i x0 x3 (k1_pay3 (F := F))⟩

/-- Points 1 to 18: one accumulation step over what the point before left. -/
def stepB (i : grid1.Coords) (x0 : Vec F S5120x1024 .f32) (x1 : Vec F S1x5120 .f32) (x3 : Vec F S1024 .i32) (p : St F) : St F :=
  ⟨p.tot, k1_pay5 p.tot x0 x1 p.s, k1_pay6 i x0 x3 p.g⟩

/-- Point 19: the masked accumulation step over what the point before left. -/
def stepC (i : grid1.Coords) (x0 : Vec F S5120x1024 .f32) (x1 : Vec F S1x5120 .f32) (x3 : Vec F S1024 .i32) (p : St F) : St F :=
  ⟨p.tot, k1_pay11 (argOf i) p.tot x1 x0 p.s,
    k1_pay7 (k1_pay9 (F := F) x3) (k1_pay10 (argOf i) x0) (iota .tc S5120x1 32 [0] iota_S5120x1_d0_w32) (k1_pay12 (argOf i)) p.g⟩

/-- The region's one result word, from the final scratches and the gathered label counts. -/
def outC (x4 : Vec F S1024 .f32) (p : St F) : Vec F S1x1 .f32 := k1_pay8 p.tot p.s p.g x4

/-- The scratches after point n, over the blocks X0 t, X1 t the points read and the whole rows x2 (counts) and x3 (labels). -/
def stAt (X0 : Fin grid1.N → Vec F S5120x1024 .f32) (X1 : Fin grid1.N → Vec F S1x5120 .f32) (x2 : Vec F S1x100000 .f32)
    (x3 : Vec F S1024 .i32) : (n : ℕ) → n < grid1.N → St F
  | 0, h => stepA (grid1.coords ⟨0, h⟩) (X0 ⟨0, h⟩) (X1 ⟨0, h⟩) x2 x3
  | n + 1, h =>
    if n + 1 < 19 then stepB (grid1.coords ⟨n + 1, h⟩) (X0 ⟨n + 1, h⟩) (X1 ⟨n + 1, h⟩) x3 (stAt X0 X1 x2 x3 n (Nat.lt_of_succ_lt h))
    else stepC (grid1.coords ⟨n + 1, h⟩) (X0 ⟨n + 1, h⟩) (X1 ⟨n + 1, h⟩) x3 (stAt X0 X1 x2 x3 n (Nat.lt_of_succ_lt h))

theorem stAt_zero (X0 : Fin grid1.N → Vec F S5120x1024 .f32) (X1 : Fin grid1.N → Vec F S1x5120 .f32) (x2 : Vec F S1x100000 .f32)
    (x3 : Vec F S1024 .i32) (h : 0 < grid1.N) :
    stAt X0 X1 x2 x3 0 h = stepA (grid1.coords ⟨0, h⟩) (X0 ⟨0, h⟩) (X1 ⟨0, h⟩) x2 x3 := rfl

theorem stAt_mid (X0 : Fin grid1.N → Vec F S5120x1024 .f32) (X1 : Fin grid1.N → Vec F S1x5120 .f32) (x2 : Vec F S1x100000 .f32)
    (x3 : Vec F S1024 .i32) (n : ℕ) (h : n + 1 < grid1.N) (hn : n + 1 < 19) :
    stAt X0 X1 x2 x3 (n + 1) h
      = stepB (grid1.coords ⟨n + 1, h⟩) (X0 ⟨n + 1, h⟩) (X1 ⟨n + 1, h⟩) x3 (stAt X0 X1 x2 x3 n (Nat.lt_of_succ_lt h)) := by
  rw [stAt, if_pos hn]

theorem stAt_last (X0 : Fin grid1.N → Vec F S5120x1024 .f32) (X1 : Fin grid1.N → Vec F S1x5120 .f32) (x2 : Vec F S1x100000 .f32)
    (x3 : Vec F S1024 .i32) (n : ℕ) (h : n + 1 < grid1.N) (hn : ¬ n + 1 < 19) :
    stAt X0 X1 x2 x3 (n + 1) h
      = stepC (grid1.coords ⟨n + 1, h⟩) (X0 ⟨n + 1, h⟩) (X1 ⟨n + 1, h⟩) x3 (stAt X0 X1 x2 x3 n (Nat.lt_of_succ_lt h)) := by
  rw [stAt, if_neg hn]

end Cert.KernelIdeal.Fold

end
-- ==== Proof.KI_Kit.lean ====
/-
  What the three runs of the region's body and its proof data are stated over: each window's current staging
  buffer at a grid point, the three scratch buffers the body carries between points, the body's three branch
  conditions decided over the twenty grid points (the first point only; every point but the last; the last point
  only), and at which points the result's window is stored into and written back (the last point only).
-/
import proofs.«210372_g71854802862689_cont_9to1_m_893_16_alg».proof.Proof.KI_Setup
import proofs.«210372_g71854802862689_cont_9to1_m_893_16_alg».proof.Proof.KI_Fold

noncomputable section

namespace Cert.Proof.KI

open Cert.KernelIdeal Cert.KernelIdeal.Gen Cert.KernelIdeal.Fold

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Each window's current staging buffer at point t, spelt as the pipeline passes it to the body, and its wholeness. -/
abbrev ms0 (t : Fin cfg1.N) : Memref sig .tc .vmem S5120x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x5120 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x100000 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1 .f32 := win1_5.stage (cfg1.slots t 5)
abbrev hs5 (t : Fin cfg1.N) : (ms5 t).IsWhole := hstage1_5 ((cfg1.slots t 5).cast nbuf1_5)
/-- The scratch operands: the running sums s, the running label picks g, the total (one word of scalar memory). -/
abbrev scS : Memref sig .tc .vmem S1x1024 .f32 := Memref.whole cc1_scratch0
abbrev scG : Memref sig .tc .vmem S1x1024 .f32 := Memref.whole cc1_scratch1
abbrev scT : Memref sig .tc .smem S1x1 .f32 := Memref.whole cc1_scratch2

/-- The body at point t is the kernel function on those memrefs. -/
theorem bodyAt1_eq (t : Fin cfg1.N) :
    bodyAt1 (F := F) t = cc1__tc_body (grid1.coords t) (ms0 t) (hs0 t) (ms1 t) (hs1 t) (ms2 t) (hs2 t) (ms3 t) (hs3 t) (ms4 t) (hs4 t) (ms5 t) (hs5 t)
      scS (Memref.isWhole_whole _) scG (Memref.isWhole_whole _) scT (Memref.isWhole_whole _) := rfl

/-- The first branch (reset the scratches): taken at point 0 only. -/
abbrev cond0 (i : grid1.Coords) : Prop := (Scalar.cmpi .ne (Scalar.extui (Scalar.cmpi .eq (BitVec.ofNat 32 (i 0).val) 0#32)) 0#32) = 1#1
theorem hcond0 : ∀ t : Fin cfg1.N, cond0 (grid1.coords t) ↔ t.val = 0 :=
  (by decide +kernel : ∀ t : Fin grid1.N, cond0 (grid1.coords t) ↔ t.val = 0)
/-- The second branch (an unmasked accumulation step): taken at every point but the last. -/
abbrev cond1 (i : grid1.Coords) : Prop := (Scalar.cmpi .ne (Scalar.extui (Scalar.cmpi .slt (BitVec.ofNat 32 (i 0).val) 19#32)) 0#32) = 1#1
theorem hcond1 : ∀ t : Fin cfg1.N, cond1 (grid1.coords t) ↔ t.val < 19 :=
  (by decide +kernel : ∀ t : Fin grid1.N, cond1 (grid1.coords t) ↔ t.val < 19)
/-- The third branch (the masked step and the result): taken at the last point only. -/
abbrev cond2 (i : grid1.Coords) : Prop := k1_cond3 i = 1#1
theorem hcond2 : ∀ t : Fin cfg1.N, cond2 (grid1.coords t) ↔ t.val = 19 :=
  (by decide +kernel : ∀ t : Fin grid1.N, cond2 (grid1.coords t) ↔ t.val = 19)

/-- The inputs' windows are never idle; the result's window is idle, and not written back, at every point but the last. -/
theorem live_in : ∀ (w : Fin 6), w ≠ 5 → ∀ t : Fin cfg1.N, cfg1.idle w (grid1.coords t) = false := by decide +kernel
theorem idle5 : ∀ t : Fin cfg1.N, t.val ≠ 19 → cfg1.idle 5 (grid1.coords t) = true := by decide +kernel
theorem live5 : ∀ t : Fin cfg1.N, t.val = 19 → cfg1.idle 5 (grid1.coords t) = false := by decide +kernel
theorem noFlush5 : ∀ t : Fin cfg1.N, t.val ≠ 19 → (cfg1.win 5).flush t = false := by decide +kernel

end Cert.Proof.KI

end
-- ==== Proof.KI_RunA.lean ====
/-
  The body at the first grid point: the first branch resets the three scratches (the total from the whole row of counts, s and g to zero), the second accumulates the point's block into s and g, the third is not taken; the result's buffer is not touched.
-/
import proofs.«210372_g71854802862689_cont_9to1_m_893_16_alg».proof.Proof.KI_Kit
import Idealize.ShloMosaic.Lib.Pipeline.Value

set_option maxRecDepth 16384

noncomputable section

namespace Cert.Proof.KI

open Cert.KernelIdeal Cert.KernelIdeal.Gen Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- The zero offsets of a whole access, at rank two and at rank one. -/
private theorem zeros2 : (![0, 0] : Fin 2 → ℕ) = fun _ => 0 := funext fun a => by fin_cases a <;> rfl
private theorem zeros1 : (![0] : Fin 1 → ℕ) = fun _ => 0 := funext fun a => by fin_cases a; rfl

/-- A store of every element, made last, is what the buffer then reads, whatever was stored before. -/
private theorem read_writes_cons_unit_zero {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  have hc : ∀ y : S.Idx, ∃ p ∈ ((⟨Rect.unit off S.size inb, w⟩ : View.Piece (Elt F) S e) :: L), y ∈ p.1.set :=
    fun y => ⟨⟨Rect.unit off S.size inb, w⟩, List.mem_cons.mpr (Or.inl rfl), View.mem_set_unit_zero h inb y⟩
  rw [View.read_writes_eq_canon v f _ hc, View.canon_cons_unit_zero h inb w L]

/-- The body's run at the first point. -/
theorem runA (c : Dev nD) (i : grid1.Coords) (a1 : Memref sig .tc .vmem S5120x1024 .f32) (h1 : a1.IsWhole) (a2 : Memref sig .tc .vmem S1x5120 .f32) (h2 : a2.IsWhole)
    (a3 : Memref sig .tc .vmem S1x100000 .f32) (h3 : a3.IsWhole) (a4 : Memref sig .tc .vmem S1024 .i32) (h4 : a4.IsWhole)
    (a5 : Memref sig .tc .vmem S1024 .f32) (h5 : a5.IsWhole) (a6 : Memref sig .tc .vmem S1x1 .f32) (h6 : a6.IsWhole)
    (a7 : Memref sig .tc .vmem S1x1024 .f32) (h7 : a7.IsWhole) (a8 : Memref sig .tc .vmem S1x1024 .f32) (h8 : a8.IsWhole)
    (a9 : Memref sig .tc .smem S1x1 .f32) (h9 : a9.IsWhole)
    (hc0 : cond0 i) (hc1 : cond1 i) (hc2 : ¬cond2 i)
    (x0 : Vec F S5120x1024 .f32) (x1 : Vec F S1x5120 .f32) (x2 : Vec F S1x100000 .f32) (x3 : Vec F S1024 .i32) (x4 : Vec F S1024 .f32) (x5 : Vec F S1x1 .f32)
    (xs xg : Vec F S1x1024 .f32) (xt : Vec F S1x1 .f32) (E : Set ℕ) (Kt : PUnit → sProp 𝕄) :
    iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
        ∗ owns (c.tc : Thread nD τ) a7 fullShare xs ∗ owns (c.tc : Thread nD τ) a8 fullShare xg ∗ owns (c.tc : Thread nD τ) a9 fullShare xt
        ∗ (iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
            ∗ owns (c.tc : Thread nD τ) a7 fullShare (stepA i x0 x1 x2 x3).s ∗ owns (c.tc : Thread nD τ) a8 fullShare (stepA i x0 x1 x2 x3).g
            ∗ owns (c.tc : Thread nD τ) a9 fullShare (fun _ => (stepA i x0 x1 x2 x3).tot)) -∗ Kt ⟨⟩))
      ⊢ wp frame (wpE (defs₀ (F := F)) Variants.none (c.tc : Thread nD τ) none) E (cc1__tc_body i a1 h1 a2 h2 a3 h3 a4 h4 a5 h5 a6 h6 a7 h7 a8 h8 a9 h9) Kt := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1 | exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · -- s: the accumulation step's store is the last through the whole buffer, over the reset's
    iexists _; isplitr
    rotate_left
    · iexact H6
    · ipureintro
      refine (read_writes_cons_unit_zero (S := S1x1024) a7.view f6 zeros2 _ _ _).trans ?_
      sl_unfold_run_names
      simp only [View.readAt_eq_ld, h1.read_unread, h2.read_unread, h3.read_unread, View.ld_unit_zero (S := S5120x1024) zeros2,
        View.ld_unit_zero (S := S1x5120) zeros2, View.ld_unit_zero (S := S1x100000) zeros2,
        View.readCov_unit_zero (S := S1x1024) _ zeros2, stepA]
  isplitl [H7]
  · -- g: likewise
    iexists _; isplitr
    rotate_left
    · iexact H7
    · ipureintro
      refine (read_writes_cons_unit_zero (S := S1x1024) a8.view f7 zeros2 _ _ _).trans ?_
      sl_unfold_run_names
      simp only [View.readAt_eq_ld, h1.read_unread, h4.read_unread, View.ld_unit_zero (S := S5120x1024) zeros2,
        View.ld_unit_zero (S := S1024) zeros1,
        View.readCov_unit_zero (S := S1x1024) _ zeros2, stepA]
  · -- the total: one store of the one word
    iexists _; isplitr
    rotate_left
    · iexact H8
    · ipureintro
      refine (read_writes_cons_unit_zero (S := S1x1) a9.view f8 zeros2 _ _ _).trans ?_
      simp only [View.readAt_eq_ld, h3.read_unread, View.ld_unit_zero (S := S1x100000) zeros2, stepA]
      rfl

end Cert.Proof.KI

end
-- ==== Proof.KI_RunB.lean ====
/-
  The body at a middle grid point: only the second branch is taken; it accumulates the point's block into s and g over what the point before left; the total and the result's buffer are not touched.
-/
import proofs.«210372_g71854802862689_cont_9to1_m_893_16_alg».proof.Proof.KI_Kit
import Idealize.ShloMosaic.Lib.Pipeline.Value
import Idealize.ShloMosaic.Lib.WholeRead

set_option maxRecDepth 16384

noncomputable section

namespace Cert.Proof.KI

open Cert.KernelIdeal Cert.KernelIdeal.Gen Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- The zero offsets, spelt as the literal vectors the body's accesses carry. -/
private theorem off2 : (![0, 0] : Fin 2 → ℕ) = fun _ => 0 := funext fun a => by fin_cases a <;> rfl
private theorem off1 : (![0] : Fin 1 → ℕ) = fun _ => 0 := funext fun a => by fin_cases a; rfl

/-- A load through the whole-shape rectangle at zero offsets, of a whole memref held at the contents that read X, reads X. -/
private theorem load_whole {κ : Kind} {sp : Space} {S : Shape} {e : EltTy} {m : Memref sig κ sp S e} (h : m.IsWhole)
    {off : Fin S.rank → ℕ} (ho : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero ho]

/-- One store through that rectangle leaves its payload, whatever the buffer held. -/
private theorem store_whole {κ : Kind} {sp : Space} {S : Shape} {e : EltTy} (v : View sig κ sp S e) (f : v.ty.Contents (Elt F))
    {off : Fin S.rank → ℕ} (ho : off = fun _ => 0) (inb : ∀ a, off a + S.size a ≤ S.size a) (w : S.Idx → Elt F e) :
    v.read (Elt F) (v.writes (Elt F) f [(⟨Rect.unit off S.size inb, w⟩ : View.Piece (Elt F) S e)]) = w := by
  subst ho; exact View.read_writes_whole v f w

/-- The body's run at a middle point. -/
theorem runB (c : Dev nD) (i : grid1.Coords) (a1 : Memref sig .tc .vmem S5120x1024 .f32) (h1 : a1.IsWhole) (a2 : Memref sig .tc .vmem S1x5120 .f32) (h2 : a2.IsWhole)
    (a3 : Memref sig .tc .vmem S1x100000 .f32) (h3 : a3.IsWhole) (a4 : Memref sig .tc .vmem S1024 .i32) (h4 : a4.IsWhole)
    (a5 : Memref sig .tc .vmem S1024 .f32) (h5 : a5.IsWhole) (a6 : Memref sig .tc .vmem S1x1 .f32) (h6 : a6.IsWhole)
    (a7 : Memref sig .tc .vmem S1x1024 .f32) (h7 : a7.IsWhole) (a8 : Memref sig .tc .vmem S1x1024 .f32) (h8 : a8.IsWhole)
    (a9 : Memref sig .tc .smem S1x1 .f32) (h9 : a9.IsWhole)
    (hc0 : ¬cond0 i) (hc1 : cond1 i) (hc2 : ¬cond2 i)
    (x0 : Vec F S5120x1024 .f32) (x1 : Vec F S1x5120 .f32) (x2 : Vec F S1x100000 .f32) (x3 : Vec F S1024 .i32) (x4 : Vec F S1024 .f32) (x5 : Vec F S1x1 .f32)
    (p : St F) (E : Set ℕ) (Kt : PUnit → sProp 𝕄) :
    iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
        ∗ owns (c.tc : Thread nD τ) a7 fullShare p.s ∗ owns (c.tc : Thread nD τ) a8 fullShare p.g ∗ owns (c.tc : Thread nD τ) a9 fullShare (fun _ => p.tot)
        ∗ (iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
            ∗ owns (c.tc : Thread nD τ) a7 fullShare (stepB i x0 x1 x3 p).s ∗ owns (c.tc : Thread nD τ) a8 fullShare (stepB i x0 x1 x3 p).g
            ∗ owns (c.tc : Thread nD τ) a9 fullShare (fun _ => (stepB i x0 x1 x3 p).tot)) -∗ Kt ⟨⟩))
      ⊢ wp frame (wpE (defs₀ (F := F)) Variants.none (c.tc : Thread nD τ) none) E (cc1__tc_body i a1 h1 a2 h2 a3 h3 a4 h4 a5 h5 a6 h6 a7 h7 a8 h8 a9 h9) Kt := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, Hk⟩
  obtain rfl := h1.eq_unread hf1; obtain rfl := h2.eq_unread hf2; obtain rfl := h3.eq_unread hf3
  obtain rfl := h4.eq_unread hf4; obtain rfl := h5.eq_unread hf5; obtain rfl := h6.eq_unread hf6
  obtain rfl := h7.eq_unread hf7; obtain rfl := h8.eq_unread hf8; obtain rfl := h9.eq_unread hf9
  sl_exec (disch := first | exact hc0 | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; rotate_left
    · iexact H7
    · ipureintro
      rw [store_whole _ _ off2, load_whole h1 off2, load_whole h2 off2, load_whole h7 off2]
      show _ = k1_pay5 p.tot x0 x1 p.s
      exact congrArg (fun w => k1_pay5 w x0 x1 p.s) (h9.readAt_unread (fun _ => p.tot) _ _)
  isplitl [H8]
  · iexists _; isplitr; rotate_left
    · iexact H8
    · ipureintro
      rw [store_whole _ _ off2, load_whole h1 off2, load_whole h4 off1, load_whole h8 off2]
      rfl
  iexists _; isplitr; · ipureintro; exact h9.read_unread _
  iexact H9

end Cert.Proof.KI

end
-- ==== Proof.KI_RunC.lean ====
/-
  The body at the last grid point: only the third branch is taken; it accumulates the point's block, the rows beyond the array masked, into s and g over what the point before left, and stores the result word computed from the three scratches and the gathered label counts.
-/
import proofs.«210372_g71854802862689_cont_9to1_m_893_16_alg».proof.Proof.KI_Kit

set_option maxRecDepth 16384

noncomputable section

namespace Cert.Proof.KI

open Cert.KernelIdeal Cert.KernelIdeal.Gen Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- A load of the whole shape through a whole memref held at the contents that read X reads X. -/
private theorem readAt_all_unread {κ : Kind} {sp : Space} {s : Shape} {e : EltTy} {m : Memref sig κ sp s e} (h : m.IsWhole)
    (X : s.Idx → Elt F e) {off : Fin s.rank → ℕ} (inb : ∀ a, off a + s.size a ≤ s.size a) :
    View.readAt (Elt F) m.view (Rect.unit off s.size inb).toLoadRect (h.unread X) = X := by
  funext x
  rw [View.readAt_apply, h.read_unread]
  exact congrArg X (funext fun a => Fin.ext (by
    show off a + 1 * (x a).val = (x a).val
    have := inb a
    omega))

/-- After a store of the whole shape, whatever was stored before, the view reads the stored value. -/
private theorem read_writes_all {κ : Kind} {sp : Space} {s : Shape} {e : EltTy} (v : View sig κ sp s e) (f : v.ty.Contents (Elt F))
    {off : Fin s.rank → ℕ} (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  have hy : (Rect.unit off s.size inb).emb y = y := funext fun a => Fin.ext (by
    show off a + 1 * (y a).val = (y a).val
    have := inb a
    omega)
  exact (congrArg (v.read (Elt F) (v.writes (Elt F) f ((⟨Rect.unit off s.size inb, w⟩ : View.Piece (Elt F) s e) :: L))) hy.symm).trans
    (View.read_writes_cons_emb v f (Rect.unit off s.size inb) w L y)

/-- The body's run at the last point. -/
theorem runC (c : Dev nD) (i : grid1.Coords) (a1 : Memref sig .tc .vmem S5120x1024 .f32) (h1 : a1.IsWhole) (a2 : Memref sig .tc .vmem S1x5120 .f32) (h2 : a2.IsWhole)
    (a3 : Memref sig .tc .vmem S1x100000 .f32) (h3 : a3.IsWhole) (a4 : Memref sig .tc .vmem S1024 .i32) (h4 : a4.IsWhole)
    (a5 : Memref sig .tc .vmem S1024 .f32) (h5 : a5.IsWhole) (a6 : Memref sig .tc .vmem S1x1 .f32) (h6 : a6.IsWhole)
    (a7 : Memref sig .tc .vmem S1x1024 .f32) (h7 : a7.IsWhole) (a8 : Memref sig .tc .vmem S1x1024 .f32) (h8 : a8.IsWhole)
    (a9 : Memref sig .tc .smem S1x1 .f32) (h9 : a9.IsWhole)
    (hc0 : ¬cond0 i) (hc1 : ¬cond1 i) (hc2 : cond2 i)
    (x0 : Vec F S5120x1024 .f32) (x1 : Vec F S1x5120 .f32) (x2 : Vec F S1x100000 .f32) (x3 : Vec F S1024 .i32) (x4 : Vec F S1024 .f32) (x5 : Vec F S1x1 .f32)
    (p : St F) (E : Set ℕ) (Kt : PUnit → sProp 𝕄) :
    iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
        ∗ owns (c.tc : Thread nD τ) a7 fullShare p.s ∗ owns (c.tc : Thread nD τ) a8 fullShare p.g ∗ owns (c.tc : Thread nD τ) a9 fullShare (fun _ => p.tot)
        ∗ (iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare (outC x4 (stepC i x0 x1 x3 p))
            ∗ owns (c.tc : Thread nD τ) a7 fullShare (stepC i x0 x1 x3 p).s ∗ owns (c.tc : Thread nD τ) a8 fullShare (stepC i x0 x1 x3 p).g
            ∗ owns (c.tc : Thread nD τ) a9 fullShare (fun _ => (stepC i x0 x1 x3 p).tot)) -∗ Kt ⟨⟩))
      ⊢ wp frame (wpE (defs₀ (F := F)) Variants.none (c.tc : Thread nD τ) none) E (cc1__tc_body i a1 h1 a2 h2 a3 h3 a4 h4 a5 h5 a6 h6 a7 h7 a8 h8 a9 h9) Kt := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  obtain rfl := h7.eq_unread hf6; obtain rfl := h8.eq_unread hf7; obtain rfl := h9.eq_unread hf8
  sl_exec (disch := first | exact hc0 | exact hc1 | exact hc2)
  sl_step
  -- the word read from the total's cell is the total
  have hr : runC.sl.r c a9 h9 p = p.tot := by
    unfold runC.sl.r
    exact congrFun (h9.read_unread (fun _ => p.tot)) _
  -- s as the result's computation reads it back, and as the store leaves it: the masked step's sums
  have hv64 : runC.sl.v64 c i a1 h1 a2 h2 a7 h7 a9 h9 x0 x1 p = (stepC i x0 x1 x3 p).s := by
    unfold runC.sl.v64 runC.sl.H6_1
    refine (View.readCov_cons_toLoadRect _ _ _ _).trans ?_
    show _ = k1_pay11 (argOf i) p.tot x1 x0 p.s
    exact congr (congr (congr (congrArg (k1_pay11 _) hr) (readAt_all_unread h2 x1 _)) (readAt_all_unread h1 x0 _)) (readAt_all_unread h7 p.s _)
  have hs : View.read (Elt F) a7.view (a7.view.writes (Elt F) (h7.unread p.s) (runC.sl.H6_1 c i a1 h1 a2 h2 a7 h7 a9 h9 x0 x1 p))
      = (stepC i x0 x1 x3 p).s := by
    unfold runC.sl.H6_1
    refine (read_writes_all _ _ _ _ _).trans ?_
    show _ = k1_pay11 (argOf i) p.tot x1 x0 p.s
    exact congr (congr (congr (congrArg (k1_pay11 _) hr) (readAt_all_unread h2 x1 _)) (readAt_all_unread h1 x0 _)) (readAt_all_unread h7 p.s _)
  -- g likewise: the masked step's label picks
  have hv66 : runC.sl.v66 c i a1 h1 a4 h4 a8 h8 x0 x3 p = (stepC i x0 x1 x3 p).g := by
    unfold runC.sl.v66 runC.sl.H7_1
    refine (View.readCov_cons_toLoadRect _ _ _ _).trans ?_
    show _ = k1_pay7 (k1_pay9 (F := F) x3) (k1_pay10 (argOf i) x0) (iota .tc S5120x1 32 [0] iota_S5120x1_d0_w32) (k1_pay12 (argOf i)) p.g
    dsimp only
    unfold runC.sl.v48
    rw [readAt_all_unread h4 x3, readAt_all_unread h1 x0, readAt_all_unread h8 p.g]
  have hg : View.read (Elt F) a8.view (a8.view.writes (Elt F) (h8.unread p.g) (runC.sl.H7_1 c i a1 h1 a4 h4 a8 h8 x0 x3 p))
      = (stepC i x0 x1 x3 p).g := by
    unfold runC.sl.H7_1
    refine (read_writes_all _ _ _ _ _).trans ?_
    show _ = k1_pay7 (k1_pay9 (F := F) x3) (k1_pay10 (argOf i) x0) (iota .tc S5120x1 32 [0] iota_S5120x1_d0_w32) (k1_pay12 (argOf i)) p.g
    dsimp only
    unfold runC.sl.v48
    rw [readAt_all_unread h4 x3, readAt_all_unread h1 x0, readAt_all_unread h8 p.g]
  iapply Hk
  isplitl [H0]
  · iexists _; isplitr
    · ipureintro; exact h1.read_unread _
    iexact H0
  isplitl [H1]
  · iexists _; isplitr
    · ipureintro; exact h2.read_unread _
    iexact H1
  isplitl [H2]
  · iexists _; isplitr
    · ipureintro; exact h3.read_unread _
    iexact H2
  isplitl [H3]
  · iexists _; isplitr
    · ipureintro; exact h4.read_unread _
    iexact H3
  isplitl [H4]
  · iexists _; isplitr
    · ipureintro; exact h5.read_unread _
    iexact H4
  isplitl [H5]
  · iexists _; isplitr
    rotate_left
    · iexact H5
    · ipureintro
      refine (read_writes_all _ _ _ _ _).trans ?_
      show _ = k1_pay8 p.tot (stepC i x0 x1 x3 p).s (stepC i x0 x1 x3 p).g x4
      exact congr (congr (congr (congrArg k1_pay8 hr) hv64) hv66) (readAt_all_unread h5 x4 _)
  isplitl [H6]
  · iexists _; isplitr
    · ipureintro; exact hs
    iexact H6
  isplitl [H7]
  · iexists _; isplitr
    · ipureintro; exact hg
    iexact H7
  iexists _; isplitr
  · ipureintro; exact h9.read_unread _
  iexact H8

end Cert.Proof.KI

end
-- ==== Proof.KI_Mask.lean ====
/-
  The last grid point's step does not depend on what its two blocks hold beyond the arrays' end: rows of the logits
  block with 5120 * 19 + r ≥ 100000 are replaced by a constant before they are exponentiated, and the matching
  entries of the count block by a zero weight, by selects on the row number; so two blocks that agree on the rows
  inside the array give the same step. (At every float instance: a select chooses, it does not compute.)
-/
import proofs.«210372_g71854802862689_cont_9to1_m_893_16_alg».proof.Proof.KI_Fold
import Idealize.ShloMosaic.Lib.ValueIdx
import Idealize.ShloMosaic.Lib.ValueLayout
import Idealize.ShloMosaic.Lib.Pipeline.Value

noncomputable section

namespace Cert.KernelIdeal.Fold

open Idealize.ShloMosaic Cert.KernelIdeal Cert.KernelIdeal.Gen
open Idealize.ShloMosaic.ValueIdx (ix1 ix2)

variable {F : FTy → Type} [FloatOps F]

/-- Row r of block n as a 32-bit word: the row's number in the whole array (the arithmetic does not wrap). -/
private theorem maskRowWord (n r : ℕ) (hn : n < 20) (hr : r < 5120) :
    IntOp.addi (BitVec.ofNat 32 r) (Scalar.muli (BitVec.ofNat 32 n) 5120#32) = BitVec.ofNat 32 (5120 * n + r) := by
  show BitVec.ofNat 32 r + BitVec.ofNat 32 n * 5120#32 = _
  apply BitVec.eq_of_toNat_eq
  simp only [BitVec.toNat_add, BitVec.toNat_mul, BitVec.toNat_ofNat]
  omega

/-- A number below 2^31, as a word, is below 100000 in the signed order exactly when the number is. -/
private theorem maskSlt (m : ℕ) (hm : m < 2 ^ 31) :
    IntOp.cmpi .slt (BitVec.ofNat 32 m) 100000#32 = 1#1 ↔ m < 100000 := by
  show BitVec.ofBool ((BitVec.ofNat 32 m).slt 100000#32) = 1#1 ↔ _
  have h1 : (BitVec.ofNat 32 m).toInt = (m : Int) := by
    rw [BitVec.toInt_eq_toNat_cond, BitVec.toNat_ofNat]
    have : m % 2 ^ 32 = m := Nat.mod_eq_of_lt (by omega)
    rw [this]
    split <;> omega
  have h2 : (100000#32 : BitVec 32).toInt = 100000 := by decide
  have e : (BitVec.ofNat 32 m).slt 100000#32 = decide (m < 100000) := by
    unfold BitVec.slt
    rw [h1, h2]
    simp
  rw [e]
  by_cases h : m < 100000
  · simp [h]
  · simp [h]

/-- Two selects on one mask agree as soon as their first operands agree where the mask's bit is 1. -/
private theorem select_congr_on {s : Shape} {α : Type} (m : IVec s 1) (a a' c : s.Idx → α)
    (h : ∀ j, m j = 1#1 → a j = a' j) : select m a c = select m a' c := by
  funext j
  show Scalar.select (m j) (a j) (c j) = Scalar.select (m j) (a' j) (c j)
  by_cases hm : m j = 1#1
  · rw [hm, ValueIdx.select_one, ValueIdx.select_one]
    exact h j hm
  · rw [ValueIdx.eq_zero_of_ne_one hm, ValueIdx.select_zero, ValueIdx.select_zero]

/-- A column [a, 1] broadcast to [a, b] reads, at (p, c), the column at p. -/
private theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row mask of block n at (r, b): its bit is 1 exactly on the rows inside the array. -/
private theorem rowMask_iff (n : ℕ) (hn : n < 20) (r : Fin 5120) (b : Fin 1024) :
    broadcastTo S5120x1024
        (cmpi .slt (addi (iota .tc S5120x1 32 [0] iota_S5120x1_d0_w32) (broadcast S5120x1 (Scalar.muli (BitVec.ofNat 32 n) 5120#32)))
          (broadcast S5120x1 100000#32))
        broadcasts_S5120x1_S5120x1024 (ix2 r b) = 1#1
      ↔ 5120 * n + r.val < 100000 := by
  rw [bcast_col]
  show IntOp.cmpi .slt (IntOp.addi (iota .tc S5120x1 32 [0] iota_S5120x1_d0_w32 (ix2 r (0 : Fin 1))) (Scalar.muli (BitVec.ofNat 32 n) 5120#32)) 100000#32 = 1#1 ↔ _
  rw [iota_single_apply]
  show IntOp.cmpi .slt (IntOp.addi (BitVec.ofNat 32 r.val) _) _ = 1#1 ↔ _
  rw [maskRowWord n r.val hn r.isLt]
  exact maskSlt _ (by omega)

/-- The weight mask of block n at (0, r): its bit is 1 exactly on the entries inside the array. -/
private theorem colMask_iff (n : ℕ) (hn : n < 20) (r : Fin 5120) :
    cmpi .slt (addi (iota .tc S1x5120 32 [1] iota_S1x5120_d1_w32) (broadcast S1x5120 (Scalar.muli (BitVec.ofNat 32 n) 5120#32)))
        (broadcast S1x5120 100000#32) (ix2 (0 : Fin 1) r) = 1#1
      ↔ 5120 * n + r.val < 100000 := by
  show IntOp.cmpi .slt (IntOp.addi (iota .tc S1x5120 32 [1] iota_S1x5120_d1_w32 (ix2 (0 : Fin 1) r)) (Scalar.muli (BitVec.ofNat 32 n) 5120#32)) 100000#32 = 1#1 ↔ _
  rw [iota_single_apply]
  show IntOp.cmpi .slt (IntOp.addi (BitVec.ofNat 32 r.val) _) _ = 1#1 ↔ _
  rw [maskRowWord n r.val hn r.isLt]
  exact maskSlt _ (by omega)

/-- The masked exponentials of block n depend on the block only through its rows inside the array. -/
theorem k1_pay10_congr (n : ℕ) (hn : n < 20) (x0 x0' : Vec F S5120x1024 .f32)
    (h0 : ∀ (r : Fin 5120) (b : Fin 1024), 5120 * n + r.val < 100000 → x0 (ix2 r b) = x0' (ix2 r b)) :
    k1_pay10 (F := F) (BitVec.ofNat 32 n) x0 = k1_pay10 (F := F) (BitVec.ofNat 32 n) x0' := by
  unfold k1_pay10
  simp only [shapeCast_self]
  refine congrArg exp (select_congr_on _ _ _ _ fun j hm => ?_)
  obtain ⟨r, b, rfl⟩ : ∃ r b, j = ix2 r b := ⟨j 0, j 1, ValueIdx.eq_ix2 j⟩
  exact h0 r b ((rowMask_iff n hn r b).1 hm)

/-- The masked accumulation of block n depends on the two blocks only through their rows inside the array. -/
theorem k1_pay11_congr (n : ℕ) (hn : n < 20) (tot : Elt F .f32) (x1 x1' : Vec F S1x5120 .f32) (x0 x0' : Vec F S5120x1024 .f32)
    (sp : Vec F S1x1024 .f32)
    (h0 : ∀ (r : Fin 5120) (b : Fin 1024), 5120 * n + r.val < 100000 → x0 (ix2 r b) = x0' (ix2 r b))
    (h1 : ∀ r : Fin 5120, 5120 * n + r.val < 100000 → x1 (ix2 (0 : Fin 1) r) = x1' (ix2 (0 : Fin 1) r)) :
    k1_pay11 (F := F) (BitVec.ofNat 32 n) tot x1 x0 sp = k1_pay11 (F := F) (BitVec.ofNat 32 n) tot x1' x0' sp := by
  unfold k1_pay11
  simp only [shapeCast_self]
  rw [k1_pay10_congr n hn x0 x0' h0]
  have hsel :
      select (cmpi .slt (addi (iota .tc S1x5120 32 [1] iota_S1x5120_d1_w32) (broadcast S1x5120 (Scalar.muli (BitVec.ofNat 32 n) 5120#32)))
          (broadcast S1x5120 100000#32))
        (addf (divf x1 (broadcast S1x5120 tot)) (broadcast S1x5120 (Scalar.ofBits (F := F) .f32 0x2B8CBCCC#32)))
        (broadcast S1x5120 (Scalar.ofBits (F := F) .f32 0x00000000#32))
      = select (cmpi .slt (addi (iota .tc S1x5120 32 [1] iota_S1x5120_d1_w32) (broadcast S1x5120 (Scalar.muli (BitVec.ofNat 32 n) 5120#32)))
          (broadcast S1x5120 100000#32))
        (addf (divf x1' (broadcast S1x5120 tot)) (broadcast S1x5120 (Scalar.ofBits (F := F) .f32 0x2B8CBCCC#32)))
        (broadcast S1x5120 (Scalar.ofBits (F := F) .f32 0x00000000#32)) := by
    refine select_congr_on _ _ _ _ fun j hm => ?_
    obtain ⟨z, r, rfl⟩ : ∃ (z : Fin 1) (r : Fin 5120), j = ix2 z r := ⟨j 0, j 1, ValueIdx.eq_ix2 j⟩
    obtain rfl : z = 0 := Subsingleton.elim _ _
    have hr : 5120 * n + r.val < 100000 := (colMask_iff n hn r).1 hm
    show FloatOps.addf (FloatOps.divf (x1 (ix2 (0 : Fin 1) r)) tot) _ = FloatOps.addf (FloatOps.divf (x1' (ix2 (0 : Fin 1) r)) tot) _
    rw [h1 r hr]
  rw [hsel]

/-- Blocks that agree on the rows inside the array give the same last step. -/
theorem stepC_congr (i : grid1.Coords) (hi : (i 0).val = 19) (x0 x0' : Vec F S5120x1024 .f32) (x1 x1' : Vec F S1x5120 .f32)
    (h0 : ∀ (r : Fin 5120) (b : Fin 1024), 5120 * 19 + r.val < 100000 → x0 (ix2 r b) = x0' (ix2 r b))
    (h1 : ∀ r : Fin 5120, 5120 * 19 + r.val < 100000 → x1 (ix2 (0 : Fin 1) r) = x1' (ix2 (0 : Fin 1) r))
    (x3 : Vec F S1024 .i32) (p : St F) :
    stepC i x0 x1 x3 p = stepC i x0' x1' x3 p := by
  have ha : argOf i = BitVec.ofNat 32 19 := by
    show BitVec.ofNat 32 (i 0).val = _
    rw [hi]
  unfold stepC
  rw [ha, k1_pay10_congr 19 (by decide) x0 x0' h0, k1_pay11_congr 19 (by decide) p.tot x1 x1' x0 x0' p.s h0 h1]

end Cert.KernelIdeal.Fold

end
-- ==== Proof.KI_Dat.lean ====
/-
  The region's proof data. Each grid point reads its block of the transposed logits and of the counts (at the
  last point the rows beyond the array filled with a word nothing depends on), and the whole row of counts, labels
  and gathered label counts; it leaves the three scratches at the fold of the points so far; the result's buffer is
  stored at the last point only, with the result word. The body's three cases are the three runs.
-/
import proofs.«210372_g71854802862689_cont_9to1_m_893_16_alg».proof.Proof.KI_Kit
import proofs.«210372_g71854802862689_cont_9to1_m_893_16_alg».proof.Proof.KI_RunA
import proofs.«210372_g71854802862689_cont_9to1_m_893_16_alg».proof.Proof.KI_RunB
import proofs.«210372_g71854802862689_cont_9to1_m_893_16_alg».proof.Proof.KI_RunC
import proofs.«210372_g71854802862689_cont_9to1_m_893_16_alg».proof.Proof.KI_Mask

set_option maxRecDepth 16384

noncomputable section

namespace Cert.Proof.KI

open Cert.KernelIdeal Cert.KernelIdeal.Gen Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose)
open Idealize.ShloMosaic.ValueIdx (ix1 ix2)

variable {F : FTy → Type} [FloatOps F]

local notation "𝕄" => MT nD τ sig (HIx 1) (Elt F) ℕ UU ℕ

/-- The pipeline has no prefetched table. -/
abbrev adm : (p : Fin 1) → (pcfgs (F := F) p).Adm := fun p => (cfgs p).toPCfg_adm

/- The TensorCore's buffers as the region finds them, per device. -/
variable (Vr : (c : Dev nD) → (b : Ref sig .tc) → Buf (Elt F) ((c.tc : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-- The blocks of the transposed logits and of the counts a point reads, filled out to the staging block's shape
    with the zero word beyond the array's end (only the last point's blocks overhang). -/
def X0 (c : Dev nD) (t : Fin grid1.N) : Vec F S5120x1024 .f32 :=
  win1_0.fill (grid1.coords t) (fun _ => Scalar.ofBits .f32 0#32) (iblk Vr c 0 t)
def X1 (c : Dev nD) (t : Fin grid1.N) : Vec F S1x5120 .f32 :=
  win1_1.fill (grid1.coords t) (fun _ => Scalar.ofBits .f32 0#32) (iblk Vr c 1 t)
/-- The whole row of counts, the labels, the gathered label counts: the same block at every point. -/
def x2 (c : Dev nD) : Vec F S1x100000 .f32 := iblk Vr c 2 ⟨0, by decide⟩
def x3 (c : Dev nD) : Vec F S1024 .i32 := iblk Vr c 3 ⟨0, by decide⟩
def x4 (c : Dev nD) : Vec F S1024 .f32 := iblk Vr c 4 ⟨0, by decide⟩

/-! Those blocks read at an index are the arrays at the index. -/
/- Where the two blocked windows' blocks lie: block t starts at row 5120 t; every block but the last is whole, the
   last has 2720 rows inside the array. -/
theorem idx0 : ∀ t : Fin grid1.N, win1_0.index t (0 : Fin 2) = t.val ∧ win1_0.index t (1 : Fin 2) = 0 := by decide +kernel
theorem idx1 : ∀ t : Fin grid1.N, win1_1.index t (0 : Fin 2) = 0 ∧ win1_1.index t (1 : Fin 2) = t.val := by decide +kernel
theorem xs0 : ∀ t : Fin grid1.N, (t.val ≠ 19 → win1_0.xsize (grid1.coords t) (0 : Fin 2) = 5120) ∧ (t.val = 19 → win1_0.xsize (grid1.coords t) (0 : Fin 2) = 2720)
    ∧ win1_0.xsize (grid1.coords t) (1 : Fin 2) = 1024 := by decide +kernel
theorem xs1 : ∀ t : Fin grid1.N, (t.val ≠ 19 → win1_1.xsize (grid1.coords t) (1 : Fin 2) = 5120) ∧ (t.val = 19 → win1_1.xsize (grid1.coords t) (1 : Fin 2) = 2720)
    ∧ win1_1.xsize (grid1.coords t) (0 : Fin 2) = 1 := by decide +kernel

theorem X0_apply (c : Dev nD) (t : Fin grid1.N) (r : Fin 5120) (b : Fin 1024) (h : 5120 * t.val + r.val < 100000) :
    X0 Vr c t (ix2 r b) = Vr c main_v1 (ix2 ⟨5120 * t.val + r.val, h⟩ b) := by
  obtain ⟨hx0, hx0', hx1⟩ := xs0 t
  obtain ⟨hi0, hi1⟩ := idx0 t
  have hN : t.val < 20 := lt_of_lt_of_eq t.isLt N_1
  have hm : win1_0.moved (grid1.coords t) (ix2 r b) = true := (win1_0.moved_iff _ _).mpr fun (a : Fin 2) => by
    fin_cases a
    · show r.val < win1_0.xsize (grid1.coords t) (0 : Fin 2)
      by_cases h19 : t.val = 19
      · rw [hx0' h19]; omega
      · rw [hx0 h19]; exact r.isLt
    · show b.val < win1_0.xsize (grid1.coords t) (1 : Fin 2); rw [hx1]; exact b.isLt
  unfold X0 Window.fill; rw [dif_pos hm]; unfold iblk
  show Vr c main_v1 (((cfg1.win 0).blk t).view.emb _) = Vr c main_v1 _
  congr 1
  funext a; apply Fin.ext
  match a with
  | ⟨0, _⟩ => show win1_0.index t (0 : Fin 2) * 5120 + 1 * r.val = 5120 * t.val + r.val; rw [hi0]; omega
  | ⟨1, _⟩ => show win1_0.index t (1 : Fin 2) * 1024 + 1 * b.val = b.val; rw [hi1]; omega
theorem X1_apply (c : Dev nD) (t : Fin grid1.N) (r : Fin 5120) (h : 5120 * t.val + r.val < 100000) :
    X1 Vr c t (ix2 (0 : Fin 1) r) = Vr c main_v2 (ix2 (0 : Fin 1) ⟨5120 * t.val + r.val, h⟩) := by
  obtain ⟨hx1, hx1', hx0⟩ := xs1 t
  obtain ⟨hi0, hi1⟩ := idx1 t
  have hN : t.val < 20 := lt_of_lt_of_eq t.isLt N_1
  have hm : win1_1.moved (grid1.coords t) (ix2 (0 : Fin 1) r) = true := (win1_1.moved_iff _ _).mpr fun (a : Fin 2) => by
    fin_cases a
    · show (0 : ℕ) < win1_1.xsize (grid1.coords t) (0 : Fin 2); rw [hx0]; omega
    · show r.val < win1_1.xsize (grid1.coords t) (1 : Fin 2)
      by_cases h19 : t.val = 19
      · rw [hx1' h19]; omega
      · rw [hx1 h19]; exact r.isLt
  unfold X1 Window.fill; rw [dif_pos hm]; unfold iblk
  show Vr c main_v2 (((cfg1.win 1).blk t).view.emb _) = Vr c main_v2 _
  congr 1
  funext a; apply Fin.ext
  match a with
  | ⟨0, _⟩ => show win1_1.index t (0 : Fin 2) * 1 + 1 * 0 = 0; rw [hi0]
  | ⟨1, _⟩ => show win1_1.index t (1 : Fin 2) * 5120 + 1 * r.val = 5120 * t.val + r.val; rw [hi1]; omega
theorem x2_eq (c : Dev nD) : x2 Vr c = Vr c main_v2 := by
  have key : ∀ t : Fin cfg1.N, iblk Vr c 2 t = Vr c main_v2 := fun t => by
    funext j
    show Vr c main_v2 (((cfg1.win 2).blk t).view.emb j) = Vr c main_v2 j
    congr 1
    funext a; apply Fin.ext
    match a with
    | ⟨0, _⟩ => show 0 * 1 + 1 * (j 0).val = (j 0).val; omega
    | ⟨1, _⟩ => show 0 * 100000 + 1 * (j 1).val = (j 1).val; omega
  exact key _
theorem x3_eq (c : Dev nD) : x3 Vr c = Vr c main_arg1 := by
  have key : ∀ t : Fin cfg1.N, iblk Vr c 3 t = Vr c main_arg1 := fun t => by
    funext j
    show Vr c main_arg1 (((cfg1.win 3).blk t).view.emb j) = Vr c main_arg1 j
    congr 1
    funext a; apply Fin.ext
    match a with
    | ⟨0, _⟩ => show 0 * 1024 + 1 * (j 0).val = (j 0).val; omega
  exact key _
theorem x4_eq (c : Dev nD) : x4 Vr c = Vr c main_v0 := by
  have key : ∀ t : Fin cfg1.N, iblk Vr c 4 t = Vr c main_v0 := fun t => by
    funext j
    show Vr c main_v0 (((cfg1.win 4).blk t).view.emb j) = Vr c main_v0 j
    congr 1
    funext a; apply Fin.ext
    match a with
    | ⟨0, _⟩ => show 0 * 1024 + 1 * (j 0).val = (j 0).val; omega
  exact key _

/-- The scratches after point n. -/
def stN (c : Dev nD) (n : ℕ) (h : n < grid1.N) : St F := stAt (X0 Vr c) (X1 Vr c) (x2 Vr c) (x3 Vr c) n h

/-- The region's result word. -/
def outRes (c : Dev nD) : Vec F S1x1 .f32 := outC (x4 Vr c) (stN Vr c 19 (by decide))

/-- The shares of the windows' arrays: the row of counts is two windows' array, half to each. -/
def qWin : Fin cfg1.W → PosShare TreeShare := fun w => if w = 1 then (fullShare : PosShare TreeShare).left else if w = 2 then (fullShare : PosShare TreeShare).right else fullShare

/-- The pairs the core's waits may have recorded: those the handshake's state bounds by 8. -/
def recSet (c : Dev nD) : Set (SemLoc sig × HIx 1) := {p | (K (F := F)).lev ((c.tc : Thread nD τ), p.1) p.2 ≤ 8}

/-- The invariant before point n: before the first point the scoped buffers no window stages at anything; afterwards
    the three scratches at what the point before left. -/
def PhiS (c : Dev nD) : (n : ℕ) → n ≤ cfg1.N → sProp 𝕄
  | 0, _ => Pipeline.scopedRest spec1 c
  | n + 1, hn => iprop(owns (c.tc : Thread nD τ) scS fullShare (stN Vr c n hn).s ∗ owns (c.tc : Thread nD τ) scG fullShare (stN Vr c n hn).g
      ∗ owns (c.tc : Thread nD τ) scT fullShare (fun _ => (stN Vr c n hn).tot))

/-- The proof data of the one pipeline on core c. -/
def dat1 (c : Dev nD) : Dat τ (Elt F) (HIx 1) ℕ UU ℕ cfg1 c where
  A w := Vr c (Pipeline.arrRef spec1 w)
  after w t := match w with
    | ⟨0, _⟩ => X0 Vr c t
    | ⟨1, _⟩ => X1 Vr c t
    | ⟨2, _⟩ => x2 Vr c
    | ⟨3, _⟩ => x3 Vr c
    | ⟨4, _⟩ => x4 Vr c
    | ⟨5, _⟩ => outRes Vr c
  Φ t := PhiS Vr c t.val (Nat.le_of_lt_succ t.isLt)
  q := qWin
  owed _ := 0
  recorded _ := recSet (F := F) c

def pdats : (p : Fin 1) → (c : Dev nD) → Dat τ (Elt F) (HIx 1) ℕ UU ℕ (Pipeline.pin (pcfgs (F := F)) adm p) c
  | 0 => dat1 Vr

theorem A_eq (c : Dev nD) (w : Fin cfg1.W) : (pdats Vr 0 c).A w = Vr c (Pipeline.arrRef spec1 w) := rfl
theorem q_eq (c : Dev nD) : (pdats Vr 0 c).q = qWin := rfl
theorem owed_eq (c : Dev nD) (t) : (pdats Vr 0 c).owed t = 0 := rfl
theorem recorded_eq (c : Dev nD) (t) : (pdats Vr 0 c).recorded t = recSet (F := F) c := rfl

/-- What the body leaves, window by window. -/
theorem after_0 (c : Dev nD) (t : Fin cfg1.N) : (dat1 Vr c).after 0 t = X0 Vr c t := rfl
theorem after_1 (c : Dev nD) (t : Fin cfg1.N) : (dat1 Vr c).after 1 t = X1 Vr c t := rfl
theorem after_2 (c : Dev nD) (t : Fin cfg1.N) : (dat1 Vr c).after 2 t = x2 Vr c := rfl
theorem after_3 (c : Dev nD) (t : Fin cfg1.N) : (dat1 Vr c).after 3 t = x3 Vr c := rfl
theorem after_4 (c : Dev nD) (t : Fin cfg1.N) : (dat1 Vr c).after 4 t = x4 Vr c := rfl
theorem after_5 (c : Dev nD) (t : Fin cfg1.N) : (dat1 Vr c).after 5 t = outRes Vr c := rfl

/-- What the body finds: the two blocked inputs just fetched, the block on the rows inside the array and what the
    buffer held elsewhere; -/
theorem before_0 (c : Dev nD) (t : Fin cfg1.N) (d : S5120x1024.Idx → Elt F .f32) :
    (dat1 Vr c).before 0 t d = win1_0.fill (grid1.coords t) d (iblk Vr c 0 t) := by
  unfold Dat.before; rw [if_pos (fetch1_0 t)]; rfl
theorem before_1 (c : Dev nD) (t : Fin cfg1.N) (d : S1x5120.Idx → Elt F .f32) :
    (dat1 Vr c).before 1 t d = win1_1.fill (grid1.coords t) d (iblk Vr c 1 t) := by
  unfold Dat.before; rw [if_pos (fetch1_1 t)]; rfl
/-- the three whole inputs, fetched at the first point and left in place by every point, their whole array. -/
theorem before_2 (c : Dev nD) (t : Fin cfg1.N) (d : S1x100000.Idx → Elt F .f32) : (dat1 Vr c).before 2 t d = x2 Vr c :=
  ((dat1 Vr c).before_in_eq_fetched 2 rfl (fun _ => rfl) (fun _ _ _ => rfl) (fun _ => rfl) t d).trans rfl
theorem before_3 (c : Dev nD) (t : Fin cfg1.N) (d : S1024.Idx → Elt F .i32) : (dat1 Vr c).before 3 t d = x3 Vr c :=
  ((dat1 Vr c).before_in_eq_fetched 3 rfl (fun _ => rfl) (fun _ _ _ => rfl) (fun _ => rfl) t d).trans rfl
theorem before_4 (c : Dev nD) (t : Fin cfg1.N) (d : S1024.Idx → Elt F .f32) : (dat1 Vr c).before 4 t d = x4 Vr c :=
  ((dat1 Vr c).before_in_eq_fetched 4 rfl (fun _ => rfl) (fun _ _ _ => rfl) (fun _ => rfl) t d).trans rfl

/-! ## The blocks of the two clipped windows -/

/-- A fill that is not cut replaces the whole buffer: what the buffer held does not matter. -/
theorem fill_uncut {G : Pipeline.Grid} (w : Window sig G) {α : Type} (i : G.Coords) (h : ∀ a, w.clip i a = none)
    (d d' : w.block.Idx → α) (g : (w.xblock i).Idx → α) : w.fill i d g = w.fill i d' g := by
  funext j
  have hm : w.moved i j = true :=
    (w.moved_iff _ j).mpr fun a => by have := (j a).isLt; unfold Window.xsize; rw [h a]; exact this
  unfold Window.fill; rw [dif_pos hm, dif_pos hm]

/-- Two fills of one block agree on the part the transfer moves. -/
theorem fill_moved {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  have hm := (w.moved_iff i j).mpr h
  unfold Window.fill; rw [dif_pos hm, dif_pos hm]

/-- Only the last point's blocks overhang their arrays: there 2720 of the 5120 rows are inside. -/
theorem noclip0 : ∀ t : Fin cfg1.N, t.val ≠ 19 → ∀ a : Fin 2, win1_0.clip (grid1.coords t) a = none := by decide +kernel
theorem noclip1 : ∀ t : Fin cfg1.N, t.val ≠ 19 → ∀ a : Fin 2, win1_1.clip (grid1.coords t) a = none := by decide +kernel
theorem xsize0_last : ∀ t : Fin cfg1.N, t.val = 19 → win1_0.xsize (grid1.coords t) (0 : Fin 2) = 2720 ∧ win1_0.xsize (grid1.coords t) (1 : Fin 2) = 1024 := by
  decide +kernel
theorem xsize1_last : ∀ t : Fin cfg1.N, t.val = 19 → win1_1.xsize (grid1.coords t) (0 : Fin 2) = 1 ∧ win1_1.xsize (grid1.coords t) (1 : Fin 2) = 2720 := by
  decide +kernel
theorem coords_val : ∀ t : Fin cfg1.N, ((grid1.coords t) 0).val = t.val := by decide +kernel

/-- Before the last point the fetched blocks are the stated ones whatever the buffers held. -/
theorem fill0_eq (c : Dev nD) (t : Fin cfg1.N) (h : t.val ≠ 19) (d : S5120x1024.Idx → Elt F .f32) :
    win1_0.fill (grid1.coords t) d (iblk Vr c 0 t) = X0 Vr c t := fill_uncut win1_0 _ (noclip0 t h) _ _ _
theorem fill1_eq (c : Dev nD) (t : Fin cfg1.N) (h : t.val ≠ 19) (d : S1x5120.Idx → Elt F .f32) :
    win1_1.fill (grid1.coords t) d (iblk Vr c 1 t) = X1 Vr c t := fill_uncut win1_1 _ (noclip1 t h) _ _ _

/-! ## The scratches point by point -/

theorem stN_congr (c : Dev nD) {n n' : ℕ} (e : n = n') (h : n < grid1.N) (h' : n' < grid1.N) : stN Vr c n h = stN Vr c n' h' := by
  subst e; rfl
theorem stN_zero (c : Dev nD) (t : Fin cfg1.N) (h : t.val = 0) :
    stN Vr c t.val t.isLt = stepA (grid1.coords t) (X0 Vr c t) (X1 Vr c t) (x2 Vr c) (x3 Vr c) := by
  obtain ⟨n, hn⟩ := t
  cases n with
  | zero => rfl
  | succ n => exact absurd h (Nat.succ_ne_zero n)
theorem stN_mid (c : Dev nD) (t : Fin cfg1.N) (h0 : t.val ≠ 0) (h : t.val < 19) :
    stN Vr c t.val t.isLt = stepB (grid1.coords t) (X0 Vr c t) (X1 Vr c t) (x3 Vr c)
      (stN Vr c (t.val - 1) (Nat.lt_of_le_of_lt (Nat.sub_le _ _) t.isLt)) := by
  obtain ⟨n, hn⟩ := t
  cases n with
  | zero => exact absurd rfl h0
  | succ n => exact stAt_mid _ _ _ _ n hn h
theorem stN_last (c : Dev nD) (t : Fin cfg1.N) (h0 : t.val ≠ 0) (h : ¬t.val < 19) :
    stN Vr c t.val t.isLt = stepC (grid1.coords t) (X0 Vr c t) (X1 Vr c t) (x3 Vr c)
      (stN Vr c (t.val - 1) (Nat.lt_of_le_of_lt (Nat.sub_le _ _) t.isLt)) := by
  obtain ⟨n, hn⟩ := t
  cases n with
  | zero => exact absurd rfl h0
  | succ n => exact stAt_last _ _ _ _ n hn h

/-! ## The invariant -/

theorem PhiS_succ (c : Dev nD) (n : ℕ) (hn : n < cfg1.N) :
    PhiS Vr c (n + 1) hn = iprop(owns (c.tc : Thread nD τ) scS fullShare (stN Vr c n hn).s ∗ owns (c.tc : Thread nD τ) scG fullShare (stN Vr c n hn).g
      ∗ owns (c.tc : Thread nD τ) scT fullShare (fun _ => (stN Vr c n hn).tot)) := rfl
theorem PhiS_pos (c : Dev nD) (n : ℕ) (h : n ≤ cfg1.N) (hz : n ≠ 0) :
    PhiS Vr c n h = iprop(owns (c.tc : Thread nD τ) scS fullShare (stN Vr c (n - 1) (Nat.lt_of_lt_of_le (Nat.sub_lt (Nat.pos_of_ne_zero hz) Nat.one_pos) h)).s
      ∗ owns (c.tc : Thread nD τ) scG fullShare (stN Vr c (n - 1) (Nat.lt_of_lt_of_le (Nat.sub_lt (Nat.pos_of_ne_zero hz) Nat.one_pos) h)).g
      ∗ owns (c.tc : Thread nD τ) scT fullShare (fun _ => (stN Vr c (n - 1) (Nat.lt_of_lt_of_le (Nat.sub_lt (Nat.pos_of_ne_zero hz) Nat.one_pos) h)).tot)) := by
  cases n with
  | zero => exact absurd rfl hz
  | succ n => rfl
/-- The scoped buffers no window stages are the three scratches, each at some contents. -/
theorem Phi0_eq (c : Dev nD) :
    (Pipeline.scopedRest spec1 c : sProp 𝕄)
      = iprop((∃ xs, owns (c.tc : Thread nD τ) scS fullShare xs) ∗ (∃ xg, owns (c.tc : Thread nD τ) scG fullShare xg)
        ∗ (∃ xt, owns (c.tc : Thread nD τ) scT fullShare xt)) := by
  rw [scopedRest1_eq]; simp only [scS, scG, scT, owns_whole]; try rfl

/-! ## The body obligation, at a generic point -/

/-- What the body is called with at point t, the windows one by one, -/
def bodyPre (c : Dev nD) (t : Fin cfg1.N) : sProp 𝕄 :=
  iprop((dat1 Vr c).Φ t.castSucc ∗ (dat1 Vr c).owesAt (none : HIx 1) t.castSucc
    ∗ (∃ d, owns (c.tc : Thread nD τ) (ms0 t) fullShare ((dat1 Vr c).before 0 t d))
    ∗ (∃ d, owns (c.tc : Thread nD τ) (ms1 t) fullShare ((dat1 Vr c).before 1 t d))
    ∗ (∃ d, owns (c.tc : Thread nD τ) (ms2 t) fullShare ((dat1 Vr c).before 2 t d))
    ∗ (∃ d, owns (c.tc : Thread nD τ) (ms3 t) fullShare ((dat1 Vr c).before 3 t d))
    ∗ (∃ d, owns (c.tc : Thread nD τ) (ms4 t) fullShare ((dat1 Vr c).before 4 t d))
    ∗ (∃ d, owns (c.tc : Thread nD τ) (ms5 t) fullShare ((dat1 Vr c).before 5 t d)))

/-- and what it returns. -/
def bodyPost (c : Dev nD) (t : Fin cfg1.N) : sProp 𝕄 :=
  iprop((dat1 Vr c).Φ t.succ ∗ (dat1 Vr c).owesAt (none : HIx 1) t.succ
    ∗ (dat1 Vr c).leaves 0 t ∗ (dat1 Vr c).leaves 1 t ∗ (dat1 Vr c).leaves 2 t
    ∗ (dat1 Vr c).leaves 3 t ∗ (dat1 Vr c).leaves 4 t ∗ (dat1 Vr c).leaves 5 t)

/-- The two clipped windows are handed back stated on the rows inside the array: their block, over anything. -/
theorem leaves_0 (c : Dev nD) (t : Fin cfg1.N) :
    (dat1 Vr c).leaves 0 t = iprop(∃ d, owns (c.tc : Thread nD τ) (ms0 t) fullShare (win1_0.fill (grid1.coords t) d (iblk Vr c 0 t))) := by
  show iprop(∃ d, owns (c.tc : Thread nD τ) (ms0 t) fullShare (win1_0.fill (grid1.coords t) d (win1_0.cut (grid1.coords t) (X0 Vr c t)))) = _
  unfold X0; rw [Window.cut_fill]
theorem leaves_1 (c : Dev nD) (t : Fin cfg1.N) :
    (dat1 Vr c).leaves 1 t = iprop(∃ d, owns (c.tc : Thread nD τ) (ms1 t) fullShare (win1_1.fill (grid1.coords t) d (iblk Vr c 1 t))) := by
  show iprop(∃ d, owns (c.tc : Thread nD τ) (ms1 t) fullShare (win1_1.fill (grid1.coords t) d (win1_1.cut (grid1.coords t) (X1 Vr c t)))) = _
  unfold X1; rw [Window.cut_fill]
/-- The whole inputs are handed back as found. -/
theorem leaves_2 (c : Dev nD) (t : Fin cfg1.N) : (dat1 Vr c).leaves 2 t = owns (c.tc : Thread nD τ) (ms2 t) fullShare (x2 Vr c) := rfl
theorem leaves_3 (c : Dev nD) (t : Fin cfg1.N) : (dat1 Vr c).leaves 3 t = owns (c.tc : Thread nD τ) (ms3 t) fullShare (x3 Vr c) := rfl
theorem leaves_4 (c : Dev nD) (t : Fin cfg1.N) : (dat1 Vr c).leaves 4 t = owns (c.tc : Thread nD τ) (ms4 t) fullShare (x4 Vr c) := rfl
/-- The result's buffer: untouched before the last point, the result word at it. -/
theorem leaves_5_idle (c : Dev nD) (t : Fin cfg1.N) (h : t.val ≠ 19) :
    (dat1 Vr c).leaves 5 t = iprop(∃ d, owns (c.tc : Thread nD τ) (ms5 t) fullShare ((dat1 Vr c).before 5 t d)) :=
  (dat1 Vr c).leaves_idle 5 t (idle5 t h) (noFlush5 t h)
theorem leaves_5_last (c : Dev nD) (t : Fin cfg1.N) (h : t.val = 19) :
    (dat1 Vr c).leaves 5 t = owns (c.tc : Thread nD τ) (ms5 t) fullShare (outRes Vr c) := by
  unfold Dat.leaves; rw [live5 t h]; rfl

theorem PhiS_zero (c : Dev nD) (n : ℕ) (h : n ≤ cfg1.N) (hz : n = 0) : PhiS Vr c n h = Pipeline.scopedRest spec1 c := by
  subst hz; rfl

/-- At the last point two fills of a block agree on the rows inside the array. -/
theorem fill0_last (c : Dev nD) (t : Fin cfg1.N) (h19 : t.val = 19) (d d' : S5120x1024.Idx → Elt F .f32) (r : Fin 5120) (b : Fin 1024)
    (hr : 5120 * 19 + r.val < 100000) :
    win1_0.fill (grid1.coords t) d (iblk Vr c 0 t) (ix2 r b) = win1_0.fill (grid1.coords t) d' (iblk Vr c 0 t) (ix2 r b) := by
  have hx := xsize0_last t h19
  refine fill_moved win1_0 _ _ _ _ _ (fun (a : Fin 2) => ?_)
  fin_cases a
  · show r.val < win1_0.xsize (grid1.coords t) (0 : Fin 2); rw [hx.1]; omega
  · show b.val < win1_0.xsize (grid1.coords t) (1 : Fin 2); rw [hx.2]; exact b.isLt
theorem fill1_last (c : Dev nD) (t : Fin cfg1.N) (h19 : t.val = 19) (d d' : S1x5120.Idx → Elt F .f32) (r : Fin 5120)
    (hr : 5120 * 19 + r.val < 100000) :
    win1_1.fill (grid1.coords t) d (iblk Vr c 1 t) (ix2 (0 : Fin 1) r) = win1_1.fill (grid1.coords t) d' (iblk Vr c 1 t) (ix2 (0 : Fin 1) r) := by
  have hx := xsize1_last t h19
  refine fill_moved win1_1 _ _ _ _ _ (fun (a : Fin 2) => ?_)
  fin_cases a
  · show (0 : ℕ) < win1_1.xsize (grid1.coords t) (0 : Fin 2); rw [hx.1]; omega
  · show r.val < win1_1.xsize (grid1.coords t) (1 : Fin 2); rw [hx.2]; omega

set_option maxHeartbeats 1600000 in
/-- The body at any point: the buffers hold their blocks, the point's number says which of the three runs applies, and
    what the run leaves in the scratches is the fold's next value; at the last point the fold does not see the rows
    beyond the array, so what the buffers held there does not matter. -/
theorem sound_body (c : Dev nD) (t : Fin cfg1.N) :
    bodyPre Vr c t ⊢ wp frame (wpE (defs₀ (F := F)) 𝒱₀ (c.tc : Thread nD τ) none) Set.univ (bodyAt1 (F := F) t) (fun _ => bodyPost Vr c t) := by
  unfold bodyPre bodyPost
  rw [bodyAt1_eq]
  simp only [before_0, before_1, before_2, before_3, before_4]
  rw [show (dat1 Vr c).owesAt (none : HIx 1) t.succ = (dat1 Vr c).owesAt (none : HIx 1) t.castSucc from rfl]
  rw [show (dat1 Vr c).Φ t.succ = PhiS Vr c (t.val + 1) t.isLt from rfl, PhiS_succ]
  rw [show (dat1 Vr c).Φ t.castSucc = PhiS Vr c t.val (Nat.le_of_lt t.isLt) from rfl]
  rw [leaves_0, leaves_1, leaves_2, leaves_3, leaves_4]
  have hN : t.val < 20 := lt_of_lt_of_eq t.isLt N_1
  by_cases hz : t.val = 0
  · have h19 : t.val ≠ 19 := by omega
    have hc0 : cond0 (grid1.coords t) := (hcond0 t).mpr hz
    have hc1 : cond1 (grid1.coords t) := (hcond1 t).mpr (by omega)
    have hc2 : ¬cond2 (grid1.coords t) := fun h => h19 ((hcond2 t).mp h)
    rw [leaves_5_idle Vr c t h19]
    simp only [fill0_eq Vr c t h19, fill1_eq Vr c t h19]
    rw [PhiS_zero Vr c _ _ hz, Phi0_eq, stN_zero Vr c t hz]
    iintro ⟨⟨⟨%xs, HS⟩, ⟨%xg, HG⟩, ⟨%xt, HT⟩⟩, Ho, ⟨%d0, H0⟩, ⟨%d1, H1⟩, ⟨%d2, H2⟩, ⟨%d3, H3⟩, ⟨%d4, H4⟩, ⟨%d5, H5⟩⟩
    iapply (runA (F := F) c (grid1.coords t) (ms0 t) (hs0 t) (ms1 t) (hs1 t) (ms2 t) (hs2 t) (ms3 t) (hs3 t) (ms4 t) (hs4 t) (ms5 t) (hs5 t)
      scS (Memref.isWhole_whole _) scG (Memref.isWhole_whole _) scT (Memref.isWhole_whole _) hc0 hc1 hc2
      (X0 Vr c t) (X1 Vr c t) (x2 Vr c) (x3 Vr c) (x4 Vr c) ((dat1 Vr c).before 5 t d5) xs xg xt Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HG]; · iexact HG
    isplitl [HT]; · iexact HT
    iintro ⟨H0, H1, H2, H3, H4, H5, HS, HG, HT⟩
    isplitl [HS HG HT]
    · isplitl [HS]; · iexact HS
      isplitl [HG]; · iexact HG
      iexact HT
    isplitl [Ho]; · iexact Ho
    isplitl [H0]; · iexists d0; iexact H0
    isplitl [H1]; · iexists d1; iexact H1
    isplitl [H2]; · iexact H2
    isplitl [H3]; · iexact H3
    isplitl [H4]; · iexact H4
    iexists d5; iexact H5
  · have hc0 : ¬cond0 (grid1.coords t) := fun h => hz ((hcond0 t).mp h)
    by_cases hl : t.val < 19
    · have h19 : t.val ≠ 19 := by omega
      have hc1 : cond1 (grid1.coords t) := (hcond1 t).mpr hl
      have hc2 : ¬cond2 (grid1.coords t) := fun h => h19 ((hcond2 t).mp h)
      rw [leaves_5_idle Vr c t h19]
      simp only [fill0_eq Vr c t h19, fill1_eq Vr c t h19]
      rw [PhiS_pos Vr c _ _ hz, stN_mid Vr c t hz hl]
      iintro ⟨⟨HS, HG, HT⟩, Ho, ⟨%d0, H0⟩, ⟨%d1, H1⟩, ⟨%d2, H2⟩, ⟨%d3, H3⟩, ⟨%d4, H4⟩, ⟨%d5, H5⟩⟩
      iapply (runB (F := F) c (grid1.coords t) (ms0 t) (hs0 t) (ms1 t) (hs1 t) (ms2 t) (hs2 t) (ms3 t) (hs3 t) (ms4 t) (hs4 t) (ms5 t) (hs5 t)
        scS (Memref.isWhole_whole _) scG (Memref.isWhole_whole _) scT (Memref.isWhole_whole _) hc0 hc1 hc2
        (X0 Vr c t) (X1 Vr c t) (x2 Vr c) (x3 Vr c) (x4 Vr c) ((dat1 Vr c).before 5 t d5)
        (stN Vr c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HG]; · iexact HG
      isplitl [HT]; · iexact HT
      iintro ⟨H0, H1, H2, H3, H4, H5, HS, HG, HT⟩
      isplitl [HS HG HT]
      · isplitl [HS]; · iexact HS
        isplitl [HG]; · iexact HG
        iexact HT
      isplitl [Ho]; · iexact Ho
      isplitl [H0]; · iexists d0; iexact H0
      isplitl [H1]; · iexists d1; iexact H1
      isplitl [H2]; · iexact H2
      isplitl [H3]; · iexact H3
      isplitl [H4]; · iexact H4
      iexists d5; iexact H5
    · have h19 : t.val = 19 := by omega
      have hc1 : ¬cond1 (grid1.coords t) := fun h => hl ((hcond1 t).mp h)
      have hc2 : cond2 (grid1.coords t) := (hcond2 t).mpr h19
      rw [leaves_5_last Vr c t h19]
      rw [PhiS_pos Vr c _ _ hz]
      iintro ⟨⟨HS, HG, HT⟩, Ho, ⟨%d0, H0⟩, ⟨%d1, H1⟩, ⟨%d2, H2⟩, ⟨%d3, H3⟩, ⟨%d4, H4⟩, ⟨%d5, H5⟩⟩
      have hcg : stN Vr c t.val t.isLt
          = stepC (grid1.coords t) (win1_0.fill (grid1.coords t) d0 (iblk Vr c 0 t)) (win1_1.fill (grid1.coords t) d1 (iblk Vr c 1 t)) (x3 Vr c)
              (stN Vr c (t.val - 1) (Nat.lt_of_le_of_lt (Nat.sub_le _ _) t.isLt)) := by
        rw [stN_last Vr c t hz hl]
        exact stepC_congr _ (by rw [coords_val]; exact h19) _ _ _ _ (fun r b hr => fill0_last Vr c t h19 _ _ r b hr)
          (fun r hr => fill1_last Vr c t h19 _ _ r hr) _ _
      have hout : outRes Vr c = outC (x4 Vr c) (stN Vr c t.val t.isLt) := by
        unfold outRes; rw [stN_congr Vr c h19 t.isLt (by decide)]
      rw [hout, hcg]
      iapply (runC (F := F) c (grid1.coords t) (ms0 t) (hs0 t) (ms1 t) (hs1 t) (ms2 t) (hs2 t) (ms3 t) (hs3 t) (ms4 t) (hs4 t) (ms5 t) (hs5 t)
        scS (Memref.isWhole_whole _) scG (Memref.isWhole_whole _) scT (Memref.isWhole_whole _) hc0 hc1 hc2
        (win1_0.fill (grid1.coords t) d0 (iblk Vr c 0 t)) (win1_1.fill (grid1.coords t) d1 (iblk Vr c 1 t)) (x2 Vr c) (x3 Vr c) (x4 Vr c) ((dat1 Vr c).before 5 t d5)
        (stN Vr c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HG]; · iexact HG
      isplitl [HT]; · iexact HT
      iintro ⟨H0, H1, H2, H3, H4, H5, HS, HG, HT⟩
      isplitl [HS HG HT]
      · isplitl [HS]; · iexact HS
        isplitl [HG]; · iexact HG
        iexact HT
      isplitl [Ho]; · iexact Ho
      isplitl [H0]; · iexists d0; iexact H0
      isplitl [H1]; · iexists d1; iexact H1
      isplitl [H2]; · iexact H2
      isplitl [H3]; · iexact H3
      isplitl [H4]; · iexact H4
      iexact H5

/-- The body obligation of the one pipeline's proof data, at every point. -/
theorem body_obligation1 (c : Dev nD) : BodyObligationLoose (dat1 Vr c) (defs₀ (F := F)) 𝒱₀ (none : HIx 1) Set.univ := fun t => by
  rw [bigSep_W1, bigSep_W1]
  exact sound_body Vr c t

/-- The body obligation at every point: the point's case is decided by its number, its run applies. -/
theorem body_obligation (c : Dev nD) : BodyObligationLoose (pdats Vr 0 c) (defs₀ (F := F)) 𝒱₀ (none : HIx 1) Set.univ :=
  body_obligation1 Vr c

/-- The invariant's two ends: what the region entry hands it, and what it hands back at the exit. -/
theorem Phi_in (c : Dev nD) : (Pipeline.scopedRest spec1 c : sProp 𝕄) ⊢ (pdats Vr 0 c).Φ 0 :=
  Entails.of_eq rfl
theorem Phi_out (c : Dev nD) : (pdats Vr 0 c).Φ (Fin.last _) ⊢ (Pipeline.scopedRest spec1 c : sProp 𝕄) := by
  rw [show (pdats Vr 0 c).Φ (Fin.last _) = PhiS Vr c (19 + 1) (by decide) from rfl, PhiS_succ, Phi0_eq]
  iintro ⟨HS, HG, HT⟩
  isplitl [HS]; · iexists _; iexact HS
  isplitl [HG]; · iexists _; iexact HG
  iexists _; iexact HT

/-! The arrays at the region's exit: the inputs' as found, the result's array the result word. -/

/-- The result's one block is its whole one-word array. -/
theorem mem_blk5 (t : Fin cfg1.N) (i : S1x1.Idx) : i ∈ ((cfg1.win 5).blk t).view.set := by
  show i ∈ ((View.whole main_v3).slice (win1_5.rect t)).set
  rw [View.set_slice_whole, Rect.mem_set_unit]
  intro a
  match a with
  | ⟨0, _⟩ => show 0 * 1 ≤ (i 0).val ∧ (i 0).val < 0 * 1 + 1; have h : (i 0).val < 1 := (i 0).isLt; omega
  | ⟨1, _⟩ => show 0 * 1 ≤ (i 1).val ∧ (i 1).val < 0 * 1 + 1; have h : (i 1).val < 1 := (i 1).isLt; omega
theorem isIn : ∀ w : Fin 6, w ≠ 5 → (cfg1.win w).isOut = false := by decide
theorem arrAt_in (c : Dev nD) (w : Fin cfg1.W) (hw : w ≠ 5) (n : ℕ) : (pdats Vr 0 c).arrAt w n = Vr c (Pipeline.arrRef spec1 w) :=
  (dat1 Vr c).arrAt_in w (isIn w hw) n
theorem arrAt_out (c : Dev nD) : (pdats Vr 0 c).arrAt 5 cfg1.N = (show Buf (Elt F) ((c.tc : Thread nD τ).loc main_v3) from outRes Vr c) := by
  refine (dat1 Vr c).arrAt_eq_of_cover 5 (show Buf (Elt F) ((c.tc : Thread nD τ).loc main_v3) from outRes Vr c) (fun t _ => ?_) (fun i => ?_)
  · -- the one block is the whole one-word array
    funext j
    show outRes Vr c j = outRes Vr c (((cfg1.win 5).blk t).view.emb j)
    congr 1
    funext a; apply Fin.ext
    match a with
    | ⟨0, _⟩ => show (j 0).val = 0 * 1 + 1 * (j 0).val; omega
    | ⟨1, _⟩ => show (j 1).val = 0 * 1 + 1 * (j 1).val; omega
  · exact ⟨⟨19, by decide⟩, (flush1_5 _).mpr rfl, mem_blk5 _ i⟩

end Cert.Proof.KI

end
-- ==== Proof.KI_Launch.lean ====
/-
  The program's run. The region's entry and exit around the TensorCore's held buffers; @main on the TensorCore: the
  SparseCore call (the three arrays lent to the two SparseCores and taken back, the gathered counts in place), the
  two host operations, the region, the final reshape; the launch element; and what the final memory says.
-/
import proofs.«210372_g71854802862689_cont_9to1_m_893_16_alg».proof.Proof.KI_Host
import proofs.«210372_g71854802862689_cont_9to1_m_893_16_alg».proof.Proof.KI_Dat

noncomputable section

namespace Cert.Proof.KI

open Cert.KernelIdeal Cert.KernelIdeal.Gen Cert.KernelIdeal.Fold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- After the region: its result word in place. -/
def V3 (d : Dev nD) : Valuation τ sig (Elt F) := Function.update (V2 m d) v3' (outRes (Vr m) d)
/-- After the final reshape. -/
def V4 (d : Dev nD) : Valuation τ sig (Elt F) := (opF (F := F)).result (V3 m d)

/-- The TensorCore's debts between the call and the end: nothing owed, its recorded waits below level 8. -/
abbrev owesT (d : Dev nD) : sProp 𝕄 :=
  iprop(∃ W, ⌜(K (F := F)).WBelow (T d) W 8⌝ ∗ owes (T d) (0 : CellTallies nD τ sig (HIx 1)) W)

/-- The six windows' arrays: the transposed logits, the row of counts at its two halves (two windows read it), the labels,
    the gathered counts, the result. -/
theorem arrays_eq (c : Dev nD) (Fa : (w : Fin cfg1.W) → Buf (Elt F) ((cfg1.win w).arr.view.loc (c.tc : Thread nD τ))) :
    ((pdats (Vr m) 0 c).arrays Fa : sProp 𝕄)
      = iprop((ltLoc c ↦{fullShare} Fa 0) ∗ (rowLoc c ↦{(fullShare : PosShare TreeShare).left} Fa 1) ∗ (rowLoc c ↦{(fullShare : PosShare TreeShare).right} Fa 2)
          ∗ (yLoc c ↦{fullShare} Fa 3) ∗ (gLoc c ↦{fullShare} Fa 4) ∗ (outLoc c ↦{fullShare} Fa 5)) := by
  unfold Pipeline.Dat.arrays
  rw [bigSep_W1]
  show iprop(((Memref.whole main_v1 : Memref sig .tc .hbm S100000x1024 .f32).view.loc (c.tc : Thread nD τ) ↦[(Memref.whole main_v1 : Memref sig .tc .hbm S100000x1024 .f32).view.set]{fullShare} Fa 0)
      ∗ ((Memref.whole main_v2 : Memref sig .tc .hbm S1x100000 .f32).view.loc (c.tc : Thread nD τ) ↦[(Memref.whole main_v2 : Memref sig .tc .hbm S1x100000 .f32).view.set]{(fullShare : PosShare TreeShare).left} Fa 1)
      ∗ ((Memref.whole main_v2 : Memref sig .tc .hbm S1x100000 .f32).view.loc (c.tc : Thread nD τ) ↦[(Memref.whole main_v2 : Memref sig .tc .hbm S1x100000 .f32).view.set]{(fullShare : PosShare TreeShare).right} Fa 2)
      ∗ ((Memref.whole main_arg1 : Memref sig .tc .hbm S1024 .i32).view.loc (c.tc : Thread nD τ) ↦[(Memref.whole main_arg1 : Memref sig .tc .hbm S1024 .i32).view.set]{fullShare} Fa 3)
      ∗ ((Memref.whole main_v0 : Memref sig .tc .hbm S1024 .f32).view.loc (c.tc : Thread nD τ) ↦[(Memref.whole main_v0 : Memref sig .tc .hbm S1024 .f32).view.set]{fullShare} Fa 4)
      ∗ ((Memref.whole main_v3 : Memref sig .tc .hbm S1x1 .f32).view.loc (c.tc : Thread nD τ) ↦[(Memref.whole main_v3 : Memref sig .tc .hbm S1x1 .f32).view.set]{fullShare} Fa 5)) = _
  simp only [Memref.view_whole, View.set_whole]

omit [FloatOps F] in
/-- The row of counts held whole is its two halves, one per window that reads it. -/
theorem row_split (c : Dev nD) (f : Buf (Elt F) (rowLoc c)) :
    (rowLoc c ↦{fullShare} f : sProp 𝕄) ⊢ iprop((rowLoc c ↦{(fullShare : PosShare TreeShare).left} f) ∗ (rowLoc c ↦{(fullShare : PosShare TreeShare).right} f)) :=
  (pointsTo_share (PosShare.mem_left_op_right _)).1
omit [FloatOps F] in
theorem row_join (c : Dev nD) (f : Buf (Elt F) (rowLoc c)) :
    iprop((rowLoc c ↦{(fullShare : PosShare TreeShare).left} f) ∗ (rowLoc c ↦{(fullShare : PosShare TreeShare).right} f)) ⊢ (rowLoc c ↦{fullShare} f : sProp 𝕄) :=
  (pointsTo_share (PosShare.mem_left_op_right _)).2

theorem V3_ne (d : Dev nD) (b : DevRef τ sig) (h : b ≠ v3') : V3 m d b = V2 m d b := Function.update_of_ne h _ _
theorem V3_out (d : Dev nD) : V3 m d v3' = outRes (Vr m) d := Function.update_self _ _ _

omit [FloatOps F] in
theorem lev_none_le (g : GSem nD τ sig) : (K (F := F)).lev g none ≤ 8 := Nat.zero_le _

/-- The region, entered from the eight buffers held after the two host operations and left with the result word in place. -/
def reg : Pipeline.RegionSeg (pcfgs (F := F)) adm (pdats (Vr m)) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := body_obligation (Vr m) c
  hwaits := Pipeline.hwaits_of_owed_zero _ _ _ _ (K (F := F)).L (K (F := F)).lev 0 fun _ _ => rfl
  pre c := iprop(held (T c) S8 (V2 m c) ∗ owesT c)
  post c := iprop(held (T c) S8 (V3 m c) ∗ owesT c)
  X _ := iprop(emp)
  Y _ := iprop(emp)
  Z c := iprop((lgLoc c ↦{fullShare} V2 m c a0') ∗ (cLoc c ↦{fullShare} V2 m c a2') ∗ (resLoc c ↦{fullShare} V2 m c v4'))
  hentry c := by
    rw [held_S8, Pipeline.ownSems0_none, arrays_eq]
    iintro ⟨⟨⟨Ha0, Ha1, Ha2, Hv0, Hv1, Hv2, Hv3, Hv4⟩, %W, %hW, HO⟩, -, -⟩
    ihave H2 := (row_split c _) $$ Hv2
    icases H2 with ⟨H2l, H2r⟩
    imodintro
    isplitl [Ha1 Hv0 Hv1 H2l H2r Hv3]
    · isplitl [Hv1]; · iexact Hv1
      isplitl [H2l]; · iexact H2l
      isplitl [H2r]; · iexact H2r
      isplitl [Ha1]; · iexact Ha1
      isplitl [Hv0]; · iexact Hv0
      iexact Hv3
    isplitr
    · unfold Pipeline.prefHeld; rw [Finset.univ_eq_empty, BI.bigSep_empty]; iempintro
    isplitl [HO]
    · iexists W; isplitr
      · ipureintro; exact fun p hp => Or.inl (hW p hp)
      · iexact HO
    isplitr; · iempintro
    isplitl [Ha0]; · iexact Ha0
    isplitl [Ha2]; · iexact Ha2
    iexact Hv4
  hin c := by
    iintro ⟨-, -, H⟩
    iapply (Phi_in (Vr m) c); iexact H
  hout c := by
    rw [Pipeline.ownSems0_none]
    iintro H
    isplitr; · iempintro
    isplitr; · iempintro
    iapply (Phi_out (Vr m) c); iexact H
  hexit c := by
    rw [arrays_eq, held_S8, arrAt_in (Vr m) c 0 (by decide), arrAt_in (Vr m) c 1 (by decide), arrAt_in (Vr m) c 2 (by decide),
      arrAt_in (Vr m) c 3 (by decide), arrAt_in (Vr m) c 4 (by decide), arrAt_out (Vr m) c,
      V3_ne m c a0' (by decide), V3_ne m c a1' (by decide), V3_ne m c a2' (by decide), V3_ne m c v0' (by decide), V3_ne m c v1' (by decide),
      V3_ne m c v2' (by decide), V3_ne m c v4' (by decide), V3_out]
    iintro ⟨⟨Hv1, H2l, H2r, Ha1, Hv0, Hv3⟩, ⟨%W, %hW, HO⟩, -, ⟨Ha0, Ha2, Hv4⟩⟩
    ihave Hv2 := (row_join c _) $$ [H2l H2r]
    · isplitl [H2l]; · iexact H2l
      iexact H2r
    imodintro
    isplitr [HO]
    · isplitl [Ha0]; · iexact Ha0
      isplitl [Ha1]; · iexact Ha1
      isplitl [Ha2]; · iexact Ha2
      isplitl [Hv0]; · iexact Hv0
      isplitl [Hv1]; · iexact Hv1
      isplitl [Hv2]; · iexact Hv2
      isplitl [Hv3]; · iexact Hv3
      iexact Hv4
    · iexists W; isplitr
      · ipureintro
        intro p hp
        rcases hW hp with h | ⟨w, s, rfl⟩
        · exact h
        · exact lev_none_le _
      · iexact HO

end Cert.Proof.KI

end
-- ==== Proof.KI_Tile.lean ====
/-
  One tile's task: copy its 32 labels into its index scratch, gather the 32 counts those labels name out of the count
  table into its value scratch, and copy them to its 32 entries of the gathered-count array; each copy is waited for
  before the next begins, so nothing is read or written while a copy is pending. Every label names a class (the
  precondition), so every gathered row exists.
-/
import proofs.«210372_g71854802862689_cont_9to1_m_893_16_alg».proof.Proof.KI_Setup
import Idealize.ShloMosaic.Lib.SparseCore.Stream
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The tile's place, its arrays and its scratch -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

/-- The count table, the labels, the gathered counts, as a tile names them; its index scratch and its value scratch. -/
abbrev cW : Memref sig .scVector .hbm S100000 .f32 := Memref.whole main_arg2_scv
abbrev yW : Memref sig .scVector .hbm S1024 .i32 := Memref.whole main_arg1_scv
abbrev gW : Memref sig .scVector .hbm S1024 .f32 := Memref.whole main_v0_scv
abbrev sI : Memref sig .scVector .vmem S32 .i32 := Memref.whole cc0_scratch0
abbrev sV : Memref sig .scVector .vmem S32 .f32 := Memref.whole cc0_scratch1

/-- The tile's 32 examples, as the program slices them out of the labels and out of the gathered counts. -/
abbrev taskRect (L : grid0.Coords) : Rect S1024 := Rect.unit (s := S1024) (k0_off1 L) S32.size (k0_off1_inb L)
abbrev ySl (L : grid0.Coords) : Memref sig .scVector .hbm S32 .i32 := (yW : Memref sig .scVector .hbm S1024 .i32).slice (taskRect L) (fun _ => rfl)
abbrev gSl (L : grid0.Coords) : Memref sig .scVector .hbm S32 .f32 := (gW : Memref sig .scVector .hbm S1024 .f32).slice (taskRect L) (fun _ => rfl)

omit [FloatOps F] in
theorem set_taskRect : (taskRect L).set = taskSet (cL L) (sL L) := by
  ext j
  rw [Rect.mem_set_unit]
  unfold taskSet
  simp only [Finset.mem_filter, Finset.mem_univ, true_and]
  rw [k0_off1_eq]
  constructor
  · intro h
    have h0 := h 0
    simp only [Matrix.cons_val_zero, Matrix.cons_val_fin_one] at h0
    exact h0
  · intro h a
    obtain rfl : a = 0 := Subsingleton.elim _ _
    exact h

omit [FloatOps F] in
theorem set_gSl : (gSl L).view.set = taskSet (cL L) (sL L) := by
  show ((View.whole (main_v0_scv : Ref sig .scVector)).slice (taskRect L)).set = _
  rw [View.set_slice_whole]; exact set_taskRect L

/-! ## The tile's own semaphores and scratch buffers -/

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the tile's memrefs address them -/

omit [FloatOps F] in
theorem pts_c (q : PosShare TreeShare) (f : Buf (Elt F) (cLoc d)) :
    ((cW : Memref sig .scVector .hbm S100000 .f32).view.loc (V d (cV L) (jV L)) ↦{q} f : sProp 𝕄) = cLoc d ↦{q} f := by
  simp only [Memref.view_whole, View.set_whole]
omit [FloatOps F] in
theorem pts_y (q : PosShare TreeShare) (f : Buf (Elt F) (yLoc d)) :
    ((yW : Memref sig .scVector .hbm S1024 .i32).view.loc (V d (cV L) (jV L)) ↦{q} f : sProp 𝕄) = yLoc d ↦{q} f := by
  simp only [Memref.view_whole, View.set_whole]
omit [FloatOps F] in
theorem pts_g (f : Buf (Elt F) (gLoc d)) :
    ((gSl L).view.loc (V d (cV L) (jV L)) ↦[(gSl L).view.set]{fullShare} f : sProp 𝕄) = gLoc d ↦[taskSet (cL L) (sL L)]{fullShare} f := by
  rw [set_gSl]
omit [FloatOps F] in
theorem pts_sI (f : Buf (Elt F) ((V d (cV L) (jV L)).loc cc0_scratch0)) :
    ((sI : Memref sig .scVector .vmem S32 .i32).view.loc (V d (cV L) (jV L)) ↦{fullShare} f : sProp 𝕄) = (V d (cV L) (jV L)).loc cc0_scratch0 ↦{fullShare} f := rfl
omit [FloatOps F] in
theorem pts_sV (f : Buf (Elt F) ((V d (cV L) (jV L)).loc cc0_scratch1)) :
    ((sV : Memref sig .scVector .vmem S32 .f32).view.loc (V d (cV L) (jV L)) ↦{fullShare} f : sProp 𝕄) = (V d (cV L) (jV L)).loc cc0_scratch1 ↦{fullShare} f := rfl

/-! ## What the three copies leave in the tile's entries -/

/-- The count table as the gather slices it: all of it. -/
abbrev cSl : Memref sig .scVector .hbm S100000 .f32 :=
  (cW : Memref sig .scVector .hbm S100000 .f32).slice (Rect.unit (s := S100000) ![0] S100000.size inb_S100000_S100000_0) (fun _ => rfl)

omit [FloatOps F] in
/-- The slice of the whole count table places every class at itself. -/
theorem cSl_emb_val (i : S100000.Idx) (a : Fin 1) : (((cSl).view.emb i) a : ℕ) = (i a : ℕ) := by
  obtain rfl : a = 0 := Subsingleton.elim _ _
  show 0 + 1 * (i 0 : ℕ) = (i 0 : ℕ)
  omega

omit [FloatOps F] in
/-- A rank-1 index is the row-major place of its one coordinate. -/
theorem rowMajor_symm_S32 (x : S32.Idx) (hn : S32.numel = S32.size gathers_S100000_S32.axis') :
    S32.rowMajor.symm ((x gathers_S100000_S32.axis').cast hn.symm) = x := by
  rw [Equiv.symm_apply_eq]
  apply Fin.ext
  rw [Shape.rowMajor_val_one]
  rfl

omit [FloatOps F] in
/-- Entry x of the tile's slice of the gathered counts ends at the count of the class that entry x of its slice of the
    labels names: the labels land in the index scratch, the gather reads row (label x) of the table into entry x of
    the value scratch, and the value scratch is copied out entry by entry. -/
theorem gathered_run (fi : Buf (Elt F) ((V d (cV L) (jV L)).loc cc0_scratch0)) (fv : Buf (Elt F) ((V d (cV L) (jV L)).loc cc0_scratch1))
    (hn : S32.numel = S32.size gathers_S100000_S32.axis')
    (hin : ∀ x, ((sI : Memref sig .scVector .vmem S32 .i32).view.read (Elt F)
        (View.write (Elt F) (sI : Memref sig .scVector .vmem S32 .i32).view fi (ReadAs.same.apply ((ySl L).view.read (Elt F) (m (yLoc d)))) Finset.univ) x).toNat
      < S100000.size gathers_S100000_S32.axis) :
    ∀ j ∈ taskSet (cL L) (sL L), Gathered m d
      ((gSl L).view.writes (Elt F) (m (gLoc d)) [⟨Rect.whole S32, ReadAs.same.apply ((sV : Memref sig .scVector .vmem S32 .f32).view.read (Elt F)
        ((sV : Memref sig .scVector .vmem S32 .f32).view.writes (Elt F) fv [⟨Rect.whole S32,
          SparseCore.gatherPayload gathers_S100000_S32 ((cSl).view.read (Elt F) (m (cLoc d)))
            (SparseCore.rows ((sI : Memref sig .scVector .vmem S32 .i32).view.read (Elt F)
              (View.write (Elt F) (sI : Memref sig .scVector .vmem S32 .i32).view fi (ReadAs.same.apply ((ySl L).view.read (Elt F) (m (yLoc d)))) Finset.univ)) hn hin)⟩]))⟩]) j := by
  intro j hj hlt
  rw [← set_gSl] at hj
  obtain ⟨x, -, rfl⟩ := Finset.mem_map.mp hj
  -- what the copy-out leaves at entry x is what the value scratch held there
  have h2 := View.read_writes_cons_emb (gSl L).view (m (gLoc d)) (Rect.whole S32)
    (ReadAs.same.apply ((sV : Memref sig .scVector .vmem S32 .f32).view.read (Elt F)
        ((sV : Memref sig .scVector .vmem S32 .f32).view.writes (Elt F) fv [⟨Rect.whole S32,
          SparseCore.gatherPayload gathers_S100000_S32 ((cSl).view.read (Elt F) (m (cLoc d)))
            (SparseCore.rows ((sI : Memref sig .scVector .vmem S32 .i32).view.read (Elt F)
              (View.write (Elt F) (sI : Memref sig .scVector .vmem S32 .i32).view fi (ReadAs.same.apply ((ySl L).view.read (Elt F) (m (yLoc d)))) Finset.univ)) hn hin)⟩]))) [] x
  rw [Rect.emb_whole_apply, (View.read_apply _ _).trans (cast_eq _ _)] at h2
  refine h2.trans ?_
  -- which is what the gather wrote there
  have h1 := View.read_writes_cons_emb (sV : Memref sig .scVector .vmem S32 .f32).view fv (Rect.whole S32)
    (SparseCore.gatherPayload gathers_S100000_S32 ((cSl).view.read (Elt F) (m (cLoc d)))
            (SparseCore.rows ((sI : Memref sig .scVector .vmem S32 .i32).view.read (Elt F)
              (View.write (Elt F) (sI : Memref sig .scVector .vmem S32 .i32).view fi (ReadAs.same.apply ((ySl L).view.read (Elt F) (m (yLoc d)))) Finset.univ)) hn hin)) [] x
  rw [Rect.emb_whole_apply] at h1
  refine Eq.trans h1 ?_
  -- the table's row at the label the index scratch held there
  unfold SparseCore.gatherPayload
  rw [(View.read_apply _ _).trans (cast_eq _ _)]
  refine congrArg (m (cLoc d)) ?_
  funext a
  obtain rfl : a = gathers_S100000_S32.axis := @Subsingleton.elim (Fin 1) _ a gathers_S100000_S32.axis
  apply Fin.ext
  rw [cSl_emb_val, Shape.Gathers.idx_axis]
  show ((sI : Memref sig .scVector .vmem S32 .i32).view.read (Elt F)
      (View.write (Elt F) (sI : Memref sig .scVector .vmem S32 .i32).view fi (ReadAs.same.apply ((ySl L).view.read (Elt F) (m (yLoc d)))) Finset.univ)
      (S32.rowMajor.symm ((x gathers_S100000_S32.axis').cast hn.symm))).toNat = (m (yLoc d) ((gSl L).view.emb x)).toNat
  rw [rowMajor_symm_S32 x hn, View.read_write_univ]
  show ((ySl L).view.read (Elt F) (m (yLoc d)) x).toNat = _
  rw [(View.read_apply _ _).trans (cast_eq _ _)]
  rfl

/-! ## The task -/

omit [FloatOps F] in
/-- Once the tile's labels have landed in its index scratch, every word there names a class. -/
theorem idx_inb (hpre : PreIdx m) (g : Buf (Elt F) ((V d (cV L) (jV L)).loc cc0_scratch0)) :
    ∀ x, ((sI : Memref sig .scVector .vmem S32 .i32).view.read (Elt F)
        (View.write (Elt F) (sI : Memref sig .scVector .vmem S32 .i32).view g (ReadAs.same.apply ((ySl L).view.read (Elt F) (m (yLoc d)))) Finset.univ) x).toNat
      < S100000.size gathers_S100000_S32.axis := by
  intro x
  rw [View.read_write_univ]
  show ((ySl L).view.read (Elt F) (m (yLoc d)) x).toNat < 100000
  rw [show (ySl L).view.read (Elt F) (m (yLoc d)) x = m (yLoc d) ((ySl L).view.emb x) from (View.read_apply _ _).trans (cast_eq _ _)]
  exact hpre d _

theorem tile_body (hpre : PreIdx m) (O : CellTallies nD τ sig (HIx 1)) (W : Waits sig (HIx 1)) (hO : ∀ g, O g none = 0) :
    iprop(levAts (K (F := F)).L (K (F := F)).lev ∗ emp
        ∗ (cPts m d (qTile (cL L) (sL L)) ∗ yPts m d (qTile (cL L) (sL L)) ∗ gPts0 m d (taskSet (cL L) (sL L)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L cW (Memref.isWhole_whole _) yW (Memref.isWhole_whole _) gW (Memref.isWhole_whole _)
            sI (Memref.isWhole_whole _) sV (Memref.isWhole_whole _) cc0_scratch2 cc0_scoped0 cc0_scoped1)
          fun _ => iprop((cPts m d (qTile (cL L) (sL L)) ∗ yPts m d (qTile (cL L) (sL L)) ∗ gPts1 m d (taskSet (cL L) (sL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V facts d (cV L) (jV L), SparseCore.Cfg.scopedSems0_V (Val := Elt F) d (cV L) (jV L), ownSems0_V, ownBufs_V]
  iintro ⟨#Hlv, -, ⟨Hc, Hy, Hg⟩, ⟨⟨%fi, Hi⟩, ⟨%fv, Hv⟩, Hbufs⟩, ⟨HsemG, HsemA, HsemB, Hsems⟩, HO⟩
  ihave Hmw := ((K (F := F)).mayWaits_none (thr := V d (cV L) (jV L)) hO) $$ Hlv
  ihave Hc' := (Entails.of_eq (pts_c (F := F) d L _ _).symm) $$ Hc
  ihave Hy' := (Entails.of_eq (pts_y (F := F) d L _ _).symm) $$ Hy
  ihave Hg' := (Entails.of_eq (pts_g (F := F) d L _).symm) $$ Hg
  ihave Hi' := (Entails.of_eq (pts_sI (F := F) d L _).symm) $$ Hi
  ihave Hv' := (Entails.of_eq (pts_sV (F := F) d L _).symm) $$ Hv
  have hin := idx_inb m d L hpre
  sl_exec
  sl_step
  ihave Hc := (Entails.of_eq (pts_c (F := F) d L _ _)) $$ Hc'
  ihave Hy := (Entails.of_eq (pts_y (F := F) d L _ _)) $$ Hy'
  ihave Hg := (Entails.of_eq (pts_g (F := F) d L _)) $$ Hg'
  isplitl [Hc Hy Hg]
  · isplitl [Hc]; · iexact Hc
    isplitl [Hy]; · iexact Hy
    iexists _; isplitr
    swap; · iexact Hg
    ipureintro
    exact gathered_run m d L fi fv _ (hin fi)
  isplitl [Hi' Hv' Hbufs]
  · isplitl [Hi']; · iexists _; iexact Hi'
    isplitl [Hv']; · iexists _; iexact Hv'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          cW (Memref.isWhole_whole _) yW (Memref.isWhole_whole _) gW (Memref.isWhole_whole _)
          sI (Memref.isWhole_whole _) sV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the one vector-subcore call: every tile of its grid runs its task from what
    the go signal hands it to what its taskDone hands back. -/
theorem tileObl (hpre : PreIdx m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

end Cert.Proof.KI

end
-- ==== Proof.KI_Main.lean ====
/-
  @main on the TensorCore and the launch element. The call lends the counts and the labels to the two SparseCores
  and hands them the gathered-count array; what comes back has every entry gathered, which for labels in range pins
  the array's contents. The transposition and the reshape run over the eight held buffers; the region is entered
  through its record; the final reshape writes the program's result.
-/
import proofs.«210372_g71854802862689_cont_9to1_m_893_16_alg».proof.Proof.KI_Launch
import proofs.«210372_g71854802862689_cont_9to1_m_893_16_alg».proof.Proof.KI_Tile

noncomputable section

namespace Cert.Proof.KI

open Cert.KernelIdeal Cert.KernelIdeal.Gen Cert.KernelIdeal.Fold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the buffers no operation writes -/

theorem V1_of_ne (d : Dev nD) (b : DevRef τ sig) (h : b ≠ v0') : V1 m d b = V0 m d b := Function.update_of_ne h _ _
theorem V1_at_g (d : Dev nD) : V1 m d v0' = gath m d := Function.update_self _ _ _
theorem V2_of_ne (d : Dev nD) (b : DevRef τ sig) (h1 : b ≠ v1') (h2 : b ≠ v2') : V2 m d b = V1 m d b := by
  unfold V2
  rw [(opR (F := F)).result_of_not_mem _ (b := b) (show b ∉ ({v2'} : Finset (DevRef τ sig)) from by simpa using h2),
    (opT (F := F)).result_of_not_mem _ (b := b) (show b ∉ ({v1'} : Finset (DevRef τ sig)) from by simpa using h1)]
theorem V4_of_ne (d : Dev nD) (b : DevRef τ sig) (h : b ≠ v4') : V4 m d b = V3 m d b := by
  unfold V4
  rw [(opF (F := F)).result_of_not_mem _ (b := b) (show b ∉ ({v4'} : Finset (DevRef τ sig)) from by simpa using h)]

theorem unscoped_held (d : Dev nD) : (unscopedBufs d (fun b => m ((SparseCore.T d).loc b)) : sProp 𝕄) = held (T d) S8 (V0 m d) := by
  rw [unscopedBufs_eq, held_S8]; rfl

/-! ## The launch element -/

/-- The region's one pipeline, as the region's record spells it; its staging cells are pairwise distinct. -/
abbrev cfgsP : Fin 1 → Pipeline.Cfg sig Λ₀ := Pipeline.pin (pcfgs (F := F)) adm
theorem cellOf_injP : Function.Injective (Pipeline.cellOf (nD := nD) (τ := τ) (cfgsP (F := F))) :=
  Pipeline.cellOf_injective_of_table (cfgsP (F := F)) semTab (fun | 0 => rfl | ⟨_ + 1, h⟩ => absurd h (Nat.not_lt.2 (Nat.le_add_left _ _))) semsDistinct semsDisjoint

def u₀ : UU := (initOf (K (F := F)).hsCells (K (F := F)).hsToks, (initOf (Pipeline.cells (cfgsP (F := F)) cellOf_injP) (Pipeline.launchToks (cfgsP (F := F)) cellOf_injP), 1))

/-- What @main's proof starts from on device d beside the launch's deal: the region's staging cells' ghost state and duty tokens. -/
abbrev G (d : Dev nD) : sProp 𝕄 := iprop(Pipeline.cellsGhost (cfgsP (F := F)) EP 0 d ∗ Pipeline.toksInit (cfgsP (F := F)) EP 0 d)

omit [FloatOps F] in
theorem bigSep_emp' {I : Type} (s : Finset I) : (bigSep s fun _ => iprop(emp)) = (iprop(emp) : sProp 𝕄) := bigSep_emp_const s

omit [FloatOps F] in
/-- The region's component of the launch element, out of the right half of the pair. -/
theorem own_EP (a : UP) (b : Counters) :
    (BI.own ((embR : Emb (UP × Counters) 𝕄) (a, b)) : sProp 𝕄) ⊢ BI.own ((EP (F := F)) a) :=
  (own_pair_emb (embR : Emb (UP × Counters) 𝕄) a b).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_EP (F := F) _ _) $$ HR
  imod (Pipeline.fund_ghost (cfgsP (F := F)) (EP (F := F)) cellOf_injP) $$ HP with ⟨Hg, Ht⟩
  imodintro
  isplitl [HH]; · iexact HH
  isplitl [Hg Ht]
  · rw [bigSep_sep']
    isplitl [Hg]
    · iapply (Entails.of_eq (bigSep_congr fun c _ => (BI.bigSep_univ_of_subsingleton (0 : Fin 1) (Φ := fun p => Pipeline.cellsGhost (cfgsP (F := F)) (EP (F := F)) p c))))
      iexact Hg
    · iapply (Entails.of_eq (bigSep_congr fun c _ => (BI.bigSep_univ_of_subsingleton (0 : Fin 1) (Φ := fun p => (Pipeline.toksInit (cfgsP (F := F)) (EP (F := F)) p c : sProp 𝕄)))))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's handshake state after the one call -/

/-- The part of the handshake state that rides along to the end. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(owesT d ∗ tcTail d) := by
  unfold SparseCore.Cfg.tcSt tcTail
  rw [(K (F := F)).Otc_end d (le_refl 1)]

theorem tcSt_one' (d : Dev nD) : ((K (F := F)).tcSt EH d ((0 : Fin 1).val + 1) : sProp 𝕄) = iprop(owesT d ∗ tcTail d) := tcSt_one d

/-! ## The region's step -/

/-- What the region's rule asks, from what @main holds before it. -/
theorem region_pre (d : Dev nD) (Φ : PUnit.{1} → sProp 𝕄) :
    iprop(boundary (SparseCore.T d) ∗ held (T d) S8 (V2 m d) ∗ owesT d ∗ levAts (K (F := F)).L (K (F := F)).lev ∗ G (F := F) d
        ∗ (iprop(boundary (SparseCore.T d) ∗ held (T d) S8 (V3 m d) ∗ owesT d) -∗ Φ ⟨⟩))
      ⊢ iprop((iprop(boundary (SparseCore.T d) ∗ (iprop(held (T d) S8 (V3 m d) ∗ owesT d) : sProp 𝕄)) -∗ wp frame (wpE (D (F := F)) 𝒱 (SparseCore.T d) none) Set.univ (Prog.ret PUnit.unit) Φ)
          ∗ boundary (SparseCore.T d) ∗ (iprop(held (T d) S8 (V2 m d) ∗ owesT d) : sProp 𝕄) ∗ levAts (K (F := F)).L (K (F := F)).lev
          ∗ Pipeline.cellsGhost (cfgsP (F := F)) EP 0 d ∗ Pipeline.toksInit (cfgsP (F := F)) EP 0 d) := by
  iintro ⟨Hb, Hh, HO, #Hlv, ⟨Hg, Ht⟩, Hk⟩
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    iexact HO
  isplitr; · iexact Hlv
  isplitl [Hg]; · iexact Hg
  iexact Ht

set_option maxHeartbeats 400000 in
/-- The region's step in @main: entered from the eight buffers held after the two host operations, left with the result word in place. -/
theorem region_step [∀ e, Nonempty (Elt F e)] (d : Dev nD) (Φ : PUnit.{1} → sProp 𝕄) :
    iprop(boundary (SparseCore.T d) ∗ held (T d) S8 (V2 m d) ∗ owesT d ∗ levAts (K (F := F)).L (K (F := F)).lev ∗ G (F := F) d
        ∗ (iprop(boundary (SparseCore.T d) ∗ held (T d) S8 (V3 m d) ∗ owesT d) -∗ Φ ⟨⟩))
      ⊢ wp frame (wpE ((K (F := F)).defs (D (F := F))) 𝒱 (SparseCore.T d) none) Set.univ
          (Prog.lift (.customCall (SparseCore.inner (Pipeline.entry 0)) ())) Φ := by
  rw [show (Prog.lift (.customCall (SparseCore.inner (Pipeline.entry 0)) ()) : Prog (TpuEff nD τ sig (Elt F) (SparseCore.Sig (ΛP (F := F)) 1) .tc) PUnit)
      = SparseCore.liftProg (Q := 1) (Prog.lift (.customCall (Pipeline.entry 0) ())) from rfl]
  refine BI.Entails.trans ?_ ((K (F := F)).wp_liftProg (D (F := F)) 𝒱 (SparseCore.T d) Set.univ none _ Φ)
  refine BI.Entails.trans ?_ (Pipeline.RegionSeg.wp (pcfgs (F := F)) adm (pdats (Vr m)) (none : HIx 1) cellOf_injP EP defs₀ 𝒱₀
    (K (F := F)).L (K (F := F)).lev (p := 0) (reg m) d none (fun u hu => absurd hu (Option.not_mem_none u)) (α := PUnit.{1}) (fun _ => .ret ⟨⟩) Φ)
  exact region_pre m d Φ

end Cert.Proof.KI

end
-- ==== Proof.KI_Run.lean ====
/-
  @main on the TensorCore, what the final memory says, and the program's run: the call, the two host operations, the
  region, the final reshape, each handing the next the eight buffers it needs.
-/
import proofs.«210372_g71854802862689_cont_9to1_m_893_16_alg».proof.Proof.KI_Main

noncomputable section

namespace Cert.Proof.KI

open Cert.KernelIdeal Cert.KernelIdeal.Gen Cert.KernelIdeal.Fold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main on the TensorCore -/

/-- What @main leaves the claim: the three arguments as launched, the result. -/
abbrev FIN (d : Dev nD) : sProp 𝕄 :=
  iprop((lgLoc d ↦{fullShare} m (lgLoc d)) ∗ (yLoc d ↦{fullShare} m (yLoc d)) ∗ (cLoc d ↦{fullShare} m (cLoc d)) ∗ (resLoc d ↦{fullShare} V4 m d v4'))

theorem hmain [∀ e, Nonempty (Elt F e)] (hpre : PreIdx m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave #Hlv := ((K (F := F)).ctx_levAts (EH := EH) (P := P m) κ) $$ Hctx
  ihave Hh := (Entails.of_eq (held_S8 (F := F) d _)) $$ Hheld
  icases Hh with ⟨Ha0, Ha1, Ha2, Hv0, Hv1, Hv2, Hv3, Hv4⟩
  -- the call: the counts, the labels and the gathered-count array to the two SparseCores and back
  iapply ((K (F := F)).wp_run (D (F := F)) 𝒱 (EH := EH) (P := P m) κ d 0) $$ [Hst Ha1 Ha2 Hv0 Hb Ha0 Hv1 Hv2 Hv3 Hv4 HG]
  isplitr; · iexact Hctx
  isplitl [Hst]; · iexact Hst
  isplitl [Ha1 Ha2 Hv0]
  · iapply (st_of_whole m d)
    isplitl [Ha2]; · iexact Ha2
    isplitl [Ha1]; · iexact Ha1
    iexact Hv0
  iintro ⟨Hst, Hdn⟩
  ihave Hdn' := (whole_of_dn m d) $$ Hdn
  icases Hdn' with ⟨Ha2, Ha1, %f, %hf, Hv0⟩
  obtain rfl := gath_of_gathered m hpre d f hf
  ihave Hst' := (Entails.of_eq (tcSt_one' (F := F) d)) $$ Hst
  icases Hst' with ⟨HO, Htail⟩
  -- the transposition
  iapply (wp_hlo_within 𝒱 (SparseCore.T d) none Set.univ (op := opT) (S := S8) hT (V := V1 m d)) $$ [Hb Ha0 Ha1 Ha2 Hv0 Hv1 Hv2 Hv3 Hv4]
  · isplitl [Hb]; · iexact Hb
    rw [held_S8, V1_of_ne m d a0' (by decide), V1_of_ne m d a1' (by decide), V1_of_ne m d a2' (by decide), V1_at_g, V1_of_ne m d v1' (by decide),
      V1_of_ne m d v2' (by decide), V1_of_ne m d v3' (by decide), V1_of_ne m d v4' (by decide)]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  -- the reshape of the counts to a row
  iapply (wp_hlo_within 𝒱 (SparseCore.T d) none Set.univ (op := opR) (S := S8) hR (V := (opT (F := F)).result (V1 m d))) $$ [Hb Hheld]
  · isplitl [Hb]; · iexact Hb
    iexact Hheld
  iintro ⟨Hb, Hheld⟩
  rw [wp_ret]; imodintro
  -- the region
  iapply (region_step m d) $$ [Hb Hheld HO HG Htail]
  isplitl [Hb]; · iexact Hb
  isplitl [Hheld]; · iexact Hheld
  isplitl [HO]; · iexact HO
  isplitr; · iexact Hlv
  isplitl [HG]; · iexact HG
  iintro ⟨Hb, Hheld, HO⟩
  -- the final reshape
  iapply (wp_hlo_within 𝒱 (SparseCore.T d) none Set.univ (op := opF) (S := S8) hFo (V := V3 m d)) $$ [Hb Hheld]
  · isplitl [Hb]; · iexact Hb
    iexact Hheld
  iintro ⟨Hb, Hheld⟩
  ihave Hh := (Entails.of_eq (held_S8 (F := F) d _)) $$ Hheld
  icases Hh with ⟨Ha0, Ha1, Ha2, -, -, -, -, Hv4⟩
  rw [wp_ret]; imodintro; imodintro
  isplitl [HO Htail]
  · rw [tcSt_one]
    isplitl [HO]; · iexact HO
    iexact Htail
  have e0 : V4 m d a0' = m (lgLoc d) := by
    rw [V4_of_ne m d a0' (by decide), V3_ne m d a0' (by decide), V2_of_ne m d a0' (by decide) (by decide), V1_of_ne m d a0' (by decide)]; rfl
  have e1 : V4 m d a1' = m (yLoc d) := by
    rw [V4_of_ne m d a1' (by decide), V3_ne m d a1' (by decide), V2_of_ne m d a1' (by decide) (by decide), V1_of_ne m d a1' (by decide)]; rfl
  have e2 : V4 m d a2' = m (cLoc d) := by
    rw [V4_of_ne m d a2' (by decide), V3_ne m d a2' (by decide), V2_of_ne m d a2' (by decide) (by decide), V1_of_ne m d a2' (by decide)]; rfl
  have e0' : (opF (F := F)).result (V3 m d) a0' = m (lgLoc d) := e0
  have e1' : (opF (F := F)).result (V3 m d) a1' = m (yLoc d) := e1
  have e2' : (opF (F := F)).result (V3 m d) a2' = m (cLoc d) := e2
  rw [e0', e1', e2']
  isplitl [Ha0]; · iexact Ha0
  isplitl [Ha1]; · iexact Ha1
  isplitl [Ha2]; · iexact Ha2
  iexact Hv4

/-! ## What the final memory says, and the run -/

def fq (d : Dev nD) (s' : Phys nD τ sig (Elt F)) : Prop :=
  s'.mem.mem (lgLoc d) = m (lgLoc d) ∧ s'.mem.mem (yLoc d) = m (yLoc d) ∧ s'.mem.mem (cLoc d) = m (cLoc d) ∧ s'.mem.mem (resLoc d) = V4 m d v4'

theorem hfin (d : Dev nD) (s' : Phys nD τ sig (Elt F)) : iprop(FIN m d ∗ SI s') ⊢ (⌜fq m d s'⌝ : sProp 𝕄) := by
  iintro ⟨⟨H0, H1, H2, H4⟩, HSI⟩
  icombine HSI H0 gives %h0
  icombine HSI H1 gives %h1
  icombine HSI H2 gives %h2
  icombine HSI H4 gives %h4
  ipureintro
  exact ⟨Buf.eq_of_forall_mem_univ h0, Buf.eq_of_forall_mem_univ h1, Buf.eq_of_forall_mem_univ h2, Buf.eq_of_forall_mem_univ h4⟩

/-- The run's post: on every device the result buffer at the final reshape of the region's result word, the three
    arguments as launched. -/
def QC : PUnit × MemSt nD τ sig (Elt F) → Prop := fun r => ∀ c : Dev nD,
  r.2.mem (resLoc c) = V4 m c v4' ∧ r.2.mem (lgLoc c) = m (lgLoc c) ∧ r.2.mem (yLoc c) = m (yLoc c) ∧ r.2.mem (cLoc c) = m (cLoc c)

theorem run_main [∀ e, Nonempty (Elt F e)] (hpre : PreIdx m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ hpre) (fq m) (hfin m) (QC m)
    (fun s' h c => ⟨(h c).2.2.2, (h c).1, (h c).2.1, (h c).2.2.1⟩)

end Cert.Proof.KI

end
-- ==== Proof.KI_StepValue.lean ====
/-
  The region's payloads read at an index, at the extended reals. One accumulation step adds to s b the block's
  weighted sum of exponentials and to g b the exponential of the row that is the label (if the label lies in the
  block); the last step does the same with the rows beyond the array masked; the total is the clamped sum of the
  counts; the result word is the mean of log s b - (log g b + 1 * log (gathered count b / total + eps)).
-/
import proofs.«210372_g71854802862689_cont_9to1_m_893_16_alg».proof.Proof.KI_Fold
import proofs.«210372_g71854802862689_cont_9to1_m_893_16_alg».proof.Proof.Args
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.StepValue

open Idealize.ShloMosaic Cert.KernelIdeal Cert.KernelIdeal.Gen Cert.KernelIdeal.Fold
open Idealize.ShloMosaic.ValueIdx (ix1 ix2)
open Idealize.ShloMosaic.ValueIdx

/-- The finite stand-in the last step fills the rows beyond the array with. -/
def negBig : EReal := Ideal.ofBits .f32 0xFF61B1E6#32

/-- The zeroed scratches. -/
theorem pay2_apply (b : Fin 1024) : k1_pay2 (F := Ideal) (ix2 (0 : Fin 1) b) = 0 := by
  unfold k1_pay2
  rw [shapeCast_self]
  exact Ideal.ofBits_zero_f32
theorem pay3_apply (b : Fin 1024) : k1_pay3 (F := Ideal) (ix2 (0 : Fin 1) b) = 0 := by
  unfold k1_pay3
  rw [shapeCast_self]
  exact Ideal.ofBits_zero_f32

/-- A shape cast keeps the sum of all entries. -/
theorem sum_shapeCast {s t : Shape} (x : s.Idx → EReal) (h : s.ShapeCasts t) :
    ∑ j : t.Idx, shapeCast t x h j = ∑ i : s.Idx, x i :=
  Equiv.sum_comp (Shape.reshapeEquiv h) x

/-- The sum of a row [1, n] seen as [1, 1, n] over its two last axes, from the zero word, is the sum of the row. -/
theorem total_row {n : ℕ} (v : FVec Ideal ⟨2, ![1, n]⟩ .f32) (hc : (⟨2, ![1, n]⟩ : Shape).ShapeCasts ⟨3, ![1, 1, n]⟩)
    (hr : (⟨3, ![1, 1, n]⟩ : Shape).Reduces [1, 2] ⟨1, ![1]⟩) (hφ : FKind.Formats .f32)
    (hacc : (0x00000000#32 : BitVec 32) = 0x00000000#32) (j : (⟨1, ![1]⟩ : Shape).Idx) :
    multiReduction (F := Ideal) .add [1, 2] ⟨1, ![1]⟩ (shapeCast ⟨3, ![1, 1, n]⟩ v hc) 0x00000000#32 hr hφ hacc j
      = ∑ k : Fin n, v (ix2 (0 : Fin 1) k) :=
  (Ideal.multiReduction_add_total (shapeCast ⟨3, ![1, 1, n]⟩ v hc) 0x00000000#32 hr (by decide) hφ hacc j).trans
    ((sum_shapeCast v hc).trans ((sum_idx2 v).trans (Fin.sum_univ_one _)))

/-- The total: the sum of the row of counts, clamped below by eps. -/
theorem pay1_eq (x2 : Vec Ideal S1x100000 .f32) :
    k1_pay1 (F := Ideal) x2 = max (∑ k : Fin 100000, x2 (ix2 (0 : Fin 1) k)) Cert.Spec.eps := by
  unfold k1_pay1
  rw [shapeCast_self]
  exact congrArg (fun z => max z Cert.Spec.eps) (total_row x2 _ _ (Or.inl rfl) rfl _)

/-! The product of the block step: its operand indices, axis by axis. -/

theorem lhs_dot_0 (j : S8x1024.Idx) (k : dot_S8x5120_S5120x1024_S8x1024_1_0_0_1_n_n.contr.Idx) :
    (dot_S8x5120_S5120x1024_S8x1024_1_0_0_1_n_n.lhsIdx j k 0).val = (j 0).val := by
  unfold DotDims.lhsIdx
  rw [dif_neg (show ¬(0 : Fin S8x5120.rank) ∈ dot_S8x5120_S5120x1024_S8x1024_1_0_0_1_n_n.lhsBatch by decide),
    dif_pos (show (0 : Fin S8x5120.rank) ∈ dot_S8x5120_S5120x1024_S8x1024_1_0_0_1_n_n.lhsNonContracting by decide)]
  rfl

theorem lhs_dot_1 (j : S8x1024.Idx) (k : dot_S8x5120_S5120x1024_S8x1024_1_0_0_1_n_n.contr.Idx) :
    (dot_S8x5120_S5120x1024_S8x1024_1_0_0_1_n_n.lhsIdx j k 1).val = (k ⟨0, by decide⟩).val :=
  dot_S8x5120_S5120x1024_S8x1024_1_0_0_1_n_n.lhsIdx_val_of_single rfl j k

theorem rhs_dot_0 (j : S8x1024.Idx) (k : dot_S8x5120_S5120x1024_S8x1024_1_0_0_1_n_n.contr.Idx) :
    (dot_S8x5120_S5120x1024_S8x1024_1_0_0_1_n_n.rhsIdx j k 0).val = (k ⟨0, by decide⟩).val :=
  dot_S8x5120_S5120x1024_S8x1024_1_0_0_1_n_n.rhsIdx_val_of_single rfl j k

theorem rhs_dot_1 (j : S8x1024.Idx) (k : dot_S8x5120_S5120x1024_S8x1024_1_0_0_1_n_n.contr.Idx) :
    (dot_S8x5120_S5120x1024_S8x1024_1_0_0_1_n_n.rhsIdx j k 1).val = (j 1).val := by
  unfold DotDims.rhsIdx
  rw [dif_neg (show ¬(1 : Fin S5120x1024.rank) ∈ dot_S8x5120_S5120x1024_S8x1024_1_0_0_1_n_n.rhsBatch by decide),
    dif_pos (show (1 : Fin S5120x1024.rank) ∈ dot_S8x5120_S5120x1024_S8x1024_1_0_0_1_n_n.rhsNonContracting by decide)]
  rfl

/-- The product into the zero splat, read at (p, b): the sum over the 5120 rows of the block. -/
theorem matmul_at (L : FVec Ideal S8x5120 .f32) (R : FVec Ideal S5120x1024 .f32) (p : Fin 8) (b : Fin 1024) :
    matmul dot_S8x5120_S5120x1024_S8x1024_1_0_0_1_n_n none L R (constant (F := Ideal) S8x1024 .f32 0x00000000#32) (ix2 p b)
      = ∑ r : Fin 5120, L (ix2 p r) * R (ix2 r b) := by
  refine (Ideal.matmul_constant_zero_apply dot_S8x5120_S5120x1024_S8x1024_1_0_0_1_n_n none L R (ix2 p b)).trans ?_
  rw [← Equiv.sum_comp (contrEquiv1 dot_S8x5120_S5120x1024_S8x1024_1_0_0_1_n_n 5120 rfl rfl).symm]
  refine Finset.sum_congr rfl fun r _ => ?_
  have hk := contrEquiv1_symm_val dot_S8x5120_S5120x1024_S8x1024_1_0_0_1_n_n 5120 rfl rfl r
  have el : dot_S8x5120_S5120x1024_S8x1024_1_0_0_1_n_n.lhsIdx (ix2 p b)
      ((contrEquiv1 dot_S8x5120_S5120x1024_S8x1024_1_0_0_1_n_n 5120 rfl rfl).symm r) = ix2 p r :=
    Shape.idx_ext₂ (lhs_dot_0 _ _) ((lhs_dot_1 _ _).trans hk)
  have er : dot_S8x5120_S5120x1024_S8x1024_1_0_0_1_n_n.rhsIdx (ix2 p b)
      ((contrEquiv1 dot_S8x5120_S5120x1024_S8x1024_1_0_0_1_n_n 5120 rfl rfl).symm r) = ix2 r b :=
    Shape.idx_ext₂ ((rhs_dot_0 _ _).trans hk) (rhs_dot_1 _ _)
  rw [el, er]

/-- The first row of an [8, 1024] array cut out as [1, 1024]. -/
theorem slice_row0 {α : Type} (v : S8x1024.Idx → α) (b : Fin 1024) :
    extractStridedSlice S1x1024 ![0, 0] v slices_S8x1024_o0_0_S1x1024 (ix2 (0 : Fin 1) b) = v (ix2 (0 : Fin 8) b) :=
  extractStridedSlice_apply _ v _ (ix2 (0 : Fin 1) b) (ix2 (0 : Fin 8) b) fun a =>
    match a with
    | ⟨0, _⟩ => rfl
    | ⟨1, _⟩ => (Nat.zero_add _).symm

/-- The block's exponentials at (r, b). -/
theorem pay4_apply (x0 : Vec Ideal S5120x1024 .f32) (r : Fin 5120) (b : Fin 1024) :
    k1_pay4 (F := Ideal) x0 (ix2 r b) = Ideal.exp (x0 (ix2 r b)) := by
  unfold k1_pay4
  rw [shapeCast_self]
  rfl

/-- One step of s: the block's weighted sum of exponentials is added. -/
theorem pay5_apply (tot : EReal) (x0 : Vec Ideal S5120x1024 .f32) (x1 : Vec Ideal S1x5120 .f32) (sp : Vec Ideal S1x1024 .f32) (b : Fin 1024) :
    k1_pay5 (F := Ideal) tot x0 x1 sp (ix2 (0 : Fin 1) b)
      = sp (ix2 (0 : Fin 1) b) + ∑ r : Fin 5120, (Ideal.div (x1 (ix2 (0 : Fin 1) r)) tot + Cert.Spec.eps) * Ideal.exp (x0 (ix2 r b)) := by
  unfold k1_pay5
  simp only [shapeCast_self]
  refine congrArg (sp (ix2 (0 : Fin 1) b) + ·) ?_
  refine (slice_row0 _ b).trans ?_
  refine (matmul_at _ _ 0 b).trans (Finset.sum_congr rfl fun r _ => ?_)
  rw [broadcastTo_1b_ab_apply, pay4_apply]
  rfl

/-! The row words: 32-bit arithmetic that does not wrap. -/

/-- Row r of block n as a word: the row's number in the whole array. -/
theorem rowWord (n r : ℕ) (hn : n < 20) (hr : r < 5120) :
    IntOp.addi (BitVec.ofNat 32 r) (Scalar.muli (BitVec.ofNat 32 n) 5120#32) = BitVec.ofNat 32 (5120 * n + r) := by
  show BitVec.ofNat 32 r + BitVec.ofNat 32 n * 5120#32 = _
  apply BitVec.eq_of_toNat_eq
  simp only [BitVec.toNat_add, BitVec.toNat_mul, BitVec.toNat_ofNat]
  omega

/-- A small number's word equals a word exactly when the number is the word's value. -/
theorem cmpi_eq_iff (m : ℕ) (hm : m < 2 ^ 32) (x : BitVec 32) :
    IntOp.cmpi .eq (BitVec.ofNat 32 m) x = 1#1 ↔ m = x.toNat := by
  show BitVec.ofBool (BitVec.ofNat 32 m == x) = 1#1 ↔ _
  by_cases h : BitVec.ofNat 32 m = x
  · subst h
    simp only [beq_self_eq_true, BitVec.ofBool_true, true_iff, BitVec.toNat_ofNat]
    exact ⟨fun _ => (Nat.mod_eq_of_lt hm).symm, fun _ => rfl⟩
  · have hb : (BitVec.ofNat 32 m == x) = false := by simpa using h
    rw [hb]
    constructor
    · intro h1; exact absurd h1 (by decide)
    · intro h2; exact absurd (by rw [h2]; simp) h

/-- A small number's word is below 100000 as a signed word exactly when the number is. -/
theorem cmpi_slt_iff (m : ℕ) (hm : m < 2 ^ 31) :
    IntOp.cmpi .slt (BitVec.ofNat 32 m) 100000#32 = 1#1 ↔ m < 100000 := by
  show BitVec.ofBool ((BitVec.ofNat 32 m).slt 100000#32) = 1#1 ↔ _
  have h1 : (BitVec.ofNat 32 m).toInt = (m : Int) := by
    rw [BitVec.toInt_eq_toNat_cond, BitVec.toNat_ofNat]
    have : m % 2 ^ 32 = m := Nat.mod_eq_of_lt (by omega)
    rw [this]
    split <;> omega
  have h2 : (100000#32 : BitVec 32).toInt = 100000 := by decide
  have e : (BitVec.ofNat 32 m).slt 100000#32 = decide (m < 100000) := by
    unfold BitVec.slt
    rw [h1, h2]
    simp
  rw [e]
  by_cases h : m < 100000
  · simp [h]
  · simp [h]

/-- A column [a, 1] broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on a bit that is 1 exactly when P holds is the choice by P. -/
theorem select_iff {α : Type} (c : BitVec 1) (P : Prop) [Decidable P] (h : c = 1#1 ↔ P) (a b : α) :
    Scalar.select c a b = if P then a else b := by
  by_cases hp : P
  · rw [if_pos hp, h.2 hp]; exact select_one a b
  · rw [if_neg hp, eq_zero_of_ne_one (fun hc => hp (h.1 hc))]; exact select_zero a b

/-- The sum over the rows of a block, from the zero word, at column b. -/
theorem colsum (v : FVec Ideal S5120x1024 .f32) (hφ : FKind.Formats .f32) (hacc : (0x00000000#32 : BitVec 32) = 0x00000000#32) (b : Fin 1024) :
    multiReduction (F := Ideal) .add [0] S1024 v 0x00000000#32 reduces_S5120x1024_S1024 hφ hacc (ix1 b) = ∑ r : Fin 5120, v (ix2 r b) :=
  (Ideal.multiReduction_add_single v 0x00000000#32 reduces_S5120x1024_S1024 hφ hacc (ix1 b)).trans
    (Finset.sum_congr rfl fun r _ => congrArg v (Shape.idx_ext₂ rfl rfl))

/-- The label mask at (r, b): row r of block n is example b's label. -/
theorem eqMask_apply (n : ℕ) (hn : n < 20) (x3 : Vec Ideal S1024 .i32) (r : Fin 5120) (b : Fin 1024) :
    cmpi .eq (broadcastTo S5120x1024 (addi (iota .tc S5120x1 32 [0] iota_S5120x1_d0_w32) (broadcast S5120x1 (Scalar.muli (BitVec.ofNat 32 n) 5120#32))) broadcasts_S5120x1_S5120x1024)
      (broadcastTo S5120x1024 (shapeCast S1x1024 x3 shapeCasts_S1024_S1x1024) broadcasts_S1x1024_S5120x1024) (ix2 r b) = 1#1
    ↔ 5120 * n + r.val = (x3 (ix1 b)).toNat := by
  show IntOp.cmpi .eq (broadcastTo S5120x1024 _ broadcasts_S5120x1_S5120x1024 (ix2 r b)) (broadcastTo S5120x1024 _ broadcasts_S1x1024_S5120x1024 (ix2 r b)) = 1#1 ↔ _
  rw [broadcastTo_a1_ab_apply, broadcastTo_1b_ab_apply, shapeCast_a_1a_apply]
  show IntOp.cmpi .eq (IntOp.addi (iota .tc S5120x1 32 [0] iota_S5120x1_d0_w32 (ix2 r (0 : Fin 1))) (Scalar.muli (BitVec.ofNat 32 n) 5120#32)) (x3 (ix1 b)) = 1#1 ↔ _
  rw [iota_single_apply]
  show IntOp.cmpi .eq (IntOp.addi (BitVec.ofNat 32 r.val) _) _ = 1#1 ↔ _
  rw [rowWord n r.val hn r.isLt]
  exact cmpi_eq_iff _ (by omega) _

/-- One step of g: the exponential of the block's row that is example b's label, if there is one. -/
theorem pay6_apply (i : grid1.Coords) (x0 : Vec Ideal S5120x1024 .f32) (x3 : Vec Ideal S1024 .i32) (gp : Vec Ideal S1x1024 .f32) (b : Fin 1024) :
    k1_pay6 (F := Ideal) i x0 x3 gp (ix2 (0 : Fin 1) b)
      = gp (ix2 (0 : Fin 1) b) + ∑ r : Fin 5120, if 5120 * (i 0).val + r.val = (x3 (ix1 b)).toNat then Ideal.exp (x0 (ix2 r b)) else 0 := by
  have hi : (i 0).val < 20 := (i 0).isLt
  unfold k1_pay6
  simp only [shapeCast_self]
  refine congrArg (gp (ix2 (0 : Fin 1) b) + ·) ?_
  refine (shapeCast_a_1a_apply _ _ 0 b).trans ?_
  refine (colsum _ (Or.inl rfl) rfl b).trans (Finset.sum_congr rfl fun r _ => ?_)
  refine (select_apply _ _ _ _).trans ?_
  refine (select_iff _ _ (eqMask_apply (i 0).val hi x3 r b) _ _).trans ?_
  rw [pay4_apply]
  show (if _ then _ else Ideal.ofBits .f32 0x00000000#32) = _
  rw [Ideal.ofBits_zero_f32]

/-- The last block's exponentials at (r, b): rows beyond the array are read as the stand-in. -/
theorem pay10_apply (n : ℕ) (hn : n < 20) (x0 : Vec Ideal S5120x1024 .f32) (r : Fin 5120) (b : Fin 1024) :
    k1_pay10 (F := Ideal) (BitVec.ofNat 32 n) x0 (ix2 r b) = Ideal.exp (if 5120 * n + r.val < 100000 then x0 (ix2 r b) else negBig) := by
  unfold k1_pay10
  simp only [shapeCast_self]
  show Ideal.exp (Scalar.select (broadcastTo S5120x1024 _ broadcasts_S5120x1_S5120x1024 (ix2 r b)) (x0 (ix2 r b)) (Ideal.ofBits .f32 0xFF61B1E6#32)) = _
  rw [broadcastTo_a1_ab_apply]
  refine congrArg Ideal.exp ((select_iff _ (5120 * n + r.val < 100000) ?_ _ _).trans rfl)
  show IntOp.cmpi .slt (IntOp.addi (iota .tc S5120x1 32 [0] iota_S5120x1_d0_w32 (ix2 r (0 : Fin 1))) (Scalar.muli (BitVec.ofNat 32 n) 5120#32)) 100000#32 = 1#1 ↔ _
  rw [iota_single_apply]
  show IntOp.cmpi .slt (IntOp.addi (BitVec.ofNat 32 r.val) _) _ = 1#1 ↔ _
  rw [rowWord n r.val hn r.isLt]
  exact cmpi_slt_iff _ (by omega)

/-- The last step of s: rows of the block beyond the array weigh 0 and are read as the stand-in. -/
theorem pay11_apply (i : grid1.Coords) (tot : EReal) (x1 : Vec Ideal S1x5120 .f32) (x0 : Vec Ideal S5120x1024 .f32) (sp : Vec Ideal S1x1024 .f32) (b : Fin 1024) :
    k1_pay11 (F := Ideal) (argOf i) tot x1 x0 sp (ix2 (0 : Fin 1) b)
      = sp (ix2 (0 : Fin 1) b) + ∑ r : Fin 5120,
          (if 5120 * (i 0).val + r.val < 100000 then Ideal.div (x1 (ix2 (0 : Fin 1) r)) tot + Cert.Spec.eps else 0)
            * Ideal.exp (if 5120 * (i 0).val + r.val < 100000 then x0 (ix2 r b) else negBig) := by
  have hi : (i 0).val < 20 := (i 0).isLt
  unfold k1_pay11
  simp only [shapeCast_self]
  refine congrArg (sp (ix2 (0 : Fin 1) b) + ·) ?_
  refine (slice_row0 _ b).trans ?_
  refine (matmul_at _ _ 0 b).trans (Finset.sum_congr rfl fun r _ => ?_)
  rw [broadcastTo_1b_ab_apply, pay10_apply _ hi]
  refine congrArg (· * _) ?_
  refine (select_apply _ _ _ _).trans ((select_iff _ (5120 * (i 0).val + r.val < 100000) ?_ _ _).trans ?_)
  · show IntOp.cmpi .slt (IntOp.addi (iota .tc S1x5120 32 [1] iota_S1x5120_d1_w32 (ix2 (0 : Fin 1) r)) (Scalar.muli (BitVec.ofNat 32 (i 0).val) 5120#32)) 100000#32 = 1#1 ↔ _
    rw [iota_single_apply]
    show IntOp.cmpi .slt (IntOp.addi (BitVec.ofNat 32 r.val) _) _ = 1#1 ↔ _
    rw [rowWord _ r.val hi r.isLt]
    exact cmpi_slt_iff _ (by omega)
  · show (if _ then _ else Ideal.ofBits .f32 0x00000000#32) = _
    rw [Ideal.ofBits_zero_f32]
    rfl

/-- The last step of g. -/
theorem pay7_apply (i : grid1.Coords) (x0 : Vec Ideal S5120x1024 .f32) (x3 : Vec Ideal S1024 .i32) (gp : Vec Ideal S1x1024 .f32) (b : Fin 1024) :
    k1_pay7 (F := Ideal) (k1_pay9 (F := Ideal) x3) (k1_pay10 (F := Ideal) (argOf i) x0) (iota .tc S5120x1 32 [0] iota_S5120x1_d0_w32) (k1_pay12 (argOf i)) gp (ix2 (0 : Fin 1) b)
      = gp (ix2 (0 : Fin 1) b) + ∑ r : Fin 5120, if 5120 * (i 0).val + r.val = (x3 (ix1 b)).toNat
          then Ideal.exp (if 5120 * (i 0).val + r.val < 100000 then x0 (ix2 r b) else negBig) else 0 := by
  have hi : (i 0).val < 20 := (i 0).isLt
  unfold k1_pay7
  simp only [shapeCast_self]
  refine congrArg (gp (ix2 (0 : Fin 1) b) + ·) ?_
  refine (shapeCast_a_1a_apply _ _ 0 b).trans ?_
  refine (colsum _ (Or.inl rfl) rfl b).trans (Finset.sum_congr rfl fun r _ => ?_)
  refine (select_apply _ _ _ _).trans ?_
  refine (select_iff _ _ (eqMask_apply (i 0).val hi x3 r b) _ _).trans ?_
  rw [pay10_apply _ hi]
  show (if _ then _ else Ideal.ofBits .f32 0x00000000#32) = _
  rw [Ideal.ofBits_zero_f32]

/-- The result word. -/
theorem pay8_eq (tot : EReal) (s g : Vec Ideal S1x1024 .f32) (x4 : Vec Ideal S1024 .f32) :
    k1_pay8 (F := Ideal) tot s g x4 = fun _ =>
      (∑ b : Fin 1024, (Ideal.log (s (ix2 (0 : Fin 1) b))
        - (Ideal.log (g (ix2 (0 : Fin 1) b)) + Cert.Spec.one * Ideal.log (Ideal.div (x4 (ix1 b)) tot + Cert.Spec.eps)))) * Cert.Spec.inv1024 := by
  unfold k1_pay8
  funext j
  rw [shapeCast_self]
  refine congrArg (fun z => z * Cert.Spec.inv1024) ((total_row _ _ _ (Or.inl rfl) rfl _).trans (Finset.sum_congr rfl fun b _ => ?_))
  show Ideal.log (s (ix2 (0 : Fin 1) b)) - (Ideal.log (g (ix2 (0 : Fin 1) b)) + Cert.Spec.one * Ideal.log (Ideal.div (shapeCast S1x1024 x4 shapeCasts_S1024_S1x1024 (ix2 (0 : Fin 1) b)) tot + Cert.Spec.eps)) = _
  rw [shapeCast_a_1a_apply]

end Cert.KernelIdeal.StepValue

end
-- ==== Proof.KI_FoldValue.lean ====
/-
  The region's result as the specification's number. Point t reads rows 5120 t … 5120 t + 5119 of the
  transposed logits and of the counts; after point n < 19 the total is the clamped sum of the counts, s b is the
  weighted sum of exponentials over the classes below 5120 (n + 1) and g b the exponential of the label's logit if the
  label is below 5120 (n + 1), else 0; the last point adds the remaining 2720 classes, the rows beyond class 99999
  contributing nothing (weight 0 times a finite exponential; never equal to a label). Every class is in exactly one
  block, so after point 19 s b and g b are the specification's sums.

  The partial sums are written over the naturals below 5120 (n + 1), a natural m ≥ 100000 contributing 0: one more
  block is then the splitting of a sum over an initial segment of the naturals, for every point alike, and after the
  twentieth block (102400 naturals) the 2400 naturals beyond the classes drop out.
-/
import proofs.«210372_g71854802862689_cont_9to1_m_893_16_alg».proof.Proof.KI_StepValue
import Mathlib.Algebra.BigOperators.Fin
import Mathlib.Algebra.BigOperators.Group.Finset.Piecewise

noncomputable section

namespace Cert.KernelIdeal.FoldValue

open Idealize.ShloMosaic Cert.KernelIdeal Cert.KernelIdeal.Gen Cert.KernelIdeal.Fold Cert.KernelIdeal.StepValue
open Idealize.ShloMosaic.ValueIdx (ix1 ix2)

/-- The t-th point's coordinate is t. -/
theorem coords_val (n : ℕ) (h : n < grid1.N) : ((grid1.coords ⟨n, h⟩) 0).val = n := by
  have hN : grid1.N = 20 := by decide
  have h20 : n < 20 := hN ▸ h
  show n / grid1.stride 0 % grid1.bound 0 = n
  have hs : grid1.stride 0 = 1 := by decide
  have hb : grid1.bound 0 = 20 := rfl
  rw [hs, hb, Nat.div_one, Nat.mod_eq_of_lt h20]

section
variable (a0 : Cert.Spec.SBC.Idx → EReal) (a1 : Cert.Spec.SB.Idx → BitVec 32) (a2 : Cert.Spec.SC.Idx → EReal)
  (hy : ∀ b, (a1 b).toNat < 100000)

/-- Class m's weighted exponential for example b; 0 for a natural that is no class. -/
def sTerm (b : Fin 1024) (m : ℕ) : EReal :=
  if h : m < 100000 then Cert.Spec.wAt a2 ⟨m, h⟩ * Ideal.exp (Cert.Spec.logitAt a0 b ⟨m, h⟩) else 0

/-- The exponential of the label's logit at the label, 0 elsewhere. -/
def gTerm (b : Fin 1024) (m : ℕ) : EReal :=
  if m = (Cert.Spec.labelAt a1 hy b).val then Ideal.exp (Cert.Spec.logitAt a0 b (Cert.Spec.labelAt a1 hy b)) else 0

/-- A row of block t that is a class: its summand of s is that class's weighted exponential. -/
theorem sTerm_in (t : ℕ) (x0 : Vec Ideal S5120x1024 .f32) (x1 : Vec Ideal S1x5120 .f32) (tot : EReal)
    (hx0 : ∀ (r : Fin 5120) (b : Fin 1024) (h : 5120 * t + r.val < 100000), x0 (ix2 r b) = a0 (ix2 b ⟨5120 * t + r.val, h⟩))
    (hx1 : ∀ (r : Fin 5120) (h : 5120 * t + r.val < 100000), x1 (ix2 (0 : Fin 1) r) = a2 (ix1 ⟨5120 * t + r.val, h⟩))
    (htot : tot = Cert.Spec.total (Cert.Spec.countAt a2))
    (r : Fin 5120) (b : Fin 1024) (h : 5120 * t + r.val < 100000) :
    (Ideal.div (x1 (ix2 (0 : Fin 1) r)) tot + Cert.Spec.eps) * Ideal.exp (x0 (ix2 r b)) = sTerm a0 a2 b (5120 * t + r.val) := by
  rw [hx0 r b h, hx1 r h, htot]
  unfold sTerm
  rw [dif_pos h]
  rfl

/-- A row of block t, masked beyond the classes: its summand of s is the natural's term. -/
theorem sTerm_masked (t : ℕ) (x0 : Vec Ideal S5120x1024 .f32) (x1 : Vec Ideal S1x5120 .f32) (tot : EReal)
    (hx0 : ∀ (r : Fin 5120) (b : Fin 1024) (h : 5120 * t + r.val < 100000), x0 (ix2 r b) = a0 (ix2 b ⟨5120 * t + r.val, h⟩))
    (hx1 : ∀ (r : Fin 5120) (h : 5120 * t + r.val < 100000), x1 (ix2 (0 : Fin 1) r) = a2 (ix1 ⟨5120 * t + r.val, h⟩))
    (htot : tot = Cert.Spec.total (Cert.Spec.countAt a2))
    (r : Fin 5120) (b : Fin 1024) :
    (if 5120 * t + r.val < 100000 then Ideal.div (x1 (ix2 (0 : Fin 1) r)) tot + Cert.Spec.eps else 0)
        * Ideal.exp (if 5120 * t + r.val < 100000 then x0 (ix2 r b) else negBig) = sTerm a0 a2 b (5120 * t + r.val) := by
  by_cases h : 5120 * t + r.val < 100000
  · rw [if_pos h, if_pos h]
    exact sTerm_in a0 a2 t x0 x1 tot hx0 hx1 htot r b h
  · rw [if_neg h, zero_mul]
    unfold sTerm
    rw [dif_neg h]

/-- A row of block t: its summand of g is the natural's term. -/
theorem gTerm_in (t : ℕ) (x0 : Vec Ideal S5120x1024 .f32) (x3 : Vec Ideal S1024 .i32)
    (hx0 : ∀ (r : Fin 5120) (b : Fin 1024) (h : 5120 * t + r.val < 100000), x0 (ix2 r b) = a0 (ix2 b ⟨5120 * t + r.val, h⟩))
    (hx3 : ∀ b : Fin 1024, x3 (ix1 b) = a1 (ix1 b))
    (r : Fin 5120) (b : Fin 1024) :
    (if 5120 * t + r.val = (x3 (ix1 b)).toNat then Ideal.exp (x0 (ix2 r b)) else 0) = gTerm a0 a1 hy b (5120 * t + r.val) := by
  unfold gTerm
  rw [hx3 b]
  show (if 5120 * t + r.val = (Cert.Spec.labelAt a1 hy b).val then _ else _) = _
  by_cases h : 5120 * t + r.val = (Cert.Spec.labelAt a1 hy b).val
  · rw [if_pos h, if_pos h]
    have hlt : 5120 * t + r.val < 100000 := h ▸ (Cert.Spec.labelAt a1 hy b).isLt
    rw [hx0 r b hlt]
    have : (⟨5120 * t + r.val, hlt⟩ : Fin 100000) = Cert.Spec.labelAt a1 hy b := Fin.ext h
    rw [this]
    rfl
  · rw [if_neg h, if_neg h]

/-- The same with the rows beyond the classes masked: such a row is no label. -/
theorem gTerm_masked (t : ℕ) (x0 : Vec Ideal S5120x1024 .f32) (x3 : Vec Ideal S1024 .i32)
    (hx0 : ∀ (r : Fin 5120) (b : Fin 1024) (h : 5120 * t + r.val < 100000), x0 (ix2 r b) = a0 (ix2 b ⟨5120 * t + r.val, h⟩))
    (hx3 : ∀ b : Fin 1024, x3 (ix1 b) = a1 (ix1 b))
    (r : Fin 5120) (b : Fin 1024) :
    (if 5120 * t + r.val = (x3 (ix1 b)).toNat
      then Ideal.exp (if 5120 * t + r.val < 100000 then x0 (ix2 r b) else negBig) else 0) = gTerm a0 a1 hy b (5120 * t + r.val) := by
  rw [← gTerm_in a0 a1 hy t x0 x3 hx0 hx3 r b]
  by_cases h : 5120 * t + r.val = (x3 (ix1 b)).toNat
  · rw [if_pos h, if_pos h]
    have hlt : 5120 * t + r.val < 100000 := by rw [h, hx3 b]; exact hy _
    rw [if_pos hlt]
  · rw [if_neg h, if_neg h]

/-- One more block: the sum over the naturals below 5120 t and the block's 5120 rows make the sum below 5120 (t + 1). -/
theorem block_add (f : ℕ → EReal) (t : ℕ) (v : EReal) (hv : v = ∑ m ∈ Finset.range (5120 * t), f m) :
    v + ∑ r : Fin 5120, f (5120 * t + r.val) = ∑ m ∈ Finset.range (5120 * (t + 1)), f m := by
  rw [hv, Nat.mul_succ, Finset.sum_range_add, Finset.sum_range (fun x => f (5120 * t + x))]

/-- What holds of the scratches after t blocks. -/
structure Inv (p : St Ideal) (t : ℕ) : Prop where
  tot : p.tot = Cert.Spec.total (Cert.Spec.countAt a2)
  s : ∀ b : Fin 1024, p.s (ix2 (0 : Fin 1) b) = ∑ m ∈ Finset.range (5120 * t), sTerm a0 a2 b m
  g : ∀ b : Fin 1024, p.g (ix2 (0 : Fin 1) b) = ∑ m ∈ Finset.range (5120 * t), gTerm a0 a1 hy b m

/-- One point's step of s, over a block all of whose rows are classes. -/
theorem s_step (t : ℕ) (ht : t ≤ 18) (x0 : Vec Ideal S5120x1024 .f32) (x1 : Vec Ideal S1x5120 .f32) (tot : EReal)
    (hx0 : ∀ (r : Fin 5120) (b : Fin 1024) (h : 5120 * t + r.val < 100000), x0 (ix2 r b) = a0 (ix2 b ⟨5120 * t + r.val, h⟩))
    (hx1 : ∀ (r : Fin 5120) (h : 5120 * t + r.val < 100000), x1 (ix2 (0 : Fin 1) r) = a2 (ix1 ⟨5120 * t + r.val, h⟩))
    (htot : tot = Cert.Spec.total (Cert.Spec.countAt a2))
    (sp : Vec Ideal S1x1024 .f32) (b : Fin 1024)
    (hsp : sp (ix2 (0 : Fin 1) b) = ∑ m ∈ Finset.range (5120 * t), sTerm a0 a2 b m) :
    k1_pay5 (F := Ideal) tot x0 x1 sp (ix2 (0 : Fin 1) b) = ∑ m ∈ Finset.range (5120 * (t + 1)), sTerm a0 a2 b m := by
  rw [pay5_apply, ← block_add (sTerm a0 a2 b) t _ hsp]
  congr 1
  exact Finset.sum_congr rfl (fun r _ => sTerm_in a0 a2 t x0 x1 tot hx0 hx1 htot r b (by have := r.isLt; omega))

/-- One point's step of g. -/
theorem g_step (t : ℕ) (i : grid1.Coords) (hi : (i 0).val = t) (x0 : Vec Ideal S5120x1024 .f32) (x3 : Vec Ideal S1024 .i32)
    (hx0 : ∀ (r : Fin 5120) (b : Fin 1024) (h : 5120 * t + r.val < 100000), x0 (ix2 r b) = a0 (ix2 b ⟨5120 * t + r.val, h⟩))
    (hx3 : ∀ b : Fin 1024, x3 (ix1 b) = a1 (ix1 b))
    (gp : Vec Ideal S1x1024 .f32) (b : Fin 1024)
    (hgp : gp (ix2 (0 : Fin 1) b) = ∑ m ∈ Finset.range (5120 * t), gTerm a0 a1 hy b m) :
    k1_pay6 (F := Ideal) i x0 x3 gp (ix2 (0 : Fin 1) b) = ∑ m ∈ Finset.range (5120 * (t + 1)), gTerm a0 a1 hy b m := by
  rw [pay6_apply, hi, ← block_add (gTerm a0 a1 hy b) t _ hgp]
  congr 1
  exact Finset.sum_congr rfl (fun r _ => gTerm_in a0 a1 hy t x0 x3 hx0 hx3 r b)

/-- The last point's step of s. -/
theorem s_last (t : ℕ) (i : grid1.Coords) (hi : (i 0).val = t) (x0 : Vec Ideal S5120x1024 .f32) (x1 : Vec Ideal S1x5120 .f32) (tot : EReal)
    (hx0 : ∀ (r : Fin 5120) (b : Fin 1024) (h : 5120 * t + r.val < 100000), x0 (ix2 r b) = a0 (ix2 b ⟨5120 * t + r.val, h⟩))
    (hx1 : ∀ (r : Fin 5120) (h : 5120 * t + r.val < 100000), x1 (ix2 (0 : Fin 1) r) = a2 (ix1 ⟨5120 * t + r.val, h⟩))
    (htot : tot = Cert.Spec.total (Cert.Spec.countAt a2))
    (sp : Vec Ideal S1x1024 .f32) (b : Fin 1024)
    (hsp : sp (ix2 (0 : Fin 1) b) = ∑ m ∈ Finset.range (5120 * t), sTerm a0 a2 b m) :
    k1_pay11 (F := Ideal) (argOf i) tot x1 x0 sp (ix2 (0 : Fin 1) b) = ∑ m ∈ Finset.range (5120 * (t + 1)), sTerm a0 a2 b m := by
  rw [pay11_apply, hi, ← block_add (sTerm a0 a2 b) t _ hsp]
  congr 1
  exact Finset.sum_congr rfl (fun r _ => sTerm_masked a0 a2 t x0 x1 tot hx0 hx1 htot r b)

/-- The last point's step of g. -/
theorem g_last (t : ℕ) (i : grid1.Coords) (hi : (i 0).val = t) (x0 : Vec Ideal S5120x1024 .f32) (x3 : Vec Ideal S1024 .i32)
    (hx0 : ∀ (r : Fin 5120) (b : Fin 1024) (h : 5120 * t + r.val < 100000), x0 (ix2 r b) = a0 (ix2 b ⟨5120 * t + r.val, h⟩))
    (hx3 : ∀ b : Fin 1024, x3 (ix1 b) = a1 (ix1 b))
    (gp : Vec Ideal S1x1024 .f32) (b : Fin 1024)
    (hgp : gp (ix2 (0 : Fin 1) b) = ∑ m ∈ Finset.range (5120 * t), gTerm a0 a1 hy b m) :
    k1_pay7 (F := Ideal) (k1_pay9 (F := Ideal) x3) (k1_pay10 (F := Ideal) (argOf i) x0) (iota .tc S5120x1 32 [0] iota_S5120x1_d0_w32)
        (k1_pay12 (argOf i)) gp (ix2 (0 : Fin 1) b) = ∑ m ∈ Finset.range (5120 * (t + 1)), gTerm a0 a1 hy b m := by
  rw [pay7_apply, hi, ← block_add (gTerm a0 a1 hy b) t _ hgp]
  congr 1
  exact Finset.sum_congr rfl (fun r _ => gTerm_masked a0 a1 hy t x0 x3 hx0 hx3 r b)

/-- Point 0: the total is set and the first block counted. -/
theorem inv_stepA (i : grid1.Coords) (hi : (i 0).val = 0) (x0 : Vec Ideal S5120x1024 .f32) (x1 : Vec Ideal S1x5120 .f32)
    (x2 : Vec Ideal S1x100000 .f32) (x3 : Vec Ideal S1024 .i32)
    (hx0 : ∀ (r : Fin 5120) (b : Fin 1024) (h : 5120 * 0 + r.val < 100000), x0 (ix2 r b) = a0 (ix2 b ⟨5120 * 0 + r.val, h⟩))
    (hx1 : ∀ (r : Fin 5120) (h : 5120 * 0 + r.val < 100000), x1 (ix2 (0 : Fin 1) r) = a2 (ix1 ⟨5120 * 0 + r.val, h⟩))
    (hx2 : ∀ k : Fin 100000, x2 (ix2 (0 : Fin 1) k) = a2 (ix1 k))
    (hx3 : ∀ b : Fin 1024, x3 (ix1 b) = a1 (ix1 b)) :
    Inv a0 a1 a2 hy (stepA i x0 x1 x2 x3) (0 + 1) := by
  have htot : k1_pay1 (F := Ideal) x2 = Cert.Spec.total (Cert.Spec.countAt a2) := by
    rw [pay1_eq]
    simp only [hx2]
    rfl
  refine ⟨htot, fun b => ?_, fun b => ?_⟩
  · exact s_step a0 a2 0 (by omega) x0 x1 _ hx0 hx1 htot _ b (by rw [pay2_apply]; simp)
  · exact g_step a0 a1 hy 0 i hi x0 x3 hx0 hx3 _ b (by rw [pay3_apply]; simp)

/-- Points 1 to 18: one more block counted. -/
theorem inv_stepB (t : ℕ) (ht : t ≤ 18) (i : grid1.Coords) (hi : (i 0).val = t) (x0 : Vec Ideal S5120x1024 .f32) (x1 : Vec Ideal S1x5120 .f32)
    (x3 : Vec Ideal S1024 .i32)
    (hx0 : ∀ (r : Fin 5120) (b : Fin 1024) (h : 5120 * t + r.val < 100000), x0 (ix2 r b) = a0 (ix2 b ⟨5120 * t + r.val, h⟩))
    (hx1 : ∀ (r : Fin 5120) (h : 5120 * t + r.val < 100000), x1 (ix2 (0 : Fin 1) r) = a2 (ix1 ⟨5120 * t + r.val, h⟩))
    (hx3 : ∀ b : Fin 1024, x3 (ix1 b) = a1 (ix1 b))
    (p : St Ideal) (hp : Inv a0 a1 a2 hy p t) :
    Inv a0 a1 a2 hy (stepB i x0 x1 x3 p) (t + 1) :=
  ⟨hp.tot, fun b => s_step a0 a2 t ht x0 x1 p.tot hx0 hx1 hp.tot p.s b (hp.s b),
    fun b => g_step a0 a1 hy t i hi x0 x3 hx0 hx3 p.g b (hp.g b)⟩

/-- Point 19: the last block counted, its rows beyond the classes contributing nothing. -/
theorem inv_stepC (t : ℕ) (i : grid1.Coords) (hi : (i 0).val = t) (x0 : Vec Ideal S5120x1024 .f32) (x1 : Vec Ideal S1x5120 .f32)
    (x3 : Vec Ideal S1024 .i32)
    (hx0 : ∀ (r : Fin 5120) (b : Fin 1024) (h : 5120 * t + r.val < 100000), x0 (ix2 r b) = a0 (ix2 b ⟨5120 * t + r.val, h⟩))
    (hx1 : ∀ (r : Fin 5120) (h : 5120 * t + r.val < 100000), x1 (ix2 (0 : Fin 1) r) = a2 (ix1 ⟨5120 * t + r.val, h⟩))
    (hx3 : ∀ b : Fin 1024, x3 (ix1 b) = a1 (ix1 b))
    (p : St Ideal) (hp : Inv a0 a1 a2 hy p t) :
    Inv a0 a1 a2 hy (stepC i x0 x1 x3 p) (t + 1) :=
  ⟨hp.tot, fun b => s_last a0 a2 t i hi x0 x1 p.tot hx0 hx1 hp.tot p.s b (hp.s b),
    fun b => g_last a0 a1 hy t i hi x0 x3 hx0 hx3 p.g b (hp.g b)⟩

/-- After point n ≤ 18, n + 1 blocks are counted. -/
theorem inv_stAt (X0 : Fin grid1.N → Vec Ideal S5120x1024 .f32) (X1 : Fin grid1.N → Vec Ideal S1x5120 .f32)
    (x2 : Vec Ideal S1x100000 .f32) (x3 : Vec Ideal S1024 .i32)
    (hX0 : ∀ (t : Fin grid1.N) (r : Fin 5120) (b : Fin 1024) (h : 5120 * t.val + r.val < 100000),
      X0 t (ix2 r b) = a0 (ix2 b ⟨5120 * t.val + r.val, h⟩))
    (hX1 : ∀ (t : Fin grid1.N) (r : Fin 5120) (h : 5120 * t.val + r.val < 100000),
      X1 t (ix2 (0 : Fin 1) r) = a2 (ix1 ⟨5120 * t.val + r.val, h⟩))
    (hx2 : ∀ k : Fin 100000, x2 (ix2 (0 : Fin 1) k) = a2 (ix1 k))
    (hx3 : ∀ b : Fin 1024, x3 (ix1 b) = a1 (ix1 b)) :
    ∀ (n : ℕ) (hn : n ≤ 18) (h : n < grid1.N), Inv a0 a1 a2 hy (stAt X0 X1 x2 x3 n h) (n + 1)
  | 0, _, h => by
    rw [stAt_zero]
    exact inv_stepA a0 a1 a2 hy _ (coords_val 0 h) _ _ x2 x3 (fun r b h' => hX0 ⟨0, h⟩ r b h') (fun r h' => hX1 ⟨0, h⟩ r h') hx2 hx3
  | n + 1, hn, h => by
    rw [stAt_mid X0 X1 x2 x3 n h (by omega)]
    exact inv_stepB a0 a1 a2 hy (n + 1) hn _ (coords_val (n + 1) h) _ _ x3 (fun r b h' => hX0 ⟨n + 1, h⟩ r b h')
      (fun r h' => hX1 ⟨n + 1, h⟩ r h') hx3 _ (inv_stAt X0 X1 x2 x3 hX0 hX1 hx2 hx3 n (by omega) (Nat.lt_of_succ_lt h))

/-- Twenty blocks are every class once, and 2400 naturals that are no class. -/
theorem sum_all_s (b : Fin 1024) :
    ∑ m ∈ Finset.range (5120 * 20), sTerm a0 a2 b m = Cert.Spec.kS (Cert.Spec.wAt a2) (Cert.Spec.logitAt a0) b := by
  have h1 : 5120 * 20 = 100000 + 2400 := by norm_num
  have hz : ∑ x ∈ Finset.range 2400, sTerm a0 a2 b (100000 + x) = 0 :=
    Finset.sum_eq_zero (fun x _ => by unfold sTerm; rw [dif_neg (by omega)])
  rw [h1, Finset.sum_range_add, hz, add_zero, Finset.sum_range]
  unfold Cert.Spec.kS
  refine Finset.sum_congr rfl (fun k _ => ?_)
  unfold sTerm
  rw [dif_pos k.isLt]

/-- Among the naturals below 102400 the label occurs once. -/
theorem sum_all_g (b : Fin 1024) :
    ∑ m ∈ Finset.range (5120 * 20), gTerm a0 a1 hy b m = Cert.Spec.kG (Cert.Spec.logitAt a0) (Cert.Spec.labelAt a1 hy) b := by
  show (∑ m ∈ Finset.range (5120 * 20), if m = (Cert.Spec.labelAt a1 hy b).val
    then Ideal.exp (Cert.Spec.logitAt a0 b (Cert.Spec.labelAt a1 hy b)) else 0) = _
  rw [Finset.sum_ite_eq', if_pos (Finset.mem_range.mpr (by have := (Cert.Spec.labelAt a1 hy b).isLt; omega))]
  rfl

end

/-- The fold of the twenty points over blocks that restrict the argument arrays is the specification's number. -/
theorem out_eq (a0 : Cert.Spec.SBC.Idx → EReal) (a1 : Cert.Spec.SB.Idx → BitVec 32) (a2 : Cert.Spec.SC.Idx → EReal)
    (hy : ∀ b, (a1 b).toNat < 100000) (hl : ∀ i, ∃ r : ℝ, a0 i = (r : EReal)) (hc : ∀ k, ∃ r : ℝ, a2 k = (r : EReal))
    (hw : ∀ k : Fin 100000, ∃ r : ℝ, 0 < r ∧ Cert.Spec.wAt a2 k = (r : EReal))
    (X0 : Fin grid1.N → Vec Ideal S5120x1024 .f32) (X1 : Fin grid1.N → Vec Ideal S1x5120 .f32)
    (x2 : Vec Ideal S1x100000 .f32) (x3 : Vec Ideal S1024 .i32) (x4 : Vec Ideal S1024 .f32)
    (hX0 : ∀ (t : Fin grid1.N) (r : Fin 5120) (b : Fin 1024) (h : 5120 * t.val + r.val < 100000),
      X0 t (ix2 r b) = a0 (ix2 b ⟨5120 * t.val + r.val, h⟩))
    (hX1 : ∀ (t : Fin grid1.N) (r : Fin 5120) (h : 5120 * t.val + r.val < 100000),
      X1 t (ix2 (0 : Fin 1) r) = a2 (ix1 ⟨5120 * t.val + r.val, h⟩))
    (hx2 : ∀ k : Fin 100000, x2 (ix2 (0 : Fin 1) k) = a2 (ix1 k))
    (hx3 : ∀ b : Fin 1024, x3 (ix1 b) = a1 (ix1 b))
    (hx4 : ∀ b : Fin 1024, x4 (ix1 b) = a2 (ix1 (Cert.Spec.labelAt a1 hy b)))
    (h19 : 19 < grid1.N) :
    outC x4 (stAt X0 X1 x2 x3 19 h19) = fun _ => Cert.Spec.result a0 a1 a2 hy := by
  have h18 : 18 < grid1.N := Nat.lt_of_succ_lt h19
  have hp := inv_stAt a0 a1 a2 hy X0 X1 x2 x3 hX0 hX1 hx2 hx3 18 le_rfl h18
  have hq' : Inv a0 a1 a2 hy (stAt X0 X1 x2 x3 (18 + 1) h19) (18 + 1 + 1) := by
    rw [stAt_last X0 X1 x2 x3 18 h19 (by omega)]
    exact inv_stepC a0 a1 a2 hy (18 + 1) _ (coords_val (18 + 1) h19) _ _ x3 (fun r b h' => hX0 ⟨18 + 1, h19⟩ r b h')
      (fun r h' => hX1 ⟨18 + 1, h19⟩ r h') hx3 _ hp
  have hq : Inv a0 a1 a2 hy (stAt X0 X1 x2 x3 19 h19) 20 := hq'
  unfold outC
  rw [pay8_eq]
  funext _
  unfold Cert.Spec.result Cert.Spec.kernelVal
  refine congrArg (· * Cert.Spec.inv1024) ?_
  refine Finset.sum_congr rfl (fun b _ => ?_)
  rw [hq.s b, hq.g b, sum_all_s, sum_all_g, hx4 b, hq.tot]
  rfl

end Cert.KernelIdeal.FoldValue

end
-- ==== Proof.KI_Bridge.lean ====
/-
  At the extended reals the run's result is the specification's number: the region reads the transposed logits
  (entry (k, b) the logit of example b at class k), the counts as a row, the labels, and the gathered counts (entry b
  the count at example b's label); over such blocks the fold of the twenty points is the specification's number, and
  the final reshape of a one-by-one array to a scalar keeps its word.
-/
import proofs.«210372_g71854802862689_cont_9to1_m_893_16_alg».proof.Proof.KI_Launch
import proofs.«210372_g71854802862689_cont_9to1_m_893_16_alg».proof.Proof.KI_FoldValue
import Idealize.ShloMosaic.Lib.ValueLayout
import Idealize.ShloMosaic.Lib.StableHlo.Run

noncomputable section

namespace Cert.Proof.KI

open Cert.KernelIdeal Cert.KernelIdeal.Gen Cert.KernelIdeal.Fold

open Idealize.ShloMosaic
open Idealize.ShloMosaic.SparseCore (S V T)
open Idealize.ShloMosaic.SparseCore.Cfg (HIx)
open Idealize.ShloMosaic.ValueIdx (ix0 ix1 ix2)

variable (m : (ℓ : Loc nD τ sig) → Buf (Elt Ideal) ℓ)

/-! ## The buffers as the region finds them -/

/-- The call writes the gathered counts' buffer only. -/
theorem V1_ne (d : Dev nD) (b : DevRef τ sig) (h : b ≠ v0') : V1 (F := Ideal) m d b = m (d, b) := Function.update_of_ne h _ _
theorem V1_v0 (d : Dev nD) : V1 (F := Ideal) m d v0' = gath m d := Function.update_self _ _ _

/-- The transposition writes the transposed logits' buffer, which the reshape of the counts leaves. -/
theorem V2_v1 (c : Dev nD) :
    V2 (F := Ideal) m c v1' = transpose S100000x1024 [1, 0] (m (lgLoc c)) transposes_S1024x100000_S100000x1024_1_0 := by
  have h1 : V2 (F := Ideal) m c v1' = (opT (F := Ideal)).result (V1 m c) v1' :=
    StableHlo.reshape_result_ne main_arg2 main_v2 rfl shapeCasts_S100000_S1x100000 _ _ _ (r := main_v1) (by decide)
  have h2 : (opT (F := Ideal)).result (V1 m c) v1'
      = transpose S100000x1024 [1, 0] (V1 (F := Ideal) m c a0') transposes_S1024x100000_S100000x1024_1_0 :=
    StableHlo.unary_result main_arg0 main_v1 _ _ _ (V1 m c)
  rw [h1, h2, V1_ne m c a0' (by decide)]

/-- The reshape writes the row of counts: the counts, which the transposition leaves, at the row's shape. -/
theorem V2_v2 (c : Dev nD) :
    V2 (F := Ideal) m c v2' = shapeCast S1x100000 (m (cLoc c)) shapeCasts_S100000_S1x100000 := by
  have h1 : V2 (F := Ideal) m c v2'
      = fun i => shapeCast S1x100000 ((opT (F := Ideal)).result (V1 m c) a2') shapeCasts_S100000_S1x100000 i :=
    StableHlo.reshape_result main_arg2 main_v2 rfl shapeCasts_S100000_S1x100000 _ _ _
  have h2 : (opT (F := Ideal)).result (V1 m c) a2' = V1 (F := Ideal) m c a2' :=
    StableHlo.unary_result_ne main_arg0 main_v1 _ _ _ (V1 m c) (r := main_arg2) (by decide)
  rw [h1, h2, V1_ne m c a2' (by decide)]

/-- Neither host operation writes the labels or the gathered counts. -/
theorem V2_a1 (c : Dev nD) : V2 (F := Ideal) m c a1' = m (yLoc c) := by
  have h1 : V2 (F := Ideal) m c a1' = (opT (F := Ideal)).result (V1 m c) a1' :=
    StableHlo.reshape_result_ne main_arg2 main_v2 rfl shapeCasts_S100000_S1x100000 _ _ _ (r := main_arg1) (by decide)
  have h2 : (opT (F := Ideal)).result (V1 m c) a1' = V1 (F := Ideal) m c a1' :=
    StableHlo.unary_result_ne main_arg0 main_v1 _ _ _ (V1 m c) (r := main_arg1) (by decide)
  rw [h1, h2, V1_ne m c a1' (by decide)]
theorem V2_v0 (c : Dev nD) : V2 (F := Ideal) m c v0' = gath m c := by
  have h1 : V2 (F := Ideal) m c v0' = (opT (F := Ideal)).result (V1 m c) v0' :=
    StableHlo.reshape_result_ne main_arg2 main_v2 rfl shapeCasts_S100000_S1x100000 _ _ _ (r := main_v0) (by decide)
  have h2 : (opT (F := Ideal)).result (V1 m c) v0' = V1 (F := Ideal) m c v0' :=
    StableHlo.unary_result_ne main_arg0 main_v1 _ _ _ (V1 m c) (r := main_v0) (by decide)
  rw [h1, h2, V1_v0]

/-! ## Read at an index -/

/-- Entry (k, b) of the transposed logits is the logit of example b at class k. -/
theorem Vr_v1 (c : Dev nD) (k : Fin 100000) (b : Fin 1024) :
    Vr (F := Ideal) m c main_v1 (ix2 k b) = m (lgLoc c) (ix2 b k) := by
  show V2 (F := Ideal) m c v1' (ix2 k b) = _
  rw [V2_v1]
  exact ValueIdx.transpose_ix2_apply _ _ k b

/-- Entry (0, k) of the row of counts is the count of class k. -/
theorem Vr_v2 (c : Dev nD) (k : Fin 100000) :
    Vr (F := Ideal) m c main_v2 (ix2 (0 : Fin 1) k) = m (cLoc c) (ix1 k) := by
  show V2 (F := Ideal) m c v2' (ix2 (0 : Fin 1) k) = _
  rw [V2_v2]
  exact ValueIdx.shapeCast_a_1a_apply _ _ 0 k

/-- The labels are the labels. -/
theorem Vr_a1 (c : Dev nD) : Vr (F := Ideal) m c main_arg1 = m (yLoc c) := V2_a1 m c

/-- Entry b of the gathered counts is the count at example b's label. -/
theorem Vr_v0 (c : Dev nD) (hy : ∀ b, (m (yLoc c) b).toNat < 100000) (b : Fin 1024) :
    Vr (F := Ideal) m c main_v0 (ix1 b) = m (cLoc c) (ix1 (Cert.Spec.labelAt (m (yLoc c)) hy b)) := by
  show V2 (F := Ideal) m c v0' (ix1 b) = _
  rw [V2_v0]
  unfold gath Cert.Spec.labelAt
  exact congrArg (fun k : Fin 100000 => m (cLoc c) (ix1 k)) (Fin.ext (Nat.mod_eq_of_lt (hy _)))

/-! ## The region's result word -/

/-- Over the blocks the region reads, the fold of the twenty points is the specification's number. -/
theorem outRes_eq (c : Dev nD)
    (hy : ∀ b, (m (yLoc c) b).toNat < 100000)
    (hl : ∀ i, ∃ r : ℝ, m (lgLoc c) i = (r : EReal))
    (hc : ∀ k, ∃ r : ℝ, m (cLoc c) k = (r : EReal))
    (hw : ∀ k : Fin 100000, ∃ r : ℝ, 0 < r ∧ Cert.Spec.wAt (m (cLoc c)) k = (r : EReal)) :
    outRes (F := Ideal) (Vr m) c = fun _ => Cert.Spec.result (m (lgLoc c)) (m (yLoc c)) (m (cLoc c)) hy := by
  unfold outRes stN
  refine Cert.KernelIdeal.FoldValue.out_eq (m (lgLoc c)) (m (yLoc c)) (m (cLoc c)) hy hl hc hw
    (X0 (Vr m) c) (X1 (Vr m) c) (x2 (Vr m) c) (x3 (Vr m) c) (x4 (Vr m) c) ?_ ?_ ?_ ?_ ?_ _
  · intro t r b h
    rw [X0_apply (Vr m) c t r b h]
    exact Vr_v1 m c _ b
  · intro t r h
    rw [X1_apply (Vr m) c t r h]
    exact Vr_v2 m c _
  · intro k
    rw [x2_eq]
    exact Vr_v2 m c k
  · intro b
    rw [x3_eq, Vr_a1]
  · intro b
    rw [x4_eq]
    exact Vr_v0 m c hy b

/-- The program's result buffer after the run holds the specification's number. -/
theorem res_eq (c : Dev nD)
    (hy : ∀ b, (m (yLoc c) b).toNat < 100000)
    (hl : ∀ i, ∃ r : ℝ, m (lgLoc c) i = (r : EReal))
    (hc : ∀ k, ∃ r : ℝ, m (cLoc c) k = (r : EReal))
    (hw : ∀ k : Fin 100000, ∃ r : ℝ, 0 < r ∧ Cert.Spec.wAt (m (cLoc c)) k = (r : EReal)) :
    V4 (F := Ideal) m c v4' = fun _ => Cert.Spec.result (m (lgLoc c)) (m (yLoc c)) (m (cLoc c)) hy := by
  have h1 : V4 (F := Ideal) m c v4' = fun i => shapeCast S_ (V3 (F := Ideal) m c v3') shapeCasts_S1x1_S_ i :=
    StableHlo.reshape_result main_v3 main_v4 rfl shapeCasts_S1x1_S_ _ _ _
  rw [h1, V3_out, outRes_eq m c hy hl hc hw]
  rfl

end Cert.Proof.KI

end
-- ==== Proof.KB_Setup.lean ====
/-
  The program as the SparseCore launch theorem sees it, the resource algebra, and what the handshakes of the one
  SparseCore call carry: every tile is lent a share of the whole count table and of the whole label array, and owns
  the 32 entries of the gathered-count array that are its own; it hands the shares back with its 32 entries holding,
  for each example, the count at that example's label.
-/
import proofs.«210372_g71854802862689_cont_9to1_m_893_16_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic
import Idealize.ShloMosaic.Lib.ValueIdx
import proofs.«210372_g71854802862689_cont_9to1_m_893_16_alg».proof.Proof.Gen.Kernel
import proofs.«210372_g71854802862689_cont_9to1_m_893_16_alg».proof.Proof.Gen.Kernel.Skeleton
import proofs.«210372_g71854802862689_cont_9to1_m_893_16_alg».proof.Proof.Gen.Kernel.Launch
import proofs.«210372_g71854802862689_cont_9to1_m_893_16_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The logits, the labels, the counts (the arguments); the gathered counts, the transposed logits, the counts as a
    row, the region's result, the program's result. -/
abbrev lgLoc (d : Dev nD) : Loc nD τ sig := (SparseCore.T d).loc main_arg0
abbrev yLoc (d : Dev nD) : Loc nD τ sig := (SparseCore.T d).loc main_arg1
abbrev cLoc (d : Dev nD) : Loc nD τ sig := (SparseCore.T d).loc main_arg2
abbrev gLoc (d : Dev nD) : Loc nD τ sig := (SparseCore.T d).loc main_v0
abbrev ltLoc (d : Dev nD) : Loc nD τ sig := (SparseCore.T d).loc main_v1
abbrev rowLoc (d : Dev nD) : Loc nD τ sig := (SparseCore.T d).loc main_v2
abbrev outLoc (d : Dev nD) : Loc nD τ sig := (SparseCore.T d).loc main_v3
abbrev resLoc (d : Dev nD) : Loc nD τ sig := (SparseCore.T d).loc main_v4

/-- The 32 examples of the task of tile s of SparseCore c: 64 s + 32 c and the 31 after it. -/
def taskSet (c : Fin 2) (s : Fin 16) : Finset S1024.Idx :=
  Finset.univ.filter fun j => 64 * s.val + 32 * c.val ≤ (j 0).val ∧ (j 0).val < 64 * s.val + 32 * c.val + 32

/-- Entry j of the gathered counts is the count at example j's label (for every label that names a class). -/
def Gathered (d : Dev nD) (f : Buf (Elt F) (gLoc d)) (j : S1024.Idx) : Prop :=
  ∀ h : (m (yLoc d) j).toNat < 100000, f j = m (cLoc d) (ValueIdx.ix1 ⟨(m (yLoc d) j).toNat, h⟩)

/-- The shares of the read-only arrays: a half of each per SparseCore, a sixteenth of that per tile. -/
def qCore (c : Fin 2) : PosShare TreeShare := pieceOf fullShare 2 (by decide) c
def qTile (c : Fin 2) (s : Fin 16) : PosShare TreeShare := pieceOf (qCore c) 16 (by decide) s

/-- The 512 examples of SparseCore c: those of its sixteen tiles. -/
def coreSet (c : Fin 2) : Finset S1024.Idx := Finset.univ.biUnion fun s : Fin 16 => taskSet c s

/-- Every label names a class: what the tiles' gathers need of the launch memory. -/
def PreIdx : Prop := ∀ (d : Dev nD) (j : S1024.Idx), (m (yLoc d) j).toNat < 100000

abbrev cPts (d : Dev nD) (q : PosShare TreeShare) : sProp 𝕄 := cLoc d ↦{q} m (cLoc d)
abbrev yPts (d : Dev nD) (q : PosShare TreeShare) : sProp 𝕄 := yLoc d ↦{q} m (yLoc d)
/-- The gathered counts on a set of examples, as launched; -/
abbrev gPts0 (d : Dev nD) (I : Finset S1024.Idx) : sProp 𝕄 := gLoc d ↦[I]{fullShare} m (gLoc d)
/-- and once gathered: each entry of the set the count at its example's label. -/
abbrev gPts1 (d : Dev nD) (I : Finset S1024.Idx) : sProp 𝕄 := iprop(∃ f, ⌜∀ j ∈ I, Gathered m d f j⌝ ∗ gLoc d ↦[I]{fullShare} f)

/-- The one call lends each SparseCore half of the counts and of the labels and hands it its 512 entries of the
    gathered counts; each tile a sixteenth of those shares and its 32 entries; all come back, the entries gathered. -/
def P : (K (F := F)).Pay (nD := nD) (Val := Elt F) (Name := ℕ) (U := UU) where
  st := fun q d c => match q with
    | 0 => iprop(cPts m d (qCore (Fin.cast nCore_zero c)) ∗ yPts m d (qCore (Fin.cast nCore_zero c)) ∗ gPts0 m d (coreSet (Fin.cast nCore_zero c)))
  dn := fun q d c => match q with
    | 0 => iprop(cPts m d (qCore (Fin.cast nCore_zero c)) ∗ yPts m d (qCore (Fin.cast nCore_zero c)) ∗ gPts1 m d (coreSet (Fin.cast nCore_zero c)))
  go := fun q d c i => match q with
    | 0 => iprop(cPts m d (qTile (Fin.cast nCore_zero c) (Fin.cast nSub_zero i)) ∗ yPts m d (qTile (Fin.cast nCore_zero c) (Fin.cast nSub_zero i))
        ∗ gPts0 m d (taskSet (Fin.cast nCore_zero c) (Fin.cast nSub_zero i)))
  td := fun q d c i => match q with
    | 0 => iprop(cPts m d (qTile (Fin.cast nCore_zero c) (Fin.cast nSub_zero i)) ∗ yPts m d (qTile (Fin.cast nCore_zero c) (Fin.cast nSub_zero i))
        ∗ gPts1 m d (taskSet (Fin.cast nCore_zero c) (Fin.cast nSub_zero i)))
  x := fun _ _ => iprop(emp)

instance P_storable : (P (F := F) m).IsStorable where
  st q d c := match q with
    | 0 => (inferInstance : BI.Storable (upEmb : UEmb _ 𝕄)
        iprop(cPts m d (qCore (Fin.cast nCore_zero c)) ∗ yPts m d (qCore (Fin.cast nCore_zero c)) ∗ gPts0 m d (coreSet (Fin.cast nCore_zero c))))
  dn q d c := match q with
    | 0 => (inferInstance : BI.Storable (upEmb : UEmb _ 𝕄)
        iprop(cPts m d (qCore (Fin.cast nCore_zero c)) ∗ yPts m d (qCore (Fin.cast nCore_zero c)) ∗ gPts1 m d (coreSet (Fin.cast nCore_zero c))))
  go q d c i := match q with
    | 0 => (inferInstance : BI.Storable (upEmb : UEmb _ 𝕄)
        iprop(cPts m d (qTile (Fin.cast nCore_zero c) (Fin.cast nSub_zero i)) ∗ yPts m d (qTile (Fin.cast nCore_zero c) (Fin.cast nSub_zero i))
          ∗ gPts0 m d (taskSet (Fin.cast nCore_zero c) (Fin.cast nSub_zero i))))
  td q d c i := match q with
    | 0 => (inferInstance : BI.Storable (upEmb : UEmb _ 𝕄)
        iprop(cPts m d (qTile (Fin.cast nCore_zero c) (Fin.cast nSub_zero i)) ∗ yPts m d (qTile (Fin.cast nCore_zero c) (Fin.cast nSub_zero i))
          ∗ gPts1 m d (taskSet (Fin.cast nCore_zero c) (Fin.cast nSub_zero i))))

end Cert.Proof.KB

end
-- ==== Proof.KB_Split.lean ====
/-
  How a SparseCore's share of the call's operands splits among its sixteen tiles and its results gather from theirs:
  the shares of the two read-only arrays cut into sixteen pieces, the core's 512 entries of the gathered counts the
  disjoint union of the tiles' 32.
-/
import proofs.«210372_g71854802862689_cont_9to1_m_893_16_alg».proof.Proof.KB_Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- Example j is of tile s of SparseCore c when it lies in the 32 that begin at 64 s + 32 c. -/
theorem mem_taskSet {c : Fin 2} {s : Fin 16} {j : S1024.Idx} :
    j ∈ taskSet c s ↔ 64 * s.val + 32 * c.val ≤ (j 0).val ∧ (j 0).val < 64 * s.val + 32 * c.val + 32 := by
  unfold taskSet; rw [Finset.mem_filter]; exact ⟨fun h => h.2, fun h => ⟨Finset.mem_univ _, h⟩⟩

/-- Inside one SparseCore two tiles' examples are disjoint: the blocks of 32 begin 64 apart. -/
theorem taskSet_disjoint (c : Fin 2) : ∀ s ∈ (Finset.univ : Finset (Fin 16)), ∀ s' ∈ (Finset.univ : Finset (Fin 16)),
    s ≠ s' → Disjoint (taskSet c s) (taskSet c s') := by
  intro s _ s' _ h
  rw [Finset.disjoint_left]
  intro j hj hj'
  rw [mem_taskSet] at hj hj'
  apply h; apply Fin.ext
  have := c.isLt
  omega

/-- Example j is of SparseCore c when the block of 32 it lies in has parity c. -/
theorem mem_coreSet {c : Fin 2} {j : S1024.Idx} : j ∈ coreSet c ↔ ((j 0).val / 32) % 2 = c.val := by
  unfold coreSet; rw [Finset.mem_biUnion]
  have hc := c.isLt
  constructor
  · rintro ⟨s, _, hs⟩; rw [mem_taskSet] at hs; omega
  · intro h
    have hj : (j 0).val < 1024 := (j 0).isLt
    refine ⟨⟨(j 0).val / 64, by omega⟩, Finset.mem_univ _, ?_⟩
    rw [mem_taskSet]
    show 64 * ((j 0).val / 64) + 32 * c.val ≤ (j 0).val ∧ (j 0).val < 64 * ((j 0).val / 64) + 32 * c.val + 32
    omega

/-- The two SparseCores' example sets are disjoint and cover the 1024 examples. -/
theorem coreSet_disjoint : Disjoint (coreSet 0) (coreSet 1) := by
  rw [Finset.disjoint_left]
  intro j h0 h1
  rw [mem_coreSet] at h0 h1
  have e0 : (0 : Fin 2).val = 0 := rfl
  have e1 : (1 : Fin 2).val = 1 := rfl
  omega
theorem coreSet_cover : coreSet 0 ∪ coreSet 1 = (Finset.univ : Finset S1024.Idx) := by
  ext j
  rw [Finset.mem_union, mem_coreSet, mem_coreSet]
  have e0 : (0 : Fin 2).val = 0 := rfl
  have e1 : (1 : Fin 2).val = 1 := rfl
  constructor
  · intro _; exact Finset.mem_univ _
  · intro _; omega

/-- The SparseCores' example sets, as a family: pairwise disjoint, covering the 1024 examples. -/
theorem coreSets_disjoint : ∀ c ∈ (Finset.univ : Finset (Fin 2)), ∀ c' ∈ (Finset.univ : Finset (Fin 2)),
    c ≠ c' → Disjoint (coreSet c) (coreSet c') := by
  intro c _ c' _ h
  rw [Finset.disjoint_left]
  intro j hj hj'
  rw [mem_coreSet] at hj hj'
  apply h; apply Fin.ext
  omega
theorem coreSets_cover : (Finset.univ : Finset (Fin 2)).biUnion coreSet = (Finset.univ : Finset S1024.Idx) := by
  ext j
  constructor
  · intro _; exact Finset.mem_univ _
  · intro _
    rw [Finset.mem_biUnion]
    exact ⟨⟨((j 0).val / 32) % 2, by omega⟩, Finset.mem_univ _, mem_coreSet.mpr rfl⟩

/-! ## Re-indexing the launch theorem's families over the SparseCores and over a SparseCore's tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The cuts -/

/-- A SparseCore's share of the counts is its sixteen tiles' shares; -/
theorem cPts_tiles (d : Dev nD) (c : Fin 2) :
    (cPts m d (qCore c) : sProp 𝕄) = bigSep Finset.univ fun s : Fin 16 => cPts m d (qTile c s) :=
  pointsTo_piecesOf Finset.univ (m (cLoc d)) (by decide) (qCore c)
/-- so of the labels; -/
theorem yPts_tiles (d : Dev nD) (c : Fin 2) :
    (yPts m d (qCore c) : sProp 𝕄) = bigSep Finset.univ fun s : Fin 16 => yPts m d (qTile c s) :=
  pointsTo_piecesOf Finset.univ (m (yLoc d)) (by decide) (qCore c)
/-- its 512 entries of the gathered counts are its tiles' 32 each. -/
theorem gPts0_tiles (d : Dev nD) (c : Fin 2) :
    (gPts0 m d (coreSet c) : sProp 𝕄) = bigSep Finset.univ fun s : Fin 16 => gPts0 m d (taskSet c s) := by
  unfold coreSet
  rw [← pointsTo_biUnion Finset.univ (ℓ := gLoc d) (taskSet c) (taskSet_disjoint c)]

/-- The whole of the counts is the two SparseCores' shares; -/
theorem cPts_cores (d : Dev nD) :
    (cPts m d fullShare : sProp 𝕄) = bigSep Finset.univ fun c : Fin 2 => cPts m d (qCore c) :=
  pointsTo_piecesOf Finset.univ (m (cLoc d)) (by decide) fullShare
/-- so of the labels; -/
theorem yPts_cores (d : Dev nD) :
    (yPts m d fullShare : sProp 𝕄) = bigSep Finset.univ fun c : Fin 2 => yPts m d (qCore c) :=
  pointsTo_piecesOf Finset.univ (m (yLoc d)) (by decide) fullShare
/-- the gathered counts whole are the two SparseCores' 512 entries each. -/
theorem gPts0_cores (d : Dev nD) :
    (gLoc d ↦{fullShare} m (gLoc d) : sProp 𝕄) = bigSep Finset.univ fun c : Fin 2 => gPts0 m d (coreSet c) := by
  rw [← pointsTo_biUnion Finset.univ (ℓ := gLoc d) coreSet coreSets_disjoint, coreSets_cover]

/-- Gathered entries on pairwise disjoint sets of examples are gathered entries on the union: the one valuation is
    each piece's on that piece's examples, and an entry's being gathered speaks of that entry alone. -/
theorem gPts1_join {T : Type} [Fintype T] [DecidableEq T] [Inhabited T] (d : Dev nD) (Ks : T → Finset S1024.Idx)
    (hK : ∀ t ∈ (Finset.univ : Finset T), ∀ t' ∈ (Finset.univ : Finset T), t ≠ t' → Disjoint (Ks t) (Ks t')) :
    (bigSep Finset.univ fun t : T => gPts1 m d (Ks t)) ⊢ (gPts1 m d (Finset.univ.biUnion Ks) : sProp 𝕄) := by
  refine (bigSep_exists_pi Finset.univ (fun (t : T) (f : Buf (Elt F) (gLoc d)) =>
    (iprop(⌜∀ j ∈ Ks t, Gathered m d f j⌝ ∗ gLoc d ↦[Ks t]{fullShare} f) : sProp 𝕄))).trans ?_
  iintro ⟨%fs, H⟩
  ihave H2 := (bigSep_pure_sep Finset.univ (fun t => ∀ j ∈ Ks t, Gathered m d (fs t) j)
    (fun t => (gLoc d ↦[Ks t]{fullShare} fs t : sProp 𝕄))) $$ H
  icases H2 with ⟨%hG, H⟩
  ihave H' := (pointsTo_biUnion_join Finset.univ (ℓ := gLoc d) Ks fs (fs default) hK) $$ H
  icases H' with ⟨%g, %hg, Hg⟩
  iexists g
  isplitr
  · ipureintro
    intro j hj
    obtain ⟨t, ht, hjt⟩ := Finset.mem_biUnion.mp hj
    intro h
    rw [hg t ht j hjt]
    exact hG t ht j hjt h
  · iexact Hg

/-- The split of the one vector-subcore call. -/
theorem vecSplit : (K (F := F)).VecSplit' (P m) 0 := by
  intro d c
  show iprop(cPts m d (qCore (Fin.cast nCore_zero c)) ∗ yPts m d (qCore (Fin.cast nCore_zero c)) ∗ gPts0 m d (coreSet (Fin.cast nCore_zero c)))
    ⊢ |={Set.univ}=> iprop(
      (bigSep Finset.univ fun i : Fin ((K (F := F)).nSub 0) =>
        iprop(cPts m d (qTile (Fin.cast nCore_zero c) (Fin.cast nSub_zero i)) ∗ yPts m d (qTile (Fin.cast nCore_zero c) (Fin.cast nSub_zero i))
          ∗ gPts0 m d (taskSet (Fin.cast nCore_zero c) (Fin.cast nSub_zero i))))
      ∗ ((bigSep Finset.univ fun i : Fin ((K (F := F)).nSub 0) =>
          iprop(cPts m d (qTile (Fin.cast nCore_zero c) (Fin.cast nSub_zero i)) ∗ yPts m d (qTile (Fin.cast nCore_zero c) (Fin.cast nSub_zero i))
            ∗ gPts1 m d (taskSet (Fin.cast nCore_zero c) (Fin.cast nSub_zero i))))
          -∗ iprop(cPts m d (qCore (Fin.cast nCore_zero c)) ∗ yPts m d (qCore (Fin.cast nCore_zero c)) ∗ gPts1 m d (coreSet (Fin.cast nCore_zero c)))))
  generalize Fin.cast nCore_zero c = c'
  rw [bigSep_tasks (F := F) (fun s => iprop(cPts m d (qTile c' s) ∗ yPts m d (qTile c' s) ∗ gPts0 m d (taskSet c' s))),
    bigSep_tasks (F := F) (fun s => iprop(cPts m d (qTile c' s) ∗ yPts m d (qTile c' s) ∗ gPts1 m d (taskSet c' s))),
    bigSep_sep', bigSep_sep', bigSep_sep', bigSep_sep']
  rw [cPts_tiles, yPts_tiles, gPts0_tiles]
  iintro H; imodintro
  isplitl [H]; · iexact H
  iintro ⟨Hc, Hy, Hg⟩
  isplitl [Hc]; · iexact Hc
  isplitl [Hy]; · iexact Hy
  iapply (gPts1_join m d (taskSet c') (taskSet_disjoint c')); iexact Hg

/-- The TensorCore's side of the call: the three arrays whole are the two SparseCores' operands; -/
theorem st_of_whole (d : Dev nD) :
    iprop(cPts m d fullShare ∗ yPts m d fullShare ∗ (gLoc d ↦{fullShare} m (gLoc d)))
      ⊢ (bigSep Finset.univ fun c : Fin ((K (F := F)).nCore 0) => (P m).st 0 d c : sProp 𝕄) := by
  show _ ⊢ (bigSep Finset.univ fun c : Fin ((K (F := F)).nCore 0) =>
    iprop(cPts m d (qCore (Fin.cast nCore_zero c)) ∗ yPts m d (qCore (Fin.cast nCore_zero c)) ∗ gPts0 m d (coreSet (Fin.cast nCore_zero c))) : sProp 𝕄)
  rw [bigSep_cores (F := F) (fun c => iprop(cPts m d (qCore c) ∗ yPts m d (qCore c) ∗ gPts0 m d (coreSet c))),
    bigSep_sep', bigSep_sep', cPts_cores, yPts_cores, gPts0_cores]

/-- and their results are the two read-only arrays whole again and the gathered counts whole, every entry gathered. -/
theorem whole_of_dn (d : Dev nD) :
    (bigSep Finset.univ fun c : Fin ((K (F := F)).nCore 0) => (P m).dn 0 d c : sProp 𝕄)
      ⊢ iprop(cPts m d fullShare ∗ yPts m d fullShare ∗ ∃ f, ⌜∀ j, Gathered m d f j⌝ ∗ (gLoc d ↦{fullShare} f)) := by
  show (bigSep Finset.univ fun c : Fin ((K (F := F)).nCore 0) =>
    iprop(cPts m d (qCore (Fin.cast nCore_zero c)) ∗ yPts m d (qCore (Fin.cast nCore_zero c)) ∗ gPts1 m d (coreSet (Fin.cast nCore_zero c))) : sProp 𝕄) ⊢ _
  rw [bigSep_cores (F := F) (fun c => iprop(cPts m d (qCore c) ∗ yPts m d (qCore c) ∗ gPts1 m d (coreSet c))),
    bigSep_sep', bigSep_sep', cPts_cores, yPts_cores]
  iintro ⟨Hc, Hy, Hg⟩
  isplitl [Hc]; · iexact Hc
  isplitl [Hy]; · iexact Hy
  ihave H := (gPts1_join m d coreSet coreSets_disjoint) $$ Hg
  rw [coreSets_cover]
  icases H with ⟨%f, %hf, Hf⟩
  iexists f
  isplitr
  · ipureintro; intro j; exact hf j (Finset.mem_univ j)
  · iexact Hf

end Cert.Proof.KB

end
-- ==== Proof.KB_Host.lean ====
/-
  @main's host side on the TensorCore: its eight buffers held whole, the contents they have after the SparseCore call
  (the gathered counts: for each example the count at its label), after the transposition of the logits and the
  reshaping of the counts to a row, after the region (its one result word) and after the final reshape; and the
  launch element of the ghost state: the handshakes' rounds, the region's staging cells' rounds and tokens per device.
-/
import proofs.«210372_g71854802862689_cont_9to1_m_893_16_alg».proof.Proof.KB_Setup
import proofs.«210372_g71854802862689_cont_9to1_m_893_16_alg».proof.Proof.KB_Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- All eight are unscoped. -/
abbrev S8 : Finset (DevRef τ sig) := {a0', a1', a2', v0', v1', v2', v3', v4'}

theorem held_S8 (d : Dev nD) (W : Valuation τ sig (Elt F)) :
    (held (T d) S8 W : sProp 𝕄) = iprop((lgLoc d ↦{fullShare} W a0') ∗ (yLoc d ↦{fullShare} W a1') ∗ (cLoc d ↦{fullShare} W a2') ∗ (gLoc d ↦{fullShare} W v0')
      ∗ (ltLoc d ↦{fullShare} W v1') ∗ (rowLoc d ↦{fullShare} W v2') ∗ (outLoc d ↦{fullShare} W v3') ∗ (resLoc d ↦{fullShare} W v4')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((lgLoc d ↦{fullShare} W main_arg0) ∗ (yLoc d ↦{fullShare} W main_arg1) ∗ (cLoc d ↦{fullShare} W main_arg2) ∗ (gLoc d ↦{fullShare} W main_v0)
      ∗ (ltLoc d ↦{fullShare} W main_v1) ∗ (rowLoc d ↦{fullShare} W main_v2) ∗ (outLoc d ↦{fullShare} W main_v3) ∗ (resLoc d ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-! ## The host operations -/

abbrev opT : HloOp τ sig (Elt F) :=
  StableHlo.unary main_arg0 main_v1 ((transpose S100000x1024 [1, 0] · transposes_S1024x100000_S100000x1024_1_0) : (⟨S1024x100000, .f32⟩ : BufTy).Contents (Elt F) → (⟨S100000x1024, .f32⟩ : BufTy).Contents (Elt F))
abbrev opR : HloOp τ sig (Elt F) := StableHlo.reshape main_arg2 main_v2 rfl shapeCasts_S100000_S1x100000
abbrev opF : HloOp τ sig (Elt F) := StableHlo.reshape main_v3 main_v4 rfl shapeCasts_S1x1_S_

theorem hT : (opT (F := F)).bufs ⊆ S8 := show ({a0', v1'} : Finset (DevRef τ sig)) ⊆ S8 by decide
theorem hR : (opR (F := F)).bufs ⊆ S8 := show ({a2', v2'} : Finset (DevRef τ sig)) ⊆ S8 by decide
theorem hFo : (opF (F := F)).bufs ⊆ S8 := show ({v3', v4'} : Finset (DevRef τ sig)) ⊆ S8 by decide

/-! ## The contents -/

/-- The gathered counts, as a function of the launch memory: entry j the count at label j (taken below 100000, which it is). -/
def gath (d : Dev nD) : Buf (Elt F) (gLoc d) :=
  fun j => m (cLoc d) (ValueIdx.ix1 ⟨(m (yLoc d) j).toNat % 100000, Nat.mod_lt _ (by decide)⟩)

theorem gath_of_gathered (hpre : PreIdx m) (d : Dev nD) (f : Buf (Elt F) (gLoc d)) (h : ∀ j, Gathered m d f j) : f = gath m d := by
  funext j
  rw [h j (hpre d j)]
  unfold gath
  congr 2
  exact Fin.ext (Nat.mod_eq_of_lt (hpre d j)).symm

/-- As launched; after the call; after the two host operations. -/
def V0 (d : Dev nD) : Valuation τ sig (Elt F) := fun b => m (d, b)
def V1 (d : Dev nD) : Valuation τ sig (Elt F) := Function.update (V0 m d) v0' (gath m d)
def V2 (d : Dev nD) : Valuation τ sig (Elt F) := (opR (F := F)).result ((opT (F := F)).result (V1 m d))

/-- The buffers as the region finds them. -/
def Vr (c : Dev nD) (b : Ref sig .tc) : Buf (Elt F) ((c.tc : Thread nD τ).loc b) := V2 m c (Proc.devRef .tc b)

end Cert.Proof.KB

end
-- ==== Proof.KB_Fold.lean ====
/-
  What the region's three carried scratches hold after each grid point, as a pure function of the blocks the
  point reads: the clamped total of the counts (set at the first point), the running weighted sums of
  exponentials s, and the running label picks g. Point 0 resets all three and then accumulates its block;
  points 1 to 18 accumulate their block; point 19 accumulates its block with the rows beyond the array masked,
  and the region's result is then a function of the three and of the gathered label counts.
-/
import proofs.«210372_g71854802862689_cont_9to1_m_893_16_alg».proof.Proof.Gen.Kernel.Skeleton

noncomputable section

namespace Cert.Kernel.Fold

open Idealize.ShloMosaic Cert.Kernel Cert.Kernel.Gen

variable {F : FTy → Type} [FloatOps F]

/-- The carried scratches: the total (a scalar word), s and g (one entry per example). -/
structure St (F : FTy → Type) where
  tot : Elt F .f32
  s : Vec F S1x1024 .f32
  g : Vec F S1x1024 .f32

/-- The grid coordinate as the 32-bit word the body computes with. -/
abbrev argOf (i : grid1.Coords) : BitVec 32 := BitVec.ofNat 32 (i 0).val

/-- Point 0: the total from the whole row of counts, then one accumulation step from zeroed s and g. -/
def stepA (i : grid1.Coords) (x0 : Vec F S5120x1024 .f32) (x1 : Vec F S1x5120 .f32) (x2 : Vec F S1x100000 .f32)
    (x3 : Vec F S1024 .i32) : St F :=
  ⟨k1_pay1 x2, k1_pay5 (k1_pay1 x2) x0 x1 (k1_pay2 (F := F)), k1_pay6 i x0 x3 (k1_pay3 (F := F))⟩

/-- Points 1 to 18: one accumulation step over what the point before left. -/
def stepB (i : grid1.Coords) (x0 : Vec F S5120x1024 .f32) (x1 : Vec F S1x5120 .f32) (x3 : Vec F S1024 .i32) (p : St F) : St F :=
  ⟨p.tot, k1_pay5 p.tot x0 x1 p.s, k1_pay6 i x0 x3 p.g⟩

/-- Point 19: the masked accumulation step over what the point before left. -/
def stepC (i : grid1.Coords) (x0 : Vec F S5120x1024 .f32) (x1 : Vec F S1x5120 .f32) (x3 : Vec F S1024 .i32) (p : St F) : St F :=
  ⟨p.tot, k1_pay11 (argOf i) p.tot x1 x0 p.s,
    k1_pay7 (k1_pay9 (F := F) x3) (k1_pay10 (argOf i) x0) (iota .tc S5120x1 32 [0] iota_S5120x1_d0_w32) (k1_pay12 (argOf i)) p.g⟩

/-- The region's one result word, from the final scratches and the gathered label counts. -/
def outC (x4 : Vec F S1024 .f32) (p : St F) : Vec F S1x1 .f32 := k1_pay8 p.tot p.s p.g x4

/-- The scratches after point n, over the blocks X0 t, X1 t the points read and the whole rows x2 (counts) and x3 (labels). -/
def stAt (X0 : Fin grid1.N → Vec F S5120x1024 .f32) (X1 : Fin grid1.N → Vec F S1x5120 .f32) (x2 : Vec F S1x100000 .f32)
    (x3 : Vec F S1024 .i32) : (n : ℕ) → n < grid1.N → St F
  | 0, h => stepA (grid1.coords ⟨0, h⟩) (X0 ⟨0, h⟩) (X1 ⟨0, h⟩) x2 x3
  | n + 1, h =>
    if n + 1 < 19 then stepB (grid1.coords ⟨n + 1, h⟩) (X0 ⟨n + 1, h⟩) (X1 ⟨n + 1, h⟩) x3 (stAt X0 X1 x2 x3 n (Nat.lt_of_succ_lt h))
    else stepC (grid1.coords ⟨n + 1, h⟩) (X0 ⟨n + 1, h⟩) (X1 ⟨n + 1, h⟩) x3 (stAt X0 X1 x2 x3 n (Nat.lt_of_succ_lt h))

theorem stAt_zero (X0 : Fin grid1.N → Vec F S5120x1024 .f32) (X1 : Fin grid1.N → Vec F S1x5120 .f32) (x2 : Vec F S1x100000 .f32)
    (x3 : Vec F S1024 .i32) (h : 0 < grid1.N) :
    stAt X0 X1 x2 x3 0 h = stepA (grid1.coords ⟨0, h⟩) (X0 ⟨0, h⟩) (X1 ⟨0, h⟩) x2 x3 := rfl

theorem stAt_mid (X0 : Fin grid1.N → Vec F S5120x1024 .f32) (X1 : Fin grid1.N → Vec F S1x5120 .f32) (x2 : Vec F S1x100000 .f32)
    (x3 : Vec F S1024 .i32) (n : ℕ) (h : n + 1 < grid1.N) (hn : n + 1 < 19) :
    stAt X0 X1 x2 x3 (n + 1) h
      = stepB (grid1.coords ⟨n + 1, h⟩) (X0 ⟨n + 1, h⟩) (X1 ⟨n + 1, h⟩) x3 (stAt X0 X1 x2 x3 n (Nat.lt_of_succ_lt h)) := by
  rw [stAt, if_pos hn]

theorem stAt_last (X0 : Fin grid1.N → Vec F S5120x1024 .f32) (X1 : Fin grid1.N → Vec F S1x5120 .f32) (x2 : Vec F S1x100000 .f32)
    (x3 : Vec F S1024 .i32) (n : ℕ) (h : n + 1 < grid1.N) (hn : ¬ n + 1 < 19) :
    stAt X0 X1 x2 x3 (n + 1) h
      = stepC (grid1.coords ⟨n + 1, h⟩) (X0 ⟨n + 1, h⟩) (X1 ⟨n + 1, h⟩) x3 (stAt X0 X1 x2 x3 n (Nat.lt_of_succ_lt h)) := by
  rw [stAt, if_neg hn]

end Cert.Kernel.Fold

end
-- ==== Proof.KB_Kit.lean ====
/-
  What the three runs of the region's body and its proof data are stated over: each window's current staging
  buffer at a grid point, the three scratch buffers the body carries between points, the body's three branch
  conditions decided over the twenty grid points (the first point only; every point but the last; the last point
  only), and at which points the result's window is stored into and written back (the last point only).
-/
import proofs.«210372_g71854802862689_cont_9to1_m_893_16_alg».proof.Proof.KB_Setup
import proofs.«210372_g71854802862689_cont_9to1_m_893_16_alg».proof.Proof.KB_Fold

noncomputable section

namespace Cert.Proof.KB

open Cert.Kernel Cert.Kernel.Gen Cert.Kernel.Fold

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Each window's current staging buffer at point t, spelt as the pipeline passes it to the body, and its wholeness. -/
abbrev ms0 (t : Fin cfg1.N) : Memref sig .tc .vmem S5120x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x5120 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x100000 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1 .f32 := win1_5.stage (cfg1.slots t 5)
abbrev hs5 (t : Fin cfg1.N) : (ms5 t).IsWhole := hstage1_5 ((cfg1.slots t 5).cast nbuf1_5)
/-- The scratch operands: the running sums s, the running label picks g, the total (one word of scalar memory). -/
abbrev scS : Memref sig .tc .vmem S1x1024 .f32 := Memref.whole cc1_scratch0
abbrev scG : Memref sig .tc .vmem S1x1024 .f32 := Memref.whole cc1_scratch1
abbrev scT : Memref sig .tc .smem S1x1 .f32 := Memref.whole cc1_scratch2

/-- The body at point t is the kernel function on those memrefs. -/
theorem bodyAt1_eq (t : Fin cfg1.N) :
    bodyAt1 (F := F) t = cc1__tc_body (grid1.coords t) (ms0 t) (hs0 t) (ms1 t) (hs1 t) (ms2 t) (hs2 t) (ms3 t) (hs3 t) (ms4 t) (hs4 t) (ms5 t) (hs5 t)
      scS (Memref.isWhole_whole _) scG (Memref.isWhole_whole _) scT (Memref.isWhole_whole _) := rfl

/-- The first branch (reset the scratches): taken at point 0 only. -/
abbrev cond0 (i : grid1.Coords) : Prop := (Scalar.cmpi .ne (Scalar.extui (Scalar.cmpi .eq (BitVec.ofNat 32 (i 0).val) 0#32)) 0#32) = 1#1
theorem hcond0 : ∀ t : Fin cfg1.N, cond0 (grid1.coords t) ↔ t.val = 0 :=
  (by decide +kernel : ∀ t : Fin grid1.N, cond0 (grid1.coords t) ↔ t.val = 0)
/-- The second branch (an unmasked accumulation step): taken at every point but the last. -/
abbrev cond1 (i : grid1.Coords) : Prop := (Scalar.cmpi .ne (Scalar.extui (Scalar.cmpi .slt (BitVec.ofNat 32 (i 0).val) 19#32)) 0#32) = 1#1
theorem hcond1 : ∀ t : Fin cfg1.N, cond1 (grid1.coords t) ↔ t.val < 19 :=
  (by decide +kernel : ∀ t : Fin grid1.N, cond1 (grid1.coords t) ↔ t.val < 19)
/-- The third branch (the masked step and the result): taken at the last point only. -/
abbrev cond2 (i : grid1.Coords) : Prop := k1_cond3 i = 1#1
theorem hcond2 : ∀ t : Fin cfg1.N, cond2 (grid1.coords t) ↔ t.val = 19 :=
  (by decide +kernel : ∀ t : Fin grid1.N, cond2 (grid1.coords t) ↔ t.val = 19)

/-- The inputs' windows are never idle; the result's window is idle, and not written back, at every point but the last. -/
theorem live_in : ∀ (w : Fin 6), w ≠ 5 → ∀ t : Fin cfg1.N, cfg1.idle w (grid1.coords t) = false := by decide +kernel
theorem idle5 : ∀ t : Fin cfg1.N, t.val ≠ 19 → cfg1.idle 5 (grid1.coords t) = true := by decide +kernel
theorem live5 : ∀ t : Fin cfg1.N, t.val = 19 → cfg1.idle 5 (grid1.coords t) = false := by decide +kernel
theorem noFlush5 : ∀ t : Fin cfg1.N, t.val ≠ 19 → (cfg1.win 5).flush t = false := by decide +kernel

end Cert.Proof.KB

end
-- ==== Proof.KB_RunA.lean ====
/-
  The body at the first grid point: the first branch resets the three scratches (the total from the whole row of counts, s and g to zero), the second accumulates the point's block into s and g, the third is not taken; the result's buffer is not touched.
-/
import proofs.«210372_g71854802862689_cont_9to1_m_893_16_alg».proof.Proof.KB_Kit
import Idealize.ShloMosaic.Lib.Pipeline.Value

set_option maxRecDepth 16384

noncomputable section

namespace Cert.Proof.KB

open Cert.Kernel Cert.Kernel.Gen Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- The zero offsets of a whole access, at rank two and at rank one. -/
private theorem zeros2 : (![0, 0] : Fin 2 → ℕ) = fun _ => 0 := funext fun a => by fin_cases a <;> rfl
private theorem zeros1 : (![0] : Fin 1 → ℕ) = fun _ => 0 := funext fun a => by fin_cases a; rfl

/-- A store of every element, made last, is what the buffer then reads, whatever was stored before. -/
private theorem read_writes_cons_unit_zero {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  have hc : ∀ y : S.Idx, ∃ p ∈ ((⟨Rect.unit off S.size inb, w⟩ : View.Piece (Elt F) S e) :: L), y ∈ p.1.set :=
    fun y => ⟨⟨Rect.unit off S.size inb, w⟩, List.mem_cons.mpr (Or.inl rfl), View.mem_set_unit_zero h inb y⟩
  rw [View.read_writes_eq_canon v f _ hc, View.canon_cons_unit_zero h inb w L]

/-- The body's run at the first point. -/
theorem runA (c : Dev nD) (i : grid1.Coords) (a1 : Memref sig .tc .vmem S5120x1024 .f32) (h1 : a1.IsWhole) (a2 : Memref sig .tc .vmem S1x5120 .f32) (h2 : a2.IsWhole)
    (a3 : Memref sig .tc .vmem S1x100000 .f32) (h3 : a3.IsWhole) (a4 : Memref sig .tc .vmem S1024 .i32) (h4 : a4.IsWhole)
    (a5 : Memref sig .tc .vmem S1024 .f32) (h5 : a5.IsWhole) (a6 : Memref sig .tc .vmem S1x1 .f32) (h6 : a6.IsWhole)
    (a7 : Memref sig .tc .vmem S1x1024 .f32) (h7 : a7.IsWhole) (a8 : Memref sig .tc .vmem S1x1024 .f32) (h8 : a8.IsWhole)
    (a9 : Memref sig .tc .smem S1x1 .f32) (h9 : a9.IsWhole)
    (hc0 : cond0 i) (hc1 : cond1 i) (hc2 : ¬cond2 i)
    (x0 : Vec F S5120x1024 .f32) (x1 : Vec F S1x5120 .f32) (x2 : Vec F S1x100000 .f32) (x3 : Vec F S1024 .i32) (x4 : Vec F S1024 .f32) (x5 : Vec F S1x1 .f32)
    (xs xg : Vec F S1x1024 .f32) (xt : Vec F S1x1 .f32) (E : Set ℕ) (Kt : PUnit → sProp 𝕄) :
    iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
        ∗ owns (c.tc : Thread nD τ) a7 fullShare xs ∗ owns (c.tc : Thread nD τ) a8 fullShare xg ∗ owns (c.tc : Thread nD τ) a9 fullShare xt
        ∗ (iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
            ∗ owns (c.tc : Thread nD τ) a7 fullShare (stepA i x0 x1 x2 x3).s ∗ owns (c.tc : Thread nD τ) a8 fullShare (stepA i x0 x1 x2 x3).g
            ∗ owns (c.tc : Thread nD τ) a9 fullShare (fun _ => (stepA i x0 x1 x2 x3).tot)) -∗ Kt ⟨⟩))
      ⊢ wp frame (wpE (defs₀ (F := F)) Variants.none (c.tc : Thread nD τ) none) E (cc1__tc_body i a1 h1 a2 h2 a3 h3 a4 h4 a5 h5 a6 h6 a7 h7 a8 h8 a9 h9) Kt := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1 | exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · -- s: the accumulation step's store is the last through the whole buffer, over the reset's
    iexists _; isplitr
    rotate_left
    · iexact H6
    · ipureintro
      refine (read_writes_cons_unit_zero (S := S1x1024) a7.view f6 zeros2 _ _ _).trans ?_
      sl_unfold_run_names
      simp only [View.readAt_eq_ld, h1.read_unread, h2.read_unread, h3.read_unread, View.ld_unit_zero (S := S5120x1024) zeros2,
        View.ld_unit_zero (S := S1x5120) zeros2, View.ld_unit_zero (S := S1x100000) zeros2,
        View.readCov_unit_zero (S := S1x1024) _ zeros2, stepA]
  isplitl [H7]
  · -- g: likewise
    iexists _; isplitr
    rotate_left
    · iexact H7
    · ipureintro
      refine (read_writes_cons_unit_zero (S := S1x1024) a8.view f7 zeros2 _ _ _).trans ?_
      sl_unfold_run_names
      simp only [View.readAt_eq_ld, h1.read_unread, h4.read_unread, View.ld_unit_zero (S := S5120x1024) zeros2,
        View.ld_unit_zero (S := S1024) zeros1,
        View.readCov_unit_zero (S := S1x1024) _ zeros2, stepA]
  · -- the total: one store of the one word
    iexists _; isplitr
    rotate_left
    · iexact H8
    · ipureintro
      refine (read_writes_cons_unit_zero (S := S1x1) a9.view f8 zeros2 _ _ _).trans ?_
      simp only [View.readAt_eq_ld, h3.read_unread, View.ld_unit_zero (S := S1x100000) zeros2, stepA]
      rfl

end Cert.Proof.KB

end
-- ==== Proof.KB_RunB.lean ====
/-
  The body at a middle grid point: only the second branch is taken; it accumulates the point's block into s and g over what the point before left; the total and the result's buffer are not touched.
-/
import proofs.«210372_g71854802862689_cont_9to1_m_893_16_alg».proof.Proof.KB_Kit
import Idealize.ShloMosaic.Lib.Pipeline.Value
import Idealize.ShloMosaic.Lib.WholeRead

set_option maxRecDepth 16384

noncomputable section

namespace Cert.Proof.KB

open Cert.Kernel Cert.Kernel.Gen Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- The zero offsets, spelt as the literal vectors the body's accesses carry. -/
private theorem off2 : (![0, 0] : Fin 2 → ℕ) = fun _ => 0 := funext fun a => by fin_cases a <;> rfl
private theorem off1 : (![0] : Fin 1 → ℕ) = fun _ => 0 := funext fun a => by fin_cases a; rfl

/-- A load through the whole-shape rectangle at zero offsets, of a whole memref held at the contents that read X, reads X. -/
private theorem load_whole {κ : Kind} {sp : Space} {S : Shape} {e : EltTy} {m : Memref sig κ sp S e} (h : m.IsWhole)
    {off : Fin S.rank → ℕ} (ho : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero ho]

/-- One store through that rectangle leaves its payload, whatever the buffer held. -/
private theorem store_whole {κ : Kind} {sp : Space} {S : Shape} {e : EltTy} (v : View sig κ sp S e) (f : v.ty.Contents (Elt F))
    {off : Fin S.rank → ℕ} (ho : off = fun _ => 0) (inb : ∀ a, off a + S.size a ≤ S.size a) (w : S.Idx → Elt F e) :
    v.read (Elt F) (v.writes (Elt F) f [(⟨Rect.unit off S.size inb, w⟩ : View.Piece (Elt F) S e)]) = w := by
  subst ho; exact View.read_writes_whole v f w

/-- The body's run at a middle point. -/
theorem runB (c : Dev nD) (i : grid1.Coords) (a1 : Memref sig .tc .vmem S5120x1024 .f32) (h1 : a1.IsWhole) (a2 : Memref sig .tc .vmem S1x5120 .f32) (h2 : a2.IsWhole)
    (a3 : Memref sig .tc .vmem S1x100000 .f32) (h3 : a3.IsWhole) (a4 : Memref sig .tc .vmem S1024 .i32) (h4 : a4.IsWhole)
    (a5 : Memref sig .tc .vmem S1024 .f32) (h5 : a5.IsWhole) (a6 : Memref sig .tc .vmem S1x1 .f32) (h6 : a6.IsWhole)
    (a7 : Memref sig .tc .vmem S1x1024 .f32) (h7 : a7.IsWhole) (a8 : Memref sig .tc .vmem S1x1024 .f32) (h8 : a8.IsWhole)
    (a9 : Memref sig .tc .smem S1x1 .f32) (h9 : a9.IsWhole)
    (hc0 : ¬cond0 i) (hc1 : cond1 i) (hc2 : ¬cond2 i)
    (x0 : Vec F S5120x1024 .f32) (x1 : Vec F S1x5120 .f32) (x2 : Vec F S1x100000 .f32) (x3 : Vec F S1024 .i32) (x4 : Vec F S1024 .f32) (x5 : Vec F S1x1 .f32)
    (p : St F) (E : Set ℕ) (Kt : PUnit → sProp 𝕄) :
    iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
        ∗ owns (c.tc : Thread nD τ) a7 fullShare p.s ∗ owns (c.tc : Thread nD τ) a8 fullShare p.g ∗ owns (c.tc : Thread nD τ) a9 fullShare (fun _ => p.tot)
        ∗ (iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
            ∗ owns (c.tc : Thread nD τ) a7 fullShare (stepB i x0 x1 x3 p).s ∗ owns (c.tc : Thread nD τ) a8 fullShare (stepB i x0 x1 x3 p).g
            ∗ owns (c.tc : Thread nD τ) a9 fullShare (fun _ => (stepB i x0 x1 x3 p).tot)) -∗ Kt ⟨⟩))
      ⊢ wp frame (wpE (defs₀ (F := F)) Variants.none (c.tc : Thread nD τ) none) E (cc1__tc_body i a1 h1 a2 h2 a3 h3 a4 h4 a5 h5 a6 h6 a7 h7 a8 h8 a9 h9) Kt := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, Hk⟩
  obtain rfl := h1.eq_unread hf1; obtain rfl := h2.eq_unread hf2; obtain rfl := h3.eq_unread hf3
  obtain rfl := h4.eq_unread hf4; obtain rfl := h5.eq_unread hf5; obtain rfl := h6.eq_unread hf6
  obtain rfl := h7.eq_unread hf7; obtain rfl := h8.eq_unread hf8; obtain rfl := h9.eq_unread hf9
  sl_exec (disch := first | exact hc0 | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; rotate_left
    · iexact H7
    · ipureintro
      rw [store_whole _ _ off2, load_whole h1 off2, load_whole h2 off2, load_whole h7 off2]
      show _ = k1_pay5 p.tot x0 x1 p.s
      exact congrArg (fun w => k1_pay5 w x0 x1 p.s) (h9.readAt_unread (fun _ => p.tot) _ _)
  isplitl [H8]
  · iexists _; isplitr; rotate_left
    · iexact H8
    · ipureintro
      rw [store_whole _ _ off2, load_whole h1 off2, load_whole h4 off1, load_whole h8 off2]
      rfl
  iexists _; isplitr; · ipureintro; exact h9.read_unread _
  iexact H9

end Cert.Proof.KB

end
-- ==== Proof.KB_RunC.lean ====
/-
  The body at the last grid point: only the third branch is taken; it accumulates the point's block, the rows beyond the array masked, into s and g over what the point before left, and stores the result word computed from the three scratches and the gathered label counts.
-/
import proofs.«210372_g71854802862689_cont_9to1_m_893_16_alg».proof.Proof.KB_Kit

set_option maxRecDepth 16384

noncomputable section

namespace Cert.Proof.KB

open Cert.Kernel Cert.Kernel.Gen Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- A load of the whole shape through a whole memref held at the contents that read X reads X. -/
private theorem readAt_all_unread {κ : Kind} {sp : Space} {s : Shape} {e : EltTy} {m : Memref sig κ sp s e} (h : m.IsWhole)
    (X : s.Idx → Elt F e) {off : Fin s.rank → ℕ} (inb : ∀ a, off a + s.size a ≤ s.size a) :
    View.readAt (Elt F) m.view (Rect.unit off s.size inb).toLoadRect (h.unread X) = X := by
  funext x
  rw [View.readAt_apply, h.read_unread]
  exact congrArg X (funext fun a => Fin.ext (by
    show off a + 1 * (x a).val = (x a).val
    have := inb a
    omega))

/-- After a store of the whole shape, whatever was stored before, the view reads the stored value. -/
private theorem read_writes_all {κ : Kind} {sp : Space} {s : Shape} {e : EltTy} (v : View sig κ sp s e) (f : v.ty.Contents (Elt F))
    {off : Fin s.rank → ℕ} (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  have hy : (Rect.unit off s.size inb).emb y = y := funext fun a => Fin.ext (by
    show off a + 1 * (y a).val = (y a).val
    have := inb a
    omega)
  exact (congrArg (v.read (Elt F) (v.writes (Elt F) f ((⟨Rect.unit off s.size inb, w⟩ : View.Piece (Elt F) s e) :: L))) hy.symm).trans
    (View.read_writes_cons_emb v f (Rect.unit off s.size inb) w L y)

/-- The body's run at the last point. -/
theorem runC (c : Dev nD) (i : grid1.Coords) (a1 : Memref sig .tc .vmem S5120x1024 .f32) (h1 : a1.IsWhole) (a2 : Memref sig .tc .vmem S1x5120 .f32) (h2 : a2.IsWhole)
    (a3 : Memref sig .tc .vmem S1x100000 .f32) (h3 : a3.IsWhole) (a4 : Memref sig .tc .vmem S1024 .i32) (h4 : a4.IsWhole)
    (a5 : Memref sig .tc .vmem S1024 .f32) (h5 : a5.IsWhole) (a6 : Memref sig .tc .vmem S1x1 .f32) (h6 : a6.IsWhole)
    (a7 : Memref sig .tc .vmem S1x1024 .f32) (h7 : a7.IsWhole) (a8 : Memref sig .tc .vmem S1x1024 .f32) (h8 : a8.IsWhole)
    (a9 : Memref sig .tc .smem S1x1 .f32) (h9 : a9.IsWhole)
    (hc0 : ¬cond0 i) (hc1 : ¬cond1 i) (hc2 : cond2 i)
    (x0 : Vec F S5120x1024 .f32) (x1 : Vec F S1x5120 .f32) (x2 : Vec F S1x100000 .f32) (x3 : Vec F S1024 .i32) (x4 : Vec F S1024 .f32) (x5 : Vec F S1x1 .f32)
    (p : St F) (E : Set ℕ) (Kt : PUnit → sProp 𝕄) :
    iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare x5
        ∗ owns (c.tc : Thread nD τ) a7 fullShare p.s ∗ owns (c.tc : Thread nD τ) a8 fullShare p.g ∗ owns (c.tc : Thread nD τ) a9 fullShare (fun _ => p.tot)
        ∗ (iprop(owns (c.tc : Thread nD τ) a1 fullShare x0 ∗ owns (c.tc : Thread nD τ) a2 fullShare x1 ∗ owns (c.tc : Thread nD τ) a3 fullShare x2
        ∗ owns (c.tc : Thread nD τ) a4 fullShare x3 ∗ owns (c.tc : Thread nD τ) a5 fullShare x4 ∗ owns (c.tc : Thread nD τ) a6 fullShare (outC x4 (stepC i x0 x1 x3 p))
            ∗ owns (c.tc : Thread nD τ) a7 fullShare (stepC i x0 x1 x3 p).s ∗ owns (c.tc : Thread nD τ) a8 fullShare (stepC i x0 x1 x3 p).g
            ∗ owns (c.tc : Thread nD τ) a9 fullShare (fun _ => (stepC i x0 x1 x3 p).tot)) -∗ Kt ⟨⟩))
      ⊢ wp frame (wpE (defs₀ (F := F)) Variants.none (c.tc : Thread nD τ) none) E (cc1__tc_body i a1 h1 a2 h2 a3 h3 a4 h4 a5 h5 a6 h6 a7 h7 a8 h8 a9 h9) Kt := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  obtain rfl := h7.eq_unread hf6; obtain rfl := h8.eq_unread hf7; obtain rfl := h9.eq_unread hf8
  sl_exec (disch := first | exact hc0 | exact hc1 | exact hc2)
  sl_step
  -- the word read from the total's cell is the total
  have hr : runC.sl.r c a9 h9 p = p.tot := by
    unfold runC.sl.r
    exact congrFun (h9.read_unread (fun _ => p.tot)) _
  -- s as the result's computation reads it back, and as the store leaves it: the masked step's sums
  have hv64 : runC.sl.v64 c i a1 h1 a2 h2 a7 h7 a9 h9 x0 x1 p = (stepC i x0 x1 x3 p).s := by
    unfold runC.sl.v64 runC.sl.H6_1
    refine (View.readCov_cons_toLoadRect _ _ _ _).trans ?_
    show _ = k1_pay11 (argOf i) p.tot x1 x0 p.s
    exact congr (congr (congr (congrArg (k1_pay11 _) hr) (readAt_all_unread h2 x1 _)) (readAt_all_unread h1 x0 _)) (readAt_all_unread h7 p.s _)
  have hs : View.read (Elt F) a7.view (a7.view.writes (Elt F) (h7.unread p.s) (runC.sl.H6_1 c i a1 h1 a2 h2 a7 h7 a9 h9 x0 x1 p))
      = (stepC i x0 x1 x3 p).s := by
    unfold runC.sl.H6_1
    refine (read_writes_all _ _ _ _ _).trans ?_
    show _ = k1_pay11 (argOf i) p.tot x1 x0 p.s
    exact congr (congr (congr (congrArg (k1_pay11 _) hr) (readAt_all_unread h2 x1 _)) (readAt_all_unread h1 x0 _)) (readAt_all_unread h7 p.s _)
  -- g likewise: the masked step's label picks
  have hv66 : runC.sl.v66 c i a1 h1 a4 h4 a8 h8 x0 x3 p = (stepC i x0 x1 x3 p).g := by
    unfold runC.sl.v66 runC.sl.H7_1
    refine (View.readCov_cons_toLoadRect _ _ _ _).trans ?_
    show _ = k1_pay7 (k1_pay9 (F := F) x3) (k1_pay10 (argOf i) x0) (iota .tc S5120x1 32 [0] iota_S5120x1_d0_w32) (k1_pay12 (argOf i)) p.g
    dsimp only
    unfold runC.sl.v48
    rw [readAt_all_unread h4 x3, readAt_all_unread h1 x0, readAt_all_unread h8 p.g]
  have hg : View.read (Elt F) a8.view (a8.view.writes (Elt F) (h8.unread p.g) (runC.sl.H7_1 c i a1 h1 a4 h4 a8 h8 x0 x3 p))
      = (stepC i x0 x1 x3 p).g := by
    unfold runC.sl.H7_1
    refine (read_writes_all _ _ _ _ _).trans ?_
    show _ = k1_pay7 (k1_pay9 (F := F) x3) (k1_pay10 (argOf i) x0) (iota .tc S5120x1 32 [0] iota_S5120x1_d0_w32) (k1_pay12 (argOf i)) p.g
    dsimp only
    unfold runC.sl.v48
    rw [readAt_all_unread h4 x3, readAt_all_unread h1 x0, readAt_all_unread h8 p.g]
  iapply Hk
  isplitl [H0]
  · iexists _; isplitr
    · ipureintro; exact h1.read_unread _
    iexact H0
  isplitl [H1]
  · iexists _; isplitr
    · ipureintro; exact h2.read_unread _
    iexact H1
  isplitl [H2]
  · iexists _; isplitr
    · ipureintro; exact h3.read_unread _
    iexact H2
  isplitl [H3]
  · iexists _; isplitr
    · ipureintro; exact h4.read_unread _
    iexact H3
  isplitl [H4]
  · iexists _; isplitr
    · ipureintro; exact h5.read_unread _
    iexact H4
  isplitl [H5]
  · iexists _; isplitr
    rotate_left
    · iexact H5
    · ipureintro
      refine (read_writes_all _ _ _ _ _).trans ?_
      show _ = k1_pay8 p.tot (stepC i x0 x1 x3 p).s (stepC i x0 x1 x3 p).g x4
      exact congr (congr (congr (congrArg k1_pay8 hr) hv64) hv66) (readAt_all_unread h5 x4 _)
  isplitl [H6]
  · iexists _; isplitr
    · ipureintro; exact hs
    iexact H6
  isplitl [H7]
  · iexists _; isplitr
    · ipureintro; exact hg
    iexact H7
  iexists _; isplitr
  · ipureintro; exact h9.read_unread _
  iexact H8

end Cert.Proof.KB

end
-- ==== Proof.KB_Mask.lean ====
/-
  The last grid point's step does not depend on what its two blocks hold beyond the arrays' end: rows of the logits
  block with 5120 * 19 + r ≥ 100000 are replaced by a constant before they are exponentiated, and the matching
  entries of the count block by a zero weight, by selects on the row number; so two blocks that agree on the rows
  inside the array give the same step. (At every float instance: a select chooses, it does not compute.)
-/
import proofs.«210372_g71854802862689_cont_9to1_m_893_16_alg».proof.Proof.KB_Fold
import Idealize.ShloMosaic.Lib.ValueIdx
import Idealize.ShloMosaic.Lib.ValueLayout
import Idealize.ShloMosaic.Lib.Pipeline.Value

noncomputable section

namespace Cert.Kernel.Fold

open Idealize.ShloMosaic Cert.Kernel Cert.Kernel.Gen
open Idealize.ShloMosaic.ValueIdx (ix1 ix2)

variable {F : FTy → Type} [FloatOps F]

/-- Row r of block n as a 32-bit word: the row's number in the whole array (the arithmetic does not wrap). -/
private theorem maskRowWord (n r : ℕ) (hn : n < 20) (hr : r < 5120) :
    IntOp.addi (BitVec.ofNat 32 r) (Scalar.muli (BitVec.ofNat 32 n) 5120#32) = BitVec.ofNat 32 (5120 * n + r) := by
  show BitVec.ofNat 32 r + BitVec.ofNat 32 n * 5120#32 = _
  apply BitVec.eq_of_toNat_eq
  simp only [BitVec.toNat_add, BitVec.toNat_mul, BitVec.toNat_ofNat]
  omega

/-- A number below 2^31, as a word, is below 100000 in the signed order exactly when the number is. -/
private theorem maskSlt (m : ℕ) (hm : m < 2 ^ 31) :
    IntOp.cmpi .slt (BitVec.ofNat 32 m) 100000#32 = 1#1 ↔ m < 100000 := by
  show BitVec.ofBool ((BitVec.ofNat 32 m).slt 100000#32) = 1#1 ↔ _
  have h1 : (BitVec.ofNat 32 m).toInt = (m : Int) := by
    rw [BitVec.toInt_eq_toNat_cond, BitVec.toNat_ofNat]
    have : m % 2 ^ 32 = m := Nat.mod_eq_of_lt (by omega)
    rw [this]
    split <;> omega
  have h2 : (100000#32 : BitVec 32).toInt = 100000 := by decide
  have e : (BitVec.ofNat 32 m).slt 100000#32 = decide (m < 100000) := by
    unfold BitVec.slt
    rw [h1, h2]
    simp
  rw [e]
  by_cases h : m < 100000
  · simp [h]
  · simp [h]

/-- Two selects on one mask agree as soon as their first operands agree where the mask's bit is 1. -/
private theorem select_congr_on {s : Shape} {α : Type} (m : IVec s 1) (a a' c : s.Idx → α)
    (h : ∀ j, m j = 1#1 → a j = a' j) : select m a c = select m a' c := by
  funext j
  show Scalar.select (m j) (a j) (c j) = Scalar.select (m j) (a' j) (c j)
  by_cases hm : m j = 1#1
  · rw [hm, ValueIdx.select_one, ValueIdx.select_one]
    exact h j hm
  · rw [ValueIdx.eq_zero_of_ne_one hm, ValueIdx.select_zero, ValueIdx.select_zero]

/-- A column [a, 1] broadcast to [a, b] reads, at (p, c), the column at p. -/
private theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row mask of block n at (r, b): its bit is 1 exactly on the rows inside the array. -/
private theorem rowMask_iff (n : ℕ) (hn : n < 20) (r : Fin 5120) (b : Fin 1024) :
    broadcastTo S5120x1024
        (cmpi .slt (addi (iota .tc S5120x1 32 [0] iota_S5120x1_d0_w32) (broadcast S5120x1 (Scalar.muli (BitVec.ofNat 32 n) 5120#32)))
          (broadcast S5120x1 100000#32))
        broadcasts_S5120x1_S5120x1024 (ix2 r b) = 1#1
      ↔ 5120 * n + r.val < 100000 := by
  rw [bcast_col]
  show IntOp.cmpi .slt (IntOp.addi (iota .tc S5120x1 32 [0] iota_S5120x1_d0_w32 (ix2 r (0 : Fin 1))) (Scalar.muli (BitVec.ofNat 32 n) 5120#32)) 100000#32 = 1#1 ↔ _
  rw [iota_single_apply]
  show IntOp.cmpi .slt (IntOp.addi (BitVec.ofNat 32 r.val) _) _ = 1#1 ↔ _
  rw [maskRowWord n r.val hn r.isLt]
  exact maskSlt _ (by omega)

/-- The weight mask of block n at (0, r): its bit is 1 exactly on the entries inside the array. -/
private theorem colMask_iff (n : ℕ) (hn : n < 20) (r : Fin 5120) :
    cmpi .slt (addi (iota .tc S1x5120 32 [1] iota_S1x5120_d1_w32) (broadcast S1x5120 (Scalar.muli (BitVec.ofNat 32 n) 5120#32)))
        (broadcast S1x5120 100000#32) (ix2 (0 : Fin 1) r) = 1#1
      ↔ 5120 * n + r.val < 100000 := by
  show IntOp.cmpi .slt (IntOp.addi (iota .tc S1x5120 32 [1] iota_S1x5120_d1_w32 (ix2 (0 : Fin 1) r)) (Scalar.muli (BitVec.ofNat 32 n) 5120#32)) 100000#32 = 1#1 ↔ _
  rw [iota_single_apply]
  show IntOp.cmpi .slt (IntOp.addi (BitVec.ofNat 32 r.val) _) _ = 1#1 ↔ _
  rw [maskRowWord n r.val hn r.isLt]
  exact maskSlt _ (by omega)

/-- The masked exponentials of block n depend on the block only through its rows inside the array. -/
theorem k1_pay10_congr (n : ℕ) (hn : n < 20) (x0 x0' : Vec F S5120x1024 .f32)
    (h0 : ∀ (r : Fin 5120) (b : Fin 1024), 5120 * n + r.val < 100000 → x0 (ix2 r b) = x0' (ix2 r b)) :
    k1_pay10 (F := F) (BitVec.ofNat 32 n) x0 = k1_pay10 (F := F) (BitVec.ofNat 32 n) x0' := by
  unfold k1_pay10
  simp only [shapeCast_self]
  refine congrArg exp (select_congr_on _ _ _ _ fun j hm => ?_)
  obtain ⟨r, b, rfl⟩ : ∃ r b, j = ix2 r b := ⟨j 0, j 1, ValueIdx.eq_ix2 j⟩
  exact h0 r b ((rowMask_iff n hn r b).1 hm)

/-- The masked accumulation of block n depends on the two blocks only through their rows inside the array. -/
theorem k1_pay11_congr (n : ℕ) (hn : n < 20) (tot : Elt F .f32) (x1 x1' : Vec F S1x5120 .f32) (x0 x0' : Vec F S5120x1024 .f32)
    (sp : Vec F S1x1024 .f32)
    (h0 : ∀ (r : Fin 5120) (b : Fin 1024), 5120 * n + r.val < 100000 → x0 (ix2 r b) = x0' (ix2 r b))
    (h1 : ∀ r : Fin 5120, 5120 * n + r.val < 100000 → x1 (ix2 (0 : Fin 1) r) = x1' (ix2 (0 : Fin 1) r)) :
    k1_pay11 (F := F) (BitVec.ofNat 32 n) tot x1 x0 sp = k1_pay11 (F := F) (BitVec.ofNat 32 n) tot x1' x0' sp := by
  unfold k1_pay11
  simp only [shapeCast_self]
  rw [k1_pay10_congr n hn x0 x0' h0]
  have hsel :
      select (cmpi .slt (addi (iota .tc S1x5120 32 [1] iota_S1x5120_d1_w32) (broadcast S1x5120 (Scalar.muli (BitVec.ofNat 32 n) 5120#32)))
          (broadcast S1x5120 100000#32))
        (addf (divf x1 (broadcast S1x5120 tot)) (broadcast S1x5120 (Scalar.ofBits (F := F) .f32 0x2B8CBCCC#32)))
        (broadcast S1x5120 (Scalar.ofBits (F := F) .f32 0x00000000#32))
      = select (cmpi .slt (addi (iota .tc S1x5120 32 [1] iota_S1x5120_d1_w32) (broadcast S1x5120 (Scalar.muli (BitVec.ofNat 32 n) 5120#32)))
          (broadcast S1x5120 100000#32))
        (addf (divf x1' (broadcast S1x5120 tot)) (broadcast S1x5120 (Scalar.ofBits (F := F) .f32 0x2B8CBCCC#32)))
        (broadcast S1x5120 (Scalar.ofBits (F := F) .f32 0x00000000#32)) := by
    refine select_congr_on _ _ _ _ fun j hm => ?_
    obtain ⟨z, r, rfl⟩ : ∃ (z : Fin 1) (r : Fin 5120), j = ix2 z r := ⟨j 0, j 1, ValueIdx.eq_ix2 j⟩
    obtain rfl : z = 0 := Subsingleton.elim _ _
    have hr : 5120 * n + r.val < 100000 := (colMask_iff n hn r).1 hm
    show FloatOps.addf (FloatOps.divf (x1 (ix2 (0 : Fin 1) r)) tot) _ = FloatOps.addf (FloatOps.divf (x1' (ix2 (0 : Fin 1) r)) tot) _
    rw [h1 r hr]
  rw [hsel]

/-- Blocks that agree on the rows inside the array give the same last step. -/
theorem stepC_congr (i : grid1.Coords) (hi : (i 0).val = 19) (x0 x0' : Vec F S5120x1024 .f32) (x1 x1' : Vec F S1x5120 .f32)
    (h0 : ∀ (r : Fin 5120) (b : Fin 1024), 5120 * 19 + r.val < 100000 → x0 (ix2 r b) = x0' (ix2 r b))
    (h1 : ∀ r : Fin 5120, 5120 * 19 + r.val < 100000 → x1 (ix2 (0 : Fin 1) r) = x1' (ix2 (0 : Fin 1) r))
    (x3 : Vec F S1024 .i32) (p : St F) :
    stepC i x0 x1 x3 p = stepC i x0' x1' x3 p := by
  have ha : argOf i = BitVec.ofNat 32 19 := by
    show BitVec.ofNat 32 (i 0).val = _
    rw [hi]
  unfold stepC
  rw [ha, k1_pay10_congr 19 (by decide) x0 x0' h0, k1_pay11_congr 19 (by decide) p.tot x1 x1' x0 x0' p.s h0 h1]

end Cert.Kernel.Fold

end
-- ==== Proof.KB_Dat.lean ====
/-
  The region's proof data. Each grid point reads its block of the transposed logits and of the counts (at the
  last point the rows beyond the array filled with a word nothing depends on), and the whole row of counts, labels
  and gathered label counts; it leaves the three scratches at the fold of the points so far; the result's buffer is
  stored at the last point only, with the result word. The body's three cases are the three runs.
-/
import proofs.«210372_g71854802862689_cont_9to1_m_893_16_alg».proof.Proof.KB_Kit
import proofs.«210372_g71854802862689_cont_9to1_m_893_16_alg».proof.Proof.KB_RunA
import proofs.«210372_g71854802862689_cont_9to1_m_893_16_alg».proof.Proof.KB_RunB
import proofs.«210372_g71854802862689_cont_9to1_m_893_16_alg».proof.Proof.KB_RunC
import proofs.«210372_g71854802862689_cont_9to1_m_893_16_alg».proof.Proof.KB_Mask

set_option maxRecDepth 16384

noncomputable section

namespace Cert.Proof.KB

open Cert.Kernel Cert.Kernel.Gen Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose)
open Idealize.ShloMosaic.ValueIdx (ix1 ix2)

variable {F : FTy → Type} [FloatOps F]

local notation "𝕄" => MT nD τ sig (HIx 1) (Elt F) ℕ UU ℕ

/-- The pipeline has no prefetched table. -/
abbrev adm : (p : Fin 1) → (pcfgs (F := F) p).Adm := fun p => (cfgs p).toPCfg_adm

/- The TensorCore's buffers as the region finds them, per device. -/
variable (Vr : (c : Dev nD) → (b : Ref sig .tc) → Buf (Elt F) ((c.tc : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-- The blocks of the transposed logits and of the counts a point reads, filled out to the staging block's shape
    with the zero word beyond the array's end (only the last point's blocks overhang). -/
def X0 (c : Dev nD) (t : Fin grid1.N) : Vec F S5120x1024 .f32 :=
  win1_0.fill (grid1.coords t) (fun _ => Scalar.ofBits .f32 0#32) (iblk Vr c 0 t)
def X1 (c : Dev nD) (t : Fin grid1.N) : Vec F S1x5120 .f32 :=
  win1_1.fill (grid1.coords t) (fun _ => Scalar.ofBits .f32 0#32) (iblk Vr c 1 t)
/-- The whole row of counts, the labels, the gathered label counts: the same block at every point. -/
def x2 (c : Dev nD) : Vec F S1x100000 .f32 := iblk Vr c 2 ⟨0, by decide⟩
def x3 (c : Dev nD) : Vec F S1024 .i32 := iblk Vr c 3 ⟨0, by decide⟩
def x4 (c : Dev nD) : Vec F S1024 .f32 := iblk Vr c 4 ⟨0, by decide⟩

/-! Those blocks read at an index are the arrays at the index. -/
/- Where the two blocked windows' blocks lie: block t starts at row 5120 t; every block but the last is whole, the
   last has 2720 rows inside the array. -/
theorem idx0 : ∀ t : Fin grid1.N, win1_0.index t (0 : Fin 2) = t.val ∧ win1_0.index t (1 : Fin 2) = 0 := by decide +kernel
theorem idx1 : ∀ t : Fin grid1.N, win1_1.index t (0 : Fin 2) = 0 ∧ win1_1.index t (1 : Fin 2) = t.val := by decide +kernel
theorem xs0 : ∀ t : Fin grid1.N, (t.val ≠ 19 → win1_0.xsize (grid1.coords t) (0 : Fin 2) = 5120) ∧ (t.val = 19 → win1_0.xsize (grid1.coords t) (0 : Fin 2) = 2720)
    ∧ win1_0.xsize (grid1.coords t) (1 : Fin 2) = 1024 := by decide +kernel
theorem xs1 : ∀ t : Fin grid1.N, (t.val ≠ 19 → win1_1.xsize (grid1.coords t) (1 : Fin 2) = 5120) ∧ (t.val = 19 → win1_1.xsize (grid1.coords t) (1 : Fin 2) = 2720)
    ∧ win1_1.xsize (grid1.coords t) (0 : Fin 2) = 1 := by decide +kernel

theorem X0_apply (c : Dev nD) (t : Fin grid1.N) (r : Fin 5120) (b : Fin 1024) (h : 5120 * t.val + r.val < 100000) :
    X0 Vr c t (ix2 r b) = Vr c main_v1 (ix2 ⟨5120 * t.val + r.val, h⟩ b) := by
  obtain ⟨hx0, hx0', hx1⟩ := xs0 t
  obtain ⟨hi0, hi1⟩ := idx0 t
  have hN : t.val < 20 := lt_of_lt_of_eq t.isLt N_1
  have hm : win1_0.moved (grid1.coords t) (ix2 r b) = true := (win1_0.moved_iff _ _).mpr fun (a : Fin 2) => by
    fin_cases a
    · show r.val < win1_0.xsize (grid1.coords t) (0 : Fin 2)
      by_cases h19 : t.val = 19
      · rw [hx0' h19]; omega
      · rw [hx0 h19]; exact r.isLt
    · show b.val < win1_0.xsize (grid1.coords t) (1 : Fin 2); rw [hx1]; exact b.isLt
  unfold X0 Window.fill; rw [dif_pos hm]; unfold iblk
  show Vr c main_v1 (((cfg1.win 0).blk t).view.emb _) = Vr c main_v1 _
  congr 1
  funext a; apply Fin.ext
  match a with
  | ⟨0, _⟩ => show win1_0.index t (0 : Fin 2) * 5120 + 1 * r.val = 5120 * t.val + r.val; rw [hi0]; omega
  | ⟨1, _⟩ => show win1_0.index t (1 : Fin 2) * 1024 + 1 * b.val = b.val; rw [hi1]; omega
theorem X1_apply (c : Dev nD) (t : Fin grid1.N) (r : Fin 5120) (h : 5120 * t.val + r.val < 100000) :
    X1 Vr c t (ix2 (0 : Fin 1) r) = Vr c main_v2 (ix2 (0 : Fin 1) ⟨5120 * t.val + r.val, h⟩) := by
  obtain ⟨hx1, hx1', hx0⟩ := xs1 t
  obtain ⟨hi0, hi1⟩ := idx1 t
  have hN : t.val < 20 := lt_of_lt_of_eq t.isLt N_1
  have hm : win1_1.moved (grid1.coords t) (ix2 (0 : Fin 1) r) = true := (win1_1.moved_iff _ _).mpr fun (a : Fin 2) => by
    fin_cases a
    · show (0 : ℕ) < win1_1.xsize (grid1.coords t) (0 : Fin 2); rw [hx0]; omega
    · show r.val < win1_1.xsize (grid1.coords t) (1 : Fin 2)
      by_cases h19 : t.val = 19
      · rw [hx1' h19]; omega
      · rw [hx1 h19]; exact r.isLt
  unfold X1 Window.fill; rw [dif_pos hm]; unfold iblk
  show Vr c main_v2 (((cfg1.win 1).blk t).view.emb _) = Vr c main_v2 _
  congr 1
  funext a; apply Fin.ext
  match a with
  | ⟨0, _⟩ => show win1_1.index t (0 : Fin 2) * 1 + 1 * 0 = 0; rw [hi0]
  | ⟨1, _⟩ => show win1_1.index t (1 : Fin 2) * 5120 + 1 * r.val = 5120 * t.val + r.val; rw [hi1]; omega
theorem x2_eq (c : Dev nD) : x2 Vr c = Vr c main_v2 := by
  have key : ∀ t : Fin cfg1.N, iblk Vr c 2 t = Vr c main_v2 := fun t => by
    funext j
    show Vr c main_v2 (((cfg1.win 2).blk t).view.emb j) = Vr c main_v2 j
    congr 1
    funext a; apply Fin.ext
    match a with
    | ⟨0, _⟩ => show 0 * 1 + 1 * (j 0).val = (j 0).val; omega
    | ⟨1, _⟩ => show 0 * 100000 + 1 * (j 1).val = (j 1).val; omega
  exact key _
theorem x3_eq (c : Dev nD) : x3 Vr c = Vr c main_arg1 := by
  have key : ∀ t : Fin cfg1.N, iblk Vr c 3 t = Vr c main_arg1 := fun t => by
    funext j
    show Vr c main_arg1 (((cfg1.win 3).blk t).view.emb j) = Vr c main_arg1 j
    congr 1
    funext a; apply Fin.ext
    match a with
    | ⟨0, _⟩ => show 0 * 1024 + 1 * (j 0).val = (j 0).val; omega
  exact key _
theorem x4_eq (c : Dev nD) : x4 Vr c = Vr c main_v0 := by
  have key : ∀ t : Fin cfg1.N, iblk Vr c 4 t = Vr c main_v0 := fun t => by
    funext j
    show Vr c main_v0 (((cfg1.win 4).blk t).view.emb j) = Vr c main_v0 j
    congr 1
    funext a; apply Fin.ext
    match a with
    | ⟨0, _⟩ => show 0 * 1024 + 1 * (j 0).val = (j 0).val; omega
  exact key _

/-- The scratches after point n. -/
def stN (c : Dev nD) (n : ℕ) (h : n < grid1.N) : St F := stAt (X0 Vr c) (X1 Vr c) (x2 Vr c) (x3 Vr c) n h

/-- The region's result word. -/
def outRes (c : Dev nD) : Vec F S1x1 .f32 := outC (x4 Vr c) (stN Vr c 19 (by decide))

/-- The shares of the windows' arrays: the row of counts is two windows' array, half to each. -/
def qWin : Fin cfg1.W → PosShare TreeShare := fun w => if w = 1 then (fullShare : PosShare TreeShare).left else if w = 2 then (fullShare : PosShare TreeShare).right else fullShare

/-- The pairs the core's waits may have recorded: those the handshake's state bounds by 8. -/
def recSet (c : Dev nD) : Set (SemLoc sig × HIx 1) := {p | (K (F := F)).lev ((c.tc : Thread nD τ), p.1) p.2 ≤ 8}

/-- The invariant before point n: before the first point the scoped buffers no window stages at anything; afterwards
    the three scratches at what the point before left. -/
def PhiS (c : Dev nD) : (n : ℕ) → n ≤ cfg1.N → sProp 𝕄
  | 0, _ => Pipeline.scopedRest spec1 c
  | n + 1, hn => iprop(owns (c.tc : Thread nD τ) scS fullShare (stN Vr c n hn).s ∗ owns (c.tc : Thread nD τ) scG fullShare (stN Vr c n hn).g
      ∗ owns (c.tc : Thread nD τ) scT fullShare (fun _ => (stN Vr c n hn).tot))

/-- The proof data of the one pipeline on core c. -/
def dat1 (c : Dev nD) : Dat τ (Elt F) (HIx 1) ℕ UU ℕ cfg1 c where
  A w := Vr c (Pipeline.arrRef spec1 w)
  after w t := match w with
    | ⟨0, _⟩ => X0 Vr c t
    | ⟨1, _⟩ => X1 Vr c t
    | ⟨2, _⟩ => x2 Vr c
    | ⟨3, _⟩ => x3 Vr c
    | ⟨4, _⟩ => x4 Vr c
    | ⟨5, _⟩ => outRes Vr c
  Φ t := PhiS Vr c t.val (Nat.le_of_lt_succ t.isLt)
  q := qWin
  owed _ := 0
  recorded _ := recSet (F := F) c

def pdats : (p : Fin 1) → (c : Dev nD) → Dat τ (Elt F) (HIx 1) ℕ UU ℕ (Pipeline.pin (pcfgs (F := F)) adm p) c
  | 0 => dat1 Vr

theorem A_eq (c : Dev nD) (w : Fin cfg1.W) : (pdats Vr 0 c).A w = Vr c (Pipeline.arrRef spec1 w) := rfl
theorem q_eq (c : Dev nD) : (pdats Vr 0 c).q = qWin := rfl
theorem owed_eq (c : Dev nD) (t) : (pdats Vr 0 c).owed t = 0 := rfl
theorem recorded_eq (c : Dev nD) (t) : (pdats Vr 0 c).recorded t = recSet (F := F) c := rfl

/-- What the body leaves, window by window. -/
theorem after_0 (c : Dev nD) (t : Fin cfg1.N) : (dat1 Vr c).after 0 t = X0 Vr c t := rfl
theorem after_1 (c : Dev nD) (t : Fin cfg1.N) : (dat1 Vr c).after 1 t = X1 Vr c t := rfl
theorem after_2 (c : Dev nD) (t : Fin cfg1.N) : (dat1 Vr c).after 2 t = x2 Vr c := rfl
theorem after_3 (c : Dev nD) (t : Fin cfg1.N) : (dat1 Vr c).after 3 t = x3 Vr c := rfl
theorem after_4 (c : Dev nD) (t : Fin cfg1.N) : (dat1 Vr c).after 4 t = x4 Vr c := rfl
theorem after_5 (c : Dev nD) (t : Fin cfg1.N) : (dat1 Vr c).after 5 t = outRes Vr c := rfl

/-- What the body finds: the two blocked inputs just fetched, the block on the rows inside the array and what the
    buffer held elsewhere; -/
theorem before_0 (c : Dev nD) (t : Fin cfg1.N) (d : S5120x1024.Idx → Elt F .f32) :
    (dat1 Vr c).before 0 t d = win1_0.fill (grid1.coords t) d (iblk Vr c 0 t) := by
  unfold Dat.before; rw [if_pos (fetch1_0 t)]; rfl
theorem before_1 (c : Dev nD) (t : Fin cfg1.N) (d : S1x5120.Idx → Elt F .f32) :
    (dat1 Vr c).before 1 t d = win1_1.fill (grid1.coords t) d (iblk Vr c 1 t) := by
  unfold Dat.before; rw [if_pos (fetch1_1 t)]; rfl
/-- the three whole inputs, fetched at the first point and left in place by every point, their whole array. -/
theorem before_2 (c : Dev nD) (t : Fin cfg1.N) (d : S1x100000.Idx → Elt F .f32) : (dat1 Vr c).before 2 t d = x2 Vr c :=
  ((dat1 Vr c).before_in_eq_fetched 2 rfl (fun _ => rfl) (fun _ _ _ => rfl) (fun _ => rfl) t d).trans rfl
theorem before_3 (c : Dev nD) (t : Fin cfg1.N) (d : S1024.Idx → Elt F .i32) : (dat1 Vr c).before 3 t d = x3 Vr c :=
  ((dat1 Vr c).before_in_eq_fetched 3 rfl (fun _ => rfl) (fun _ _ _ => rfl) (fun _ => rfl) t d).trans rfl
theorem before_4 (c : Dev nD) (t : Fin cfg1.N) (d : S1024.Idx → Elt F .f32) : (dat1 Vr c).before 4 t d = x4 Vr c :=
  ((dat1 Vr c).before_in_eq_fetched 4 rfl (fun _ => rfl) (fun _ _ _ => rfl) (fun _ => rfl) t d).trans rfl

/-! ## The blocks of the two clipped windows -/

/-- A fill that is not cut replaces the whole buffer: what the buffer held does not matter. -/
theorem fill_uncut {G : Pipeline.Grid} (w : Window sig G) {α : Type} (i : G.Coords) (h : ∀ a, w.clip i a = none)
    (d d' : w.block.Idx → α) (g : (w.xblock i).Idx → α) : w.fill i d g = w.fill i d' g := by
  funext j
  have hm : w.moved i j = true :=
    (w.moved_iff _ j).mpr fun a => by have := (j a).isLt; unfold Window.xsize; rw [h a]; exact this
  unfold Window.fill; rw [dif_pos hm, dif_pos hm]

/-- Two fills of one block agree on the part the transfer moves. -/
theorem fill_moved {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  have hm := (w.moved_iff i j).mpr h
  unfold Window.fill; rw [dif_pos hm, dif_pos hm]

/-- Only the last point's blocks overhang their arrays: there 2720 of the 5120 rows are inside. -/
theorem noclip0 : ∀ t : Fin cfg1.N, t.val ≠ 19 → ∀ a : Fin 2, win1_0.clip (grid1.coords t) a = none := by decide +kernel
theorem noclip1 : ∀ t : Fin cfg1.N, t.val ≠ 19 → ∀ a : Fin 2, win1_1.clip (grid1.coords t) a = none := by decide +kernel
theorem xsize0_last : ∀ t : Fin cfg1.N, t.val = 19 → win1_0.xsize (grid1.coords t) (0 : Fin 2) = 2720 ∧ win1_0.xsize (grid1.coords t) (1 : Fin 2) = 1024 := by
  decide +kernel
theorem xsize1_last : ∀ t : Fin cfg1.N, t.val = 19 → win1_1.xsize (grid1.coords t) (0 : Fin 2) = 1 ∧ win1_1.xsize (grid1.coords t) (1 : Fin 2) = 2720 := by
  decide +kernel
theorem coords_val : ∀ t : Fin cfg1.N, ((grid1.coords t) 0).val = t.val := by decide +kernel

/-- Before the last point the fetched blocks are the stated ones whatever the buffers held. -/
theorem fill0_eq (c : Dev nD) (t : Fin cfg1.N) (h : t.val ≠ 19) (d : S5120x1024.Idx → Elt F .f32) :
    win1_0.fill (grid1.coords t) d (iblk Vr c 0 t) = X0 Vr c t := fill_uncut win1_0 _ (noclip0 t h) _ _ _
theorem fill1_eq (c : Dev nD) (t : Fin cfg1.N) (h : t.val ≠ 19) (d : S1x5120.Idx → Elt F .f32) :
    win1_1.fill (grid1.coords t) d (iblk Vr c 1 t) = X1 Vr c t := fill_uncut win1_1 _ (noclip1 t h) _ _ _

/-! ## The scratches point by point -/

theorem stN_congr (c : Dev nD) {n n' : ℕ} (e : n = n') (h : n < grid1.N) (h' : n' < grid1.N) : stN Vr c n h = stN Vr c n' h' := by
  subst e; rfl
theorem stN_zero (c : Dev nD) (t : Fin cfg1.N) (h : t.val = 0) :
    stN Vr c t.val t.isLt = stepA (grid1.coords t) (X0 Vr c t) (X1 Vr c t) (x2 Vr c) (x3 Vr c) := by
  obtain ⟨n, hn⟩ := t
  cases n with
  | zero => rfl
  | succ n => exact absurd h (Nat.succ_ne_zero n)
theorem stN_mid (c : Dev nD) (t : Fin cfg1.N) (h0 : t.val ≠ 0) (h : t.val < 19) :
    stN Vr c t.val t.isLt = stepB (grid1.coords t) (X0 Vr c t) (X1 Vr c t) (x3 Vr c)
      (stN Vr c (t.val - 1) (Nat.lt_of_le_of_lt (Nat.sub_le _ _) t.isLt)) := by
  obtain ⟨n, hn⟩ := t
  cases n with
  | zero => exact absurd rfl h0
  | succ n => exact stAt_mid _ _ _ _ n hn h
theorem stN_last (c : Dev nD) (t : Fin cfg1.N) (h0 : t.val ≠ 0) (h : ¬t.val < 19) :
    stN Vr c t.val t.isLt = stepC (grid1.coords t) (X0 Vr c t) (X1 Vr c t) (x3 Vr c)
      (stN Vr c (t.val - 1) (Nat.lt_of_le_of_lt (Nat.sub_le _ _) t.isLt)) := by
  obtain ⟨n, hn⟩ := t
  cases n with
  | zero => exact absurd rfl h0
  | succ n => exact stAt_last _ _ _ _ n hn h

/-! ## The invariant -/

theorem PhiS_succ (c : Dev nD) (n : ℕ) (hn : n < cfg1.N) :
    PhiS Vr c (n + 1) hn = iprop(owns (c.tc : Thread nD τ) scS fullShare (stN Vr c n hn).s ∗ owns (c.tc : Thread nD τ) scG fullShare (stN Vr c n hn).g
      ∗ owns (c.tc : Thread nD τ) scT fullShare (fun _ => (stN Vr c n hn).tot)) := rfl
theorem PhiS_pos (c : Dev nD) (n : ℕ) (h : n ≤ cfg1.N) (hz : n ≠ 0) :
    PhiS Vr c n h = iprop(owns (c.tc : Thread nD τ) scS fullShare (stN Vr c (n - 1) (Nat.lt_of_lt_of_le (Nat.sub_lt (Nat.pos_of_ne_zero hz) Nat.one_pos) h)).s
      ∗ owns (c.tc : Thread nD τ) scG fullShare (stN Vr c (n - 1) (Nat.lt_of_lt_of_le (Nat.sub_lt (Nat.pos_of_ne_zero hz) Nat.one_pos) h)).g
      ∗ owns (c.tc : Thread nD τ) scT fullShare (fun _ => (stN Vr c (n - 1) (Nat.lt_of_lt_of_le (Nat.sub_lt (Nat.pos_of_ne_zero hz) Nat.one_pos) h)).tot)) := by
  cases n with
  | zero => exact absurd rfl hz
  | succ n => rfl
/-- The scoped buffers no window stages are the three scratches, each at some contents. -/
theorem Phi0_eq (c : Dev nD) :
    (Pipeline.scopedRest spec1 c : sProp 𝕄)
      = iprop((∃ xs, owns (c.tc : Thread nD τ) scS fullShare xs) ∗ (∃ xg, owns (c.tc : Thread nD τ) scG fullShare xg)
        ∗ (∃ xt, owns (c.tc : Thread nD τ) scT fullShare xt)) := by
  rw [scopedRest1_eq]; simp only [scS, scG, scT, owns_whole]; try rfl

/-! ## The body obligation, at a generic point -/

/-- What the body is called with at point t, the windows one by one, -/
def bodyPre (c : Dev nD) (t : Fin cfg1.N) : sProp 𝕄 :=
  iprop((dat1 Vr c).Φ t.castSucc ∗ (dat1 Vr c).owesAt (none : HIx 1) t.castSucc
    ∗ (∃ d, owns (c.tc : Thread nD τ) (ms0 t) fullShare ((dat1 Vr c).before 0 t d))
    ∗ (∃ d, owns (c.tc : Thread nD τ) (ms1 t) fullShare ((dat1 Vr c).before 1 t d))
    ∗ (∃ d, owns (c.tc : Thread nD τ) (ms2 t) fullShare ((dat1 Vr c).before 2 t d))
    ∗ (∃ d, owns (c.tc : Thread nD τ) (ms3 t) fullShare ((dat1 Vr c).before 3 t d))
    ∗ (∃ d, owns (c.tc : Thread nD τ) (ms4 t) fullShare ((dat1 Vr c).before 4 t d))
    ∗ (∃ d, owns (c.tc : Thread nD τ) (ms5 t) fullShare ((dat1 Vr c).before 5 t d)))

/-- and what it returns. -/
def bodyPost (c : Dev nD) (t : Fin cfg1.N) : sProp 𝕄 :=
  iprop((dat1 Vr c).Φ t.succ ∗ (dat1 Vr c).owesAt (none : HIx 1) t.succ
    ∗ (dat1 Vr c).leaves 0 t ∗ (dat1 Vr c).leaves 1 t ∗ (dat1 Vr c).leaves 2 t
    ∗ (dat1 Vr c).leaves 3 t ∗ (dat1 Vr c).leaves 4 t ∗ (dat1 Vr c).leaves 5 t)

/-- The two clipped windows are handed back stated on the rows inside the array: their block, over anything. -/
theorem leaves_0 (c : Dev nD) (t : Fin cfg1.N) :
    (dat1 Vr c).leaves 0 t = iprop(∃ d, owns (c.tc : Thread nD τ) (ms0 t) fullShare (win1_0.fill (grid1.coords t) d (iblk Vr c 0 t))) := by
  show iprop(∃ d, owns (c.tc : Thread nD τ) (ms0 t) fullShare (win1_0.fill (grid1.coords t) d (win1_0.cut (grid1.coords t) (X0 Vr c t)))) = _
  unfold X0; rw [Window.cut_fill]
theorem leaves_1 (c : Dev nD) (t : Fin cfg1.N) :
    (dat1 Vr c).leaves 1 t = iprop(∃ d, owns (c.tc : Thread nD τ) (ms1 t) fullShare (win1_1.fill (grid1.coords t) d (iblk Vr c 1 t))) := by
  show iprop(∃ d, owns (c.tc : Thread nD τ) (ms1 t) fullShare (win1_1.fill (grid1.coords t) d (win1_1.cut (grid1.coords t) (X1 Vr c t)))) = _
  unfold X1; rw [Window.cut_fill]
/-- The whole inputs are handed back as found. -/
theorem leaves_2 (c : Dev nD) (t : Fin cfg1.N) : (dat1 Vr c).leaves 2 t = owns (c.tc : Thread nD τ) (ms2 t) fullShare (x2 Vr c) := rfl
theorem leaves_3 (c : Dev nD) (t : Fin cfg1.N) : (dat1 Vr c).leaves 3 t = owns (c.tc : Thread nD τ) (ms3 t) fullShare (x3 Vr c) := rfl
theorem leaves_4 (c : Dev nD) (t : Fin cfg1.N) : (dat1 Vr c).leaves 4 t = owns (c.tc : Thread nD τ) (ms4 t) fullShare (x4 Vr c) := rfl
/-- The result's buffer: untouched before the last point, the result word at it. -/
theorem leaves_5_idle (c : Dev nD) (t : Fin cfg1.N) (h : t.val ≠ 19) :
    (dat1 Vr c).leaves 5 t = iprop(∃ d, owns (c.tc : Thread nD τ) (ms5 t) fullShare ((dat1 Vr c).before 5 t d)) :=
  (dat1 Vr c).leaves_idle 5 t (idle5 t h) (noFlush5 t h)
theorem leaves_5_last (c : Dev nD) (t : Fin cfg1.N) (h : t.val = 19) :
    (dat1 Vr c).leaves 5 t = owns (c.tc : Thread nD τ) (ms5 t) fullShare (outRes Vr c) := by
  unfold Dat.leaves; rw [live5 t h]; rfl

theorem PhiS_zero (c : Dev nD) (n : ℕ) (h : n ≤ cfg1.N) (hz : n = 0) : PhiS Vr c n h = Pipeline.scopedRest spec1 c := by
  subst hz; rfl

/-- At the last point two fills of a block agree on the rows inside the array. -/
theorem fill0_last (c : Dev nD) (t : Fin cfg1.N) (h19 : t.val = 19) (d d' : S5120x1024.Idx → Elt F .f32) (r : Fin 5120) (b : Fin 1024)
    (hr : 5120 * 19 + r.val < 100000) :
    win1_0.fill (grid1.coords t) d (iblk Vr c 0 t) (ix2 r b) = win1_0.fill (grid1.coords t) d' (iblk Vr c 0 t) (ix2 r b) := by
  have hx := xsize0_last t h19
  refine fill_moved win1_0 _ _ _ _ _ (fun (a : Fin 2) => ?_)
  fin_cases a
  · show r.val < win1_0.xsize (grid1.coords t) (0 : Fin 2); rw [hx.1]; omega
  · show b.val < win1_0.xsize (grid1.coords t) (1 : Fin 2); rw [hx.2]; exact b.isLt
theorem fill1_last (c : Dev nD) (t : Fin cfg1.N) (h19 : t.val = 19) (d d' : S1x5120.Idx → Elt F .f32) (r : Fin 5120)
    (hr : 5120 * 19 + r.val < 100000) :
    win1_1.fill (grid1.coords t) d (iblk Vr c 1 t) (ix2 (0 : Fin 1) r) = win1_1.fill (grid1.coords t) d' (iblk Vr c 1 t) (ix2 (0 : Fin 1) r) := by
  have hx := xsize1_last t h19
  refine fill_moved win1_1 _ _ _ _ _ (fun (a : Fin 2) => ?_)
  fin_cases a
  · show (0 : ℕ) < win1_1.xsize (grid1.coords t) (0 : Fin 2); rw [hx.1]; omega
  · show r.val < win1_1.xsize (grid1.coords t) (1 : Fin 2); rw [hx.2]; omega

set_option maxHeartbeats 1600000 in
/-- The body at any point: the buffers hold their blocks, the point's number says which of the three runs applies, and
    what the run leaves in the scratches is the fold's next value; at the last point the fold does not see the rows
    beyond the array, so what the buffers held there does not matter. -/
theorem sound_body (c : Dev nD) (t : Fin cfg1.N) :
    bodyPre Vr c t ⊢ wp frame (wpE (defs₀ (F := F)) 𝒱₀ (c.tc : Thread nD τ) none) Set.univ (bodyAt1 (F := F) t) (fun _ => bodyPost Vr c t) := by
  unfold bodyPre bodyPost
  rw [bodyAt1_eq]
  simp only [before_0, before_1, before_2, before_3, before_4]
  rw [show (dat1 Vr c).owesAt (none : HIx 1) t.succ = (dat1 Vr c).owesAt (none : HIx 1) t.castSucc from rfl]
  rw [show (dat1 Vr c).Φ t.succ = PhiS Vr c (t.val + 1) t.isLt from rfl, PhiS_succ]
  rw [show (dat1 Vr c).Φ t.castSucc = PhiS Vr c t.val (Nat.le_of_lt t.isLt) from rfl]
  rw [leaves_0, leaves_1, leaves_2, leaves_3, leaves_4]
  have hN : t.val < 20 := lt_of_lt_of_eq t.isLt N_1
  by_cases hz : t.val = 0
  · have h19 : t.val ≠ 19 := by omega
    have hc0 : cond0 (grid1.coords t) := (hcond0 t).mpr hz
    have hc1 : cond1 (grid1.coords t) := (hcond1 t).mpr (by omega)
    have hc2 : ¬cond2 (grid1.coords t) := fun h => h19 ((hcond2 t).mp h)
    rw [leaves_5_idle Vr c t h19]
    simp only [fill0_eq Vr c t h19, fill1_eq Vr c t h19]
    rw [PhiS_zero Vr c _ _ hz, Phi0_eq, stN_zero Vr c t hz]
    iintro ⟨⟨⟨%xs, HS⟩, ⟨%xg, HG⟩, ⟨%xt, HT⟩⟩, Ho, ⟨%d0, H0⟩, ⟨%d1, H1⟩, ⟨%d2, H2⟩, ⟨%d3, H3⟩, ⟨%d4, H4⟩, ⟨%d5, H5⟩⟩
    iapply (runA (F := F) c (grid1.coords t) (ms0 t) (hs0 t) (ms1 t) (hs1 t) (ms2 t) (hs2 t) (ms3 t) (hs3 t) (ms4 t) (hs4 t) (ms5 t) (hs5 t)
      scS (Memref.isWhole_whole _) scG (Memref.isWhole_whole _) scT (Memref.isWhole_whole _) hc0 hc1 hc2
      (X0 Vr c t) (X1 Vr c t) (x2 Vr c) (x3 Vr c) (x4 Vr c) ((dat1 Vr c).before 5 t d5) xs xg xt Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HG]; · iexact HG
    isplitl [HT]; · iexact HT
    iintro ⟨H0, H1, H2, H3, H4, H5, HS, HG, HT⟩
    isplitl [HS HG HT]
    · isplitl [HS]; · iexact HS
      isplitl [HG]; · iexact HG
      iexact HT
    isplitl [Ho]; · iexact Ho
    isplitl [H0]; · iexists d0; iexact H0
    isplitl [H1]; · iexists d1; iexact H1
    isplitl [H2]; · iexact H2
    isplitl [H3]; · iexact H3
    isplitl [H4]; · iexact H4
    iexists d5; iexact H5
  · have hc0 : ¬cond0 (grid1.coords t) := fun h => hz ((hcond0 t).mp h)
    by_cases hl : t.val < 19
    · have h19 : t.val ≠ 19 := by omega
      have hc1 : cond1 (grid1.coords t) := (hcond1 t).mpr hl
      have hc2 : ¬cond2 (grid1.coords t) := fun h => h19 ((hcond2 t).mp h)
      rw [leaves_5_idle Vr c t h19]
      simp only [fill0_eq Vr c t h19, fill1_eq Vr c t h19]
      rw [PhiS_pos Vr c _ _ hz, stN_mid Vr c t hz hl]
      iintro ⟨⟨HS, HG, HT⟩, Ho, ⟨%d0, H0⟩, ⟨%d1, H1⟩, ⟨%d2, H2⟩, ⟨%d3, H3⟩, ⟨%d4, H4⟩, ⟨%d5, H5⟩⟩
      iapply (runB (F := F) c (grid1.coords t) (ms0 t) (hs0 t) (ms1 t) (hs1 t) (ms2 t) (hs2 t) (ms3 t) (hs3 t) (ms4 t) (hs4 t) (ms5 t) (hs5 t)
        scS (Memref.isWhole_whole _) scG (Memref.isWhole_whole _) scT (Memref.isWhole_whole _) hc0 hc1 hc2
        (X0 Vr c t) (X1 Vr c t) (x2 Vr c) (x3 Vr c) (x4 Vr c) ((dat1 Vr c).before 5 t d5)
        (stN Vr c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HG]; · iexact HG
      isplitl [HT]; · iexact HT
      iintro ⟨H0, H1, H2, H3, H4, H5, HS, HG, HT⟩
      isplitl [HS HG HT]
      · isplitl [HS]; · iexact HS
        isplitl [HG]; · iexact HG
        iexact HT
      isplitl [Ho]; · iexact Ho
      isplitl [H0]; · iexists d0; iexact H0
      isplitl [H1]; · iexists d1; iexact H1
      isplitl [H2]; · iexact H2
      isplitl [H3]; · iexact H3
      isplitl [H4]; · iexact H4
      iexists d5; iexact H5
    · have h19 : t.val = 19 := by omega
      have hc1 : ¬cond1 (grid1.coords t) := fun h => hl ((hcond1 t).mp h)
      have hc2 : cond2 (grid1.coords t) := (hcond2 t).mpr h19
      rw [leaves_5_last Vr c t h19]
      rw [PhiS_pos Vr c _ _ hz]
      iintro ⟨⟨HS, HG, HT⟩, Ho, ⟨%d0, H0⟩, ⟨%d1, H1⟩, ⟨%d2, H2⟩, ⟨%d3, H3⟩, ⟨%d4, H4⟩, ⟨%d5, H5⟩⟩
      have hcg : stN Vr c t.val t.isLt
          = stepC (grid1.coords t) (win1_0.fill (grid1.coords t) d0 (iblk Vr c 0 t)) (win1_1.fill (grid1.coords t) d1 (iblk Vr c 1 t)) (x3 Vr c)
              (stN Vr c (t.val - 1) (Nat.lt_of_le_of_lt (Nat.sub_le _ _) t.isLt)) := by
        rw [stN_last Vr c t hz hl]
        exact stepC_congr _ (by rw [coords_val]; exact h19) _ _ _ _ (fun r b hr => fill0_last Vr c t h19 _ _ r b hr)
          (fun r hr => fill1_last Vr c t h19 _ _ r hr) _ _
      have hout : outRes Vr c = outC (x4 Vr c) (stN Vr c t.val t.isLt) := by
        unfold outRes; rw [stN_congr Vr c h19 t.isLt (by decide)]
      rw [hout, hcg]
      iapply (runC (F := F) c (grid1.coords t) (ms0 t) (hs0 t) (ms1 t) (hs1 t) (ms2 t) (hs2 t) (ms3 t) (hs3 t) (ms4 t) (hs4 t) (ms5 t) (hs5 t)
        scS (Memref.isWhole_whole _) scG (Memref.isWhole_whole _) scT (Memref.isWhole_whole _) hc0 hc1 hc2
        (win1_0.fill (grid1.coords t) d0 (iblk Vr c 0 t)) (win1_1.fill (grid1.coords t) d1 (iblk Vr c 1 t)) (x2 Vr c) (x3 Vr c) (x4 Vr c) ((dat1 Vr c).before 5 t d5)
        (stN Vr c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HG]; · iexact HG
      isplitl [HT]; · iexact HT
      iintro ⟨H0, H1, H2, H3, H4, H5, HS, HG, HT⟩
      isplitl [HS HG HT]
      · isplitl [HS]; · iexact HS
        isplitl [HG]; · iexact HG
        iexact HT
      isplitl [Ho]; · iexact Ho
      isplitl [H0]; · iexists d0; iexact H0
      isplitl [H1]; · iexists d1; iexact H1
      isplitl [H2]; · iexact H2
      isplitl [H3]; · iexact H3
      isplitl [H4]; · iexact H4
      iexact H5

/-- The body obligation of the one pipeline's proof data, at every point. -/
theorem body_obligation1 (c : Dev nD) : BodyObligationLoose (dat1 Vr c) (defs₀ (F := F)) 𝒱₀ (none : HIx 1) Set.univ := fun t => by
  rw [bigSep_W1, bigSep_W1]
  exact sound_body Vr c t

/-- The body obligation at every point: the point's case is decided by its number, its run applies. -/
theorem body_obligation (c : Dev nD) : BodyObligationLoose (pdats Vr 0 c) (defs₀ (F := F)) 𝒱₀ (none : HIx 1) Set.univ :=
  body_obligation1 Vr c

/-- The invariant's two ends: what the region entry hands it, and what it hands back at the exit. -/
theorem Phi_in (c : Dev nD) : (Pipeline.scopedRest spec1 c : sProp 𝕄) ⊢ (pdats Vr 0 c).Φ 0 :=
  Entails.of_eq rfl
theorem Phi_out (c : Dev nD) : (pdats Vr 0 c).Φ (Fin.last _) ⊢ (Pipeline.scopedRest spec1 c : sProp 𝕄) := by
  rw [show (pdats Vr 0 c).Φ (Fin.last _) = PhiS Vr c (19 + 1) (by decide) from rfl, PhiS_succ, Phi0_eq]
  iintro ⟨HS, HG, HT⟩
  isplitl [HS]; · iexists _; iexact HS
  isplitl [HG]; · iexists _; iexact HG
  iexists _; iexact HT

/-! The arrays at the region's exit: the inputs' as found, the result's array the result word. -/

/-- The result's one block is its whole one-word array. -/
theorem mem_blk5 (t : Fin cfg1.N) (i : S1x1.Idx) : i ∈ ((cfg1.win 5).blk t).view.set := by
  show i ∈ ((View.whole main_v3).slice (win1_5.rect t)).set
  rw [View.set_slice_whole, Rect.mem_set_unit]
  intro a
  match a with
  | ⟨0, _⟩ => show 0 * 1 ≤ (i 0).val ∧ (i 0).val < 0 * 1 + 1; have h : (i 0).val < 1 := (i 0).isLt; omega
  | ⟨1, _⟩ => show 0 * 1 ≤ (i 1).val ∧ (i 1).val < 0 * 1 + 1; have h : (i 1).val < 1 := (i 1).isLt; omega
theorem isIn : ∀ w : Fin 6, w ≠ 5 → (cfg1.win w).isOut = false := by decide
theorem arrAt_in (c : Dev nD) (w : Fin cfg1.W) (hw : w ≠ 5) (n : ℕ) : (pdats Vr 0 c).arrAt w n = Vr c (Pipeline.arrRef spec1 w) :=
  (dat1 Vr c).arrAt_in w (isIn w hw) n
theorem arrAt_out (c : Dev nD) : (pdats Vr 0 c).arrAt 5 cfg1.N = (show Buf (Elt F) ((c.tc : Thread nD τ).loc main_v3) from outRes Vr c) := by
  refine (dat1 Vr c).arrAt_eq_of_cover 5 (show Buf (Elt F) ((c.tc : Thread nD τ).loc main_v3) from outRes Vr c) (fun t _ => ?_) (fun i => ?_)
  · -- the one block is the whole one-word array
    funext j
    show outRes Vr c j = outRes Vr c (((cfg1.win 5).blk t).view.emb j)
    congr 1
    funext a; apply Fin.ext
    match a with
    | ⟨0, _⟩ => show (j 0).val = 0 * 1 + 1 * (j 0).val; omega
    | ⟨1, _⟩ => show (j 1).val = 0 * 1 + 1 * (j 1).val; omega
  · exact ⟨⟨19, by decide⟩, (flush1_5 _).mpr rfl, mem_blk5 _ i⟩

end Cert.Proof.KB

end
-- ==== Proof.KB_Launch.lean ====
/-
  The program's run. The region's entry and exit around the TensorCore's held buffers; @main on the TensorCore: the
  SparseCore call (the three arrays lent to the two SparseCores and taken back, the gathered counts in place), the
  two host operations, the region, the final reshape; the launch element; and what the final memory says.
-/
import proofs.«210372_g71854802862689_cont_9to1_m_893_16_alg».proof.Proof.KB_Host
import proofs.«210372_g71854802862689_cont_9to1_m_893_16_alg».proof.Proof.KB_Dat

noncomputable section

namespace Cert.Proof.KB

open Cert.Kernel Cert.Kernel.Gen Cert.Kernel.Fold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- After the region: its result word in place. -/
def V3 (d : Dev nD) : Valuation τ sig (Elt F) := Function.update (V2 m d) v3' (outRes (Vr m) d)
/-- After the final reshape. -/
def V4 (d : Dev nD) : Valuation τ sig (Elt F) := (opF (F := F)).result (V3 m d)

/-- The TensorCore's debts between the call and the end: nothing owed, its recorded waits below level 8. -/
abbrev owesT (d : Dev nD) : sProp 𝕄 :=
  iprop(∃ W, ⌜(K (F := F)).WBelow (T d) W 8⌝ ∗ owes (T d) (0 : CellTallies nD τ sig (HIx 1)) W)

/-- The six windows' arrays: the transposed logits, the row of counts at its two halves (two windows read it), the labels,
    the gathered counts, the result. -/
theorem arrays_eq (c : Dev nD) (Fa : (w : Fin cfg1.W) → Buf (Elt F) ((cfg1.win w).arr.view.loc (c.tc : Thread nD τ))) :
    ((pdats (Vr m) 0 c).arrays Fa : sProp 𝕄)
      = iprop((ltLoc c ↦{fullShare} Fa 0) ∗ (rowLoc c ↦{(fullShare : PosShare TreeShare).left} Fa 1) ∗ (rowLoc c ↦{(fullShare : PosShare TreeShare).right} Fa 2)
          ∗ (yLoc c ↦{fullShare} Fa 3) ∗ (gLoc c ↦{fullShare} Fa 4) ∗ (outLoc c ↦{fullShare} Fa 5)) := by
  unfold Pipeline.Dat.arrays
  rw [bigSep_W1]
  show iprop(((Memref.whole main_v1 : Memref sig .tc .hbm S100000x1024 .f32).view.loc (c.tc : Thread nD τ) ↦[(Memref.whole main_v1 : Memref sig .tc .hbm S100000x1024 .f32).view.set]{fullShare} Fa 0)
      ∗ ((Memref.whole main_v2 : Memref sig .tc .hbm S1x100000 .f32).view.loc (c.tc : Thread nD τ) ↦[(Memref.whole main_v2 : Memref sig .tc .hbm S1x100000 .f32).view.set]{(fullShare : PosShare TreeShare).left} Fa 1)
      ∗ ((Memref.whole main_v2 : Memref sig .tc .hbm S1x100000 .f32).view.loc (c.tc : Thread nD τ) ↦[(Memref.whole main_v2 : Memref sig .tc .hbm S1x100000 .f32).view.set]{(fullShare : PosShare TreeShare).right} Fa 2)
      ∗ ((Memref.whole main_arg1 : Memref sig .tc .hbm S1024 .i32).view.loc (c.tc : Thread nD τ) ↦[(Memref.whole main_arg1 : Memref sig .tc .hbm S1024 .i32).view.set]{fullShare} Fa 3)
      ∗ ((Memref.whole main_v0 : Memref sig .tc .hbm S1024 .f32).view.loc (c.tc : Thread nD τ) ↦[(Memref.whole main_v0 : Memref sig .tc .hbm S1024 .f32).view.set]{fullShare} Fa 4)
      ∗ ((Memref.whole main_v3 : Memref sig .tc .hbm S1x1 .f32).view.loc (c.tc : Thread nD τ) ↦[(Memref.whole main_v3 : Memref sig .tc .hbm S1x1 .f32).view.set]{fullShare} Fa 5)) = _
  simp only [Memref.view_whole, View.set_whole]

omit [FloatOps F] in
/-- The row of counts held whole is its two halves, one per window that reads it. -/
theorem row_split (c : Dev nD) (f : Buf (Elt F) (rowLoc c)) :
    (rowLoc c ↦{fullShare} f : sProp 𝕄) ⊢ iprop((rowLoc c ↦{(fullShare : PosShare TreeShare).left} f) ∗ (rowLoc c ↦{(fullShare : PosShare TreeShare).right} f)) :=
  (pointsTo_share (PosShare.mem_left_op_right _)).1
omit [FloatOps F] in
theorem row_join (c : Dev nD) (f : Buf (Elt F) (rowLoc c)) :
    iprop((rowLoc c ↦{(fullShare : PosShare TreeShare).left} f) ∗ (rowLoc c ↦{(fullShare : PosShare TreeShare).right} f)) ⊢ (rowLoc c ↦{fullShare} f : sProp 𝕄) :=
  (pointsTo_share (PosShare.mem_left_op_right _)).2

theorem V3_ne (d : Dev nD) (b : DevRef τ sig) (h : b ≠ v3') : V3 m d b = V2 m d b := Function.update_of_ne h _ _
theorem V3_out (d : Dev nD) : V3 m d v3' = outRes (Vr m) d := Function.update_self _ _ _

omit [FloatOps F] in
theorem lev_none_le (g : GSem nD τ sig) : (K (F := F)).lev g none ≤ 8 := Nat.zero_le _

/-- The region, entered from the eight buffers held after the two host operations and left with the result word in place. -/
def reg : Pipeline.RegionSeg (pcfgs (F := F)) adm (pdats (Vr m)) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := body_obligation (Vr m) c
  hwaits := Pipeline.hwaits_of_owed_zero _ _ _ _ (K (F := F)).L (K (F := F)).lev 0 fun _ _ => rfl
  pre c := iprop(held (T c) S8 (V2 m c) ∗ owesT c)
  post c := iprop(held (T c) S8 (V3 m c) ∗ owesT c)
  X _ := iprop(emp)
  Y _ := iprop(emp)
  Z c := iprop((lgLoc c ↦{fullShare} V2 m c a0') ∗ (cLoc c ↦{fullShare} V2 m c a2') ∗ (resLoc c ↦{fullShare} V2 m c v4'))
  hentry c := by
    rw [held_S8, Pipeline.ownSems0_none, arrays_eq]
    iintro ⟨⟨⟨Ha0, Ha1, Ha2, Hv0, Hv1, Hv2, Hv3, Hv4⟩, %W, %hW, HO⟩, -, -⟩
    ihave H2 := (row_split c _) $$ Hv2
    icases H2 with ⟨H2l, H2r⟩
    imodintro
    isplitl [Ha1 Hv0 Hv1 H2l H2r Hv3]
    · isplitl [Hv1]; · iexact Hv1
      isplitl [H2l]; · iexact H2l
      isplitl [H2r]; · iexact H2r
      isplitl [Ha1]; · iexact Ha1
      isplitl [Hv0]; · iexact Hv0
      iexact Hv3
    isplitr
    · unfold Pipeline.prefHeld; rw [Finset.univ_eq_empty, BI.bigSep_empty]; iempintro
    isplitl [HO]
    · iexists W; isplitr
      · ipureintro; exact fun p hp => Or.inl (hW p hp)
      · iexact HO
    isplitr; · iempintro
    isplitl [Ha0]; · iexact Ha0
    isplitl [Ha2]; · iexact Ha2
    iexact Hv4
  hin c := by
    iintro ⟨-, -, H⟩
    iapply (Phi_in (Vr m) c); iexact H
  hout c := by
    rw [Pipeline.ownSems0_none]
    iintro H
    isplitr; · iempintro
    isplitr; · iempintro
    iapply (Phi_out (Vr m) c); iexact H
  hexit c := by
    rw [arrays_eq, held_S8, arrAt_in (Vr m) c 0 (by decide), arrAt_in (Vr m) c 1 (by decide), arrAt_in (Vr m) c 2 (by decide),
      arrAt_in (Vr m) c 3 (by decide), arrAt_in (Vr m) c 4 (by decide), arrAt_out (Vr m) c,
      V3_ne m c a0' (by decide), V3_ne m c a1' (by decide), V3_ne m c a2' (by decide), V3_ne m c v0' (by decide), V3_ne m c v1' (by decide),
      V3_ne m c v2' (by decide), V3_ne m c v4' (by decide), V3_out]
    iintro ⟨⟨Hv1, H2l, H2r, Ha1, Hv0, Hv3⟩, ⟨%W, %hW, HO⟩, -, ⟨Ha0, Ha2, Hv4⟩⟩
    ihave Hv2 := (row_join c _) $$ [H2l H2r]
    · isplitl [H2l]; · iexact H2l
      iexact H2r
    imodintro
    isplitr [HO]
    · isplitl [Ha0]; · iexact Ha0
      isplitl [Ha1]; · iexact Ha1
      isplitl [Ha2]; · iexact Ha2
      isplitl [Hv0]; · iexact Hv0
      isplitl [Hv1]; · iexact Hv1
      isplitl [Hv2]; · iexact Hv2
      isplitl [Hv3]; · iexact Hv3
      iexact Hv4
    · iexists W; isplitr
      · ipureintro
        intro p hp
        rcases hW hp with h | ⟨w, s, rfl⟩
        · exact h
        · exact lev_none_le _
      · iexact HO

end Cert.Proof.KB

end
-- ==== Proof.KB_Tile.lean ====
/-
  One tile's task: copy its 32 labels into its index scratch, gather the 32 counts those labels name out of the count
  table into its value scratch, and copy them to its 32 entries of the gathered-count array; each copy is waited for
  before the next begins, so nothing is read or written while a copy is pending. Every label names a class (the
  precondition), so every gathered row exists.
-/
import proofs.«210372_g71854802862689_cont_9to1_m_893_16_alg».proof.Proof.KB_Setup
import Idealize.ShloMosaic.Lib.SparseCore.Stream
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The tile's place, its arrays and its scratch -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

/-- The count table, the labels, the gathered counts, as a tile names them; its index scratch and its value scratch. -/
abbrev cW : Memref sig .scVector .hbm S100000 .f32 := Memref.whole main_arg2_scv
abbrev yW : Memref sig .scVector .hbm S1024 .i32 := Memref.whole main_arg1_scv
abbrev gW : Memref sig .scVector .hbm S1024 .f32 := Memref.whole main_v0_scv
abbrev sI : Memref sig .scVector .vmem S32 .i32 := Memref.whole cc0_scratch0
abbrev sV : Memref sig .scVector .vmem S32 .f32 := Memref.whole cc0_scratch1

/-- The tile's 32 examples, as the program slices them out of the labels and out of the gathered counts. -/
abbrev taskRect (L : grid0.Coords) : Rect S1024 := Rect.unit (s := S1024) (k0_off1 L) S32.size (k0_off1_inb L)
abbrev ySl (L : grid0.Coords) : Memref sig .scVector .hbm S32 .i32 := (yW : Memref sig .scVector .hbm S1024 .i32).slice (taskRect L) (fun _ => rfl)
abbrev gSl (L : grid0.Coords) : Memref sig .scVector .hbm S32 .f32 := (gW : Memref sig .scVector .hbm S1024 .f32).slice (taskRect L) (fun _ => rfl)

omit [FloatOps F] in
theorem set_taskRect : (taskRect L).set = taskSet (cL L) (sL L) := by
  ext j
  rw [Rect.mem_set_unit]
  unfold taskSet
  simp only [Finset.mem_filter, Finset.mem_univ, true_and]
  rw [k0_off1_eq]
  constructor
  · intro h
    have h0 := h 0
    simp only [Matrix.cons_val_zero, Matrix.cons_val_fin_one] at h0
    exact h0
  · intro h a
    obtain rfl : a = 0 := Subsingleton.elim _ _
    exact h

omit [FloatOps F] in
theorem set_gSl : (gSl L).view.set = taskSet (cL L) (sL L) := by
  show ((View.whole (main_v0_scv : Ref sig .scVector)).slice (taskRect L)).set = _
  rw [View.set_slice_whole]; exact set_taskRect L

/-! ## The tile's own semaphores and scratch buffers -/

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the tile's memrefs address them -/

omit [FloatOps F] in
theorem pts_c (q : PosShare TreeShare) (f : Buf (Elt F) (cLoc d)) :
    ((cW : Memref sig .scVector .hbm S100000 .f32).view.loc (V d (cV L) (jV L)) ↦{q} f : sProp 𝕄) = cLoc d ↦{q} f := by
  simp only [Memref.view_whole, View.set_whole]
omit [FloatOps F] in
theorem pts_y (q : PosShare TreeShare) (f : Buf (Elt F) (yLoc d)) :
    ((yW : Memref sig .scVector .hbm S1024 .i32).view.loc (V d (cV L) (jV L)) ↦{q} f : sProp 𝕄) = yLoc d ↦{q} f := by
  simp only [Memref.view_whole, View.set_whole]
omit [FloatOps F] in
theorem pts_g (f : Buf (Elt F) (gLoc d)) :
    ((gSl L).view.loc (V d (cV L) (jV L)) ↦[(gSl L).view.set]{fullShare} f : sProp 𝕄) = gLoc d ↦[taskSet (cL L) (sL L)]{fullShare} f := by
  rw [set_gSl]
omit [FloatOps F] in
theorem pts_sI (f : Buf (Elt F) ((V d (cV L) (jV L)).loc cc0_scratch0)) :
    ((sI : Memref sig .scVector .vmem S32 .i32).view.loc (V d (cV L) (jV L)) ↦{fullShare} f : sProp 𝕄) = (V d (cV L) (jV L)).loc cc0_scratch0 ↦{fullShare} f := rfl
omit [FloatOps F] in
theorem pts_sV (f : Buf (Elt F) ((V d (cV L) (jV L)).loc cc0_scratch1)) :
    ((sV : Memref sig .scVector .vmem S32 .f32).view.loc (V d (cV L) (jV L)) ↦{fullShare} f : sProp 𝕄) = (V d (cV L) (jV L)).loc cc0_scratch1 ↦{fullShare} f := rfl

/-! ## What the three copies leave in the tile's entries -/

/-- The count table as the gather slices it: all of it. -/
abbrev cSl : Memref sig .scVector .hbm S100000 .f32 :=
  (cW : Memref sig .scVector .hbm S100000 .f32).slice (Rect.unit (s := S100000) ![0] S100000.size inb_S100000_S100000_0) (fun _ => rfl)

omit [FloatOps F] in
/-- The slice of the whole count table places every class at itself. -/
theorem cSl_emb_val (i : S100000.Idx) (a : Fin 1) : (((cSl).view.emb i) a : ℕ) = (i a : ℕ) := by
  obtain rfl : a = 0 := Subsingleton.elim _ _
  show 0 + 1 * (i 0 : ℕ) = (i 0 : ℕ)
  omega

omit [FloatOps F] in
/-- A rank-1 index is the row-major place of its one coordinate. -/
theorem rowMajor_symm_S32 (x : S32.Idx) (hn : S32.numel = S32.size gathers_S100000_S32.axis') :
    S32.rowMajor.symm ((x gathers_S100000_S32.axis').cast hn.symm) = x := by
  rw [Equiv.symm_apply_eq]
  apply Fin.ext
  rw [Shape.rowMajor_val_one]
  rfl

omit [FloatOps F] in
/-- Entry x of the tile's slice of the gathered counts ends at the count of the class that entry x of its slice of the
    labels names: the labels land in the index scratch, the gather reads row (label x) of the table into entry x of
    the value scratch, and the value scratch is copied out entry by entry. -/
theorem gathered_run (fi : Buf (Elt F) ((V d (cV L) (jV L)).loc cc0_scratch0)) (fv : Buf (Elt F) ((V d (cV L) (jV L)).loc cc0_scratch1))
    (hn : S32.numel = S32.size gathers_S100000_S32.axis')
    (hin : ∀ x, ((sI : Memref sig .scVector .vmem S32 .i32).view.read (Elt F)
        (View.write (Elt F) (sI : Memref sig .scVector .vmem S32 .i32).view fi (ReadAs.same.apply ((ySl L).view.read (Elt F) (m (yLoc d)))) Finset.univ) x).toNat
      < S100000.size gathers_S100000_S32.axis) :
    ∀ j ∈ taskSet (cL L) (sL L), Gathered m d
      ((gSl L).view.writes (Elt F) (m (gLoc d)) [⟨Rect.whole S32, ReadAs.same.apply ((sV : Memref sig .scVector .vmem S32 .f32).view.read (Elt F)
        ((sV : Memref sig .scVector .vmem S32 .f32).view.writes (Elt F) fv [⟨Rect.whole S32,
          SparseCore.gatherPayload gathers_S100000_S32 ((cSl).view.read (Elt F) (m (cLoc d)))
            (SparseCore.rows ((sI : Memref sig .scVector .vmem S32 .i32).view.read (Elt F)
              (View.write (Elt F) (sI : Memref sig .scVector .vmem S32 .i32).view fi (ReadAs.same.apply ((ySl L).view.read (Elt F) (m (yLoc d)))) Finset.univ)) hn hin)⟩]))⟩]) j := by
  intro j hj hlt
  rw [← set_gSl] at hj
  obtain ⟨x, -, rfl⟩ := Finset.mem_map.mp hj
  -- what the copy-out leaves at entry x is what the value scratch held there
  have h2 := View.read_writes_cons_emb (gSl L).view (m (gLoc d)) (Rect.whole S32)
    (ReadAs.same.apply ((sV : Memref sig .scVector .vmem S32 .f32).view.read (Elt F)
        ((sV : Memref sig .scVector .vmem S32 .f32).view.writes (Elt F) fv [⟨Rect.whole S32,
          SparseCore.gatherPayload gathers_S100000_S32 ((cSl).view.read (Elt F) (m (cLoc d)))
            (SparseCore.rows ((sI : Memref sig .scVector .vmem S32 .i32).view.read (Elt F)
              (View.write (Elt F) (sI : Memref sig .scVector .vmem S32 .i32).view fi (ReadAs.same.apply ((ySl L).view.read (Elt F) (m (yLoc d)))) Finset.univ)) hn hin)⟩]))) [] x
  rw [Rect.emb_whole_apply, (View.read_apply _ _).trans (cast_eq _ _)] at h2
  refine h2.trans ?_
  -- which is what the gather wrote there
  have h1 := View.read_writes_cons_emb (sV : Memref sig .scVector .vmem S32 .f32).view fv (Rect.whole S32)
    (SparseCore.gatherPayload gathers_S100000_S32 ((cSl).view.read (Elt F) (m (cLoc d)))
            (SparseCore.rows ((sI : Memref sig .scVector .vmem S32 .i32).view.read (Elt F)
              (View.write (Elt F) (sI : Memref sig .scVector .vmem S32 .i32).view fi (ReadAs.same.apply ((ySl L).view.read (Elt F) (m (yLoc d)))) Finset.univ)) hn hin)) [] x
  rw [Rect.emb_whole_apply] at h1
  refine Eq.trans h1 ?_
  -- the table's row at the label the index scratch held there
  unfold SparseCore.gatherPayload
  rw [(View.read_apply _ _).trans (cast_eq _ _)]
  refine congrArg (m (cLoc d)) ?_
  funext a
  obtain rfl : a = gathers_S100000_S32.axis := @Subsingleton.elim (Fin 1) _ a gathers_S100000_S32.axis
  apply Fin.ext
  rw [cSl_emb_val, Shape.Gathers.idx_axis]
  show ((sI : Memref sig .scVector .vmem S32 .i32).view.read (Elt F)
      (View.write (Elt F) (sI : Memref sig .scVector .vmem S32 .i32).view fi (ReadAs.same.apply ((ySl L).view.read (Elt F) (m (yLoc d)))) Finset.univ)
      (S32.rowMajor.symm ((x gathers_S100000_S32.axis').cast hn.symm))).toNat = (m (yLoc d) ((gSl L).view.emb x)).toNat
  rw [rowMajor_symm_S32 x hn, View.read_write_univ]
  show ((ySl L).view.read (Elt F) (m (yLoc d)) x).toNat = _
  rw [(View.read_apply _ _).trans (cast_eq _ _)]
  rfl

/-! ## The task -/

omit [FloatOps F] in
/-- Once the tile's labels have landed in its index scratch, every word there names a class. -/
theorem idx_inb (hpre : PreIdx m) (g : Buf (Elt F) ((V d (cV L) (jV L)).loc cc0_scratch0)) :
    ∀ x, ((sI : Memref sig .scVector .vmem S32 .i32).view.read (Elt F)
        (View.write (Elt F) (sI : Memref sig .scVector .vmem S32 .i32).view g (ReadAs.same.apply ((ySl L).view.read (Elt F) (m (yLoc d)))) Finset.univ) x).toNat
      < S100000.size gathers_S100000_S32.axis := by
  intro x
  rw [View.read_write_univ]
  show ((ySl L).view.read (Elt F) (m (yLoc d)) x).toNat < 100000
  rw [show (ySl L).view.read (Elt F) (m (yLoc d)) x = m (yLoc d) ((ySl L).view.emb x) from (View.read_apply _ _).trans (cast_eq _ _)]
  exact hpre d _

theorem tile_body (hpre : PreIdx m) (O : CellTallies nD τ sig (HIx 1)) (W : Waits sig (HIx 1)) (hO : ∀ g, O g none = 0) :
    iprop(levAts (K (F := F)).L (K (F := F)).lev ∗ emp
        ∗ (cPts m d (qTile (cL L) (sL L)) ∗ yPts m d (qTile (cL L) (sL L)) ∗ gPts0 m d (taskSet (cL L) (sL L)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L cW (Memref.isWhole_whole _) yW (Memref.isWhole_whole _) gW (Memref.isWhole_whole _)
            sI (Memref.isWhole_whole _) sV (Memref.isWhole_whole _) cc0_scratch2 cc0_scoped0 cc0_scoped1)
          fun _ => iprop((cPts m d (qTile (cL L) (sL L)) ∗ yPts m d (qTile (cL L) (sL L)) ∗ gPts1 m d (taskSet (cL L) (sL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V facts d (cV L) (jV L), SparseCore.Cfg.scopedSems0_V (Val := Elt F) d (cV L) (jV L), ownSems0_V, ownBufs_V]
  iintro ⟨#Hlv, -, ⟨Hc, Hy, Hg⟩, ⟨⟨%fi, Hi⟩, ⟨%fv, Hv⟩, Hbufs⟩, ⟨HsemG, HsemA, HsemB, Hsems⟩, HO⟩
  ihave Hmw := ((K (F := F)).mayWaits_none (thr := V d (cV L) (jV L)) hO) $$ Hlv
  ihave Hc' := (Entails.of_eq (pts_c (F := F) d L _ _).symm) $$ Hc
  ihave Hy' := (Entails.of_eq (pts_y (F := F) d L _ _).symm) $$ Hy
  ihave Hg' := (Entails.of_eq (pts_g (F := F) d L _).symm) $$ Hg
  ihave Hi' := (Entails.of_eq (pts_sI (F := F) d L _).symm) $$ Hi
  ihave Hv' := (Entails.of_eq (pts_sV (F := F) d L _).symm) $$ Hv
  have hin := idx_inb m d L hpre
  sl_exec
  sl_step
  ihave Hc := (Entails.of_eq (pts_c (F := F) d L _ _)) $$ Hc'
  ihave Hy := (Entails.of_eq (pts_y (F := F) d L _ _)) $$ Hy'
  ihave Hg := (Entails.of_eq (pts_g (F := F) d L _)) $$ Hg'
  isplitl [Hc Hy Hg]
  · isplitl [Hc]; · iexact Hc
    isplitl [Hy]; · iexact Hy
    iexists _; isplitr
    swap; · iexact Hg
    ipureintro
    exact gathered_run m d L fi fv _ (hin fi)
  isplitl [Hi' Hv' Hbufs]
  · isplitl [Hi']; · iexists _; iexact Hi'
    isplitl [Hv']; · iexists _; iexact Hv'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          cW (Memref.isWhole_whole _) yW (Memref.isWhole_whole _) gW (Memref.isWhole_whole _)
          sI (Memref.isWhole_whole _) sV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the one vector-subcore call: every tile of its grid runs its task from what
    the go signal hands it to what its taskDone hands back. -/
theorem tileObl (hpre : PreIdx m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

end Cert.Proof.KB

end
-- ==== Proof.KB_Main.lean ====
/-
  @main on the TensorCore and the launch element. The call lends the counts and the labels to the two SparseCores
  and hands them the gathered-count array; what comes back has every entry gathered, which for labels in range pins
  the array's contents. The transposition and the reshape run over the eight held buffers; the region is entered
  through its record; the final reshape writes the program's result.
-/
import proofs.«210372_g71854802862689_cont_9to1_m_893_16_alg».proof.Proof.KB_Launch
import proofs.«210372_g71854802862689_cont_9to1_m_893_16_alg».proof.Proof.KB_Tile

noncomputable section

namespace Cert.Proof.KB

open Cert.Kernel Cert.Kernel.Gen Cert.Kernel.Fold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the buffers no operation writes -/

theorem V1_of_ne (d : Dev nD) (b : DevRef τ sig) (h : b ≠ v0') : V1 m d b = V0 m d b := Function.update_of_ne h _ _
theorem V1_at_g (d : Dev nD) : V1 m d v0' = gath m d := Function.update_self _ _ _
theorem V2_of_ne (d : Dev nD) (b : DevRef τ sig) (h1 : b ≠ v1') (h2 : b ≠ v2') : V2 m d b = V1 m d b := by
  unfold V2
  rw [(opR (F := F)).result_of_not_mem _ (b := b) (show b ∉ ({v2'} : Finset (DevRef τ sig)) from by simpa using h2),
    (opT (F := F)).result_of_not_mem _ (b := b) (show b ∉ ({v1'} : Finset (DevRef τ sig)) from by simpa using h1)]
theorem V4_of_ne (d : Dev nD) (b : DevRef τ sig) (h : b ≠ v4') : V4 m d b = V3 m d b := by
  unfold V4
  rw [(opF (F := F)).result_of_not_mem _ (b := b) (show b ∉ ({v4'} : Finset (DevRef τ sig)) from by simpa using h)]

theorem unscoped_held (d : Dev nD) : (unscopedBufs d (fun b => m ((SparseCore.T d).loc b)) : sProp 𝕄) = held (T d) S8 (V0 m d) := by
  rw [unscopedBufs_eq, held_S8]; rfl

/-! ## The launch element -/

/-- The region's one pipeline, as the region's record spells it; its staging cells are pairwise distinct. -/
abbrev cfgsP : Fin 1 → Pipeline.Cfg sig Λ₀ := Pipeline.pin (pcfgs (F := F)) adm
theorem cellOf_injP : Function.Injective (Pipeline.cellOf (nD := nD) (τ := τ) (cfgsP (F := F))) :=
  Pipeline.cellOf_injective_of_table (cfgsP (F := F)) semTab (fun | 0 => rfl | ⟨_ + 1, h⟩ => absurd h (Nat.not_lt.2 (Nat.le_add_left _ _))) semsDistinct semsDisjoint

def u₀ : UU := (initOf (K (F := F)).hsCells (K (F := F)).hsToks, (initOf (Pipeline.cells (cfgsP (F := F)) cellOf_injP) (Pipeline.launchToks (cfgsP (F := F)) cellOf_injP), 1))

/-- What @main's proof starts from on device d beside the launch's deal: the region's staging cells' ghost state and duty tokens. -/
abbrev G (d : Dev nD) : sProp 𝕄 := iprop(Pipeline.cellsGhost (cfgsP (F := F)) EP 0 d ∗ Pipeline.toksInit (cfgsP (F := F)) EP 0 d)

omit [FloatOps F] in
theorem bigSep_emp' {I : Type} (s : Finset I) : (bigSep s fun _ => iprop(emp)) = (iprop(emp) : sProp 𝕄) := bigSep_emp_const s

omit [FloatOps F] in
/-- The region's component of the launch element, out of the right half of the pair. -/
theorem own_EP (a : UP) (b : Counters) :
    (BI.own ((embR : Emb (UP × Counters) 𝕄) (a, b)) : sProp 𝕄) ⊢ BI.own ((EP (F := F)) a) :=
  (own_pair_emb (embR : Emb (UP × Counters) 𝕄) a b).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_EP (F := F) _ _) $$ HR
  imod (Pipeline.fund_ghost (cfgsP (F := F)) (EP (F := F)) cellOf_injP) $$ HP with ⟨Hg, Ht⟩
  imodintro
  isplitl [HH]; · iexact HH
  isplitl [Hg Ht]
  · rw [bigSep_sep']
    isplitl [Hg]
    · iapply (Entails.of_eq (bigSep_congr fun c _ => (BI.bigSep_univ_of_subsingleton (0 : Fin 1) (Φ := fun p => Pipeline.cellsGhost (cfgsP (F := F)) (EP (F := F)) p c))))
      iexact Hg
    · iapply (Entails.of_eq (bigSep_congr fun c _ => (BI.bigSep_univ_of_subsingleton (0 : Fin 1) (Φ := fun p => (Pipeline.toksInit (cfgsP (F := F)) (EP (F := F)) p c : sProp 𝕄)))))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's handshake state after the one call -/

/-- The part of the handshake state that rides along to the end. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(owesT d ∗ tcTail d) := by
  unfold SparseCore.Cfg.tcSt tcTail
  rw [(K (F := F)).Otc_end d (le_refl 1)]

theorem tcSt_one' (d : Dev nD) : ((K (F := F)).tcSt EH d ((0 : Fin 1).val + 1) : sProp 𝕄) = iprop(owesT d ∗ tcTail d) := tcSt_one d

/-! ## The region's step -/

/-- What the region's rule asks, from what @main holds before it. -/
theorem region_pre (d : Dev nD) (Φ : PUnit.{1} → sProp 𝕄) :
    iprop(boundary (SparseCore.T d) ∗ held (T d) S8 (V2 m d) ∗ owesT d ∗ levAts (K (F := F)).L (K (F := F)).lev ∗ G (F := F) d
        ∗ (iprop(boundary (SparseCore.T d) ∗ held (T d) S8 (V3 m d) ∗ owesT d) -∗ Φ ⟨⟩))
      ⊢ iprop((iprop(boundary (SparseCore.T d) ∗ (iprop(held (T d) S8 (V3 m d) ∗ owesT d) : sProp 𝕄)) -∗ wp frame (wpE (D (F := F)) 𝒱 (SparseCore.T d) none) Set.univ (Prog.ret PUnit.unit) Φ)
          ∗ boundary (SparseCore.T d) ∗ (iprop(held (T d) S8 (V2 m d) ∗ owesT d) : sProp 𝕄) ∗ levAts (K (F := F)).L (K (F := F)).lev
          ∗ Pipeline.cellsGhost (cfgsP (F := F)) EP 0 d ∗ Pipeline.toksInit (cfgsP (F := F)) EP 0 d) := by
  iintro ⟨Hb, Hh, HO, #Hlv, ⟨Hg, Ht⟩, Hk⟩
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    iexact HO
  isplitr; · iexact Hlv
  isplitl [Hg]; · iexact Hg
  iexact Ht

set_option maxHeartbeats 400000 in
/-- The region's step in @main: entered from the eight buffers held after the two host operations, left with the result word in place. -/
theorem region_step [∀ e, Nonempty (Elt F e)] (d : Dev nD) (Φ : PUnit.{1} → sProp 𝕄) :
    iprop(boundary (SparseCore.T d) ∗ held (T d) S8 (V2 m d) ∗ owesT d ∗ levAts (K (F := F)).L (K (F := F)).lev ∗ G (F := F) d
        ∗ (iprop(boundary (SparseCore.T d) ∗ held (T d) S8 (V3 m d) ∗ owesT d) -∗ Φ ⟨⟩))
      ⊢ wp frame (wpE ((K (F := F)).defs (D (F := F))) 𝒱 (SparseCore.T d) none) Set.univ
          (Prog.lift (.customCall (SparseCore.inner (Pipeline.entry 0)) ())) Φ := by
  rw [show (Prog.lift (.customCall (SparseCore.inner (Pipeline.entry 0)) ()) : Prog (TpuEff nD τ sig (Elt F) (SparseCore.Sig (ΛP (F := F)) 1) .tc) PUnit)
      = SparseCore.liftProg (Q := 1) (Prog.lift (.customCall (Pipeline.entry 0) ())) from rfl]
  refine BI.Entails.trans ?_ ((K (F := F)).wp_liftProg (D (F := F)) 𝒱 (SparseCore.T d) Set.univ none _ Φ)
  refine BI.Entails.trans ?_ (Pipeline.RegionSeg.wp (pcfgs (F := F)) adm (pdats (Vr m)) (none : HIx 1) cellOf_injP EP defs₀ 𝒱₀
    (K (F := F)).L (K (F := F)).lev (p := 0) (reg m) d none (fun u hu => absurd hu (Option.not_mem_none u)) (α := PUnit.{1}) (fun _ => .ret ⟨⟩) Φ)
  exact region_pre m d Φ

end Cert.Proof.KB

end
-- ==== Proof.KB_Run.lean ====
/-
  @main on the TensorCore, what the final memory says, and the program's run: the call, the two host operations, the
  region, the final reshape, each handing the next the eight buffers it needs.
-/
import proofs.«210372_g71854802862689_cont_9to1_m_893_16_alg».proof.Proof.KB_Main

noncomputable section

namespace Cert.Proof.KB

open Cert.Kernel Cert.Kernel.Gen Cert.Kernel.Fold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main on the TensorCore -/

/-- What @main leaves the claim: the three arguments as launched, the result. -/
abbrev FIN (d : Dev nD) : sProp 𝕄 :=
  iprop((lgLoc d ↦{fullShare} m (lgLoc d)) ∗ (yLoc d ↦{fullShare} m (yLoc d)) ∗ (cLoc d ↦{fullShare} m (cLoc d)) ∗ (resLoc d ↦{fullShare} V4 m d v4'))

theorem hmain [∀ e, Nonempty (Elt F e)] (hpre : PreIdx m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave #Hlv := ((K (F := F)).ctx_levAts (EH := EH) (P := P m) κ) $$ Hctx
  ihave Hh := (Entails.of_eq (held_S8 (F := F) d _)) $$ Hheld
  icases Hh with ⟨Ha0, Ha1, Ha2, Hv0, Hv1, Hv2, Hv3, Hv4⟩
  -- the call: the counts, the labels and the gathered-count array to the two SparseCores and back
  iapply ((K (F := F)).wp_run (D (F := F)) 𝒱 (EH := EH) (P := P m) κ d 0) $$ [Hst Ha1 Ha2 Hv0 Hb Ha0 Hv1 Hv2 Hv3 Hv4 HG]
  isplitr; · iexact Hctx
  isplitl [Hst]; · iexact Hst
  isplitl [Ha1 Ha2 Hv0]
  · iapply (st_of_whole m d)
    isplitl [Ha2]; · iexact Ha2
    isplitl [Ha1]; · iexact Ha1
    iexact Hv0
  iintro ⟨Hst, Hdn⟩
  ihave Hdn' := (whole_of_dn m d) $$ Hdn
  icases Hdn' with ⟨Ha2, Ha1, %f, %hf, Hv0⟩
  obtain rfl := gath_of_gathered m hpre d f hf
  ihave Hst' := (Entails.of_eq (tcSt_one' (F := F) d)) $$ Hst
  icases Hst' with ⟨HO, Htail⟩
  -- the transposition
  iapply (wp_hlo_within 𝒱 (SparseCore.T d) none Set.univ (op := opT) (S := S8) hT (V := V1 m d)) $$ [Hb Ha0 Ha1 Ha2 Hv0 Hv1 Hv2 Hv3 Hv4]
  · isplitl [Hb]; · iexact Hb
    rw [held_S8, V1_of_ne m d a0' (by decide), V1_of_ne m d a1' (by decide), V1_of_ne m d a2' (by decide), V1_at_g, V1_of_ne m d v1' (by decide),
      V1_of_ne m d v2' (by decide), V1_of_ne m d v3' (by decide), V1_of_ne m d v4' (by decide)]
    isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  -- the reshape of the counts to a row
  iapply (wp_hlo_within 𝒱 (SparseCore.T d) none Set.univ (op := opR) (S := S8) hR (V := (opT (F := F)).result (V1 m d))) $$ [Hb Hheld]
  · isplitl [Hb]; · iexact Hb
    iexact Hheld
  iintro ⟨Hb, Hheld⟩
  rw [wp_ret]; imodintro
  -- the region
  iapply (region_step m d) $$ [Hb Hheld HO HG Htail]
  isplitl [Hb]; · iexact Hb
  isplitl [Hheld]; · iexact Hheld
  isplitl [HO]; · iexact HO
  isplitr; · iexact Hlv
  isplitl [HG]; · iexact HG
  iintro ⟨Hb, Hheld, HO⟩
  -- the final reshape
  iapply (wp_hlo_within 𝒱 (SparseCore.T d) none Set.univ (op := opF) (S := S8) hFo (V := V3 m d)) $$ [Hb Hheld]
  · isplitl [Hb]; · iexact Hb
    iexact Hheld
  iintro ⟨Hb, Hheld⟩
  ihave Hh := (Entails.of_eq (held_S8 (F := F) d _)) $$ Hheld
  icases Hh with ⟨Ha0, Ha1, Ha2, -, -, -, -, Hv4⟩
  rw [wp_ret]; imodintro; imodintro
  isplitl [HO Htail]
  · rw [tcSt_one]
    isplitl [HO]; · iexact HO
    iexact Htail
  have e0 : V4 m d a0' = m (lgLoc d) := by
    rw [V4_of_ne m d a0' (by decide), V3_ne m d a0' (by decide), V2_of_ne m d a0' (by decide) (by decide), V1_of_ne m d a0' (by decide)]; rfl
  have e1 : V4 m d a1' = m (yLoc d) := by
    rw [V4_of_ne m d a1' (by decide), V3_ne m d a1' (by decide), V2_of_ne m d a1' (by decide) (by decide), V1_of_ne m d a1' (by decide)]; rfl
  have e2 : V4 m d a2' = m (cLoc d) := by
    rw [V4_of_ne m d a2' (by decide), V3_ne m d a2' (by decide), V2_of_ne m d a2' (by decide) (by decide), V1_of_ne m d a2' (by decide)]; rfl
  have e0' : (opF (F := F)).result (V3 m d) a0' = m (lgLoc d) := e0
  have e1' : (opF (F := F)).result (V3 m d) a1' = m (yLoc d) := e1
  have e2' : (opF (F := F)).result (V3 m d) a2' = m (cLoc d) := e2
  rw [e0', e1', e2']
  isplitl [Ha0]; · iexact Ha0
  isplitl [Ha1]; · iexact Ha1
  isplitl [Ha2]; · iexact Ha2
  iexact Hv4

/-! ## What the final memory says, and the run -/

def fq (d : Dev nD) (s' : Phys nD τ sig (Elt F)) : Prop :=
  s'.mem.mem (lgLoc d) = m (lgLoc d) ∧ s'.mem.mem (yLoc d) = m (yLoc d) ∧ s'.mem.mem (cLoc d) = m (cLoc d) ∧ s'.mem.mem (resLoc d) = V4 m d v4'

theorem hfin (d : Dev nD) (s' : Phys nD τ sig (Elt F)) : iprop(FIN m d ∗ SI s') ⊢ (⌜fq m d s'⌝ : sProp 𝕄) := by
  iintro ⟨⟨H0, H1, H2, H4⟩, HSI⟩
  icombine HSI H0 gives %h0
  icombine HSI H1 gives %h1
  icombine HSI H2 gives %h2
  icombine HSI H4 gives %h4
  ipureintro
  exact ⟨Buf.eq_of_forall_mem_univ h0, Buf.eq_of_forall_mem_univ h1, Buf.eq_of_forall_mem_univ h2, Buf.eq_of_forall_mem_univ h4⟩

/-- The run's post: on every device the result buffer at the final reshape of the region's result word, the three
    arguments as launched. -/
def QC : PUnit × MemSt nD τ sig (Elt F) → Prop := fun r => ∀ c : Dev nD,
  r.2.mem (resLoc c) = V4 m c v4' ∧ r.2.mem (lgLoc c) = m (lgLoc c) ∧ r.2.mem (yLoc c) = m (yLoc c) ∧ r.2.mem (cLoc c) = m (cLoc c)

theorem run_main [∀ e, Nonempty (Elt F e)] (hpre : PreIdx m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ hpre) (fq m) (hfin m) (QC m)
    (fun s' h c => ⟨(h c).2.2.2, (h c).1, (h c).2.1, (h c).2.2.1⟩)

end Cert.Proof.KB

end
-- ==== Proof.lean ====
/-
  The certificate's five claims.

  Both programs compute, from logits l, labels y and class counts, the mean over the 1024 examples of
  log (sum over classes c of w c * exp (l b c)) - (l b (y b) + log (w (y b))), with w c = count c / max (sum counts) eps + eps:
  the kernel accumulates the weighted sums of exponentials block by block over twenty grid points on the TensorCore,
  after its SparseCore tiles have gathered the counts at the labels; the reference forms the shifted log-softmax of
  l b c + log (w c) and reads the label's entry. The precondition makes every label a class, every logit and count a
  real number and every weight positive, which is where the two agree (exp (x + log w) = w * exp x needs w > 0).
  The frames: each program terminates on every fair schedule, faults nowhere, and leaves the three arguments as it
  found them; the idealization rewrote nothing, so it preserves the kernel trivially.
-/
import proofs.«210372_g71854802862689_cont_9to1_m_893_16_alg».proof.Defs
import proofs.«210372_g71854802862689_cont_9to1_m_893_16_alg».proof.Proof.Gen.Kernel
import proofs.«210372_g71854802862689_cont_9to1_m_893_16_alg».proof.Proof.Gen.KernelIdeal
import proofs.«210372_g71854802862689_cont_9to1_m_893_16_alg».proof.Proof.Gen.ReferenceIdeal
import proofs.«210372_g71854802862689_cont_9to1_m_893_16_alg».proof.Proof.Gen.Pre_input_domain
import proofs.«210372_g71854802862689_cont_9to1_m_893_16_alg».proof.Proof.PreFacts
import proofs.«210372_g71854802862689_cont_9to1_m_893_16_alg».proof.Proof.RefRun
import proofs.«210372_g71854802862689_cont_9to1_m_893_16_alg».proof.Proof.RefValue
import proofs.«210372_g71854802862689_cont_9to1_m_893_16_alg».proof.Proof.KI_Run
import proofs.«210372_g71854802862689_cont_9to1_m_893_16_alg».proof.Proof.KI_Bridge
import proofs.«210372_g71854802862689_cont_9to1_m_893_16_alg».proof.Proof.KB_Run
import Idealize.ShloMosaic.Adequacy
import Idealize.ShloMosaic.Init

noncomputable section

namespace Cert.Proof

open Idealize.ShloMosaic Idealize.SL.Sem

/-- The word-level kernel's frame: its run, the result forgotten. -/
theorem frame_k : Cert.frame_Kernel (hKernel := Cert.Kernel.Gen.facts) (hPre_input_domain := Cert.Pre_input_domain.Gen.facts) := fun m g hpre =>
  (θ_run (Cert.Kernel.defs (F := Bits)) _ _).mono (fun _ h c => ⟨(h c).2.1, (h c).2.2.1, (h c).2.2.2⟩)
    (Cert.Proof.KB.run_main (F := Bits) m g (fun d j => Cert.PreFacts.labels_lt _ _ _ (hpre d) j))

/-- The idealized kernel's frame. -/
theorem frame_ki : Cert.frame_KernelIdeal (hKernelIdeal := Cert.KernelIdeal.Gen.facts) (hPre_input_domain := Cert.Pre_input_domain.Gen.facts) := fun m g hpre =>
  (θ_run (Cert.KernelIdeal.defs (F := Ideal)) _ _).mono (fun _ h c => ⟨(h c).2.1, (h c).2.2.1, (h c).2.2.2⟩)
    (Cert.Proof.KI.run_main (F := Ideal) m g (fun d j => Cert.PreFacts.labels_lt _ _ _ (hpre d) j))

/-- The reference's frame: its run, the result forgotten. -/
theorem frame_ri : Cert.frame_ReferenceIdeal (hReferenceIdeal := Cert.ReferenceIdeal.Gen.facts) (hPre_input_domain := Cert.Pre_input_domain.Gen.facts) := fun m g _ =>
  (θ_run (Cert.ReferenceIdeal.defs (F := Ideal)) _ _).mono (fun _ h c => (h c).2) (Cert.ReferenceIdeal.Value.run (F := Ideal) m g)

/-- The specification's number does not depend on which of two equal triples of arrays it is read from. -/
theorem result_congr {a0 a0' : Cert.Spec.SBC.Idx → EReal} {a1 a1' : Cert.Spec.SB.Idx → BitVec 32} {a2 a2' : Cert.Spec.SC.Idx → EReal}
    (h0 : a0' = a0) (h1 : a1' = a1) (h2 : a2' = a2) (hy : ∀ b, (a1 b).toNat < 100000) (hy' : ∀ b, (a1' b).toNat < 100000) :
    Cert.Spec.result a0' a1' a2' hy' = Cert.Spec.result a0 a1 a2 hy := by
  subst h0 h1 h2; rfl

/-- Both idealized programs end with the specification's number in their result. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  have hy : ∀ (d : Dev Cert.KernelIdeal.nD) j, (m (Cert.Proof.KI.yLoc d) j).toNat < 100000 := fun d j => Cert.PreFacts.labels_lt _ _ _ (hpre d) j
  refine ⟨fun c => Cert.Proof.KI.V4 (F := Ideal) m c Cert.Proof.KI.v4', ?_, ?_⟩
  · exact (θ_run (Cert.KernelIdeal.defs (F := Ideal)) _ _).mono (fun _ h c => h c) (Cert.Proof.KI.run_main (F := Ideal) m g hy)
  · refine (θ_run (Cert.ReferenceIdeal.defs (F := Ideal)) _ _).mono (fun _ h c => ⟨(h c).1.trans ?_, (h c).2⟩)
      (Cert.ReferenceIdeal.Value.run (F := Ideal) m' g')
    have e0 := (hagree c).1
    have e1 := (hagree c).2.1
    have e2 := (hagree c).2.2
    have hy' : ∀ b, ((m' ((c.tc : Thread Cert.ReferenceIdeal.nD Cert.ReferenceIdeal.τ).loc Cert.ReferenceIdeal.main_arg1)) b).toNat < 100000 := by
      intro b; rw [e1]; exact hy c b
    have hl := fun i => Cert.PreFacts.logits_real _ _ _ (hpre c) i
    have hc := fun k => Cert.PreFacts.counts_real _ _ _ (hpre c) k
    have hw := fun k => Cert.PreFacts.weight_pos _ _ _ (hpre c) k
    have hR := Cert.ReferenceIdeal.RefValue.result_eq m' c hy' (by intro i; rw [e0]; exact hl i) (by intro k; rw [e2]; exact hw k)
    have hK := Cert.Proof.KI.res_eq m c (hy c) hl hc hw
    exact hR.trans ((funext fun _ => result_congr e0 e1 e2 (hy c) hy').trans hK.symm)

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
